-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x32x64x64 : Shape := ⟨5, ![2, 64, 32, 64, 64]⟩
abbrev S2x1x16x32x32 : Shape := ⟨5, ![2, 1, 16, 32, 32]⟩
abbrev S_ : Shape := ⟨0, ![]⟩

class Facts : Prop where
  bcast_S_S2x64x32x64x64 : S_.BroadcastsInDim S2x64x32x64x64 (![] : Fin 0 → Fin S2x64x32x64x64.rank)
  reducesTo_S2x64x32x64x64_S_d0_1_2_3_4 : S2x64x32x64x64.ReducesTo [0, 1, 2, 3, 4] S_
  h_S_ : 0 < S_.numel
  bcast_S_S2x1x16x32x32 : S_.BroadcastsInDim S2x1x16x32x32 (![] : Fin 0 → Fin S2x1x16x32x32.rank)
  reducesTo_S2x1x16x32x32_S_d0_1_2_3_4 : S2x1x16x32x32.ReducesTo [0, 1, 2, 3, 4] S_

variable [Facts]

def fn {F : FTy → Type} [FloatOps F] (main_arg0 : FVec F S2x64x32x64x64 .f32) (main_arg1 : FVec F S2x64x32x64x64 .f32) (main_arg2 : IVec S2x1x16x32x32 32) : IVec S_ 1 :=
  let main_v0 : FVec F S2x64x32x64x64 .f32 := Host.absf main_arg0
  let main_cst : FVec F S_ .f32 := constant S_ .f32 0x7F800000#32
  let main_v1 : FVec F S2x64x32x64x64 .f32 := broadcastInDim S2x64x32x64x64 ![] bcast_S_S2x64x32x64x64 main_cst
  let main_v2 : IVec S2x64x32x64x64 1 := cmpf .olt main_v0 main_v1
  let main_c : IVec S_ 1 := constantI S_ 1 1#1
  let main_v3 : IVec S_ 1 := (fun x v => Host.reduce IntOp.andi x v reducesTo_S2x64x32x64x64_S_d0_1_2_3_4 h_S_) main_v2 main_c
  let main_v4 : FVec F S2x64x32x64x64 .f32 := Host.absf main_arg1
  let main_cst_0 : FVec F S_ .f32 := constant S_ .f32 0x7F800000#32
  let main_v5 : FVec F S2x64x32x64x64 .f32 := broadcastInDim S2x64x32x64x64 ![] bcast_S_S2x64x32x64x64 main_cst_0
  let main_v6 : IVec S2x64x32x64x64 1 := cmpf .olt main_v4 main_v5
  let main_c_1 : IVec S_ 1 := constantI S_ 1 1#1
  let main_v7 : IVec S_ 1 := (fun x v => Host.reduce IntOp.andi x v reducesTo_S2x64x32x64x64_S_d0_1_2_3_4 h_S_) main_v6 main_c_1
  let main_v8 : IVec S_ 1 := andi main_v3 main_v7
  let main_c_2 : IVec S_ 32 := constantI S_ 32 0#32
  let main_v9 : IVec S2x1x16x32x32 32 := broadcastInDim S2x1x16x32x32 ![] bcast_S_S2x1x16x32x32 main_c_2
  let main_v10 : IVec S2x1x16x32x32 1 := cmpi .sge main_arg2 main_v9
  let main_c_3 : IVec S_ 32 := constantI S_ 32 5#32
  let main_v11 : IVec S2x1x16x32x32 32 := broadcastInDim S2x1x16x32x32 ![] bcast_S_S2x1x16x32x32 main_c_3
  let main_v12 : IVec S2x1x16x32x32 1 := cmpi .slt main_arg2 main_v11
  let main_v13 : IVec S2x1x16x32x32 1 := andi main_v10 main_v12
  let main_c_4 : IVec S_ 1 := constantI S_ 1 1#1
  let main_v14 : IVec S_ 1 := (fun x v => Host.reduce IntOp.andi x v reducesTo_S2x1x16x32x32_S_d0_1_2_3_4 h_S_) main_v13 main_c_4
  let main_v15 : IVec S_ 1 := andi main_v8 main_v14
  main_v15
-- ==== Kernel.lean ====
abbrev S2x64x32x64x64 : Shape := ⟨5, ![2, 64, 32, 64, 64]⟩
abbrev S2x1x16x32x32 : Shape := ⟨5, ![2, 1, 16, 32, 32]⟩
abbrev S2x16x32x32 : Shape := ⟨4, ![2, 16, 32, 32]⟩
abbrev S32 : Shape := ⟨1, ![32]⟩
abbrev S_ : Shape := ⟨0, ![]⟩
abbrev S32x1 : Shape := ⟨2, ![32, 1]⟩
abbrev S2x32x32x32 : Shape := ⟨4, ![2, 32, 32, 32]⟩
abbrev S64 : Shape := ⟨1, ![64]⟩
abbrev S64x1 : Shape := ⟨2, ![64, 1]⟩
abbrev S2x32x64x32 : Shape := ⟨4, ![2, 32, 64, 32]⟩
abbrev S2x32x64x64 : Shape := ⟨4, ![2, 32, 64, 64]⟩
abbrev S2x131072 : Shape := ⟨2, ![2, 131072]⟩
abbrev S2x64x131072 : Shape := ⟨3, ![2, 64, 131072]⟩
abbrev S2x1x131072 : Shape := ⟨3, ![2, 1, 131072]⟩
abbrev S2x64x5 : Shape := ⟨3, ![2, 64, 5]⟩
abbrev S1x64x16384 : Shape := ⟨3, ![1, 64, 16384]⟩
abbrev S1x1x16384 : Shape := ⟨3, ![1, 1, 16384]⟩
abbrev S1x64x5 : Shape := ⟨3, ![1, 64, 5]⟩
abbrev S64x5 : Shape := ⟨2, ![64, 5]⟩
abbrev S1x16384 : Shape := ⟨2, ![1, 16384]⟩
abbrev S5x16384 : Shape := ⟨2, ![5, 16384]⟩
abbrev S64x16384 : Shape := ⟨2, ![64, 16384]⟩
abbrev S2x131072x1 : Shape := ⟨3, ![2, 131072, 1]⟩
abbrev S1x1x5 : Shape := ⟨3, ![1, 1, 5]⟩
abbrev S2x131072x5 : Shape := ⟨3, ![2, 131072, 5]⟩
abbrev S2x5 : Shape := ⟨2, ![2, 5]⟩
abbrev S2x1x5 : Shape := ⟨3, ![2, 1, 5]⟩
abbrev S2x5x1 : Shape := ⟨3, ![2, 5, 1]⟩
abbrev S2x5x64 : Shape := ⟨3, ![2, 5, 64]⟩
abbrev S2x1x1 : Shape := ⟨3, ![2, 1, 1]⟩
abbrev S1x5x64 : Shape := ⟨3, ![1, 5, 64]⟩
abbrev S1x5x1 : Shape := ⟨3, ![1, 5, 1]⟩
abbrev S1x1x1 : Shape := ⟨3, ![1, 1, 1]⟩
abbrev S1x1 : Shape := ⟨2, ![1, 1]⟩
abbrev S5x64 : Shape := ⟨2, ![5, 64]⟩
abbrev S5x1 : Shape := ⟨2, ![5, 1]⟩
abbrev S16384 : Shape := ⟨1, ![16384]⟩
abbrev S1 : Shape := ⟨1, ![1]⟩

abbrev nBuf : Space → Nat
  | .hbm => 142
  | .vmem => 25
  | .smem => 0
  | _ => 0

abbrev hbmTy0_0 (i : Nat) : BufTy := match i % 128 with
  | 0 => ⟨S2x64x32x64x64, .f32⟩
  | 1 => ⟨S2x64x32x64x64, .f32⟩
  | 2 => ⟨S2x1x16x32x32, .i32⟩
  | 3 => ⟨S2x16x32x32, .i32⟩
  | 4 => ⟨S32, .i32⟩
  | 5 => ⟨S_, .i32⟩
  | 6 => ⟨S32, .i32⟩
  | 7 => ⟨S32, .i32⟩
  | 8 => ⟨S_, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i1⟩
  | 16 => ⟨S32, .i32⟩
  | 17 => ⟨S32, .i32⟩
  | 18 => ⟨S_, .i32⟩
  | 19 => ⟨S32, .i32⟩
  | 20 => ⟨S32, .i1⟩
  | 21 => ⟨S32, .i1⟩
  | 22 => ⟨S_, .i32⟩
  | 23 => ⟨S32, .i32⟩
  | 24 => ⟨S32, .i32⟩
  | 25 => ⟨S32, .i32⟩
  | 26 => ⟨S_, .i32⟩
  | 27 => ⟨S32, .i32⟩
  | 28 => ⟨S32, .i1⟩
  | 29 => ⟨S_, .i32⟩
  | 30 => ⟨S32, .i32⟩
  | 31 => ⟨S32, .i32⟩
  | 32 => ⟨S32, .i32⟩
  | 33 => ⟨S32x1, .i32⟩
  | 34 => ⟨S2x32x32x32, .i32⟩
  | 35 => ⟨S64, .i32⟩
  | 36 => ⟨S_, .i32⟩
  | 37 => ⟨S64, .i32⟩
  | 38 => ⟨S64, .i32⟩
  | 39 => ⟨S_, .i32⟩
  | 40 => ⟨S_, .i32⟩
  | 41 => ⟨S64, .i32⟩
  | 42 => ⟨S64, .i32⟩
  | 43 => ⟨S64, .i32⟩
  | 44 => ⟨S_, .i32⟩
  | 45 => ⟨S64, .i32⟩
  | 46 => ⟨S64, .i1⟩
  | 47 => ⟨S64, .i32⟩
  | 48 => ⟨S64, .i32⟩
  | 49 => ⟨S_, .i32⟩
  | 50 => ⟨S64, .i32⟩
  | 51 => ⟨S64, .i1⟩
  | 52 => ⟨S64, .i1⟩
  | 53 => ⟨S_, .i32⟩
  | 54 => ⟨S64, .i32⟩
  | 55 => ⟨S64, .i32⟩
  | 56 => ⟨S64, .i32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S2x32x64x32, .i32⟩
  | 66 => ⟨S64, .i32⟩
  | 67 => ⟨S_, .i32⟩
  | 68 => ⟨S64, .i32⟩
  | 69 => ⟨S64, .i32⟩
  | 70 => ⟨S_, .i32⟩
  | 71 => ⟨S_, .i32⟩
  | 72 => ⟨S64, .i32⟩
  | 73 => ⟨S64, .i32⟩
  | 74 => ⟨S64, .i32⟩
  | 75 => ⟨S_, .i32⟩
  | 76 => ⟨S64, .i32⟩
  | 77 => ⟨S64, .i1⟩
  | 78 => ⟨S64, .i32⟩
  | 79 => ⟨S64, .i32⟩
  | 80 => ⟨S_, .i32⟩
  | 81 => ⟨S64, .i32⟩
  | 82 => ⟨S64, .i1⟩
  | 83 => ⟨S64, .i1⟩
  | 84 => ⟨S_, .i32⟩
  | 85 => ⟨S64, .i32⟩
  | 86 => ⟨S64, .i32⟩
  | 87 => ⟨S64, .i32⟩
  | 88 => ⟨S_, .i32⟩
  | 89 => ⟨S64, .i32⟩
  | 90 => ⟨S64, .i1⟩
  | 91 => ⟨S_, .i32⟩
  | 92 => ⟨S64, .i32⟩
  | 93 => ⟨S64, .i32⟩
  | 94 => ⟨S64, .i32⟩
  | 95 => ⟨S64x1, .i32⟩
  | 96 => ⟨S2x32x64x64, .i32⟩
  | 97 => ⟨S2x131072, .i32⟩
  | 98 => ⟨S2x64x131072, .f32⟩
  | 99 => ⟨S2x64x131072, .f32⟩
  | 100 => ⟨S2x1x131072, .i32⟩
  | 101 => ⟨S2x64x5, .f32⟩
  | 102 => ⟨S2x64x5, .f32⟩
  | 103 => ⟨S2x131072x1, .i32⟩
  | 104 => ⟨S1x1x5, .i32⟩
  | 105 => ⟨S2x131072x5, .i32⟩
  | 106 => ⟨S2x131072x5, .i32⟩
  | 107 => ⟨S2x131072x5, .i1⟩
  | 108 => ⟨S2x131072x5, .f32⟩
  | 109 => ⟨S_, .f32⟩
  | 110 => ⟨S2x5, .f32⟩
  | 111 => ⟨S2x1x5, .f32⟩
  | 112 => ⟨S_, .f32⟩
  | 113 => ⟨S2x1x5, .f32⟩
  | 114 => ⟨S2x1x5, .f32⟩
  | 115 => ⟨S2x64x5, .f32⟩
  | 116 => ⟨S2x64x5, .f32⟩
  | 117 => ⟨S2x1x5, .f32⟩
  | 118 => ⟨S_, .f32⟩
  | 119 => ⟨S2x1x5, .f32⟩
  | 120 => ⟨S2x1x5, .f32⟩
  | 121 => ⟨S2x64x5, .f32⟩
  | 122 => ⟨S2x64x5, .f32⟩
  | 123 => ⟨S2x64x5, .f32⟩
  | 124 => ⟨S_, .f32⟩
  | 125 => ⟨S2x5, .f32⟩
  | 126 => ⟨S2x5, .f32⟩
  | 127 => ⟨S2x5x1, .f32⟩
  | _ => ⟨S2x64x32x64x64, .f32⟩

abbrev hbmTy0_1 (i : Nat) : BufTy := match i % 128 with
  | 0 => ⟨S2x64x5, .f32⟩
  | 1 => ⟨S_, .f32⟩
  | 2 => ⟨S2x5, .f32⟩
  | 3 => ⟨S2x5, .f32⟩
  | 4 => ⟨S2x5x1, .f32⟩
  | 5 => ⟨S2x5x64, .f32⟩
  | 6 => ⟨S2x5x64, .f32⟩
  | 7 => ⟨S2x1x1, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S2x64x32x64x64, .f32⟩

abbrev hbmTy (i : Nat) : BufTy := match i / 128 with
  | 0 => hbmTy0_0 i
  | 1 => hbmTy0_1 i
  | _ => ⟨S2x64x32x64x64, .f32⟩

abbrev bufTy : (tb : Table) → Fin (tcTables nBuf tb) → BufTy
  | .hbm, ⟨i, _⟩ => hbmTy i
  | .local _ .vmem, ⟨0, _⟩ => ⟨S1x64x16384, .f32⟩
  | .local _ .vmem, ⟨1, _⟩ => ⟨S1x64x16384, .f32⟩
  | .local _ .vmem, ⟨2, _⟩ => ⟨S1x64x16384, .f32⟩
  | .local _ .vmem, ⟨3, _⟩ => ⟨S1x64x16384, .f32⟩
  | .local _ .vmem, ⟨4, _⟩ => ⟨S1x1x16384, .i32⟩
  | .local _ .vmem, ⟨5, _⟩ => ⟨S1x1x16384, .i32⟩
  | .local _ .vmem, ⟨6, _⟩ => ⟨S1x64x5, .f32⟩
  | .local _ .vmem, ⟨7, _⟩ => ⟨S1x64x5, .f32⟩
  | .local _ .vmem, ⟨8, _⟩ => ⟨S1x64x5, .f32⟩
  | .local _ .vmem, ⟨9, _⟩ => ⟨S1x64x5, .f32⟩
  | .local _ .vmem, ⟨10, _⟩ => ⟨S64x5, .f32⟩
  | .local _ .vmem, ⟨11, _⟩ => ⟨S64x5, .f32⟩
  | .local _ .vmem, ⟨12, _⟩ => ⟨S1x64x16384, .f32⟩
  | .local _ .vmem, ⟨13, _⟩ => ⟨S1x64x16384, .f32⟩
  | .local _ .vmem, ⟨14, _⟩ => ⟨S1x64x16384, .f32⟩
  | .local _ .vmem, ⟨15, _⟩ => ⟨S1x64x16384, .f32⟩
  | .local _ .vmem, ⟨16, _⟩ => ⟨S1x1x16384, .i32⟩
  | .local _ .vmem, ⟨17, _⟩ => ⟨S1x1x16384, .i32⟩
  | .local _ .vmem, ⟨18, _⟩ => ⟨S1x5x64, .f32⟩
  | .local _ .vmem, ⟨19, _⟩ => ⟨S1x5x64, .f32⟩
  | .local _ .vmem, ⟨20, _⟩ => ⟨S1x5x1, .f32⟩
  | .local _ .vmem, ⟨21, _⟩ => ⟨S1x5x1, .f32⟩
  | .local _ .vmem, ⟨22, _⟩ => ⟨S1x1x1, .f32⟩
  | .local _ .vmem, ⟨23, _⟩ => ⟨S1x1x1, .f32⟩
  | .local _ .vmem, ⟨24, _⟩ => ⟨S1x1, .f32⟩
  | _, _ => ⟨S2x64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_c_5 : Ref sig .tc := ⟨.hbm, 57, rfl⟩
abbrev main_v16 : Ref sig .tc := ⟨.hbm, 58, rfl⟩
abbrev main_v17 : Ref sig .tc := ⟨.hbm, 59, rfl⟩
abbrev main_c_6 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c_7 : Ref sig .tc := ⟨.hbm, 67, rfl⟩
abbrev main_v24 : Ref sig .tc := ⟨.hbm, 68, rfl⟩
abbrev main_v25 : Ref sig .tc := ⟨.hbm, 69, rfl⟩
abbrev main_c_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v26 : Ref sig .tc := ⟨.hbm, 87, rfl⟩
abbrev main_c_9 : Ref sig .tc := ⟨.hbm, 88, rfl⟩
abbrev main_v27 : Ref sig .tc := ⟨.hbm, 89, rfl⟩
abbrev main_v28 : Ref sig .tc := ⟨.hbm, 90, rfl⟩
abbrev main_c_10 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38_0 : Ref sig .tc := ⟨.hbm, 101, rfl⟩
abbrev main_v38_1 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v39 : Ref sig .tc := ⟨.hbm, 108, rfl⟩
abbrev main_cst : Ref sig .tc := ⟨.hbm, 109, rfl⟩
abbrev main_v40 : Ref sig .tc := ⟨.hbm, 110, rfl⟩
abbrev main_v41 : Ref sig .tc := ⟨.hbm, 111, rfl⟩
abbrev main_cst_11 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst_12 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_13 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_14 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_cst_15 : Ref sig .tc := ⟨.hbm, 136, rfl⟩
abbrev main_v62 : Ref sig .tc := ⟨.hbm, 137, rfl⟩
abbrev main_cst_16 : Ref sig .tc := ⟨.hbm, 138, rfl⟩
abbrev main_v63 : Ref sig .tc := ⟨.hbm, 139, rfl⟩
abbrev main_cst_17 : Ref sig .tc := ⟨.hbm, 140, rfl⟩
abbrev main_v64 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_35 : BitVec 32 := 0#32
  let v69 : BitVec 1 := Scalar.cmpi .ne v68 c0_i32_35
  v69

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x16384 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x5x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x5x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x5x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x5x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S2x1x16x32x32_S2x16x32x32 : S2x1x16x32x32.ShapeCasts S2x16x32x32
  bcast_S_S32 : S_.BroadcastsInDim S32 (![] : Fin 0 → Fin S32.rank)
  bcast_S32_S32x1_0 : S32.BroadcastsInDim S32x1 (![0] : Fin 1 → Fin S32x1.rank)
  bcast_S_S64 : S_.BroadcastsInDim S64 (![] : Fin 0 → Fin S64.rank)
  bcast_S64_S64x1_0 : S64.BroadcastsInDim S64x1 (![0] : Fin 1 → Fin S64x1.rank)
  shapeCasts_S2x32x64x64_S2x131072 : S2x32x64x64.ShapeCasts S2x131072
  shapeCasts_S2x64x32x64x64_S2x64x131072 : S2x64x32x64x64.ShapeCasts S2x64x131072
  shapeCasts_S2x131072_S2x1x131072 : S2x131072.ShapeCasts S2x1x131072
  inb_S64x5_S64x5_0_0 : ∀ a, (![0, 0] : Fin 2 → Nat) a + S64x5.size a ≤ S64x5.size a
  h_S64x5 : 0 < S64x5.numel
  shapeCasts_S64x5_S64x5 : S64x5.ShapeCasts S64x5
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  iota_S5x16384_d0_w32 : S5x16384.Iotas .tc 32 [0]
  broadcasts_S1x16384_S5x16384 : S1x16384.Broadcasts S5x16384
  natLt_1_32 : 1 < 32
  bitsLt_bf16_f32 : FTy.bits .bf16 < FTy.bits .f32
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x64x5_S1x64x5_0_0_0 : ∀ a, (![0, 0, 0] : Fin 3 → Nat) a + S1x64x5.size a ≤ S1x64x5.size a
  h_S1x64x5 : 0 < S1x64x5.numel
  shapeCasts_S1x64x5_S64x5 : S1x64x5.ShapeCasts S64x5
  shapeCasts_S64x5_S1x64x5 : S64x5.ShapeCasts S1x64x5
  bcast_S2x131072_S2x131072x1_0_1 : S2x131072.BroadcastsInDim S2x131072x1 (![0, 1] : Fin 2 → Fin S2x131072x1.rank)
  bcast_S2x131072x1_S2x131072x5_0_1_2 : S2x131072x1.BroadcastsInDim S2x131072x5 (![0, 1, 2] : Fin 3 → Fin S2x131072x5.rank)
  bcast_S1x1x5_S2x131072x5_0_1_2 : S1x1x5.BroadcastsInDim S2x131072x5 (![0, 1, 2] : Fin 3 → Fin S2x131072x5.rank)
  reducesTo_S2x131072x5_S2x5_d1 : S2x131072x5.ReducesTo [1] S2x5
  h_S_ : 0 < S_.numel
  bcast_S2x5_S2x1x5_0_2 : S2x5.BroadcastsInDim S2x1x5 (![0, 2] : Fin 2 → Fin S2x1x5.rank)
  bcast_S_S2x1x5 : S_.BroadcastsInDim S2x1x5 (![] : Fin 0 → Fin S2x1x5.rank)
  bcast_S2x1x5_S2x64x5_0_1_2 : S2x1x5.BroadcastsInDim S2x64x5 (![0, 1, 2] : Fin 3 → Fin S2x64x5.rank)
  reducesTo_S2x64x5_S2x5_d1 : S2x64x5.ReducesTo [1] S2x5
  bcast_S2x5_S2x5x1_0_1 : S2x5.BroadcastsInDim S2x5x1 (![0, 1] : Fin 2 → Fin S2x5x1.rank)
  transposes_S2x64x5_S2x5x64_0_2_1 : S2x64x5.Transposes [0, 2, 1] S2x5x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x5x64_S1x5x64_0_0_0 : ∀ a, (![0, 0, 0] : Fin 3 → Nat) a + S1x5x64.size a ≤ S1x5x64.size a
  h_S1x5x64 : 0 < S1x5x64.numel
  shapeCasts_S1x5x64_S5x64 : S1x5x64.ShapeCasts S5x64
  inb_S1x5x1_S1x5x1_0_0_0 : ∀ a, (![0, 0, 0] : Fin 3 → Nat) a + S1x5x1.size a ≤ S1x5x1.size a
  h_S1x5x1 : 0 < S1x5x1.numel
  shapeCasts_S1x5x1_S5x1 : S1x5x1.ShapeCasts S5x1
  reduces_S5x16384_S16384 : S5x16384.Reduces [0] S16384
  shapeCasts_S16384_S1x16384 : S16384.ShapeCasts S1x16384
  broadcasts_S5x1_S5x16384 : S5x1.Broadcasts S5x16384
  reduces_S64x16384_S16384 : S64x16384.Reduces [0] S16384
  reduces_S1x16384_S1 : S1x16384.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  gather_S2x16x32x32_S32x1_S2x32x32x32_023_1_n_n_1_1_213232_wf : GatherDims.WF S2x16x32x32 S32x1 S2x32x32x32 [0, 2, 3] [1] [] [1] [] 1 ![2, 1, 32, 32]
  gather_S2x32x32x32_S64x1_S2x32x64x32_013_2_n_n_2_1_232132_wf : GatherDims.WF S2x32x32x32 S64x1 S2x32x64x32 [0, 1, 3] [2] [] [2] [] 1 ![2, 32, 1, 32]
  gather_S2x32x64x32_S64x1_S2x32x64x64_012_3_n_n_3_1_232641_wf : GatherDims.WF S2x32x64x32 S64x1 S2x32x64x64 [0, 1, 2] [3] [] [3] [] 1 ![2, 32, 64, 1]
  dot_S64x16384_S5x16384_S64x5_1_1_0_0_n_n_wf : DotDims.WF S64x16384 S5x16384 S64x5 [1] [1] [0] [0] [] []
  dot_S5x64_S64x16384_S5x16384_1_0_0_1_n_n_wf : DotDims.WF S5x64 S64x16384 S5x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S2x64x131072.size a
  hwx0_0 : ∀ i : grid0.Coords, EltTy.bits .f32 = 32 ∨ (Rect.block (s := S2x64x131072) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16384.size a ≤ S2x64x131072.size a
  hwx0_1 : ∀ i : grid0.Coords, EltTy.bits .f32 = 32 ∨ (Rect.block (s := S2x64x131072) S1x64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16384.size a ≤ S2x1x131072.size a
  hwx0_2 : ∀ i : grid0.Coords, EltTy.bits .i32 = 32 ∨ (Rect.block (s := S2x1x131072) S1x1x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x5.size a ≤ S2x64x5.size a
  hwx0_3 : ∀ i : grid0.Coords, EltTy.bits .f32 = 32 ∨ (Rect.block (s := S2x64x5) S1x64x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x5.size a ≤ S2x64x5.size a
  hwx0_4 : ∀ i : grid0.Coords, EltTy.bits .f32 = 32 ∨ (Rect.block (s := S2x64x5) S1x64x5.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x16384.size a ≤ S2x64x131072.size a
  hwx1_0 : ∀ i : grid1.Coords, EltTy.bits .f32 = 32 ∨ (Rect.block (s := S2x64x131072) S1x64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x16384.size a ≤ S2x64x131072.size a
  hwx1_1 : ∀ i : grid1.Coords, EltTy.bits .f32 = 32 ∨ (Rect.block (s := S2x64x131072) S1x64x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16384.size a ≤ S2x1x131072.size a
  hwx1_2 : ∀ i : grid1.Coords, EltTy.bits .i32 = 32 ∨ (Rect.block (s := S2x1x131072) S1x1x16384.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5x64.size a ≤ S2x5x64.size a
  hwx1_3 : ∀ i : grid1.Coords, EltTy.bits .f32 = 32 ∨ (Rect.block (s := S2x5x64) S1x5x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5x64.size a ≤ S2x5x64.size a
  hwx1_4 : ∀ i : grid1.Coords, EltTy.bits .f32 = 32 ∨ (Rect.block (s := S2x5x64) S1x5x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x5x1.size a ≤ S2x5x1.size a
  hwx1_5 : ∀ i : grid1.Coords, EltTy.bits .f32 = 32 ∨ (Rect.block (s := S2x5x1) S1x5x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x5x1.size a ≤ S2x5x1.size a
  hwx1_6 : ∀ i : grid1.Coords, EltTy.bits .f32 = 32 ∨ (Rect.block (s := S2x5x1) S1x5x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1.size a ≤ S2x1x1.size a
  hwx1_7 : ∀ i : grid1.Coords, EltTy.bits .f32 = 32 ∨ (Rect.block (s := S2x1x1) S1x1x1.size (cc1_transform_7 i) (hinb1_7 i)).WholeWords (EltTy.packing .f32)

variable [Facts₀]

def gather_S2x16x32x32_S32x1_S2x32x32x32_023_1_n_n_1_1_213232 : GatherDims S2x16x32x32 S32x1 S2x32x32x32 where
  offsetDims := [0, 2, 3]
  collapsedSliceDims := [1]
  operandBatchingDims := []
  startIndicesBatchingDims := []
  startIndexMap := [1]
  indexVectorDim := 1
  sliceSizes := ![2, 1, 32, 32]
  wf := gather_S2x16x32x32_S32x1_S2x32x32x32_023_1_n_n_1_1_213232_wf
def gather_S2x32x32x32_S64x1_S2x32x64x32_013_2_n_n_2_1_232132 : GatherDims S2x32x32x32 S64x1 S2x32x64x32 where
  offsetDims := [0, 1, 3]
  collapsedSliceDims := [2]
  operandBatchingDims := []
  startIndicesBatchingDims := []
  startIndexMap := [2]
  indexVectorDim := 1
  sliceSizes := ![2, 32, 1, 32]
  wf := gather_S2x32x32x32_S64x1_S2x32x64x32_013_2_n_n_2_1_232132_wf
def gather_S2x32x64x32_S64x1_S2x32x64x64_012_3_n_n_3_1_232641 : GatherDims S2x32x64x32 S64x1 S2x32x64x64 where
  offsetDims := [0, 1, 2]
  collapsedSliceDims := [3]
  operandBatchingDims := []
  startIndicesBatchingDims := []
  startIndexMap := [3]
  indexVectorDim := 1
  sliceSizes := ![2, 32, 64, 1]
  wf := gather_S2x32x64x32_S64x1_S2x32x64x64_012_3_n_n_3_1_232641_wf
def dot_S64x16384_S5x16384_S64x5_1_1_0_0_n_n : DotDims S64x16384 S5x16384 S64x5 where
  lhsContracting := [1]
  rhsContracting := [1]
  lhsNonContracting := [0]
  rhsNonContracting := [0]
  lhsBatch := []
  rhsBatch := []
  wf := dot_S64x16384_S5x16384_S64x5_1_1_0_0_n_n_wf
def dot_S5x64_S64x16384_S5x16384_1_0_0_1_n_n : DotDims S5x64 S64x16384 S5x16384 where
  lhsContracting := [1]
  rhsContracting := [0]
  lhsNonContracting := [0]
  rhsNonContracting := [1]
  lhsBatch := []
  rhsBatch := []
  wf := dot_S5x64_S64x16384_S5x16384_1_0_0_1_n_n_wf

abbrev win0_0 : Pipeline.Window sig grid0 :=
  Pipeline.Window.ofSpec (Memref.whole main_v35) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38_0) S1x64x5.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38_1) S1x64x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v35) S1x64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x1x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x5x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x5x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x5x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x5x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1x1x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S2x64x32x64x64 : Shape := ⟨5, ![2, 64, 32, 64, 64]⟩
abbrev S2x1x16x32x32 : Shape := ⟨5, ![2, 1, 16, 32, 32]⟩
abbrev S2x16x32x32 : Shape := ⟨4, ![2, 16, 32, 32]⟩
abbrev S32 : Shape := ⟨1, ![32]⟩
abbrev S_ : Shape := ⟨0, ![]⟩
abbrev S32x1 : Shape := ⟨2, ![32, 1]⟩
abbrev S2x32x32x32 : Shape := ⟨4, ![2, 32, 32, 32]⟩
abbrev S64 : Shape := ⟨1, ![64]⟩
abbrev S64x1 : Shape := ⟨2, ![64, 1]⟩
abbrev S2x32x64x32 : Shape := ⟨4, ![2, 32, 64, 32]⟩
abbrev S2x32x64x64 : Shape := ⟨4, ![2, 32, 64, 64]⟩
abbrev S2x131072 : Shape := ⟨2, ![2, 131072]⟩
abbrev S2x131072x1 : Shape := ⟨3, ![2, 131072, 1]⟩
abbrev S1x1x5 : Shape := ⟨3, ![1, 1, 5]⟩
abbrev S2x131072x5 : Shape := ⟨3, ![2, 131072, 5]⟩
abbrev S2x5 : Shape := ⟨2, ![2, 5]⟩
abbrev S2x64x131072 : Shape := ⟨3, ![2, 64, 131072]⟩
abbrev S2x64x5 : Shape := ⟨3, ![2, 64, 5]⟩
abbrev S2x1x5 : Shape := ⟨3, ![2, 1, 5]⟩
abbrev S2x1x131072 : Shape := ⟨3, ![2, 1, 131072]⟩
abbrev S1 : Shape := ⟨1, ![1]⟩
abbrev S1x1x1 : Shape := ⟨3, ![1, 1, 1]⟩

abbrev nBuf : Space → Nat
  | .hbm => 210
  | .vmem => 0
  | .smem => 0
  | _ => 0

abbrev hbmTy0_0 (i : Nat) : BufTy := match i % 128 with
  | 0 => ⟨S2x64x32x64x64, .f32⟩
  | 1 => ⟨S2x64x32x64x64, .f32⟩
  | 2 => ⟨S2x1x16x32x32, .i32⟩
  | 3 => ⟨S2x16x32x32, .i32⟩
  | 4 => ⟨S32, .i32⟩
  | 5 => ⟨S_, .i32⟩
  | 6 => ⟨S32, .i32⟩
  | 7 => ⟨S32, .i32⟩
  | 8 => ⟨S_, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i1⟩
  | 16 => ⟨S32, .i32⟩
  | 17 => ⟨S32, .i32⟩
  | 18 => ⟨S_, .i32⟩
  | 19 => ⟨S32, .i32⟩
  | 20 => ⟨S32, .i1⟩
  | 21 => ⟨S32, .i1⟩
  | 22 => ⟨S_, .i32⟩
  | 23 => ⟨S32, .i32⟩
  | 24 => ⟨S32, .i32⟩
  | 25 => ⟨S32, .i32⟩
  | 26 => ⟨S_, .i32⟩
  | 27 => ⟨S32, .i32⟩
  | 28 => ⟨S32, .i1⟩
  | 29 => ⟨S_, .i32⟩
  | 30 => ⟨S32, .i32⟩
  | 31 => ⟨S32, .i32⟩
  | 32 => ⟨S32, .i32⟩
  | 33 => ⟨S32x1, .i32⟩
  | 34 => ⟨S2x32x32x32, .i32⟩
  | 35 => ⟨S64, .i32⟩
  | 36 => ⟨S_, .i32⟩
  | 37 => ⟨S64, .i32⟩
  | 38 => ⟨S64, .i32⟩
  | 39 => ⟨S_, .i32⟩
  | 40 => ⟨S_, .i32⟩
  | 41 => ⟨S64, .i32⟩
  | 42 => ⟨S64, .i32⟩
  | 43 => ⟨S64, .i32⟩
  | 44 => ⟨S_, .i32⟩
  | 45 => ⟨S64, .i32⟩
  | 46 => ⟨S64, .i1⟩
  | 47 => ⟨S64, .i32⟩
  | 48 => ⟨S64, .i32⟩
  | 49 => ⟨S_, .i32⟩
  | 50 => ⟨S64, .i32⟩
  | 51 => ⟨S64, .i1⟩
  | 52 => ⟨S64, .i1⟩
  | 53 => ⟨S_, .i32⟩
  | 54 => ⟨S64, .i32⟩
  | 55 => ⟨S64, .i32⟩
  | 56 => ⟨S64, .i32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S2x32x64x32, .i32⟩
  | 66 => ⟨S64, .i32⟩
  | 67 => ⟨S_, .i32⟩
  | 68 => ⟨S64, .i32⟩
  | 69 => ⟨S64, .i32⟩
  | 70 => ⟨S_, .i32⟩
  | 71 => ⟨S_, .i32⟩
  | 72 => ⟨S64, .i32⟩
  | 73 => ⟨S64, .i32⟩
  | 74 => ⟨S64, .i32⟩
  | 75 => ⟨S_, .i32⟩
  | 76 => ⟨S64, .i32⟩
  | 77 => ⟨S64, .i1⟩
  | 78 => ⟨S64, .i32⟩
  | 79 => ⟨S64, .i32⟩
  | 80 => ⟨S_, .i32⟩
  | 81 => ⟨S64, .i32⟩
  | 82 => ⟨S64, .i1⟩
  | 83 => ⟨S64, .i1⟩
  | 84 => ⟨S_, .i32⟩
  | 85 => ⟨S64, .i32⟩
  | 86 => ⟨S64, .i32⟩
  | 87 => ⟨S64, .i32⟩
  | 88 => ⟨S_, .i32⟩
  | 89 => ⟨S64, .i32⟩
  | 90 => ⟨S64, .i1⟩
  | 91 => ⟨S_, .i32⟩
  | 92 => ⟨S64, .i32⟩
  | 93 => ⟨S64, .i32⟩
  | 94 => ⟨S64, .i32⟩
  | 95 => ⟨S64x1, .i32⟩
  | 96 => ⟨S2x32x64x64, .i32⟩
  | 97 => ⟨S2x131072, .i32⟩
  | 98 => ⟨S2x131072x1, .i32⟩
  | 99 => ⟨S1x1x5, .i32⟩
  | 100 => ⟨S2x131072x5, .i32⟩
  | 101 => ⟨S2x131072x5, .i32⟩
  | 102 => ⟨S2x131072x5, .i1⟩
  | 103 => ⟨S2x131072x5, .f32⟩
  | 104 => ⟨S_, .f32⟩
  | 105 => ⟨S2x5, .f32⟩
  | 106 => ⟨S2x64x131072, .f32⟩
  | 107 => ⟨S2x64x131072, .f32⟩
  | 108 => ⟨S2x64x5, .f32⟩
  | 109 => ⟨S2x1x5, .f32⟩
  | 110 => ⟨S_, .f32⟩
  | 111 => ⟨S2x1x5, .f32⟩
  | 112 => ⟨S2x1x5, .f32⟩
  | 113 => ⟨S2x64x5, .f32⟩
  | 114 => ⟨S2x64x5, .f32⟩
  | 115 => ⟨S2x1x131072, .i32⟩
  | 116 => ⟨S_, .i32⟩
  | 117 => ⟨S2x1x131072, .i32⟩
  | 118 => ⟨S2x1x131072, .i1⟩
  | 119 => ⟨S_, .i32⟩
  | 120 => ⟨S2x1x131072, .i32⟩
  | 121 => ⟨S2x1x131072, .i32⟩
  | 122 => ⟨S2x1x131072, .i32⟩
  | 123 => ⟨S2x131072x1, .i32⟩
  | 124 => ⟨S1, .i32⟩
  | 125 => ⟨S_, .i32⟩
  | 126 => ⟨S2x131072x1, .i32⟩
  | 127 => ⟨S2x131072x1, .i1⟩
  | _ => ⟨S2x64x32x64x64, .f32⟩

abbrev hbmTy0_1 (i : Nat) : BufTy := match i % 128 with
  | 0 => ⟨S1x1x1, .i32⟩
  | 1 => ⟨S2x131072x1, .i32⟩
  | 2 => ⟨S2x131072x1, .i1⟩
  | 3 => ⟨S2x131072x1, .i1⟩
  | 4 => ⟨S_, .i1⟩
  | 5 => ⟨S2x131072, .i1⟩
  | 6 => ⟨S2x64x131072, .f32⟩
  | 7 => ⟨S2x64x131072, .i1⟩
  | 8 => ⟨S_, .f32⟩
  | 9 => ⟨S2x64x131072, .f32⟩
  | 10 => ⟨S2x64x131072, .f32⟩
  | 11 => ⟨S2x64x5, .f32⟩
  | 12 => ⟨S2x1x5, .f32⟩
  | 13 => ⟨S_, .f32⟩
  | 14 => ⟨S2x1x5, .f32⟩
  | 15 => ⟨S2x1x5, .f32⟩
  | 16 => ⟨S2x64x5, .f32⟩
  | 17 => ⟨S2x64x5, .f32⟩
  | 18 => ⟨S2x1x131072, .i32⟩
  | 19 => ⟨S_, .i32⟩
  | 20 => ⟨S2x1x131072, .i32⟩
  | 21 => ⟨S2x1x131072, .i1⟩
  | 22 => ⟨S_, .i32⟩
  | 23 => ⟨S2x1x131072, .i32⟩
  | 24 => ⟨S2x1x131072, .i32⟩
  | 25 => ⟨S2x1x131072, .i32⟩
  | 26 => ⟨S2x131072x1, .i32⟩
  | 27 => ⟨S1, .i32⟩
  | 28 => ⟨S_, .i32⟩
  | 29 => ⟨S2x131072x1, .i32⟩
  | 30 => ⟨S2x131072x1, .i1⟩
  | 31 => ⟨S1x1x1, .i32⟩
  | 32 => ⟨S2x131072x1, .i32⟩
  | 33 => ⟨S2x131072x1, .i1⟩
  | 34 => ⟨S2x131072x1, .i1⟩
  | 35 => ⟨S_, .i1⟩
  | 36 => ⟨S2x131072, .i1⟩
  | 37 => ⟨S2x64x131072, .f32⟩
  | 38 => ⟨S2x64x131072, .i1⟩
  | 39 => ⟨S_, .f32⟩
  | 40 => ⟨S2x64x131072, .f32⟩
  | 41 => ⟨S2x64x131072, .f32⟩
  | 42 => ⟨S2x64x131072, .f32⟩
  | 43 => ⟨S_, .f32⟩
  | 44 => ⟨S2x131072, .f32⟩
  | 45 => ⟨S2x64x131072, .f32⟩
  | 46 => ⟨S_, .f32⟩
  | 47 => ⟨S2x131072, .f32⟩
  | 48 => ⟨S2x131072, .f32⟩
  | 49 => ⟨S2x64x131072, .f32⟩
  | 50 => ⟨S_, .f32⟩
  | 51 => ⟨S2x131072, .f32⟩
  | 52 => ⟨S2x131072, .f32⟩
  | 53 => ⟨S2x131072, .f32⟩
  | 54 => ⟨S_, .f32⟩
  | 55 => ⟨S2x131072, .f32⟩
  | 56 => ⟨S2x131072, .f32⟩
  | 57 => ⟨S2x131072, .f32⟩
  | 58 => ⟨S2x64x131072, .f32⟩
  | 59 => ⟨S_, .f32⟩
  | 60 => ⟨S2x131072, .f32⟩
  | 61 => ⟨S2x64x131072, .f32⟩
  | 62 => ⟨S_, .f32⟩
  | 63 => ⟨S2x131072, .f32⟩
  | 64 => ⟨S2x131072, .f32⟩
  | 65 => ⟨S2x64x131072, .f32⟩
  | 66 => ⟨S_, .f32⟩
  | 67 => ⟨S2x131072, .f32⟩
  | 68 => ⟨S2x131072, .f32⟩
  | 69 => ⟨S2x131072, .f32⟩
  | 70 => ⟨S_, .f32⟩
  | 71 => ⟨S2x131072, .f32⟩
  | 72 => ⟨S2x131072, .f32⟩
  | 73 => ⟨S2x131072, .f32⟩
  | 74 => ⟨S2x131072, .f32⟩
  | 75 => ⟨S2x131072, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S2x64x32x64x64, .f32⟩

abbrev hbmTy (i : Nat) : BufTy := match i / 128 with
  | 0 => hbmTy0_0 i
  | 1 => hbmTy0_1 i
  | _ => ⟨S2x64x32x64x64, .f32⟩

abbrev bufTy : (tb : Table) → Fin (tcTables nBuf tb) → BufTy
  | .hbm, ⟨i, _⟩ => hbmTy i
  | _, _ => ⟨S2x64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_c_5 : Ref sig .tc := ⟨.hbm, 57, rfl⟩
abbrev main_v16 : Ref sig .tc := ⟨.hbm, 58, rfl⟩
abbrev main_v17 : Ref sig .tc := ⟨.hbm, 59, rfl⟩
abbrev main_c_6 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c_7 : Ref sig .tc := ⟨.hbm, 67, rfl⟩
abbrev main_v24 : Ref sig .tc := ⟨.hbm, 68, rfl⟩
abbrev main_v25 : Ref sig .tc := ⟨.hbm, 69, rfl⟩
abbrev main_c_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v26 : Ref sig .tc := ⟨.hbm, 87, rfl⟩
abbrev main_c_9 : Ref sig .tc := ⟨.hbm, 88, rfl⟩
abbrev main_v27 : Ref sig .tc := ⟨.hbm, 89, rfl⟩
abbrev main_v28 : Ref sig .tc := ⟨.hbm, 90, rfl⟩
abbrev main_c_10 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v35 : Ref sig .tc := ⟨.hbm, 103, rfl⟩
abbrev main_cst : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_cst_11 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_cst_12 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v54 : Ref sig .tc := ⟨.hbm, 169, rfl⟩
abbrev main_v55 : Ref sig .tc := ⟨.hbm, 170, rfl⟩
abbrev main_cst_13 : Ref sig .tc := ⟨.hbm, 171, rfl⟩
abbrev main_v56 : Ref sig .tc := ⟨.hbm, 172, rfl⟩
abbrev main_v57 : Ref sig .tc := ⟨.hbm, 173, rfl⟩
abbrev main_cst_14 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_cst_15 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_cst_16 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_cst_17 : Ref sig .tc := ⟨.hbm, 187, rfl⟩
abbrev main_v68 : Ref sig .tc := ⟨.hbm, 188, rfl⟩
abbrev main_v69 : Ref sig .tc := ⟨.hbm, 189, rfl⟩
abbrev main_cst_18 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_cst_19 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_cst_20 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_cst_21 : Ref sig .tc := ⟨.hbm, 204, rfl⟩
abbrev main_v81 : Ref sig .tc := ⟨.hbm, 205, rfl⟩
abbrev main_cst_22 : Ref sig .tc := ⟨.hbm, 206, rfl⟩
abbrev main_v82 : Ref sig .tc := ⟨.hbm, 207, rfl⟩
abbrev main_cst_23 : Ref sig .tc := ⟨.hbm, 208, rfl⟩
abbrev main_v83 : Ref sig .tc := ⟨.hbm, 209, rfl⟩

abbrev nD : Nat := 1
abbrev τ : Topo := Topo.v7x

variable {F : FTy → Type} [FloatOps F]

class Facts₀ : Prop where
  shapeCasts_S2x1x16x32x32_S2x16x32x32 : S2x1x16x32x32.ShapeCasts S2x16x32x32
  bcast_S_S32 : S_.BroadcastsInDim S32 (![] : Fin 0 → Fin S32.rank)
  bcast_S32_S32x1_0 : S32.BroadcastsInDim S32x1 (![0] : Fin 1 → Fin S32x1.rank)
  bcast_S_S64 : S_.BroadcastsInDim S64 (![] : Fin 0 → Fin S64.rank)
  bcast_S64_S64x1_0 : S64.BroadcastsInDim S64x1 (![0] : Fin 1 → Fin S64x1.rank)
  shapeCasts_S2x32x64x64_S2x131072 : S2x32x64x64.ShapeCasts S2x131072
  bcast_S2x131072_S2x131072x1_0_1 : S2x131072.BroadcastsInDim S2x131072x1 (![0, 1] : Fin 2 → Fin S2x131072x1.rank)
  bcast_S2x131072x1_S2x131072x5_0_1_2 : S2x131072x1.BroadcastsInDim S2x131072x5 (![0, 1, 2] : Fin 3 → Fin S2x131072x5.rank)
  bcast_S1x1x5_S2x131072x5_0_1_2 : S1x1x5.BroadcastsInDim S2x131072x5 (![0, 1, 2] : Fin 3 → Fin S2x131072x5.rank)
  reducesTo_S2x131072x5_S2x5_d1 : S2x131072x5.ReducesTo [1] S2x5
  h_S_ : 0 < S_.numel
  shapeCasts_S2x64x32x64x64_S2x64x131072 : S2x64x32x64x64.ShapeCasts S2x64x131072
  bcast_S2x5_S2x1x5_0_2 : S2x5.BroadcastsInDim S2x1x5 (![0, 2] : Fin 2 → Fin S2x1x5.rank)
  bcast_S_S2x1x5 : S_.BroadcastsInDim S2x1x5 (![] : Fin 0 → Fin S2x1x5.rank)
  bcast_S2x1x5_S2x64x5_0_1_2 : S2x1x5.BroadcastsInDim S2x64x5 (![0, 1, 2] : Fin 3 → Fin S2x64x5.rank)
  bcast_S2x131072_S2x1x131072_0_2 : S2x131072.BroadcastsInDim S2x1x131072 (![0, 2] : Fin 2 → Fin S2x1x131072.rank)
  bcast_S_S2x1x131072 : S_.BroadcastsInDim S2x1x131072 (![] : Fin 0 → Fin S2x1x131072.rank)
  shapeCasts_S2x1x131072_S2x131072x1 : S2x1x131072.ShapeCasts S2x131072x1
  bcast_S_S2x131072x1 : S_.BroadcastsInDim S2x131072x1 (![] : Fin 0 → Fin S2x131072x1.rank)
  bcast_S1_S1x1x1_2 : S1.BroadcastsInDim S1x1x1 (![2] : Fin 1 → Fin S1x1x1.rank)
  bcast_S1x1x1_S2x131072x1_0_1_2 : S1x1x1.BroadcastsInDim S2x131072x1 (![0, 1, 2] : Fin 3 → Fin S2x131072x1.rank)
  reducesTo_S2x131072x1_S2x131072_d2 : S2x131072x1.ReducesTo [2] S2x131072
  bcast_S2x131072_S2x64x131072_0_2 : S2x131072.BroadcastsInDim S2x64x131072 (![0, 2] : Fin 2 → Fin S2x64x131072.rank)
  bcast_S_S2x64x131072 : S_.BroadcastsInDim S2x64x131072 (![] : Fin 0 → Fin S2x64x131072.rank)
  reducesTo_S2x64x131072_S2x131072_d1 : S2x64x131072.ReducesTo [1] S2x131072
  bcast_S_S2x131072 : S_.BroadcastsInDim S2x131072 (![] : Fin 0 → Fin S2x131072.rank)
  reducesTo_S2x131072_S_d0_1 : S2x131072.ReducesTo [0, 1] S_
  gather_S2x16x32x32_S32x1_S2x32x32x32_023_1_n_n_1_1_213232_wf : GatherDims.WF S2x16x32x32 S32x1 S2x32x32x32 [0, 2, 3] [1] [] [1] [] 1 ![2, 1, 32, 32]
  gather_S2x32x32x32_S64x1_S2x32x64x32_013_2_n_n_2_1_232132_wf : GatherDims.WF S2x32x32x32 S64x1 S2x32x64x32 [0, 1, 3] [2] [] [2] [] 1 ![2, 32, 1, 32]
  gather_S2x32x64x32_S64x1_S2x32x64x64_012_3_n_n_3_1_232641_wf : GatherDims.WF S2x32x64x32 S64x1 S2x32x64x64 [0, 1, 2] [3] [] [3] [] 1 ![2, 32, 64, 1]
  dot_S2x64x131072_S2x131072x5_S2x64x5_2_1_1_2_0_0_wf : DotDims.WF S2x64x131072 S2x131072x5 S2x64x5 [2] [1] [1] [2] [0] [0]
  gather_S2x64x5_S2x131072x1_S2x64x131072_1_2_0_0_2_2_1641_wf : GatherDims.WF S2x64x5 S2x131072x1 S2x64x131072 [1] [2] [0] [2] [0] 2 ![1, 64, 1]

variable [Facts₀]

def gather_S2x16x32x32_S32x1_S2x32x32x32_023_1_n_n_1_1_213232 : GatherDims S2x16x32x32 S32x1 S2x32x32x32 where
  offsetDims := [0, 2, 3]
  collapsedSliceDims := [1]
  operandBatchingDims := []
  startIndicesBatchingDims := []
  startIndexMap := [1]
  indexVectorDim := 1
  sliceSizes := ![2, 1, 32, 32]
  wf := gather_S2x16x32x32_S32x1_S2x32x32x32_023_1_n_n_1_1_213232_wf
def gather_S2x32x32x32_S64x1_S2x32x64x32_013_2_n_n_2_1_232132 : GatherDims S2x32x32x32 S64x1 S2x32x64x32 where
  offsetDims := [0, 1, 3]
  collapsedSliceDims := [2]
  operandBatchingDims := []
  startIndicesBatchingDims := []
  startIndexMap := [2]
  indexVectorDim := 1
  sliceSizes := ![2, 32, 1, 32]
  wf := gather_S2x32x32x32_S64x1_S2x32x64x32_013_2_n_n_2_1_232132_wf
def gather_S2x32x64x32_S64x1_S2x32x64x64_012_3_n_n_3_1_232641 : GatherDims S2x32x64x32 S64x1 S2x32x64x64 where
  offsetDims := [0, 1, 2]
  collapsedSliceDims := [3]
  operandBatchingDims := []
  startIndicesBatchingDims := []
  startIndexMap := [3]
  indexVectorDim := 1
  sliceSizes := ![2, 32, 64, 1]
  wf := gather_S2x32x64x32_S64x1_S2x32x64x64_012_3_n_n_3_1_232641_wf
def dot_S2x64x131072_S2x131072x5_S2x64x5_2_1_1_2_0_0 : DotDims S2x64x131072 S2x131072x5 S2x64x5 where
  lhsContracting := [2]
  rhsContracting := [1]
  lhsNonContracting := [1]
  rhsNonContracting := [2]
  lhsBatch := [0]
  rhsBatch := [0]
  wf := dot_S2x64x131072_S2x131072x5_S2x64x5_2_1_1_2_0_0_wf
def gather_S2x64x5_S2x131072x1_S2x64x131072_1_2_0_0_2_2_1641 : GatherDims S2x64x5 S2x131072x1 S2x64x131072 where
  offsetDims := [1]
  collapsedSliceDims := [2]
  operandBatchingDims := [0]
  startIndicesBatchingDims := [0]
  startIndexMap := [2]
  indexVectorDim := 2
  sliceSizes := ![1, 64, 1]
  wf := gather_S2x64x5_S2x131072x1_S2x64x131072_1_2_0_0_2_2_1641_wf

class Facts : Prop extends Facts₀ where

variable [Facts]
-- ==== Proof.K.R0Data.lean ====
/-
  First pallas_call (per-class channel sums), the pure side of its frame. The grid is (batch b, tile j) with eight
  tiles of 16384 voxels per batch entry. Two 64×5 accumulators live in scratch memory across the eight tiles of one
  batch entry: they are zeroed at tile 0, every tile adds the product of the 64×16384 feature block with the
  transposed one-hot 5×16384 block of the tile's labels, and at tile 7 they are copied to the output blocks.
  Here: the blocks the body reads (`iblk0`), the accumulator pair after each grid point by recursion on the point
  (`acc0`), the region's resource invariant (`Phi0`) and the proof data (`dat0`).
-/
import proofs.«426160_j54812372632011_3_alg».proof.Proof.Gen.Kernel.Launch
import proofs.«426160_j54812372632011_3_alg».proof.Proof.Gen.Kernel.Skeleton
import proofs.«426160_j54812372632011_3_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: every definition below is a function of it. -/
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators (student features, teacher features) after the body at grid position `n`: at the first tile of
    a batch entry (`n % 8 = 0`) the tile's product added to zero, otherwise added to what position `n - 1` left. -/
def acc0 (c : Dev nD) : (n : ℕ) → n < cfg0.N → Vec F S64x5 .f32 × Vec F S64x5 .f32
  | 0, hn => (k0_pay6 (iblk0 V c 2 ⟨0, hn⟩) (iblk0 V c 0 ⟨0, hn⟩) (k0_pay3 (F := F)),
              k0_pay7 (iblk0 V c 2 ⟨0, hn⟩) (iblk0 V c 1 ⟨0, hn⟩) (k0_pay4 (F := F)))
  | n + 1, hn =>
    if (n + 1) % 8 = 0 then
      (k0_pay6 (iblk0 V c 2 ⟨n + 1, hn⟩) (iblk0 V c 0 ⟨n + 1, hn⟩) (k0_pay3 (F := F)),
       k0_pay7 (iblk0 V c 2 ⟨n + 1, hn⟩) (iblk0 V c 1 ⟨n + 1, hn⟩) (k0_pay4 (F := F)))
    else
      (k0_pay6 (iblk0 V c 2 ⟨n + 1, hn⟩) (iblk0 V c 0 ⟨n + 1, hn⟩) (acc0 c n (Nat.lt_of_succ_lt hn)).1,
       k0_pay7 (iblk0 V c 2 ⟨n + 1, hn⟩) (iblk0 V c 1 ⟨n + 1, hn⟩) (acc0 c n (Nat.lt_of_succ_lt hn)).2)

/-- The two scratch operands as whole memrefs. -/
abbrev scM0_0 : Memref sig .tc .vmem S64x5 .f32 := Memref.whole cc0_scratch0
abbrev scM0_1 : Memref sig .tc .vmem S64x5 .f32 := Memref.whole cc0_scratch1

/-- The region's invariant before grid position `n`: before the first point what the launch hands over (every scratch
    at anything, the generator register); afterwards both accumulators at what position `n - 1` left in them, beside the core's other scoped buffers (the second
    call's staging and scratch buffers), which this call never opens. -/
def Phi0 (c : Dev nD) : (n : ℕ) → n ≤ cfg0.N → sProp 𝕄
  | 0, _ => Pipeline.ΦA spec0 c
  | n + 1, hn => iprop(owns (c : Thread nD τ) scM0_0 fullShare (acc0 V c n hn).1
      ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

/-- The proof data of the first pallas_call on core `c`: the arrays as the region finds them; after the body each input
    window's buffer still holds its block, and each output window's buffer holds the corresponding accumulator (this is
    consulted only at the last tile of a batch entry, where the body stores it and the pipeline writes it back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (acc0 V c t.val t.isLt).1
    | ⟨4, _⟩ => k0_pay2 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (acc0 V c t.val t.isLt).1 := by dsimp only [dat0]
theorem after0_4 (c : Dev nD) (t : Fin cfg0.N) : (dat0 V c).after 4 t = k0_pay2 (acc0 V c t.val t.isLt).2 := by dsimp only [dat0]

end Cert.Kernel.Hand

end
-- ==== Proof.K.R1Data.lean ====
/-
  Second pallas_call (per-voxel cosine similarities and the sum of squared differences), the pure side of its frame.
  The grid is again (batch b, tile j), eight tiles of 16384 voxels per batch entry. One 1×1 accumulator lives in
  scratch memory across the eight tiles of a batch entry: zeroed at tile 0; every tile adds the sum over its voxels of
  (cos_S − cos_T)², each cosine being the class-selected dot product of the voxel's features with the class means,
  divided by max(‖features‖·‖class mean‖, ε); at tile 7 the accumulator is copied to the 1×1×1 output block.
  Here: the blocks the body reads (`iblk1`), the accumulator after each grid point by recursion on the point
  (`acc1`), the region's resource invariant (`Phi1`) and the proof data (`dat1`).
-/
import proofs.«426160_j54812372632011_3_alg».proof.Proof.Gen.Kernel.Launch
import proofs.«426160_j54812372632011_3_alg».proof.Proof.Gen.Kernel.Skeleton
import proofs.«426160_j54812372632011_3_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: every definition below is a function of it. -/
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one tile adds to the accumulator `a`: the body's arithmetic over the point's seven input blocks. -/
def step1 (c : Dev nD) (t : Fin cfg1.N) (a : Vec F S1x1 .f32) : Vec F S1x1 .f32 :=
  k1_pay1 (k1_pay4 (iblk1 V c 2 t)) (k1_pay5 (iblk1 V c 0 t)) (k1_pay6 (iblk1 V c 1 t)) (k1_pay7 (iblk1 V c 5 t)) (k1_pay8 (iblk1 V c 6 t))
    (k1_pay9 (iblk1 V c 1 t) (iblk1 V c 4 t)) (k1_pay10 (iblk1 V c 2 t) (iblk1 V c 0 t) (iblk1 V c 3 t)) a

/-- The accumulator after the body at grid position `n`: at the first tile of a batch entry (`n % 8 = 0`) the tile's sum
    added to zero, otherwise added to what position `n - 1` left. -/
def acc1 (c : Dev nD) : (n : ℕ) → n < cfg1.N → Vec F S1x1 .f32
  | 0, hn => step1 V c ⟨0, hn⟩ (k1_pay3 (F := F))
  | n + 1, hn =>
    if (n + 1) % 8 = 0 then step1 V c ⟨n + 1, hn⟩ (k1_pay3 (F := F))
    else step1 V c ⟨n + 1, hn⟩ (acc1 c n (Nat.lt_of_succ_lt hn))

/-- The scratch operand as a whole memref. -/
abbrev scM1_0 : Memref sig .tc .vmem S1x1 .f32 := Memref.whole cc1_scratch0

/-- The region's invariant before grid position `n`: before the first point what the launch hands over (the scratch at
    anything, the generator register); afterwards the accumulator at what position `n - 1` left in it, beside the core's other scoped buffers (the first call's
    staging and scratch buffers), which this call never opens. -/
def Phi1 (c : Dev nD) : (n : ℕ) → n ≤ cfg1.N → sProp 𝕄
  | 0, _ => Pipeline.ΦA spec1 c
  | n + 1, hn => iprop(owns (c : Thread nD τ) scM1_0 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data of the second pallas_call on core `c`: the arrays as the region finds them; after the body each input
    window's buffer still holds its block, and the output window's buffer holds the accumulator (consulted only at the
    last tile of a batch entry, where the body stores it and the pipeline writes it back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (acc1 V c t.val t.isLt) := by dsimp only [dat1]

end Cert.Kernel.Hand

end
-- ==== Proof.K.Fold.lean ====
/-
  What the TensorCore's buffers hold at each boundary between two items of the program: the launch memory, then each
  stretch of host operations applied in order, and across each of the two pallas_calls the call's arrays replaced by what its
  write-backs leave (the inputs as entered, each output array the blocks written back at the last tile of every batch
  entry), every other buffer as entered.
-/
import proofs.«426160_j54812372632011_3_alg».proof.Proof.K.R0Data
import proofs.«426160_j54812372632011_3_alg».proof.Proof.K.R1Data
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After each of the seven stretches of host operations before the first pallas_call (the label upsampling, the reshapes). -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- The same read at the TensorCore's references: what the first pallas_call finds. -/
abbrev V7 (c : Dev nD) (b : Ref sig .tc) : Buf (Elt F) ((c : Thread nD τ).loc b) := W7 m c b
/-- After the first pallas_call: its arrays at what the pipeline leaves, every other buffer as entered. -/
def W8 (c : Dev nD) : Valuation τ sig (Elt F) :=
  Pipeline.withArrays spec0 c (W7 m c) fun w => (dat0 (V7 m) c).arrAt w cfg0.N
/-- After the two stretches of host operations between the calls (counts, class means, their norms, the transposes). -/
abbrev W9 (c : Dev nD) : Valuation τ sig (Elt F) := StableHlo.after hostOps1 (W8 m c)
abbrev W10 (c : Dev nD) : Valuation τ sig (Elt F) := StableHlo.after hostOps1_1 (W9 m c)
/-- The same read at the TensorCore's references: what the second pallas_call finds. -/
abbrev V10 (c : Dev nD) (b : Ref sig .tc) : Buf (Elt F) ((c : Thread nD τ).loc b) := W10 m c b
/-- After the second pallas_call. -/
def W11 (c : Dev nD) : Valuation τ sig (Elt F) :=
  Pipeline.withArrays spec1 c (W10 m c) fun w => (dat1 (V10 m) c).arrAt w cfg1.N
/-- After the last stretch of host operations (the sum over the batch, the division by the voxel count, the weight). -/
abbrev W12 (c : Dev nD) : Valuation τ sig (Elt F) := StableHlo.after hostOps2 (W11 m c)

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb

end Cert.Kernel.Hand

end
-- ==== Proof.K.Run.lean ====
/-
  The whole program from the launch to the return. The program is twelve items in a row: seven stretches of host
  operations (the label upsampling and the reshapes), the first pallas_call (per-class channel sums), two stretches
  (counts, class means, their norms, the transposes), the second pallas_call (the per-voxel cosine differences
  squared and summed), and one last stretch (the sum over the batch, the division by the voxel count, the weight).
  Between two items a TensorCore holds every unscoped buffer whole at the contents the fold of the boundary gives,
  beside its generator register and an account that owes nothing. A host stretch moves the contents by the function
  its operations compute; a pallas_call takes its windows' arrays out of the unscoped buffers, runs its pipeline under
  the region's invariant, and puts the arrays back at what the write-backs leave. Given, for each of the two regions,
  the body's obligation at every grid point and the two entailments tying the region's invariant at the first and
  after the last point to the class invariant, every fair execution terminates, the result buffer ends at the last
  fold's contents and the three argument arrays end as launched.
-/
import proofs.«426160_j54812372632011_3_alg».proof.Proof.K.Fold
import proofs.«426160_j54812372632011_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no item touches keeps its launch contents

A reference that no host stretch writes and that is no window's array of either pallas_call is carried unchanged
through all twelve boundaries. -/

theorem W12_untouched (c : Dev nD) (r : Ref sig .tc)
    (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W)
    (ha0 : ∀ w, Pipeline.arrRef spec0 w ≠ r)
    (h8 : r ∉ hostOps1_W) (h9 : r ∉ hostOps1_1_W)
    (ha1 : ∀ w, Pipeline.arrRef spec1 w ≠ r)
    (h11 : r ∉ hostOps2_W) :
    W12 m c (Proc.devRef .tc r) = m ((c : Thread nD τ).loc r) :=
  calc W12 m c (Proc.devRef .tc r)
    _ = W11 m c (Proc.devRef .tc r) := StableHlo.after_of_writes_sub hostOps2 _ hostOps2_writes h11
    _ = W10 m c (Proc.devRef .tc r) := W11_of_ne m c r ha1
    _ = W9 m c (Proc.devRef .tc r) := StableHlo.after_of_writes_sub hostOps1_1 _ hostOps1_1_writes h9
    _ = W8 m c (Proc.devRef .tc r) := StableHlo.after_of_writes_sub hostOps1 _ hostOps1_writes h8
    _ = W7 m c (Proc.devRef .tc r) := W8_of_ne m c r ha0
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- The three argument arrays: no host operation writes one, no window of either call stages one. -/
theorem W12_main_arg0 (c : Dev nD) : W12 m c (Proc.devRef .tc main_arg0) = m ((c : Thread nD τ).loc main_arg0) :=
  W12_untouched m c main_arg0 (by decide) (by decide) (by decide) (by decide) (by decide) (by decide) (by decide)
    (by decide) (by decide) (by decide) (by decide) (by decide)
theorem W12_main_arg1 (c : Dev nD) : W12 m c (Proc.devRef .tc main_arg1) = m ((c : Thread nD τ).loc main_arg1) :=
  W12_untouched m c main_arg1 (by decide) (by decide) (by decide) (by decide) (by decide) (by decide) (by decide)
    (by decide) (by decide) (by decide) (by decide) (by decide)
theorem W12_main_arg2 (c : Dev nD) : W12 m c (Proc.devRef .tc main_arg2) = m ((c : Thread nD τ).loc main_arg2) :=
  W12_untouched m c main_arg2 (by decide) (by decide) (by decide) (by decide) (by decide) (by decide) (by decide)
    (by decide) (by decide) (by decide) (by decide) (by decide)

/-! ## What a region's exit valuation is, in the form the put-back lemma wants -/

theorem arrs0 (c : Dev nD) (w : Fin cfg0.W) :
    (dat0 (V7 m) c).arrAt w cfg0.N = W8 m c (Proc.devRef .tc (Pipeline.arrRef spec0 w)) := (W8_arr m c w).symm
theorem restOf0 (c : Dev nD) (b : Ref sig .tc) (hb : b ∉ Finset.univ.image (Pipeline.arrRef spec0)) :
    W8 m c (Proc.devRef .tc b) = W7 m c (Proc.devRef .tc b) :=
  W8_of_ne m c b fun w e => hb (Finset.mem_image.mpr ⟨w, Finset.mem_univ _, e⟩)
theorem arrs1 (c : Dev nD) (w : Fin cfg1.W) :
    (dat1 (V10 m) c).arrAt w cfg1.N = W11 m c (Proc.devRef .tc (Pipeline.arrRef spec1 w)) := (W11_arr m c w).symm
theorem restOf1 (c : Dev nD) (b : Ref sig .tc) (hb : b ∉ Finset.univ.image (Pipeline.arrRef spec1)) :
    W11 m c (Proc.devRef .tc b) = W10 m c (Proc.devRef .tc b) :=
  W11_of_ne m c b fun w e => hb (Finset.mem_image.mpr ⟨w, Finset.mem_univ _, e⟩)

/-! ## The proof data of the two pipelines and what rides beside the buffers -/

/-- Neither pallas_call has a prefetched table. -/
abbrev adm₀ : (p : Fin 2) → (pcfgs (F := F) p).Adm := fun p => (cfgs p).toPCfg_adm
/-- Pipeline 0 at what the first call finds, pipeline 1 at what the second finds. -/
def pdats : (p : Fin 2) → (c : Dev nD) → Dat τ (Elt F) Unit ℕ (UR sig nD τ) ℕ (Pipeline.pin (pcfgs (F := F)) adm₀ p) c
  | ⟨0, _⟩ => fun c => dat0 (V7 m) c
  | ⟨1, _⟩ => fun c => dat1 (V10 m) c
abbrev 𝒱₀ : Variants := Variants.none
/-- One device, nothing owed to another core: no level is assigned. -/
abbrev L₀ : GSem nD τ sig → Finset Unit := fun _ => ∅
abbrev lv₀ : GSem nD τ sig → Unit → ℕ := fun _ _ => 0
/-- Beside the buffers at every boundary: the generator register at some state, and an account owing nothing. -/
abbrev Rest (c : Dev nD) : sProp 𝕄 :=
  iprop((∃ r, prngReg c r) ∗ ∃ W, owes (c : Thread nD τ) (0 : CellTallies nD τ sig Unit) W)
/-- The thread state at a boundary whose contents are given per core. -/
abbrev At (W : Dev nD → Valuation τ sig (Elt F)) (c : Dev nD) : sProp 𝕄 :=
  iprop(StableHlo.held (c : Thread nD τ) (Pipeline.ucRefs τ sig) (W c) ∗ Rest c)

/-- A stretch of host operations from given boundary contents: it ends at the contents its operations compute. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two pallas_calls as segments -/

set_option backward.isDefEq.respectTransparency.types false in
/-- The first pallas_call, entered at the seventh boundary's contents and left at the eighth's. Its five arrays are
    split out of the unscoped buffers and put back at what the pipeline leaves; the generator register goes into the
    class invariant and comes back; the kernel has no semaphore of its own and owes nothing. -/
def reg0
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄)) :
    Pipeline.RegionSeg (pcfgs (F := F)) adm₀ (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (hb0 (V7 m) c).loose
  hwaits := Pipeline.hwaits_of_owed_zero _ _ _ _ L₀ lv₀ 0 fun _ _ => rfl
  pre := At (W7 m)
  post := At (W8 m)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm₀ (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi0 (V7 m) c)
    unfold Pipeline.ΦA
    iintro ⟨Hp, -, Hr⟩
    isplitl [Hr]; · iexact Hr
    iexact Hp
  hout c := by
    refine BIBase.Entails.trans (ho0 (V7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm₀ (Ix := Unit) (Name := ℕ) (U := UR sig nD τ) (Lvl := ℕ)
      launch0.win launch0.arr_whole c (pdats m) ((pdats m 0 c).share_full fun _ => rfl)
      (V7 m c) (fun b => W8 m c b) ((pdats m 0 c).arrAt · cfg0.N) (arrs0 m c) (restOf0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call, entered at the tenth boundary's contents and left at the eleventh's: eight arrays, the
    same protocol. -/
def reg1
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄)) :
    Pipeline.RegionSeg (pcfgs (F := F)) adm₀ (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (hb1 (V10 m) c).loose
  hwaits := Pipeline.hwaits_of_owed_zero _ _ _ _ L₀ lv₀ 1 fun _ _ => rfl
  pre := At (W10 m)
  post := At (W11 m)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm₀ (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 (V10 m) c)
    unfold Pipeline.ΦA
    iintro ⟨Hp, -, Hr⟩
    isplitl [Hr]; · iexact Hr
    iexact Hp
  hout c := by
    refine BIBase.Entails.trans (ho1 (V10 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₀ (Ix := Unit) (Name := ℕ) (U := UR sig nD τ) (Lvl := ℕ)
      launch1.win launch1.arr_whole c (pdats m) ((pdats m 1 c).share_full fun _ => rfl)
      (V10 m c) (fun b => W11 m c b) ((pdats m 1 c).arrAt · cfg1.N) (arrs1 m c) (restOf1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its twelve segments, and the launch -/

/-- The items in program order, each host stretch from its boundary's contents. -/
abbrev items
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄)) :
    List (Pipeline.Seg (pcfgs (F := F)) adm₀ (pdats m) () defs₀ 𝒱₀ L₀ lv₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m hb0 hi0 ho0),
    .host (hseg hostOps1 hostOps1_sub hostOps1_fresh (W8 m)),
    .host (hseg hostOps1_1 hostOps1_1_sub hostOps1_1_fresh (W9 m)),
    .region (reg1 m hb1 hi1 ho1),
    .host (hseg hostOps2 hostOps2_sub hostOps2_fresh (W11 m)) ]

/-- The last thread state without the account: every unscoped buffer at the last fold's contents, the generator
    register somewhere. -/
abbrev Tend (c : Dev nD) : sProp 𝕄 :=
  iprop(StableHlo.held (c : Thread nD τ) (Pipeline.ucRefs τ sig) (W12 m c) ∗ ∃ r, prngReg c r)

set_option backward.isDefEq.respectTransparency.types false in
/-- From any launch memory with zero counters every fair execution of the program terminates; at the end every
    unscoped buffer of a core holds the last fold's contents. -/
theorem run_uc
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm₀ (pdats m) () cellOf_inj emb₁ defs₀ 𝒱₀ L₀ lv₀ m ρ main
    (items m hb0 hi0 ho0 hb1 hi1 ho1)
    (fun c Q => by
      rewrite [main_chain c, Pipeline.Seg.run_eq_chain,
        show (items m hb0 hi0 ho0 hb1 hi1 ho1).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ Rest c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE RUN. Given the two regions' body obligations and the entailments between each region's invariant at its
    ends and the class invariant: every fair execution from any launch memory with zero counters terminates; the
    result buffer ends at the last fold's contents, and the three argument arrays end as launched. -/
theorem run_all
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v64) = W12 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩) (fun r h c =>
    ⟨h c _ (mem_uc main_v64 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c)⟩)
    (run_uc m hb0 hi0 ho0 hb1 hi1 ho1 ρ)

/-- info: 'Cert.Kernel.Hand.run_all' depends on axioms: [propext, Classical.choice, Quot.sound] -/
#guard_msgs in #print axioms run_all

end Cert.Kernel.Hand

end
-- ==== Proof.K.R0Runs.lean ====
/-
  First pallas_call (per-class channel sums): what the three cases of its body share. The body branches twice on the tile
  coordinate: at the first tile of a batch entry it zeroes both accumulators, at the last it copies them to the output
  blocks. Here: both conditions in closed form over the grid, the points at which the two output windows are idle, the
  launch's invariant opened at the two accumulators, and the fact that a store filling a whole buffer leaves its payload.
-/
import proofs.«426160_j54812372632011_3_alg».proof.Proof.K.R0Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first conditional of the body (the accumulators are zeroed): its condition as the body computes it from the tile
    coordinate. -/
abbrev cond0_0 (i : grid0.Coords) : Prop :=
  (Scalar.cmpi .ne (Scalar.extui (Scalar.cmpi .eq (BitVec.ofNat 32 (i 1).val) 0#32)) 0#32) = 1#1
/-- It holds exactly at the first tile of a batch entry. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (the accumulators are copied to the output blocks): its condition. -/
abbrev cond0_1 (i : grid0.Coords) : Prop := k0_cond2 i = 1#1
/-- It holds exactly at the last tile of a batch entry. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile of a batch entry the two output windows are idle and are not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The launch's invariant, opened at the two accumulators -/

/-- The other scoped buffers of the core (the second call's staging and scratch buffers), which this call never opens. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The core's scoped buffers that are no staging buffer of this call, split at the call's two accumulators: each whole at
    some contents, the remainder unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ rest0 (F := F) c) :=
  Pipeline.scopedRest_split_of_list spec0 c [cc0_scratch0, cc0_scratch1] (by decide) (by decide)

/-- What the launch hands the region holds both accumulators at some contents, the other scoped buffers and the generator
    register; -/
theorem PhiA0_open (c : Dev nD) :
    (Pipeline.ΦA spec0 c : sProp 𝕄)
      ⊢ iprop((∃ d, owns (c : Thread nD τ) scM0_0 fullShare d) ∗ (∃ d, owns (c : Thread nD τ) scM0_1 fullShare d)
          ∗ rest0 (F := F) c ∗ (∃ r, prngReg c r)) := by
  unfold Pipeline.ΦA
  rw [scopedRest0_split]
  simp only [scM0_0, scM0_1, owns_whole]
  iintro ⟨⟨⟨H0, H1⟩, Hr⟩, Hg⟩
  isplitl [H0]; · iexact H0
  isplitl [H1]; · iexact H1
  isplitl [Hr]; · iexact Hr
  iexact Hg

/-- and conversely. -/
theorem PhiA0_close (c : Dev nD) :
    iprop((∃ d, owns (c : Thread nD τ) scM0_0 fullShare d) ∗ (∃ d, owns (c : Thread nD τ) scM0_1 fullShare d)
          ∗ rest0 (F := F) c ∗ (∃ r, prngReg c r))
      ⊢ (Pipeline.ΦA spec0 c : sProp 𝕄) := by
  unfold Pipeline.ΦA
  rw [scopedRest0_split]
  simp only [scM0_0, scM0_1, owns_whole]
  iintro ⟨H0, H1, Hr, Hg⟩
  isplitr [Hg]
  · isplitr [Hr]
    · isplitl [H0]; · iexact H0
      iexact H1
    · iexact Hr
  · iexact Hg

/-! ## A whole-buffer store, last, leaves its payload -/

/-- After a list of stores whose last one fills the whole buffer (the unit rectangle at zero offsets of the buffer's own
    sizes), the buffer reads that store's payload, whatever it held and whatever was stored before. -/
theorem read_writes_whole_last {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load of a whole buffer (the unit rectangle at zero offsets of the buffer's own sizes) reads its contents. -/
theorem readAt_whole {S : Shape} {e : EltTy} (m : Memref sig .tc .vmem S e) (hm : m.IsWhole) {off : Fin S.rank → Nat}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

theorem hz2 : (![0, 0] : Fin 2 → Nat) = fun _ => 0 := funext fun a => by fin_cases a <;> rfl
theorem hz3 : (![0, 0, 0] : Fin 3 → Nat) = fun _ => 0 := funext fun a => by fin_cases a <;> rfl

end Cert.Kernel.Hand

end
-- ==== Proof.K.R0RunA.lean ====
/-
  First pallas_call (per-class channel sums): the body's run at the first tile of a batch entry.
  The first conditional is taken and the second is not: both accumulators are stored with zeros, then each is loaded (the
  load reads the zeros just stored), the tile's product of the feature block with the transposed one-hot block of the labels
  is added, and the sum is stored back; the output blocks are not touched.
-/
import proofs.«426160_j54812372632011_3_alg».proof.Proof.K.R0Runs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at `xi3`, `xi4`, the accumulators at
    anything — the body at a first tile runs to a state that differs only in the accumulators: each holds the tile's product
    added to zero. -/
theorem run0_A (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : cond0_0 i) (hc1 : ¬cond0_1 i)
    (x0 x1 : Vec F S1x64x16384 .f32) (x2 : Vec F S1x1x16384 .i32) (xi3 xi4 : Vec F S1x64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare xi3
        ∗ owns (c : Thread nD τ) arg6 fullShare xi4
        ∗ (∃ d, owns (c : Thread nD τ) arg7 fullShare d)
        ∗ (∃ d, owns (c : Thread nD τ) arg8 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare (k0_pay6 x2 x0 (k0_pay3 (F := F)))
            ∗ owns (c : Thread nD τ) arg8 fullShare (k0_pay7 x2 x1 (k0_pay4 (F := F)))) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%dfs0, %fs0, -, HS0⟩, ⟨%dfs1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_run_names
    rw [read_writes_whole_last _ _ hz2, readAt_whole arg4 harg4 hz3, readAt_whole arg2 harg2 hz3, View.readCov_unit_zero _ hz2]
  · iexists _; isplitr
    swap; · iexact HS1
    ipureintro
    sl_unfold_run_names
    rw [read_writes_whole_last _ _ hz2, readAt_whole arg4 harg4 hz3, readAt_whole arg3 harg3 hz3, View.readCov_unit_zero _ hz2]

end Cert.Kernel.Hand

end
-- ==== Proof.K.R0RunB.lean ====
/-
  First pallas_call (per-class channel sums): the body's run at a tile that is neither the first nor the last of its batch entry.
  Neither conditional is taken: each accumulator is loaded, the tile's product of the feature block with the transposed
  one-hot block of the labels is added, and the sum is stored back; the output blocks are not touched.
-/
import proofs.«426160_j54812372632011_3_alg».proof.Proof.K.R0RunA
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at `xi3`, `xi4`, the accumulators at
    `a0`, `a1` — the body at a middle tile runs to a state that differs only in the accumulators: each holds its old contents
    plus the tile's product. -/
theorem run0_B (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : ¬cond0_0 i) (hc1 : ¬cond0_1 i)
    (x0 x1 : Vec F S1x64x16384 .f32) (x2 : Vec F S1x1x16384 .i32) (a0 a1 : Vec F S64x5 .f32) (xi3 xi4 : Vec F S1x64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare xi3
        ∗ owns (c : Thread nD τ) arg6 fullShare xi4
        ∗ owns (c : Thread nD τ) arg7 fullShare a0
        ∗ owns (c : Thread nD τ) arg8 fullShare a1
        ∗ (iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare (k0_pay6 x2 x0 a0)
            ∗ owns (c : Thread nD τ) arg8 fullShare (k0_pay7 x2 x1 a1)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    rw [read_writes_whole_last _ _ hz2, readAt_whole arg4 harg4 hz3, readAt_whole arg2 harg2 hz3, readAt_whole arg7 harg7 hz2]
  · iexists _; isplitr
    swap; · iexact HS1
    ipureintro
    rw [read_writes_whole_last _ _ hz2, readAt_whole arg4 harg4 hz3, readAt_whole arg3 harg3 hz3, readAt_whole arg8 harg8 hz2]

end Cert.Kernel.Hand

end
-- ==== Proof.K.R0RunC.lean ====
/-
  First pallas_call (per-class channel sums): the body's run at the last tile of a batch entry.
  The first conditional is not taken and the second is: each accumulator is loaded, the tile's product of the feature block
  with the transposed one-hot block of the labels is added, and the sum is stored back; then each accumulator is loaded
  again (the load reads the sum just stored) and stored, reshaped, into its output block.
-/
import proofs.«426160_j54812372632011_3_alg».proof.Proof.K.R0RunB
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at anything, the accumulators at
    `a0`, `a1` — the body at a last tile runs to a state in which each accumulator holds its old contents plus the tile's
    product and each output block holds its accumulator's new contents, reshaped. -/
theorem run0_C (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : ¬cond0_0 i) (hc1 : cond0_1 i)
    (x0 x1 : Vec F S1x64x16384 .f32) (x2 : Vec F S1x1x16384 .i32) (a0 a1 : Vec F S64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d)
        ∗ (∃ d, owns (c : Thread nD τ) arg6 fullShare d)
        ∗ owns (c : Thread nD τ) arg7 fullShare a0
        ∗ owns (c : Thread nD τ) arg8 fullShare a1
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 (k0_pay6 x2 x0 a0))
            ∗ owns (c : Thread nD τ) arg6 fullShare (k0_pay2 (k0_pay7 x2 x1 a1))
            ∗ owns (c : Thread nD τ) arg7 fullShare (k0_pay6 x2 x0 a0)
            ∗ owns (c : Thread nD τ) arg8 fullShare (k0_pay7 x2 x1 a1)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%df3, %f3, -, H3⟩, ⟨%df4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_last _ _ hz3, View.readCov_unit_zero _ hz2, readAt_whole arg4 harg4 hz3, readAt_whole arg2 harg2 hz3, readAt_whole arg7 harg7 hz2]
  isplitl [H4]
  · iexists _; isplitr
    swap; · iexact H4
    ipureintro
    sl_unfold_run_names
    rw [read_writes_whole_last _ _ hz3, View.readCov_unit_zero _ hz2, readAt_whole arg4 harg4 hz3, readAt_whole arg3 harg3 hz3, readAt_whole arg8 harg8 hz2]
  isplitl [HS0]
  · iexists _; isplitr
    swap; · iexact HS0
    ipureintro
    sl_unfold_run_names
    rw [read_writes_whole_last _ _ hz2, readAt_whole arg4 harg4 hz3, readAt_whole arg2 harg2 hz3, readAt_whole arg7 harg7 hz2]
  · iexists _; isplitr
    swap; · iexact HS1
    ipureintro
    sl_unfold_run_names
    rw [read_writes_whole_last _ _ hz2, readAt_whole arg4 harg4 hz3, readAt_whole arg3 harg3 hz3, readAt_whole arg8 harg8 hz2]

end Cert.Kernel.Hand

end
-- ==== Proof.K.R0Body.lean ====
/-
  First pallas_call (per-class channel sums): the body obligation of its frame. At every grid point the body, handed the
  region's invariant and the five windows' current buffers (the three input blocks; the two output blocks at whatever they
  hold), runs and hands back the invariant of the next point: both accumulators at the recursion `acc0` — the tile's
  product of the feature block with the transposed one-hot label block, added to zero at the first tile of a batch entry
  and to the previous point's accumulator elsewhere — and, at the last tile of a batch entry, the output blocks at the
  accumulators; elsewhere the output blocks are handed back untouched. Three cases by the tile's position, each closed by
  that case's run of the body.
-/
import proofs.«426160_j54812372632011_3_alg».proof.Proof.K.R0RunC
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, case by case -/

/-- At the first tile of a batch entry the accumulators are the tile's product added to zero. -/
theorem acc0_first (c : Dev nD) (t : Fin cfg0.N) (h : t.val % 8 = 0) :
    acc0 V c t.val t.isLt
      = (k0_pay6 (iblk0 V c 2 t) (iblk0 V c 0 t) (k0_pay3 (F := F)), k0_pay7 (iblk0 V c 2 t) (iblk0 V c 1 t) (k0_pay4 (F := F))) := by
  obtain ⟨n, hn⟩ := t
  cases n with
  | zero => rfl
  | succ n => exact (if_pos h).trans rfl

/-- At any other tile they are the tile's product added to what the point before left. -/
theorem acc0_next (c : Dev nD) (t : Fin cfg0.N) (h : ¬t.val % 8 = 0) :
    acc0 V c t.val t.isLt
      = (k0_pay6 (iblk0 V c 2 t) (iblk0 V c 0 t) (acc0 V c (t.val - 1) (Nat.lt_of_le_of_lt (Nat.sub_le _ _) t.isLt)).1,
         k0_pay7 (iblk0 V c 2 t) (iblk0 V c 1 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant, point by point -/

/-- What the launch hands the region, opened at the two accumulators. -/
theorem PhiA0_eq (c : Dev nD) :
    (Pipeline.ΦA spec0 c : sProp 𝕄)
      = iprop((∃ d, owns (c : Thread nD τ) scM0_0 fullShare d) ∗ (∃ d, owns (c : Thread nD τ) scM0_1 fullShare d)
          ∗ rest0 (F := F) c ∗ (∃ r, prngReg c r)) :=
  (PhiA0_open c).antisymm (PhiA0_close c)

theorem Phi0_zero (c : Dev nD) (n : ℕ) (h : n ≤ cfg0.N) (hz : n = 0) : Phi0 V c n h = Pipeline.ΦA spec0 c := by
  subst hz; rfl

/-- After point `n`: the accumulators at that point's values. -/
theorem Phi0_succ (c : Dev nD) (n : ℕ) (hn : n < cfg0.N) :
    Phi0 V c (n + 1) hn = iprop(owns (c : Thread nD τ) scM0_0 fullShare (acc0 V c n hn).1 ∗ owns (c : Thread nD τ) scM0_1 fullShare (acc0 V c n hn).2
      ∗ rest0 (F := F) c ∗ (∃ r, prngReg c r)) := rfl

/-- Before a point that is not the first: the accumulators at what the point before left. -/
theorem Phi0_pos (c : Dev nD) (n : ℕ) (h : n ≤ cfg0.N) (hz : n ≠ 0) :
    Phi0 V c n h = iprop(owns (c : Thread nD τ) scM0_0 fullShare (acc0 V c (n - 1) (by omega)).1 ∗ owns (c : Thread nD τ) scM0_1 fullShare (acc0 V c (n - 1) (by omega)).2
      ∗ rest0 (F := F) c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers hold their blocks

Each of the three input windows is fetched at every grid point (the tile index moves at every step) and none is cut, so at
every point its current buffer holds exactly the window's block of the array, whatever the buffer held before the fetch. -/

theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl
theorem before0_2 (c : Dev nD) (t : Fin cfg0.N) (d) : (dat0 V c).before 2 t d = iblk0 V c 2 t := by
  rw [(dat0 V c).before_fetched 2 t (fetch0_2 t) d]
  unfold Dat.fetched Dat.blockOf iblk0
  rw [A_eq0]
  rfl

/-! ## The body obligation at a generic point -/

/-- Each window's current buffer at point `t`, as the pipeline passes it to the body, and its wholeness. -/
abbrev ms0_0 (t : Fin cfg0.N) : Memref sig .tc .vmem S1x64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x16384 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x5 .f32 := win0_4.stage (cfg0.slots t 4)
abbrev hs0_4 (t : Fin cfg0.N) : (ms0_4 t).IsWhole := hstage0_4 ((cfg0.slots t 4).cast nbuf0_4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point. The input windows' buffers hold their blocks; the tile's position says which of the three cases
    the point is in, and that case's run applies: the invariant hands the body the accumulators at what the point before
    left (at anything at the very first point; at a later first tile of a batch entry the named contents are forgotten,
    the body zeroes them), and takes them back at this point's values; off the last tile the output windows are idle and
    their buffers come back untouched, at the last tile they come back at the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 8 = 0
  · -- the first tile of a batch entry
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1),
      Dat.leavesExact_idle (dat0 V c) 4 t (idleAt0_4 t hc1) (noFlush0_4 t hc1)]
    rw [acc0_first V c t h0]; dsimp only
    by_cases hz : t.val = 0
    · rw [Phi0_castSucc V c t, Phi0_zero V c _ _ hz, PhiA0_eq]
      iintro ⟨⟨HS0, HS1, Hr, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4
    · rw [Phi0_castSucc V c t, Phi0_pos V c _ _ hz]
      iintro ⟨⟨HS0, HS1, Hr, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4
  · have hc0 : ¬cond0_0 (grid0.coords t) := fun h => h0 ((hcond0_0 t).mp h)
    have hz : t.val ≠ 0 := fun h => h0 (by rw [h])
    rw [acc0_next V c t h0]; dsimp only
    rw [Phi0_castSucc V c t, Phi0_pos V c _ _ hz]
    by_cases h1 : t.val % 8 = 7
    · -- the last tile of a batch entry
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [acc0_next V c t h0]; dsimp only
      iintro ⟨⟨HS0, HS1, Hr, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        (acc0 V c (t.val - 1) (by omega)).1 (acc0 V c (t.val - 1) (by omega)).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · -- a middle tile
      have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      iintro ⟨⟨HS0, HS1, Hr, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        (acc0 V c (t.val - 1) (by omega)).1 (acc0 V c (t.val - 1) (by omega)).2
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 (F := F) V c).Φ 0 := by
  rw [show (dat0 V c).Φ 0 = Phi0 V c 0 (Nat.zero_le _) from rfl, Phi0_zero V c 0 _ rfl]

/-- After the last point the invariant gives back what the launch handed over: the accumulators' named contents are
    forgotten. -/
theorem hout0 (c : Dev nD) : (dat0 (F := F) V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega), PhiA0_eq]
  iintro ⟨HS0, HS1, Hr, Hg⟩
  isplitl [HS0]; · iexists _; iexact HS0
  isplitl [HS1]; · iexists _; iexact HS1
  isplitl [Hr]; · iexact Hr
  iexact Hg

end Cert.Kernel.Hand

end
-- ==== Proof.K.R1Run.lean ====
/-
  Second pallas_call (per-voxel cosine similarities, sum of squared differences): what ONE run of the kernel body does
  to the buffers it is handed, in each of its three control cases, with the final contents NAMED.
  The body reads seven input blocks (two feature blocks, the label block, the two transposed class-mean blocks, the two
  class-mean-norm blocks), keeps a 1×1 accumulator in scratch memory and has a 1×1×1 output block. With
  s(x, a) = a + Σ_v (cos_S(v) − cos_T(v))² the tile's update of the accumulator (the payload function k1_pay1 over the
  loaded blocks):
    · first tile of a batch entry (tile coordinate 0): the accumulator, whatever it held, ends at s(x, 0);
    · a middle tile: it goes from a to s(x, a);
    · last tile (tile coordinate 7): it goes from a to s(x, a), and the output block ends at that value.
  In every case the input buffers come back holding what they held, and the output buffer is untouched except at the last
  tile. Also here: the two conditions in closed form over the 16 grid points, and where the output window is idle.
-/
import proofs.«426160_j54812372632011_3_alg».proof.Proof.Gen.Kernel.Launch
import proofs.«426160_j54812372632011_3_alg».proof.Proof.Gen.Kernel.Skeleton
import proofs.«426160_j54812372632011_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the accumulator is reset): the tile coordinate is 0. -/
abbrev cond1_0 (i : grid1.Coords) : Prop := (Scalar.cmpi .ne (Scalar.extui (Scalar.cmpi .eq (BitVec.ofNat 32 (i 1).val) 0#32)) 0#32) = 1#1
/-- The condition of the body's second conditional (the accumulator is copied to the output block): the tile coordinate is 7. -/
abbrev cond1_1 (i : grid1.Coords) : Prop := k1_cond2 i = 1#1

/-- The offsets of a whole-buffer access are all zero: rank 2, -/
theorem zero_off2 : (![0, 0] : Fin 2 → Nat) = fun _ => 0 := funext fun a => by fin_cases a <;> rfl
/-- rank 3. -/
theorem zero_off3 : (![0, 0, 0] : Fin 3 → Nat) = fun _ => 0 := funext fun a => by fin_cases a <;> rfl

/-- The accumulator is reset exactly at the first tile of a batch entry — decided over the grid's 16 points. -/
theorem hcond1_0 : ∀ t : Fin cfg1.N, cond1_0 (grid1.coords t) ↔ t.val % 8 = 0 :=
  (by decide +kernel : ∀ t : Fin grid1.N, cond1_0 (grid1.coords t) ↔ t.val % 8 = 0)
/-- The accumulator is copied to the output block exactly at the last tile of a batch entry. -/
theorem hcond1_1 : ∀ t : Fin cfg1.N, cond1_1 (grid1.coords t) ↔ t.val % 8 = 7 :=
  (by decide +kernel : ∀ t : Fin grid1.N, cond1_1 (grid1.coords t) ↔ t.val % 8 = 7)

/-- The seven input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last tile of a batch entry the output window is idle (the body stores nothing into it) -/
theorem idleAt1_7 : ∀ t : Fin cfg1.N, ¬cond1_1 (grid1.coords t) → cfg1.idle 7 (grid1.coords t) = true := by decide +kernel
/-- and the pipeline does not write its block back; -/
theorem noFlush1_7 : ∀ t : Fin cfg1.N, ¬cond1_1 (grid1.coords t) → (cfg1.win 7).flush t = false := by decide +kernel
/-- at the last tile it is live. -/
theorem liveAt1_7 : ∀ t : Fin cfg1.N, cond1_1 (grid1.coords t) → cfg1.idle 7 (grid1.coords t) = false := by decide +kernel

set_option maxHeartbeats 1000000 in
/-- The FIRST tile of a batch entry (the reset taken, the copy-out not). Whatever the accumulator held, the body zeroes
    it and adds the tile's sum: it ends at the step over the zero vector. Inputs and the output buffer come back untouched. -/
theorem run1_A (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : cond1_0 i) (hc1 : ¬cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (xi7 : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare (k1_pay1 (k1_pay4 x2) (k1_pay5 x0) (k1_pay6 x1) (k1_pay7 x5) (k1_pay8 x6) (k1_pay9 x1 x4) (k1_pay10 x2 x0 x3) (k1_pay3 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  iexists _; isplitr
  swap; · iexact HS
  ipureintro
  rw [View.read_writes_eq_canon _ _ _ (fun y => ⟨_, List.mem_cons.mpr (Or.inl rfl), View.mem_set_unit_zero zero_off2 inb_S1x1_S1x1_0_0 y⟩), View.canon_cons_unit_zero zero_off2]
  sl_unfold_words
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3, View.readCov_unit_zero (S := S1x1) _ zero_off2]

set_option maxHeartbeats 1000000 in
/-- A MIDDLE tile of a batch entry (neither conditional taken). On whole buffers holding the seven input blocks `x0 … x6`,
    the output block's buffer at `xi7` and the accumulator at `a`, the body runs and hands back the inputs and the
    output buffer untouched and the accumulator at `a` plus the tile's sum of squared cosine differences. -/
theorem run1_B (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : ¬cond1_0 i) (hc1 : ¬cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (xi7 : Vec F S1x1x1 .f32) (a : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare (k1_pay1 (k1_pay4 x2) (k1_pay5 x0) (k1_pay6 x1) (k1_pay7 x5) (k1_pay8 x6) (k1_pay9 x1 x4) (k1_pay10 x2 x0 x3) a)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  iexists _; isplitr
  swap; · iexact HS
  ipureintro
  rw [View.read_writes_eq_canon _ _ _ (fun y => ⟨_, List.mem_singleton_self _, View.mem_set_unit_zero zero_off2 inb_S1x1_S1x1_0_0 y⟩), View.canon_unit_zero zero_off2]
  sl_unfold_words
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3]

set_option maxHeartbeats 1000000 in
/-- The LAST tile of a batch entry (the copy-out taken, the reset not). The accumulator goes from `a` to `a` plus the
    tile's sum, and the output block's buffer, whatever it held, ends at that accumulator as a 1×1×1 block. -/
theorem run1_C (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : ¬cond1_0 i) (hc1 : cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (a : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 (k1_pay1 (k1_pay4 x2) (k1_pay5 x0) (k1_pay6 x1) (k1_pay7 x5) (k1_pay8 x6) (k1_pay9 x1 x4) (k1_pay10 x2 x0 x3) a))
            ∗ owns (c : Thread nD τ) arg10 fullShare (k1_pay1 (k1_pay4 x2) (k1_pay5 x0) (k1_pay6 x1) (k1_pay7 x5) (k1_pay8 x6) (k1_pay9 x1 x4) (k1_pay10 x2 x0 x3) a)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words
    rw [View.read_writes_eq_canon _ _ _ (fun y => ⟨_, List.mem_singleton_self _, View.mem_set_unit_zero zero_off3 inb_S1x1x1_S1x1x1_0_0_0 y⟩), View.canon_unit_zero zero_off3]
    simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3, View.readCov_unit_zero (S := S1x1) _ zero_off2]
  iexists _; isplitr
  swap; · iexact HS
  ipureintro
  sl_unfold_words
  rw [View.read_writes_eq_canon _ _ _ (fun y => ⟨_, List.mem_singleton_self _, View.mem_set_unit_zero zero_off2 inb_S1x1_S1x1_0_0 y⟩), View.canon_unit_zero zero_off2]
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3]

end Cert.Kernel.Hand

end
-- ==== Proof.K.R1Body.lean ====
/-
  Second pallas_call (per-voxel cosine similarities, sum of squared differences): the body obligation of its pipeline.
  At every grid point (batch entry b, tile j) the kernel body, handed the region's invariant and each window's current
  staging buffer at what it then holds, runs to the invariant at the next point and leaves every buffer at what the
  proof data says. The seven input buffers hold their blocks at every point, fetched there or not (a block not fetched
  has not moved); the 1×1 accumulator in scratch memory goes from what the previous point left to that plus the tile's
  sum of squared cosine differences, starting again from zero at tile 0; at tile 7 the 1×1×1 output buffer receives the
  accumulator, and at the other tiles it is idle and handed back as found. The core's other scoped buffers and its
  generator register are carried along unopened. Three cases by the tile coordinate: 0, 1 … 6, 7.
-/
import proofs.«426160_j54812372632011_3_alg».proof.Proof.K.R1Data
import proofs.«426160_j54812372632011_3_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered. -/
variable (V : (c : Dev nD) → (b : Ref sig .tc) → Buf (Elt F) ((c : Thread nD τ).loc b))

/-! ## The input buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant, point by point -/

/-- What the launch hands the region, with the accumulator's buffer singled out as a memref owned at some contents and
    the core's other scoped buffers left unopened. -/
theorem PhiA1_eq (c : Dev nD) :
    (Pipeline.ΦA spec1 c : sProp 𝕄)
      = iprop(iprop(iprop(∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

theorem Phi1_zero (c : Dev nD) (n : ℕ) (h : n ≤ cfg1.N) (hz : n = 0) : Phi1 V c n h = Pipeline.ΦA spec1 c := by
  subst hz; rfl

/-- After point `n`: the accumulator at that point's value. -/
theorem Phi1_succ (c : Dev nD) (n : ℕ) (hn : n < cfg1.N) :
    Phi1 V c (n + 1) hn = iprop(owns (c : Thread nD τ) scM1_0 fullShare (acc1 V c n hn) ∗ Pipeline.scopedRestBut (Ix := Unit) (Name := ℕ) (U := UR sig nD τ) (Lvl := ℕ) (Val := Elt F) spec1 c [cc1_scratch0] ∗ (∃ r, prngReg c r)) := rfl

/-- Before a point that is not the first: the accumulator at what the point before left. -/
theorem Phi1_pos (c : Dev nD) (n : ℕ) (h : n ≤ cfg1.N) (hz : n ≠ 0) :
    Phi1 V c n h = iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- At the first tile of a batch entry the accumulator restarts from zero; -/
theorem acc1_reset (c : Dev nD) (t : Fin cfg1.N) (h0 : t.val % 8 = 0) :
    acc1 V c t.val t.isLt = step1 V c t (k1_pay3 (F := F)) := by
  obtain ⟨n, hn⟩ := t
  cases n with
  | zero => rfl
  | succ n => exact (if_pos h0).trans rfl

/-- at every other tile it continues from what the point before left. -/
theorem acc1_step (c : Dev nD) (t : Fin cfg1.N) (h0 : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body obligation, at a generic point -/

/-- Each window's current staging memref at point `t`. -/
abbrev ms1_0 (t : Fin cfg1.N) : Memref sig .tc .vmem S1x64x16384 .f32 := win1_0.stage (cfg1.slots t 0)
abbrev ms1_1 (t : Fin cfg1.N) : Memref sig .tc .vmem S1x64x16384 .f32 := win1_1.stage (cfg1.slots t 1)
abbrev ms1_2 (t : Fin cfg1.N) : Memref sig .tc .vmem S1x1x16384 .i32 := win1_2.stage (cfg1.slots t 2)
abbrev ms1_3 (t : Fin cfg1.N) : Memref sig .tc .vmem S1x5x64 .f32 := win1_3.stage (cfg1.slots t 3)
abbrev ms1_4 (t : Fin cfg1.N) : Memref sig .tc .vmem S1x5x64 .f32 := win1_4.stage (cfg1.slots t 4)
abbrev ms1_5 (t : Fin cfg1.N) : Memref sig .tc .vmem S1x5x1 .f32 := win1_5.stage (cfg1.slots t 5)
abbrev ms1_6 (t : Fin cfg1.N) : Memref sig .tc .vmem S1x5x1 .f32 := win1_6.stage (cfg1.slots t 6)
abbrev ms1_7 (t : Fin cfg1.N) : Memref sig .tc .vmem S1x1x1 .f32 := win1_7.stage (cfg1.slots t 7)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point, by the tile coordinate. The invariant hands over the accumulator (at anything before the very
    first point, at the previous point's value afterwards) and takes it back at this point's value; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [acc1_reset V c t h0]; unfold step1
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi1_castSucc V c t, Phi1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [Phi1_castSucc V c t, Phi1_pos V c _ _ hz]
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [acc1_step V c t h0]; unfold step1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [acc1_step V c t h0]; unfold step1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-! ## The three facts the region's run takes -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 V c).Φ 0 = Phi1 V c 0 (Nat.zero_le _) from rfl, Phi1_zero V c 0 _ rfl]
  try exact Idealize.SL.BI.Entails.refl _

/-- After any point but the first the invariant gives back what the launch handed over: the accumulator's value is
    forgotten. -/
theorem Phi1_out (c : Dev nD) (t : Fin (cfg1.N + 1)) (ht : t.val ≠ 0) : (dat1 (F := F) V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨HS, HR, Hg⟩
  isplitl [HS HR]
  · isplitl [HS]
    · iexists _; iexact HS
    iexact HR
  iexact Hg

/-- The same after the last point. -/
theorem hout1 (c : Dev nD) : (dat1 (F := F) V c).Φ (Fin.last cfg1.N) ⊢ (Pipeline.ΦA spec1 c : sProp 𝕄) :=
  Phi1_out V c _ (by rw [Fin.val_last]; have : cfg1.N = 16 := N_1; omega)

end Cert.Kernel.Hand

end
-- ==== Proof.K.Full.lean ====
/-
  The idealized kernel program's run, assembled: the run over the twelve items takes the two pallas_calls' body obligations
  and invariant hand-overs as hypotheses; here they are supplied.
-/
import proofs.«426160_j54812372632011_3_alg».proof.Proof.K.Run
import proofs.«426160_j54812372632011_3_alg».proof.Proof.K.R0Body
import proofs.«426160_j54812372632011_3_alg».proof.Proof.K.R1Body

noncomputable section

namespace Cert.Kernel.Hand

open Cert.Kernel Cert.Kernel.Gen
open Idealize.ShloMosaic Idealize.ShloMosaic.TcCoe Idealize.SL.Sem

variable {F : FTy → Type} [FloatOps F]

/-- Every weakly fair execution of @main ends with the result buffer at the boundary contents' last value and the three
    arguments as launched. -/
theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v64) = W12 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_all (fun V c => body_obligation0 V c) (fun V c => hin0 V c) (fun V c => hout0 V c)
    (fun V c => body_obligation1 V c) (fun V c => hin1 V c) (fun V c => hout1 V c) m ρ

/-- The frame: the same run, the result forgotten. -/
theorem frame_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_full m ρ)

end Cert.Kernel.Hand

end
-- ==== Proof.KI.R0Data.lean ====
/-
  First pallas_call (per-class channel sums), the pure side of its frame. The grid is (batch b, tile j) with eight
  tiles of 16384 voxels per batch entry. Two 64×5 accumulators live in scratch memory across the eight tiles of one
  batch entry: they are zeroed at tile 0, every tile adds the product of the 64×16384 feature block with the
  transposed one-hot 5×16384 block of the tile's labels, and at tile 7 they are copied to the output blocks.
  Here: the blocks the body reads (`iblk0`), the accumulator pair after each grid point by recursion on the point
  (`acc0`), the region's resource invariant (`Phi0`) and the proof data (`dat0`).
-/
import proofs.«426160_j54812372632011_3_alg».proof.Proof.Gen.KernelIdeal.Launch
import proofs.«426160_j54812372632011_3_alg».proof.Proof.Gen.KernelIdeal.Skeleton
import proofs.«426160_j54812372632011_3_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: every definition below is a function of it. -/
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators (student features, teacher features) after the body at grid position `n`: at the first tile of
    a batch entry (`n % 8 = 0`) the tile's product added to zero, otherwise added to what position `n - 1` left. -/
def acc0 (c : Dev nD) : (n : ℕ) → n < cfg0.N → Vec F S64x5 .f32 × Vec F S64x5 .f32
  | 0, hn => (k0_pay6 (iblk0 V c 2 ⟨0, hn⟩) (iblk0 V c 0 ⟨0, hn⟩) (k0_pay3 (F := F)),
              k0_pay7 (iblk0 V c 2 ⟨0, hn⟩) (iblk0 V c 1 ⟨0, hn⟩) (k0_pay4 (F := F)))
  | n + 1, hn =>
    if (n + 1) % 8 = 0 then
      (k0_pay6 (iblk0 V c 2 ⟨n + 1, hn⟩) (iblk0 V c 0 ⟨n + 1, hn⟩) (k0_pay3 (F := F)),
       k0_pay7 (iblk0 V c 2 ⟨n + 1, hn⟩) (iblk0 V c 1 ⟨n + 1, hn⟩) (k0_pay4 (F := F)))
    else
      (k0_pay6 (iblk0 V c 2 ⟨n + 1, hn⟩) (iblk0 V c 0 ⟨n + 1, hn⟩) (acc0 c n (Nat.lt_of_succ_lt hn)).1,
       k0_pay7 (iblk0 V c 2 ⟨n + 1, hn⟩) (iblk0 V c 1 ⟨n + 1, hn⟩) (acc0 c n (Nat.lt_of_succ_lt hn)).2)

/-- The two scratch operands as whole memrefs. -/
abbrev scM0_0 : Memref sig .tc .vmem S64x5 .f32 := Memref.whole cc0_scratch0
abbrev scM0_1 : Memref sig .tc .vmem S64x5 .f32 := Memref.whole cc0_scratch1

/-- The region's invariant before grid position `n`: before the first point what the launch hands over (every scratch
    at anything, the generator register); afterwards both accumulators at what position `n - 1` left in them, beside the core's other scoped buffers (the second
    call's staging and scratch buffers), which this call never opens. -/
def Phi0 (c : Dev nD) : (n : ℕ) → n ≤ cfg0.N → sProp 𝕄
  | 0, _ => Pipeline.ΦA spec0 c
  | n + 1, hn => iprop(owns (c : Thread nD τ) scM0_0 fullShare (acc0 V c n hn).1
      ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

/-- The proof data of the first pallas_call on core `c`: the arrays as the region finds them; after the body each input
    window's buffer still holds its block, and each output window's buffer holds the corresponding accumulator (this is
    consulted only at the last tile of a batch entry, where the body stores it and the pipeline writes it back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (acc0 V c t.val t.isLt).1
    | ⟨4, _⟩ => k0_pay2 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (acc0 V c t.val t.isLt).1 := by dsimp only [dat0]
theorem after0_4 (c : Dev nD) (t : Fin cfg0.N) : (dat0 V c).after 4 t = k0_pay2 (acc0 V c t.val t.isLt).2 := by dsimp only [dat0]

end Cert.KernelIdeal.Hand

end
-- ==== Proof.KI.R1Data.lean ====
/-
  Second pallas_call (per-voxel cosine similarities and the sum of squared differences), the pure side of its frame.
  The grid is again (batch b, tile j), eight tiles of 16384 voxels per batch entry. One 1×1 accumulator lives in
  scratch memory across the eight tiles of a batch entry: zeroed at tile 0; every tile adds the sum over its voxels of
  (cos_S − cos_T)², each cosine being the class-selected dot product of the voxel's features with the class means,
  divided by max(‖features‖·‖class mean‖, ε); at tile 7 the accumulator is copied to the 1×1×1 output block.
  Here: the blocks the body reads (`iblk1`), the accumulator after each grid point by recursion on the point
  (`acc1`), the region's resource invariant (`Phi1`) and the proof data (`dat1`).
-/
import proofs.«426160_j54812372632011_3_alg».proof.Proof.Gen.KernelIdeal.Launch
import proofs.«426160_j54812372632011_3_alg».proof.Proof.Gen.KernelIdeal.Skeleton
import proofs.«426160_j54812372632011_3_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: every definition below is a function of it. -/
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one tile adds to the accumulator `a`: the body's arithmetic over the point's seven input blocks. -/
def step1 (c : Dev nD) (t : Fin cfg1.N) (a : Vec F S1x1 .f32) : Vec F S1x1 .f32 :=
  k1_pay1 (k1_pay4 (iblk1 V c 2 t)) (k1_pay5 (iblk1 V c 0 t)) (k1_pay6 (iblk1 V c 1 t)) (k1_pay7 (iblk1 V c 5 t)) (k1_pay8 (iblk1 V c 6 t))
    (k1_pay9 (iblk1 V c 1 t) (iblk1 V c 4 t)) (k1_pay10 (iblk1 V c 2 t) (iblk1 V c 0 t) (iblk1 V c 3 t)) a

/-- The accumulator after the body at grid position `n`: at the first tile of a batch entry (`n % 8 = 0`) the tile's sum
    added to zero, otherwise added to what position `n - 1` left. -/
def acc1 (c : Dev nD) : (n : ℕ) → n < cfg1.N → Vec F S1x1 .f32
  | 0, hn => step1 V c ⟨0, hn⟩ (k1_pay3 (F := F))
  | n + 1, hn =>
    if (n + 1) % 8 = 0 then step1 V c ⟨n + 1, hn⟩ (k1_pay3 (F := F))
    else step1 V c ⟨n + 1, hn⟩ (acc1 c n (Nat.lt_of_succ_lt hn))

/-- The scratch operand as a whole memref. -/
abbrev scM1_0 : Memref sig .tc .vmem S1x1 .f32 := Memref.whole cc1_scratch0

/-- The region's invariant before grid position `n`: before the first point what the launch hands over (the scratch at
    anything, the generator register); afterwards the accumulator at what position `n - 1` left in it, beside the core's other scoped buffers (the first call's
    staging and scratch buffers), which this call never opens. -/
def Phi1 (c : Dev nD) : (n : ℕ) → n ≤ cfg1.N → sProp 𝕄
  | 0, _ => Pipeline.ΦA spec1 c
  | n + 1, hn => iprop(owns (c : Thread nD τ) scM1_0 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data of the second pallas_call on core `c`: the arrays as the region finds them; after the body each input
    window's buffer still holds its block, and the output window's buffer holds the accumulator (consulted only at the
    last tile of a batch entry, where the body stores it and the pipeline writes it back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (acc1 V c t.val t.isLt) := by dsimp only [dat1]

end Cert.KernelIdeal.Hand

end
-- ==== Proof.KI.Fold.lean ====
/-
  What the TensorCore's buffers hold at each boundary between two items of the program: the launch memory, then each
  stretch of host operations applied in order, and across each of the two pallas_calls the call's arrays replaced by what its
  write-backs leave (the inputs as entered, each output array the blocks written back at the last tile of every batch
  entry), every other buffer as entered.
-/
import proofs.«426160_j54812372632011_3_alg».proof.Proof.KI.R0Data
import proofs.«426160_j54812372632011_3_alg».proof.Proof.KI.R1Data
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After each of the seven stretches of host operations before the first pallas_call (the label upsampling, the reshapes). -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- The same read at the TensorCore's references: what the first pallas_call finds. -/
abbrev V7 (c : Dev nD) (b : Ref sig .tc) : Buf (Elt F) ((c : Thread nD τ).loc b) := W7 m c b
/-- After the first pallas_call: its arrays at what the pipeline leaves, every other buffer as entered. -/
def W8 (c : Dev nD) : Valuation τ sig (Elt F) :=
  Pipeline.withArrays spec0 c (W7 m c) fun w => (dat0 (V7 m) c).arrAt w cfg0.N
/-- After the two stretches of host operations between the calls (counts, class means, their norms, the transposes). -/
abbrev W9 (c : Dev nD) : Valuation τ sig (Elt F) := StableHlo.after hostOps1 (W8 m c)
abbrev W10 (c : Dev nD) : Valuation τ sig (Elt F) := StableHlo.after hostOps1_1 (W9 m c)
/-- The same read at the TensorCore's references: what the second pallas_call finds. -/
abbrev V10 (c : Dev nD) (b : Ref sig .tc) : Buf (Elt F) ((c : Thread nD τ).loc b) := W10 m c b
/-- After the second pallas_call. -/
def W11 (c : Dev nD) : Valuation τ sig (Elt F) :=
  Pipeline.withArrays spec1 c (W10 m c) fun w => (dat1 (V10 m) c).arrAt w cfg1.N
/-- After the last stretch of host operations (the sum over the batch, the division by the voxel count, the weight). -/
abbrev W12 (c : Dev nD) : Valuation τ sig (Elt F) := StableHlo.after hostOps2 (W11 m c)

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb

end Cert.KernelIdeal.Hand

end
-- ==== Proof.KI.Run.lean ====
/-
  The whole program from the launch to the return. The program is twelve items in a row: seven stretches of host
  operations (the label upsampling and the reshapes), the first pallas_call (per-class channel sums), two stretches
  (counts, class means, their norms, the transposes), the second pallas_call (the per-voxel cosine differences
  squared and summed), and one last stretch (the sum over the batch, the division by the voxel count, the weight).
  Between two items a TensorCore holds every unscoped buffer whole at the contents the fold of the boundary gives,
  beside its generator register and an account that owes nothing. A host stretch moves the contents by the function
  its operations compute; a pallas_call takes its windows' arrays out of the unscoped buffers, runs its pipeline under
  the region's invariant, and puts the arrays back at what the write-backs leave. Given, for each of the two regions,
  the body's obligation at every grid point and the two entailments tying the region's invariant at the first and
  after the last point to the class invariant, every fair execution terminates, the result buffer ends at the last
  fold's contents and the three argument arrays end as launched.
-/
import proofs.«426160_j54812372632011_3_alg».proof.Proof.KI.Fold
import proofs.«426160_j54812372632011_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no item touches keeps its launch contents

A reference that no host stretch writes and that is no window's array of either pallas_call is carried unchanged
through all twelve boundaries. -/

theorem W12_untouched (c : Dev nD) (r : Ref sig .tc)
    (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W)
    (ha0 : ∀ w, Pipeline.arrRef spec0 w ≠ r)
    (h8 : r ∉ hostOps1_W) (h9 : r ∉ hostOps1_1_W)
    (ha1 : ∀ w, Pipeline.arrRef spec1 w ≠ r)
    (h11 : r ∉ hostOps2_W) :
    W12 m c (Proc.devRef .tc r) = m ((c : Thread nD τ).loc r) :=
  calc W12 m c (Proc.devRef .tc r)
    _ = W11 m c (Proc.devRef .tc r) := StableHlo.after_of_writes_sub hostOps2 _ hostOps2_writes h11
    _ = W10 m c (Proc.devRef .tc r) := W11_of_ne m c r ha1
    _ = W9 m c (Proc.devRef .tc r) := StableHlo.after_of_writes_sub hostOps1_1 _ hostOps1_1_writes h9
    _ = W8 m c (Proc.devRef .tc r) := StableHlo.after_of_writes_sub hostOps1 _ hostOps1_writes h8
    _ = W7 m c (Proc.devRef .tc r) := W8_of_ne m c r ha0
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- The three argument arrays: no host operation writes one, no window of either call stages one. -/
theorem W12_main_arg0 (c : Dev nD) : W12 m c (Proc.devRef .tc main_arg0) = m ((c : Thread nD τ).loc main_arg0) :=
  W12_untouched m c main_arg0 (by decide) (by decide) (by decide) (by decide) (by decide) (by decide) (by decide)
    (by decide) (by decide) (by decide) (by decide) (by decide)
theorem W12_main_arg1 (c : Dev nD) : W12 m c (Proc.devRef .tc main_arg1) = m ((c : Thread nD τ).loc main_arg1) :=
  W12_untouched m c main_arg1 (by decide) (by decide) (by decide) (by decide) (by decide) (by decide) (by decide)
    (by decide) (by decide) (by decide) (by decide) (by decide)
theorem W12_main_arg2 (c : Dev nD) : W12 m c (Proc.devRef .tc main_arg2) = m ((c : Thread nD τ).loc main_arg2) :=
  W12_untouched m c main_arg2 (by decide) (by decide) (by decide) (by decide) (by decide) (by decide) (by decide)
    (by decide) (by decide) (by decide) (by decide) (by decide)

/-! ## What a region's exit valuation is, in the form the put-back lemma wants -/

theorem arrs0 (c : Dev nD) (w : Fin cfg0.W) :
    (dat0 (V7 m) c).arrAt w cfg0.N = W8 m c (Proc.devRef .tc (Pipeline.arrRef spec0 w)) := (W8_arr m c w).symm
theorem restOf0 (c : Dev nD) (b : Ref sig .tc) (hb : b ∉ Finset.univ.image (Pipeline.arrRef spec0)) :
    W8 m c (Proc.devRef .tc b) = W7 m c (Proc.devRef .tc b) :=
  W8_of_ne m c b fun w e => hb (Finset.mem_image.mpr ⟨w, Finset.mem_univ _, e⟩)
theorem arrs1 (c : Dev nD) (w : Fin cfg1.W) :
    (dat1 (V10 m) c).arrAt w cfg1.N = W11 m c (Proc.devRef .tc (Pipeline.arrRef spec1 w)) := (W11_arr m c w).symm
theorem restOf1 (c : Dev nD) (b : Ref sig .tc) (hb : b ∉ Finset.univ.image (Pipeline.arrRef spec1)) :
    W11 m c (Proc.devRef .tc b) = W10 m c (Proc.devRef .tc b) :=
  W11_of_ne m c b fun w e => hb (Finset.mem_image.mpr ⟨w, Finset.mem_univ _, e⟩)

/-! ## The proof data of the two pipelines and what rides beside the buffers -/

/-- Neither pallas_call has a prefetched table. -/
abbrev adm₀ : (p : Fin 2) → (pcfgs (F := F) p).Adm := fun p => (cfgs p).toPCfg_adm
/-- Pipeline 0 at what the first call finds, pipeline 1 at what the second finds. -/
def pdats : (p : Fin 2) → (c : Dev nD) → Dat τ (Elt F) Unit ℕ (UR sig nD τ) ℕ (Pipeline.pin (pcfgs (F := F)) adm₀ p) c
  | ⟨0, _⟩ => fun c => dat0 (V7 m) c
  | ⟨1, _⟩ => fun c => dat1 (V10 m) c
abbrev 𝒱₀ : Variants := Variants.none
/-- One device, nothing owed to another core: no level is assigned. -/
abbrev L₀ : GSem nD τ sig → Finset Unit := fun _ => ∅
abbrev lv₀ : GSem nD τ sig → Unit → ℕ := fun _ _ => 0
/-- Beside the buffers at every boundary: the generator register at some state, and an account owing nothing. -/
abbrev Rest (c : Dev nD) : sProp 𝕄 :=
  iprop((∃ r, prngReg c r) ∗ ∃ W, owes (c : Thread nD τ) (0 : CellTallies nD τ sig Unit) W)
/-- The thread state at a boundary whose contents are given per core. -/
abbrev At (W : Dev nD → Valuation τ sig (Elt F)) (c : Dev nD) : sProp 𝕄 :=
  iprop(StableHlo.held (c : Thread nD τ) (Pipeline.ucRefs τ sig) (W c) ∗ Rest c)

/-- A stretch of host operations from given boundary contents: it ends at the contents its operations compute. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two pallas_calls as segments -/

set_option backward.isDefEq.respectTransparency.types false in
/-- The first pallas_call, entered at the seventh boundary's contents and left at the eighth's. Its five arrays are
    split out of the unscoped buffers and put back at what the pipeline leaves; the generator register goes into the
    class invariant and comes back; the kernel has no semaphore of its own and owes nothing. -/
def reg0
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄)) :
    Pipeline.RegionSeg (pcfgs (F := F)) adm₀ (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (hb0 (V7 m) c).loose
  hwaits := Pipeline.hwaits_of_owed_zero _ _ _ _ L₀ lv₀ 0 fun _ _ => rfl
  pre := At (W7 m)
  post := At (W8 m)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm₀ (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi0 (V7 m) c)
    unfold Pipeline.ΦA
    iintro ⟨Hp, -, Hr⟩
    isplitl [Hr]; · iexact Hr
    iexact Hp
  hout c := by
    refine BIBase.Entails.trans (ho0 (V7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm₀ (Ix := Unit) (Name := ℕ) (U := UR sig nD τ) (Lvl := ℕ)
      launch0.win launch0.arr_whole c (pdats m) ((pdats m 0 c).share_full fun _ => rfl)
      (V7 m c) (fun b => W8 m c b) ((pdats m 0 c).arrAt · cfg0.N) (arrs0 m c) (restOf0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call, entered at the tenth boundary's contents and left at the eleventh's: eight arrays, the
    same protocol. -/
def reg1
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄)) :
    Pipeline.RegionSeg (pcfgs (F := F)) adm₀ (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (hb1 (V10 m) c).loose
  hwaits := Pipeline.hwaits_of_owed_zero _ _ _ _ L₀ lv₀ 1 fun _ _ => rfl
  pre := At (W10 m)
  post := At (W11 m)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm₀ (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 (V10 m) c)
    unfold Pipeline.ΦA
    iintro ⟨Hp, -, Hr⟩
    isplitl [Hr]; · iexact Hr
    iexact Hp
  hout c := by
    refine BIBase.Entails.trans (ho1 (V10 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₀ (Ix := Unit) (Name := ℕ) (U := UR sig nD τ) (Lvl := ℕ)
      launch1.win launch1.arr_whole c (pdats m) ((pdats m 1 c).share_full fun _ => rfl)
      (V10 m c) (fun b => W11 m c b) ((pdats m 1 c).arrAt · cfg1.N) (arrs1 m c) (restOf1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its twelve segments, and the launch -/

/-- The items in program order, each host stretch from its boundary's contents. -/
abbrev items
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄)) :
    List (Pipeline.Seg (pcfgs (F := F)) adm₀ (pdats m) () defs₀ 𝒱₀ L₀ lv₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m hb0 hi0 ho0),
    .host (hseg hostOps1 hostOps1_sub hostOps1_fresh (W8 m)),
    .host (hseg hostOps1_1 hostOps1_1_sub hostOps1_1_fresh (W9 m)),
    .region (reg1 m hb1 hi1 ho1),
    .host (hseg hostOps2 hostOps2_sub hostOps2_fresh (W11 m)) ]

/-- The last thread state without the account: every unscoped buffer at the last fold's contents, the generator
    register somewhere. -/
abbrev Tend (c : Dev nD) : sProp 𝕄 :=
  iprop(StableHlo.held (c : Thread nD τ) (Pipeline.ucRefs τ sig) (W12 m c) ∗ ∃ r, prngReg c r)

set_option backward.isDefEq.respectTransparency.types false in
/-- From any launch memory with zero counters every fair execution of the program terminates; at the end every
    unscoped buffer of a core holds the last fold's contents. -/
theorem run_uc
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm₀ (pdats m) () cellOf_inj emb₁ defs₀ 𝒱₀ L₀ lv₀ m ρ main
    (items m hb0 hi0 ho0 hb1 hi1 ho1)
    (fun c Q => by
      rewrite [main_chain c, Pipeline.Seg.run_eq_chain,
        show (items m hb0 hi0 ho0 hb1 hi1 ho1).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ Rest c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE RUN. Given the two regions' body obligations and the entailments between each region's invariant at its
    ends and the class invariant: every fair execution from any launch memory with zero counters terminates; the
    result buffer ends at the last fold's contents, and the three argument arrays end as launched. -/
theorem run_all
    (hb0 : ∀ V (c : Dev nD), BodyObligation (dat0 (F := F) V c) (defs₀ (F := F)) Variants.none () Set.univ)
    (hi0 : ∀ V (c : Dev nD), (Pipeline.ΦA spec0 c : sProp 𝕄) ⊢ (dat0 (F := F) V c).Φ 0)
    (ho0 : ∀ V (c : Dev nD), (dat0 (F := F) V c).Φ (Fin.last cfg0.N) ⊢ (Pipeline.ΦA spec0 c : sProp 𝕄))
    (hb1 : ∀ V (c : Dev nD), BodyObligation (dat1 (F := F) V c) (defs₀ (F := F)) Variants.none () Set.univ)
    (hi1 : ∀ V (c : Dev nD), (Pipeline.ΦA spec1 c : sProp 𝕄) ⊢ (dat1 (F := F) V c).Φ 0)
    (ho1 : ∀ V (c : Dev nD), (dat1 (F := F) V c).Φ (Fin.last cfg1.N) ⊢ (Pipeline.ΦA spec1 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v64) = W12 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩) (fun r h c =>
    ⟨h c _ (mem_uc main_v64 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c)⟩)
    (run_uc m hb0 hi0 ho0 hb1 hi1 ho1 ρ)

/-- info: 'Cert.KernelIdeal.Hand.run_all' depends on axioms: [propext, Classical.choice, Quot.sound] -/
#guard_msgs in #print axioms run_all

end Cert.KernelIdeal.Hand

end
-- ==== Proof.KI.R0Runs.lean ====
/-
  First pallas_call (per-class channel sums): what the three cases of its body share. The body branches twice on the tile
  coordinate: at the first tile of a batch entry it zeroes both accumulators, at the last it copies them to the output
  blocks. Here: both conditions in closed form over the grid, the points at which the two output windows are idle, the
  launch's invariant opened at the two accumulators, and the fact that a store filling a whole buffer leaves its payload.
-/
import proofs.«426160_j54812372632011_3_alg».proof.Proof.KI.R0Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first conditional of the body (the accumulators are zeroed): its condition as the body computes it from the tile
    coordinate. -/
abbrev cond0_0 (i : grid0.Coords) : Prop :=
  (Scalar.cmpi .ne (Scalar.extui (Scalar.cmpi .eq (BitVec.ofNat 32 (i 1).val) 0#32)) 0#32) = 1#1
/-- It holds exactly at the first tile of a batch entry. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (the accumulators are copied to the output blocks): its condition. -/
abbrev cond0_1 (i : grid0.Coords) : Prop := k0_cond2 i = 1#1
/-- It holds exactly at the last tile of a batch entry. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile of a batch entry the two output windows are idle and are not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The launch's invariant, opened at the two accumulators -/

/-- The other scoped buffers of the core (the second call's staging and scratch buffers), which this call never opens. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The core's scoped buffers that are no staging buffer of this call, split at the call's two accumulators: each whole at
    some contents, the remainder unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ rest0 (F := F) c) :=
  Pipeline.scopedRest_split_of_list spec0 c [cc0_scratch0, cc0_scratch1] (by decide) (by decide)

/-- What the launch hands the region holds both accumulators at some contents, the other scoped buffers and the generator
    register; -/
theorem PhiA0_open (c : Dev nD) :
    (Pipeline.ΦA spec0 c : sProp 𝕄)
      ⊢ iprop((∃ d, owns (c : Thread nD τ) scM0_0 fullShare d) ∗ (∃ d, owns (c : Thread nD τ) scM0_1 fullShare d)
          ∗ rest0 (F := F) c ∗ (∃ r, prngReg c r)) := by
  unfold Pipeline.ΦA
  rw [scopedRest0_split]
  simp only [scM0_0, scM0_1, owns_whole]
  iintro ⟨⟨⟨H0, H1⟩, Hr⟩, Hg⟩
  isplitl [H0]; · iexact H0
  isplitl [H1]; · iexact H1
  isplitl [Hr]; · iexact Hr
  iexact Hg

/-- and conversely. -/
theorem PhiA0_close (c : Dev nD) :
    iprop((∃ d, owns (c : Thread nD τ) scM0_0 fullShare d) ∗ (∃ d, owns (c : Thread nD τ) scM0_1 fullShare d)
          ∗ rest0 (F := F) c ∗ (∃ r, prngReg c r))
      ⊢ (Pipeline.ΦA spec0 c : sProp 𝕄) := by
  unfold Pipeline.ΦA
  rw [scopedRest0_split]
  simp only [scM0_0, scM0_1, owns_whole]
  iintro ⟨H0, H1, Hr, Hg⟩
  isplitr [Hg]
  · isplitr [Hr]
    · isplitl [H0]; · iexact H0
      iexact H1
    · iexact Hr
  · iexact Hg

/-! ## A whole-buffer store, last, leaves its payload -/

/-- After a list of stores whose last one fills the whole buffer (the unit rectangle at zero offsets of the buffer's own
    sizes), the buffer reads that store's payload, whatever it held and whatever was stored before. -/
theorem read_writes_whole_last {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load of a whole buffer (the unit rectangle at zero offsets of the buffer's own sizes) reads its contents. -/
theorem readAt_whole {S : Shape} {e : EltTy} (m : Memref sig .tc .vmem S e) (hm : m.IsWhole) {off : Fin S.rank → Nat}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.Hand

end
-- ==== Proof.KI.R0RunA.lean ====
/-
  First pallas_call (per-class channel sums): the body's run at the first tile of a batch entry.
  The first conditional is taken and the second is not: both accumulators are stored with zeros, then each is loaded (the
  load reads the zeros just stored), the tile's product of the feature block with the transposed one-hot block of the labels
  is added, and the sum is stored back; the output blocks are not touched.
-/
import proofs.«426160_j54812372632011_3_alg».proof.Proof.KI.R0Runs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at `xi3`, `xi4`, the accumulators at
    anything — the body at a first tile runs to a state that differs only in the accumulators: each holds the tile's product
    added to zero. -/
theorem run0_A (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : cond0_0 i) (hc1 : ¬cond0_1 i)
    (x0 x1 : Vec F S1x64x16384 .f32) (x2 : Vec F S1x1x16384 .i32) (xi3 xi4 : Vec F S1x64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare xi3
        ∗ owns (c : Thread nD τ) arg6 fullShare xi4
        ∗ (∃ d, owns (c : Thread nD τ) arg7 fullShare d)
        ∗ (∃ d, owns (c : Thread nD τ) arg8 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare (k0_pay6 x2 x0 (k0_pay3 (F := F)))
            ∗ owns (c : Thread nD τ) arg8 fullShare (k0_pay7 x2 x1 (k0_pay4 (F := F)))) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%dfs0, %fs0, -, HS0⟩, ⟨%dfs1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_run_names
    rw [read_writes_whole_last _ _ hz2, readAt_whole arg4 harg4 hz3, readAt_whole arg2 harg2 hz3, View.readCov_unit_zero _ hz2]
  · iexists _; isplitr
    swap; · iexact HS1
    ipureintro
    sl_unfold_run_names
    rw [read_writes_whole_last _ _ hz2, readAt_whole arg4 harg4 hz3, readAt_whole arg3 harg3 hz3, View.readCov_unit_zero _ hz2]

end Cert.KernelIdeal.Hand

end
-- ==== Proof.KI.R0RunB.lean ====
/-
  First pallas_call (per-class channel sums): the body's run at a tile that is neither the first nor the last of its batch entry.
  Neither conditional is taken: each accumulator is loaded, the tile's product of the feature block with the transposed
  one-hot block of the labels is added, and the sum is stored back; the output blocks are not touched.
-/
import proofs.«426160_j54812372632011_3_alg».proof.Proof.KI.R0RunA
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at `xi3`, `xi4`, the accumulators at
    `a0`, `a1` — the body at a middle tile runs to a state that differs only in the accumulators: each holds its old contents
    plus the tile's product. -/
theorem run0_B (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : ¬cond0_0 i) (hc1 : ¬cond0_1 i)
    (x0 x1 : Vec F S1x64x16384 .f32) (x2 : Vec F S1x1x16384 .i32) (a0 a1 : Vec F S64x5 .f32) (xi3 xi4 : Vec F S1x64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare xi3
        ∗ owns (c : Thread nD τ) arg6 fullShare xi4
        ∗ owns (c : Thread nD τ) arg7 fullShare a0
        ∗ owns (c : Thread nD τ) arg8 fullShare a1
        ∗ (iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare (k0_pay6 x2 x0 a0)
            ∗ owns (c : Thread nD τ) arg8 fullShare (k0_pay7 x2 x1 a1)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    rw [read_writes_whole_last _ _ hz2, readAt_whole arg4 harg4 hz3, readAt_whole arg2 harg2 hz3, readAt_whole arg7 harg7 hz2]
  · iexists _; isplitr
    swap; · iexact HS1
    ipureintro
    rw [read_writes_whole_last _ _ hz2, readAt_whole arg4 harg4 hz3, readAt_whole arg3 harg3 hz3, readAt_whole arg8 harg8 hz2]

end Cert.KernelIdeal.Hand

end
-- ==== Proof.KI.R0RunC.lean ====
/-
  First pallas_call (per-class channel sums): the body's run at the last tile of a batch entry.
  The first conditional is not taken and the second is: each accumulator is loaded, the tile's product of the feature block
  with the transposed one-hot block of the labels is added, and the sum is stored back; then each accumulator is loaded
  again (the load reads the sum just stored) and stored, reshaped, into its output block.
-/
import proofs.«426160_j54812372632011_3_alg».proof.Proof.KI.R0RunB
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the three input blocks at `x0`, `x1`, `x2`, the two output blocks at anything, the accumulators at
    `a0`, `a1` — the body at a last tile runs to a state in which each accumulator holds its old contents plus the tile's
    product and each output block holds its accumulator's new contents, reshaped. -/
theorem run0_C (c : Dev nD) (i : grid0.Coords) (arg2 : Memref sig .tc .vmem S1x64x16384 .f32) (harg2 : arg2.IsWhole) (arg3 : Memref sig .tc .vmem S1x64x16384 .f32) (harg3 : arg3.IsWhole)
    (arg4 : Memref sig .tc .vmem S1x1x16384 .i32) (harg4 : arg4.IsWhole) (arg5 : Memref sig .tc .vmem S1x64x5 .f32) (harg5 : arg5.IsWhole)
    (arg6 : Memref sig .tc .vmem S1x64x5 .f32) (harg6 : arg6.IsWhole) (arg7 : Memref sig .tc .vmem S64x5 .f32) (harg7 : arg7.IsWhole)
    (arg8 : Memref sig .tc .vmem S64x5 .f32) (harg8 : arg8.IsWhole)
    (hc0 : ¬cond0_0 i) (hc1 : cond0_1 i)
    (x0 x1 : Vec F S1x64x16384 .f32) (x2 : Vec F S1x1x16384 .i32) (a0 a1 : Vec F S64x5 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ (∃ d, owns (c : Thread nD τ) arg5 fullShare d)
        ∗ (∃ d, owns (c : Thread nD τ) arg6 fullShare d)
        ∗ owns (c : Thread nD τ) arg7 fullShare a0
        ∗ owns (c : Thread nD τ) arg8 fullShare a1
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 (k0_pay6 x2 x0 a0))
            ∗ owns (c : Thread nD τ) arg6 fullShare (k0_pay2 (k0_pay7 x2 x1 a1))
            ∗ owns (c : Thread nD τ) arg7 fullShare (k0_pay6 x2 x0 a0)
            ∗ owns (c : Thread nD τ) arg8 fullShare (k0_pay7 x2 x1 a1)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%df3, %f3, -, H3⟩, ⟨%df4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_last _ _ hz3, View.readCov_unit_zero _ hz2, readAt_whole arg4 harg4 hz3, readAt_whole arg2 harg2 hz3, readAt_whole arg7 harg7 hz2]
  isplitl [H4]
  · iexists _; isplitr
    swap; · iexact H4
    ipureintro
    sl_unfold_run_names
    rw [read_writes_whole_last _ _ hz3, View.readCov_unit_zero _ hz2, readAt_whole arg4 harg4 hz3, readAt_whole arg3 harg3 hz3, readAt_whole arg8 harg8 hz2]
  isplitl [HS0]
  · iexists _; isplitr
    swap; · iexact HS0
    ipureintro
    sl_unfold_run_names
    rw [read_writes_whole_last _ _ hz2, readAt_whole arg4 harg4 hz3, readAt_whole arg2 harg2 hz3, readAt_whole arg7 harg7 hz2]
  · iexists _; isplitr
    swap; · iexact HS1
    ipureintro
    sl_unfold_run_names
    rw [read_writes_whole_last _ _ hz2, readAt_whole arg4 harg4 hz3, readAt_whole arg3 harg3 hz3, readAt_whole arg8 harg8 hz2]

end Cert.KernelIdeal.Hand

end
-- ==== Proof.KI.R0Body.lean ====
/-
  First pallas_call (per-class channel sums): the body obligation of its frame. At every grid point the body, handed the
  region's invariant and the five windows' current buffers (the three input blocks; the two output blocks at whatever they
  hold), runs and hands back the invariant of the next point: both accumulators at the recursion `acc0` — the tile's
  product of the feature block with the transposed one-hot label block, added to zero at the first tile of a batch entry
  and to the previous point's accumulator elsewhere — and, at the last tile of a batch entry, the output blocks at the
  accumulators; elsewhere the output blocks are handed back untouched. Three cases by the tile's position, each closed by
  that case's run of the body.
-/
import proofs.«426160_j54812372632011_3_alg».proof.Proof.KI.R0RunC
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators, case by case -/

/-- At the first tile of a batch entry the accumulators are the tile's product added to zero. -/
theorem acc0_first (c : Dev nD) (t : Fin cfg0.N) (h : t.val % 8 = 0) :
    acc0 V c t.val t.isLt
      = (k0_pay6 (iblk0 V c 2 t) (iblk0 V c 0 t) (k0_pay3 (F := F)), k0_pay7 (iblk0 V c 2 t) (iblk0 V c 1 t) (k0_pay4 (F := F))) := by
  obtain ⟨n, hn⟩ := t
  cases n with
  | zero => rfl
  | succ n => exact (if_pos h).trans rfl

/-- At any other tile they are the tile's product added to what the point before left. -/
theorem acc0_next (c : Dev nD) (t : Fin cfg0.N) (h : ¬t.val % 8 = 0) :
    acc0 V c t.val t.isLt
      = (k0_pay6 (iblk0 V c 2 t) (iblk0 V c 0 t) (acc0 V c (t.val - 1) (Nat.lt_of_le_of_lt (Nat.sub_le _ _) t.isLt)).1,
         k0_pay7 (iblk0 V c 2 t) (iblk0 V c 1 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant, point by point -/

/-- What the launch hands the region, opened at the two accumulators. -/
theorem PhiA0_eq (c : Dev nD) :
    (Pipeline.ΦA spec0 c : sProp 𝕄)
      = iprop((∃ d, owns (c : Thread nD τ) scM0_0 fullShare d) ∗ (∃ d, owns (c : Thread nD τ) scM0_1 fullShare d)
          ∗ rest0 (F := F) c ∗ (∃ r, prngReg c r)) :=
  (PhiA0_open c).antisymm (PhiA0_close c)

theorem Phi0_zero (c : Dev nD) (n : ℕ) (h : n ≤ cfg0.N) (hz : n = 0) : Phi0 V c n h = Pipeline.ΦA spec0 c := by
  subst hz; rfl

/-- After point `n`: the accumulators at that point's values. -/
theorem Phi0_succ (c : Dev nD) (n : ℕ) (hn : n < cfg0.N) :
    Phi0 V c (n + 1) hn = iprop(owns (c : Thread nD τ) scM0_0 fullShare (acc0 V c n hn).1 ∗ owns (c : Thread nD τ) scM0_1 fullShare (acc0 V c n hn).2
      ∗ rest0 (F := F) c ∗ (∃ r, prngReg c r)) := rfl

/-- Before a point that is not the first: the accumulators at what the point before left. -/
theorem Phi0_pos (c : Dev nD) (n : ℕ) (h : n ≤ cfg0.N) (hz : n ≠ 0) :
    Phi0 V c n h = iprop(owns (c : Thread nD τ) scM0_0 fullShare (acc0 V c (n - 1) (by omega)).1 ∗ owns (c : Thread nD τ) scM0_1 fullShare (acc0 V c (n - 1) (by omega)).2
      ∗ rest0 (F := F) c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers hold their blocks

Each of the three input windows is fetched at every grid point (the tile index moves at every step) and none is cut, so at
every point its current buffer holds exactly the window's block of the array, whatever the buffer held before the fetch. -/

theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl
theorem before0_2 (c : Dev nD) (t : Fin cfg0.N) (d) : (dat0 V c).before 2 t d = iblk0 V c 2 t := by
  rw [(dat0 V c).before_fetched 2 t (fetch0_2 t) d]
  unfold Dat.fetched Dat.blockOf iblk0
  rw [A_eq0]
  rfl

/-! ## The body obligation at a generic point -/

/-- Each window's current buffer at point `t`, as the pipeline passes it to the body, and its wholeness. -/
abbrev ms0_0 (t : Fin cfg0.N) : Memref sig .tc .vmem S1x64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x16384 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x5 .f32 := win0_4.stage (cfg0.slots t 4)
abbrev hs0_4 (t : Fin cfg0.N) : (ms0_4 t).IsWhole := hstage0_4 ((cfg0.slots t 4).cast nbuf0_4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point. The input windows' buffers hold their blocks; the tile's position says which of the three cases
    the point is in, and that case's run applies: the invariant hands the body the accumulators at what the point before
    left (at anything at the very first point; at a later first tile of a batch entry the named contents are forgotten,
    the body zeroes them), and takes them back at this point's values; off the last tile the output windows are idle and
    their buffers come back untouched, at the last tile they come back at the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 8 = 0
  · -- the first tile of a batch entry
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1),
      Dat.leavesExact_idle (dat0 V c) 4 t (idleAt0_4 t hc1) (noFlush0_4 t hc1)]
    rw [acc0_first V c t h0]; dsimp only
    by_cases hz : t.val = 0
    · rw [Phi0_castSucc V c t, Phi0_zero V c _ _ hz, PhiA0_eq]
      iintro ⟨⟨HS0, HS1, Hr, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4
    · rw [Phi0_castSucc V c t, Phi0_pos V c _ _ hz]
      iintro ⟨⟨HS0, HS1, Hr, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4
  · have hc0 : ¬cond0_0 (grid0.coords t) := fun h => h0 ((hcond0_0 t).mp h)
    have hz : t.val ≠ 0 := fun h => h0 (by rw [h])
    rw [acc0_next V c t h0]; dsimp only
    rw [Phi0_castSucc V c t, Phi0_pos V c _ _ hz]
    by_cases h1 : t.val % 8 = 7
    · -- the last tile of a batch entry
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [acc0_next V c t h0]; dsimp only
      iintro ⟨⟨HS0, HS1, Hr, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        (acc0 V c (t.val - 1) (by omega)).1 (acc0 V c (t.val - 1) (by omega)).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · -- a middle tile
      have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      iintro ⟨⟨HS0, HS1, Hr, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc0 hc1 (iblk0 V c 0 t) (iblk0 V c 1 t) (iblk0 V c 2 t)
        (acc0 V c (t.val - 1) (by omega)).1 (acc0 V c (t.val - 1) (by omega)).2
        ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 (F := F) V c).Φ 0 := by
  rw [show (dat0 V c).Φ 0 = Phi0 V c 0 (Nat.zero_le _) from rfl, Phi0_zero V c 0 _ rfl]

/-- After the last point the invariant gives back what the launch handed over: the accumulators' named contents are
    forgotten. -/
theorem hout0 (c : Dev nD) : (dat0 (F := F) V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega), PhiA0_eq]
  iintro ⟨HS0, HS1, Hr, Hg⟩
  isplitl [HS0]; · iexists _; iexact HS0
  isplitl [HS1]; · iexists _; iexact HS1
  isplitl [Hr]; · iexact Hr
  iexact Hg

end Cert.KernelIdeal.Hand

end
-- ==== Proof.KI.R1Run.lean ====
/-
  Second pallas_call (per-voxel cosine similarities, sum of squared differences): what ONE run of the kernel body does
  to the buffers it is handed, in each of its three control cases, with the final contents NAMED.
  The body reads seven input blocks (two feature blocks, the label block, the two transposed class-mean blocks, the two
  class-mean-norm blocks), keeps a 1×1 accumulator in scratch memory and has a 1×1×1 output block. With
  s(x, a) = a + Σ_v (cos_S(v) − cos_T(v))² the tile's update of the accumulator (the payload function k1_pay1 over the
  loaded blocks):
    · first tile of a batch entry (tile coordinate 0): the accumulator, whatever it held, ends at s(x, 0);
    · a middle tile: it goes from a to s(x, a);
    · last tile (tile coordinate 7): it goes from a to s(x, a), and the output block ends at that value.
  In every case the input buffers come back holding what they held, and the output buffer is untouched except at the last
  tile. Also here: the two conditions in closed form over the 16 grid points, and where the output window is idle.
-/
import proofs.«426160_j54812372632011_3_alg».proof.Proof.Gen.KernelIdeal.Launch
import proofs.«426160_j54812372632011_3_alg».proof.Proof.Gen.KernelIdeal.Skeleton
import proofs.«426160_j54812372632011_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the accumulator is reset): the tile coordinate is 0. -/
abbrev cond1_0 (i : grid1.Coords) : Prop := (Scalar.cmpi .ne (Scalar.extui (Scalar.cmpi .eq (BitVec.ofNat 32 (i 1).val) 0#32)) 0#32) = 1#1
/-- The condition of the body's second conditional (the accumulator is copied to the output block): the tile coordinate is 7. -/
abbrev cond1_1 (i : grid1.Coords) : Prop := k1_cond2 i = 1#1

/-- The offsets of a whole-buffer access are all zero: rank 2, -/
theorem zero_off2 : (![0, 0] : Fin 2 → Nat) = fun _ => 0 := funext fun a => by fin_cases a <;> rfl
/-- rank 3. -/
theorem zero_off3 : (![0, 0, 0] : Fin 3 → Nat) = fun _ => 0 := funext fun a => by fin_cases a <;> rfl

/-- The accumulator is reset exactly at the first tile of a batch entry — decided over the grid's 16 points. -/
theorem hcond1_0 : ∀ t : Fin cfg1.N, cond1_0 (grid1.coords t) ↔ t.val % 8 = 0 :=
  (by decide +kernel : ∀ t : Fin grid1.N, cond1_0 (grid1.coords t) ↔ t.val % 8 = 0)
/-- The accumulator is copied to the output block exactly at the last tile of a batch entry. -/
theorem hcond1_1 : ∀ t : Fin cfg1.N, cond1_1 (grid1.coords t) ↔ t.val % 8 = 7 :=
  (by decide +kernel : ∀ t : Fin grid1.N, cond1_1 (grid1.coords t) ↔ t.val % 8 = 7)

/-- The seven input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last tile of a batch entry the output window is idle (the body stores nothing into it) -/
theorem idleAt1_7 : ∀ t : Fin cfg1.N, ¬cond1_1 (grid1.coords t) → cfg1.idle 7 (grid1.coords t) = true := by decide +kernel
/-- and the pipeline does not write its block back; -/
theorem noFlush1_7 : ∀ t : Fin cfg1.N, ¬cond1_1 (grid1.coords t) → (cfg1.win 7).flush t = false := by decide +kernel
/-- at the last tile it is live. -/
theorem liveAt1_7 : ∀ t : Fin cfg1.N, cond1_1 (grid1.coords t) → cfg1.idle 7 (grid1.coords t) = false := by decide +kernel

set_option maxHeartbeats 1000000 in
/-- The FIRST tile of a batch entry (the reset taken, the copy-out not). Whatever the accumulator held, the body zeroes
    it and adds the tile's sum: it ends at the step over the zero vector. Inputs and the output buffer come back untouched. -/
theorem run1_A (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : cond1_0 i) (hc1 : ¬cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (xi7 : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare (k1_pay1 (k1_pay4 x2) (k1_pay5 x0) (k1_pay6 x1) (k1_pay7 x5) (k1_pay8 x6) (k1_pay9 x1 x4) (k1_pay10 x2 x0 x3) (k1_pay3 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  iexists _; isplitr
  swap; · iexact HS
  ipureintro
  rw [View.read_writes_eq_canon _ _ _ (fun y => ⟨_, List.mem_cons.mpr (Or.inl rfl), View.mem_set_unit_zero zero_off2 inb_S1x1_S1x1_0_0 y⟩), View.canon_cons_unit_zero zero_off2]
  sl_unfold_words
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3, View.readCov_unit_zero (S := S1x1) _ zero_off2]

set_option maxHeartbeats 1000000 in
/-- A MIDDLE tile of a batch entry (neither conditional taken). On whole buffers holding the seven input blocks `x0 … x6`,
    the output block's buffer at `xi7` and the accumulator at `a`, the body runs and hands back the inputs and the
    output buffer untouched and the accumulator at `a` plus the tile's sum of squared cosine differences. -/
theorem run1_B (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : ¬cond1_0 i) (hc1 : ¬cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (xi7 : Vec F S1x1x1 .f32) (a : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare (k1_pay1 (k1_pay4 x2) (k1_pay5 x0) (k1_pay6 x1) (k1_pay7 x5) (k1_pay8 x6) (k1_pay9 x1 x4) (k1_pay10 x2 x0 x3) a)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  iexists _; isplitr
  swap; · iexact HS
  ipureintro
  rw [View.read_writes_eq_canon _ _ _ (fun y => ⟨_, List.mem_singleton_self _, View.mem_set_unit_zero zero_off2 inb_S1x1_S1x1_0_0 y⟩), View.canon_unit_zero zero_off2]
  sl_unfold_words
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3]

set_option maxHeartbeats 1000000 in
/-- The LAST tile of a batch entry (the copy-out taken, the reset not). The accumulator goes from `a` to `a` plus the
    tile's sum, and the output block's buffer, whatever it held, ends at that accumulator as a 1×1×1 block. -/
theorem run1_C (c : Dev nD) (i : grid1.Coords) (arg2 : Memref sig .tc .vmem S1x64x16384 .f32) (harg2 : arg2.IsWhole) (arg3 : Memref sig .tc .vmem S1x64x16384 .f32) (harg3 : arg3.IsWhole) (arg4 : Memref sig .tc .vmem S1x1x16384 .i32) (harg4 : arg4.IsWhole) (arg5 : Memref sig .tc .vmem S1x5x64 .f32) (harg5 : arg5.IsWhole) (arg6 : Memref sig .tc .vmem S1x5x64 .f32) (harg6 : arg6.IsWhole) (arg7 : Memref sig .tc .vmem S1x5x1 .f32) (harg7 : arg7.IsWhole) (arg8 : Memref sig .tc .vmem S1x5x1 .f32) (harg8 : arg8.IsWhole) (arg9 : Memref sig .tc .vmem S1x1x1 .f32) (harg9 : arg9.IsWhole) (arg10 : Memref sig .tc .vmem S1x1 .f32) (harg10 : arg10.IsWhole) (hc0 : ¬cond1_0 i) (hc1 : cond1_1 i)
    (x0 : Vec F S1x64x16384 .f32) (x1 : Vec F S1x64x16384 .f32) (x2 : Vec F S1x1x16384 .i32) (x3 : Vec F S1x5x64 .f32) (x4 : Vec F S1x5x64 .f32) (x5 : Vec F S1x5x1 .f32) (x6 : Vec F S1x5x1 .f32) (a : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 (k1_pay1 (k1_pay4 x2) (k1_pay5 x0) (k1_pay6 x1) (k1_pay7 x5) (k1_pay8 x6) (k1_pay9 x1 x4) (k1_pay10 x2 x0 x3) a))
            ∗ owns (c : Thread nD τ) arg10 fullShare (k1_pay1 (k1_pay4 x2) (k1_pay5 x0) (k1_pay6 x1) (k1_pay7 x5) (k1_pay8 x6) (k1_pay9 x1 x4) (k1_pay10 x2 x0 x3) a)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words
    rw [View.read_writes_eq_canon _ _ _ (fun y => ⟨_, List.mem_singleton_self _, View.mem_set_unit_zero zero_off3 inb_S1x1x1_S1x1x1_0_0_0 y⟩), View.canon_unit_zero zero_off3]
    simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3, View.readCov_unit_zero (S := S1x1) _ zero_off2]
  iexists _; isplitr
  swap; · iexact HS
  ipureintro
  sl_unfold_words
  rw [View.read_writes_eq_canon _ _ _ (fun y => ⟨_, List.mem_singleton_self _, View.mem_set_unit_zero zero_off2 inb_S1x1_S1x1_0_0 y⟩), View.canon_unit_zero zero_off2]
  simp only [View.readAt_eq_ld, harg2.read_unread, harg3.read_unread, harg4.read_unread, harg5.read_unread, harg6.read_unread, harg7.read_unread, harg8.read_unread, harg10.read_unread, View.ld_unit_zero (S := S1x1) zero_off2, View.ld_unit_zero (S := S1x1x16384) zero_off3, View.ld_unit_zero (S := S1x64x16384) zero_off3, View.ld_unit_zero (S := S1x5x64) zero_off3, View.ld_unit_zero (S := S1x5x1) zero_off3]

end Cert.KernelIdeal.Hand

end
-- ==== Proof.KI.R1Body.lean ====
/-
  Second pallas_call (per-voxel cosine similarities, sum of squared differences): the body obligation of its pipeline.
  At every grid point (batch entry b, tile j) the kernel body, handed the region's invariant and each window's current
  staging buffer at what it then holds, runs to the invariant at the next point and leaves every buffer at what the
  proof data says. The seven input buffers hold their blocks at every point, fetched there or not (a block not fetched
  has not moved); the 1×1 accumulator in scratch memory goes from what the previous point left to that plus the tile's
  sum of squared cosine differences, starting again from zero at tile 0; at tile 7 the 1×1×1 output buffer receives the
  accumulator, and at the other tiles it is idle and handed back as found. The core's other scoped buffers and its
  generator register are carried along unopened. Three cases by the tile coordinate: 0, 1 … 6, 7.
-/
import proofs.«426160_j54812372632011_3_alg».proof.Proof.KI.R1Data
import proofs.«426160_j54812372632011_3_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered. -/
variable (V : (c : Dev nD) → (b : Ref sig .tc) → Buf (Elt F) ((c : Thread nD τ).loc b))

/-! ## The input buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant, point by point -/

/-- What the launch hands the region, with the accumulator's buffer singled out as a memref owned at some contents and
    the core's other scoped buffers left unopened. -/
theorem PhiA1_eq (c : Dev nD) :
    (Pipeline.ΦA spec1 c : sProp 𝕄)
      = iprop(iprop(iprop(∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]; try rfl

theorem Phi1_zero (c : Dev nD) (n : ℕ) (h : n ≤ cfg1.N) (hz : n = 0) : Phi1 V c n h = Pipeline.ΦA spec1 c := by
  subst hz; rfl

/-- After point `n`: the accumulator at that point's value. -/
theorem Phi1_succ (c : Dev nD) (n : ℕ) (hn : n < cfg1.N) :
    Phi1 V c (n + 1) hn = iprop(owns (c : Thread nD τ) scM1_0 fullShare (acc1 V c n hn) ∗ Pipeline.scopedRestBut (Ix := Unit) (Name := ℕ) (U := UR sig nD τ) (Lvl := ℕ) (Val := Elt F) spec1 c [cc1_scratch0] ∗ (∃ r, prngReg c r)) := rfl

/-- Before a point that is not the first: the accumulator at what the point before left. -/
theorem Phi1_pos (c : Dev nD) (n : ℕ) (h : n ≤ cfg1.N) (hz : n ≠ 0) :
    Phi1 V c n h = iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- At the first tile of a batch entry the accumulator restarts from zero; -/
theorem acc1_reset (c : Dev nD) (t : Fin cfg1.N) (h0 : t.val % 8 = 0) :
    acc1 V c t.val t.isLt = step1 V c t (k1_pay3 (F := F)) := by
  obtain ⟨n, hn⟩ := t
  cases n with
  | zero => rfl
  | succ n => exact (if_pos h0).trans rfl

/-- at every other tile it continues from what the point before left. -/
theorem acc1_step (c : Dev nD) (t : Fin cfg1.N) (h0 : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body obligation, at a generic point -/

/-- Each window's current staging memref at point `t`. -/
abbrev ms1_0 (t : Fin cfg1.N) : Memref sig .tc .vmem S1x64x16384 .f32 := win1_0.stage (cfg1.slots t 0)
abbrev ms1_1 (t : Fin cfg1.N) : Memref sig .tc .vmem S1x64x16384 .f32 := win1_1.stage (cfg1.slots t 1)
abbrev ms1_2 (t : Fin cfg1.N) : Memref sig .tc .vmem S1x1x16384 .i32 := win1_2.stage (cfg1.slots t 2)
abbrev ms1_3 (t : Fin cfg1.N) : Memref sig .tc .vmem S1x5x64 .f32 := win1_3.stage (cfg1.slots t 3)
abbrev ms1_4 (t : Fin cfg1.N) : Memref sig .tc .vmem S1x5x64 .f32 := win1_4.stage (cfg1.slots t 4)
abbrev ms1_5 (t : Fin cfg1.N) : Memref sig .tc .vmem S1x5x1 .f32 := win1_5.stage (cfg1.slots t 5)
abbrev ms1_6 (t : Fin cfg1.N) : Memref sig .tc .vmem S1x5x1 .f32 := win1_6.stage (cfg1.slots t 6)
abbrev ms1_7 (t : Fin cfg1.N) : Memref sig .tc .vmem S1x1x1 .f32 := win1_7.stage (cfg1.slots t 7)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point, by the tile coordinate. The invariant hands over the accumulator (at anything before the very
    first point, at the previous point's value afterwards) and takes it back at this point's value; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [acc1_reset V c t h0]; unfold step1
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi1_castSucc V c t, Phi1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [Phi1_castSucc V c t, Phi1_pos V c _ _ hz]
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [acc1_step V c t h0]; unfold step1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [acc1_step V c t h0]; unfold step1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-! ## The three facts the region's run takes -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 V c).Φ 0 = Phi1 V c 0 (Nat.zero_le _) from rfl, Phi1_zero V c 0 _ rfl]
  try exact Idealize.SL.BI.Entails.refl _

/-- After any point but the first the invariant gives back what the launch handed over: the accumulator's value is
    forgotten. -/
theorem Phi1_out (c : Dev nD) (t : Fin (cfg1.N + 1)) (ht : t.val ≠ 0) : (dat1 (F := F) V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨HS, HR, Hg⟩
  isplitl [HS HR]
  · isplitl [HS]
    · iexists _; iexact HS
    iexact HR
  iexact Hg

/-- The same after the last point. -/
theorem hout1 (c : Dev nD) : (dat1 (F := F) V c).Φ (Fin.last cfg1.N) ⊢ (Pipeline.ΦA spec1 c : sProp 𝕄) :=
  Phi1_out V c _ (by rw [Fin.val_last]; have : cfg1.N = 16 := N_1; omega)

end Cert.KernelIdeal.Hand

end
-- ==== Proof.KI.Full.lean ====
/-
  The idealized kernel program's run, assembled: the run over the twelve items takes the two pallas_calls' body obligations
  and invariant hand-overs as hypotheses; here they are supplied.
-/
import proofs.«426160_j54812372632011_3_alg».proof.Proof.KI.Run
import proofs.«426160_j54812372632011_3_alg».proof.Proof.KI.R0Body
import proofs.«426160_j54812372632011_3_alg».proof.Proof.KI.R1Body

noncomputable section

namespace Cert.KernelIdeal.Hand

open Cert.KernelIdeal Cert.KernelIdeal.Gen
open Idealize.ShloMosaic Idealize.ShloMosaic.TcCoe Idealize.SL.Sem

variable {F : FTy → Type} [FloatOps F]

/-- Every weakly fair execution of @main ends with the result buffer at the boundary contents' last value and the three
    arguments as launched. -/
theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v64) = W12 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_all (fun V c => body_obligation0 V c) (fun V c => hin0 V c) (fun V c => hout0 V c)
    (fun V c => body_obligation1 V c) (fun V c => hin1 V c) (fun V c => hout1 V c) m ρ

/-- The frame: the same run, the result forgotten. -/
theorem frame_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_full m ρ)

end Cert.KernelIdeal.Hand

end
-- ==== Proof.Spec.lean ====
/-
  The loss both programs compute, as one function on the extended reals.
  Inputs: student and teacher features `f b ch v` (batch entry `b`, channel `ch`, voxel `v`), and the class
  `L b v : Fin 5` of every voxel. With `oh b v k = [L b v = k]`:
    cnt b k      = Σ_v oh b v k                                   the class's voxel count
    sums b ch k  = Σ_v f b ch v · oh b v k                        per-class channel sums
    mean b ch k  = sums b ch k / (cnt b k + ε₆)                   the class centers
    cosv b v     = (Σ_ch f b ch v · mean b ch (L b v)) / max(√(Σ_ch f b ch v²) · √(Σ_ch mean b ch (L b v)²), ε₈)
    total        = Σ_b Σ_v (cosv_S b v − cosv_T b v)²
  The two small constants stay parameters (both programs carry the same two literals). Quotient, root and maximum are the
  extended reals' (`Ideal.div`, `Ideal.sqrt`, `max`), the operations every float division, root and maximum of either
  program denotes at the ideal reading.
-/
import Idealize.ShloMosaic.PureOps.Ideal

noncomputable section

namespace Cert.Spec

open Idealize.ShloMosaic

variable (f fS fT : Fin 2 → Fin 64 → Fin 131072 → EReal) (L : Fin 2 → Fin 131072 → Fin 5) (e6 e8 : EReal)

/-- The one-hot indicator of voxel `v`'s class. -/
def oh (b : Fin 2) (v : Fin 131072) (k : Fin 5) : EReal := if L b v = k then 1 else 0

/-- How many voxels of batch entry `b` have class `k`. -/
def cnt (b : Fin 2) (k : Fin 5) : EReal := ∑ v : Fin 131072, oh L b v k

/-- Channel `ch` summed over the voxels of class `k`. -/
def sums (b : Fin 2) (ch : Fin 64) (k : Fin 5) : EReal := ∑ v : Fin 131072, f b ch v * oh L b v k

/-- The class center: the masked mean with the count regularised by `e6`. -/
def mean (b : Fin 2) (ch : Fin 64) (k : Fin 5) : EReal := Ideal.div (sums f L b ch k) (cnt L b k + e6)

/-- The voxel's features against its class center. -/
def dotc (b : Fin 2) (v : Fin 131072) : EReal := ∑ ch : Fin 64, f b ch v * mean f L e6 b ch (L b v)

/-- The voxel's feature norm. -/
def nrm (b : Fin 2) (v : Fin 131072) : EReal := Ideal.sqrt (∑ ch : Fin 64, f b ch v * f b ch v)

/-- The norm of class `k`'s center. -/
def cnrm (b : Fin 2) (k : Fin 5) : EReal := Ideal.sqrt (∑ ch : Fin 64, mean f L e6 b ch k * mean f L e6 b ch k)

/-- The cosine similarity of a voxel's features and its class center, the denominator kept away from zero by `e8`. -/
def cosv (b : Fin 2) (v : Fin 131072) : EReal :=
  Ideal.div (dotc f L e6 b v) (max (nrm f b v * cnrm f L e6 b (L b v)) e8)

/-- The same quotient over ANY table of class centers `mn` and of center norms `cn` (what the second pallas_call is handed). -/
def cosw (mn : Fin 2 → Fin 64 → Fin 5 → EReal) (cn : Fin 2 → Fin 5 → EReal) (b : Fin 2) (v : Fin 131072) : EReal :=
  Ideal.div (∑ ch : Fin 64, f b ch v * mn b ch (L b v)) (max (nrm f b v * cn b (L b v)) e8)

theorem cosv_eq_cosw (b : Fin 2) (v : Fin 131072) :
    cosv f L e6 e8 b v = cosw f L e8 (mean f L e6) (cnrm f L e6) b v := rfl

/-- The squared difference over any two tables of centers and norms. -/
def sqw (mS mT : Fin 2 → Fin 64 → Fin 5 → EReal) (cS cT : Fin 2 → Fin 5 → EReal) (b : Fin 2) (v : Fin 131072) : EReal :=
  (cosw fS L e8 mS cS b v - cosw fT L e8 mT cT b v) * (cosw fS L e8 mS cS b v - cosw fT L e8 mT cT b v)

/-- The squared difference of the student's and the teacher's similarity at a voxel. -/
def sq (b : Fin 2) (v : Fin 131072) : EReal :=
  (cosv fS L e6 e8 b v - cosv fT L e6 e8 b v) * (cosv fS L e6 e8 b v - cosv fT L e6 e8 b v)

theorem sq_eq_sqw (b : Fin 2) (v : Fin 131072) :
    sq fS fT L e6 e8 b v = sqw fS fT L e8 (mean fS L e6) (mean fT L e6) (cnrm fS L e6) (cnrm fT L e6) b v := rfl

/-- The sum of the squared differences over every voxel of every batch entry. -/
def total : EReal := ∑ b : Fin 2, ∑ v : Fin 131072, sq fS fT L e6 e8 b v

/-- The two regularising constants, as the binary values both programs carry (1e-6 and 1e-8 rounded to single precision). -/
def eps6 : EReal := Ideal.ofBits .f32 0x358637BD#32
def eps8 : EReal := Ideal.ofBits .f32 0x322BCC77#32

/-- What both programs do with the total: a sum started from the zero literal, divided by the voxel count 2·131072 = 262144
    (the literal 0x48800000), times the loss weight 1.0 (the literal 0x3F800000, on the left). -/
def finish (T : EReal) : EReal :=
  (Ideal.ofBits .f32 0x3F800000#32 : EReal) * Ideal.div ((Ideal.ofBits .f32 0x00000000#32 : EReal) + T) (Ideal.ofBits .f32 0x48800000#32)

/-- The loss. -/
def loss : EReal := finish (total fS fT L eps6 eps8)

/-- A five-dimensional feature array [2, 64, 32, 64, 64] read as [2, 64, 131072] (row-major reshape), as a plain function. -/
def feat (x : (⟨5, ![2, 64, 32, 64, 64]⟩ : Shape).Idx → EReal) (h : (⟨5, ![2, 64, 32, 64, 64]⟩ : Shape).ShapeCasts ⟨3, ![2, 64, 131072]⟩)
    (b : Fin 2) (ch : Fin 64) (v : Fin 131072) : EReal :=
  shapeCast (⟨3, ![2, 64, 131072]⟩ : Shape) x h (fun a => match a with | ⟨0, _⟩ => b | ⟨1, _⟩ => ch | ⟨2, _⟩ => v)

end Cert.Spec

end
-- ==== Proof.KI.PreRead.lean ====
/-
  The host operations before the first pallas_call, read at the ideal numbers. The label array [2,1,16,32,32] is
  upsampled to [2,32,64,64] by three gathers, one per spatial axis, each along a constant vector of source coordinates
  (the floor of an arithmetic progression divided by a constant), and flattened to [2,131072]; the two feature arrays
  [2,64,32,64,64] are flattened to [2,64,131072]. Here: the label chain as one function of the label input (`labK`);
  every upsampled label is an entry of that input; the flattened features are the specification's `feat`; the label
  array with a unit axis inserted reads as the label array; and these four buffers are still as the first pallas_call
  found them when the second one is entered.
-/
import proofs.«426160_j54812372632011_3_alg».proof.Proof.KI.Fold
import proofs.«426160_j54812372632011_3_alg».proof.Proof.Spec
import proofs.«426160_j54812372632011_3_alg».proof.Proof.Gen.KernelIdeal.Regions
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The label chain as a function of the label input -/

/-- `x` divided by the scalar `d` and rounded down, entry by entry: the quotient rounded toward zero, less one where
    the signs of `x` and `d` differ and the remainder is not zero. -/
def floorDiv {n : Nat} (hb : S_.BroadcastsInDim ⟨1, ![n]⟩ (![] : Fin S_.rank → Fin (⟨1, ![n]⟩ : Shape).rank))
    (x : IVec ⟨1, ![n]⟩ 32) (d : IVec S_ 32) : IVec ⟨1, ![n]⟩ 32 :=
  select
    (andi (cmpi .ne (signi x) (broadcastInDim ⟨1, ![n]⟩ ![] hb (signi d)))
      (cmpi .ne (Host.remsi x (broadcastInDim ⟨1, ![n]⟩ ![] hb d)) (broadcastInDim ⟨1, ![n]⟩ ![] hb (constantI S_ 32 0#32))))
    (subi (Host.divsi x (broadcastInDim ⟨1, ![n]⟩ ![] hb d)) (broadcastInDim ⟨1, ![n]⟩ ![] hb (constantI S_ 32 1#32)))
    (Host.divsi x (broadcastInDim ⟨1, ![n]⟩ ![] hb d))

/-- A negative coordinate counted from the end of an axis of extent `e`: `x + e` where `x < 0`, else `x`. -/
def wrapNeg {n : Nat} (hb : S_.BroadcastsInDim ⟨1, ![n]⟩ (![] : Fin S_.rank → Fin (⟨1, ![n]⟩ : Shape).rank))
    (e : BitVec 32) (x : IVec ⟨1, ![n]⟩ 32) : IVec ⟨1, ![n]⟩ 32 :=
  select (cmpi .slt x (broadcastInDim ⟨1, ![n]⟩ ![] hb (constantI S_ 32 0#32)))
    (addi x (broadcastInDim ⟨1, ![n]⟩ ![] hb (constantI S_ 32 e))) x

/-- The arithmetic progression `0, s, 2s, …` of length `n`. -/
def ramp {n : Nat} (hb : S_.BroadcastsInDim ⟨1, ![n]⟩ (![] : Fin S_.rank → Fin (⟨1, ![n]⟩ : Shape).rank))
    (s : BitVec 32) : IVec ⟨1, ![n]⟩ 32 :=
  muli (iotaInDim ⟨1, ![n]⟩ 32 0) (broadcastInDim ⟨1, ![n]⟩ ![] hb (constantI S_ 32 s))

/-- The source coordinate of each of the 32 upsampled positions along an axis of extent 16: `⌊16·i / 32⌋`, as a column. -/
def src16to32 : IVec S32x1 32 :=
  broadcastInDim S32x1 ![0] bcast_S32_S32x1_0
    (wrapNeg bcast_S_S32 16#32 (floorDiv bcast_S_S32 (ramp bcast_S_S32 16#32) (constantI S_ 32 32#32)))

/-- The source coordinate of each of the 64 upsampled positions along an axis of extent 32: `⌊32·i / 64⌋`, as a column. -/
def src32to64 : IVec S64x1 32 :=
  broadcastInDim S64x1 ![0] bcast_S64_S64x1_0
    (wrapNeg bcast_S_S64 32#32 (floorDiv bcast_S_S64 (ramp bcast_S_S64 32#32) (constantI S_ 32 64#32)))

/-- The upsampled labels as a function of the label input: the unit axis dropped, the depth axis gathered from 16 to 32
    positions, the height axis from 32 to 64, the width axis from 32 to 64, the three spatial axes flattened. -/
def labK (tgt : IVec S2x1x16x32x32 32) : IVec S2x131072 32 :=
  shapeCast S2x131072
    (Host.gather gather_S2x32x64x32_S64x1_S2x32x64x64_012_3_n_n_3_1_232641
      (Host.gather gather_S2x32x32x32_S64x1_S2x32x64x32_013_2_n_n_2_1_232132
        (Host.gather gather_S2x16x32x32_S32x1_S2x32x32x32_023_1_n_n_1_1_213232
          (shapeCast S2x16x32x32 tgt shapeCasts_S2x1x16x32x32_S2x16x32x32) src16to32)
        src32to64)
      src32to64)
    shapeCasts_S2x32x64x64_S2x131072

/-- Every upsampled label is an entry of the label input: a gather and a reshape each read one entry of their operand. -/
theorem labK_entry (tgt : IVec S2x1x16x32x32 32) (j : S2x131072.Idx) : ∃ i : S2x1x16x32x32.Idx, labK tgt j = tgt i :=
  ⟨_, rfl⟩

/-! ## Each stretch of host operations, over any contents it starts from -/

section Stretches

variable (V : Valuation τ sig (Elt Ideal))

theorem a0_v0 : StableHlo.after (hostOps0 (F := Ideal)) V (Proc.devRef .tc main_v0)
    = shapeCast S2x16x32x32 (V (Proc.devRef .tc main_arg2)) shapeCasts_S2x1x16x32x32_S2x16x32x32 := by
  dsimp only [hostOps0]; after_results; rfl
theorem a0_v3 : StableHlo.after (hostOps0 (F := Ideal)) V (Proc.devRef .tc main_v3) = ramp bcast_S_S32 16#32 := by
  dsimp only [hostOps0]; after_results; rfl
theorem a0_c0 : StableHlo.after (hostOps0 (F := Ideal)) V (Proc.devRef .tc main_c_0) = constantI S_ 32 32#32 := by
  dsimp only [hostOps0]; after_results

set_option maxHeartbeats 1600000 in
theorem a1_v4 : StableHlo.after (hostOps0_1 (F := Ideal)) V (Proc.devRef .tc main_v4)
    = floorDiv bcast_S_S32 (V (Proc.devRef .tc main_v3)) (V (Proc.devRef .tc main_c_0)) := by
  dsimp only [hostOps0_1]; after_results
  simp only [StableHlo.TRef.ofBuf, StableHlo.TRef.toBuf, cast_eq]
  rfl

theorem a2_v11 : StableHlo.after (hostOps0_2 (F := Ideal)) V (Proc.devRef .tc main_v11)
    = Host.gather gather_S2x16x32x32_S32x1_S2x32x32x32_023_1_n_n_1_1_213232 (V (Proc.devRef .tc main_v0))
        (broadcastInDim S32x1 ![0] bcast_S32_S32x1_0 (wrapNeg bcast_S_S32 16#32 (V (Proc.devRef .tc main_v4)))) := by
  dsimp only [hostOps0_2]; after_results; rfl
theorem a2_v14 : StableHlo.after (hostOps0_2 (F := Ideal)) V (Proc.devRef .tc main_v14) = ramp bcast_S_S64 32#32 := by
  dsimp only [hostOps0_2]; after_results; rfl
theorem a2_c4 : StableHlo.after (hostOps0_2 (F := Ideal)) V (Proc.devRef .tc main_c_4) = constantI S_ 32 64#32 := by
  dsimp only [hostOps0_2]; after_results

set_option maxHeartbeats 1600000 in
theorem a3_v15 : StableHlo.after (hostOps0_3 (F := Ideal)) V (Proc.devRef .tc main_v15)
    = floorDiv bcast_S_S64 (V (Proc.devRef .tc main_v14)) (V (Proc.devRef .tc main_c_4)) := by
  dsimp only [hostOps0_3]; after_results
  simp only [StableHlo.TRef.ofBuf, StableHlo.TRef.toBuf, cast_eq]
  rfl

theorem a4_v22 : StableHlo.after (hostOps0_4 (F := Ideal)) V (Proc.devRef .tc main_v22)
    = Host.gather gather_S2x32x32x32_S64x1_S2x32x64x32_013_2_n_n_2_1_232132 (V (Proc.devRef .tc main_v11))
        (broadcastInDim S64x1 ![0] bcast_S64_S64x1_0 (wrapNeg bcast_S_S64 32#32 (V (Proc.devRef .tc main_v15)))) := by
  dsimp only [hostOps0_4]; after_results; rfl
theorem a4_v25 : StableHlo.after (hostOps0_4 (F := Ideal)) V (Proc.devRef .tc main_v25) = ramp bcast_S_S64 32#32 := by
  dsimp only [hostOps0_4]; after_results; rfl
theorem a4_c8 : StableHlo.after (hostOps0_4 (F := Ideal)) V (Proc.devRef .tc main_c_8) = constantI S_ 32 64#32 := by
  dsimp only [hostOps0_4]; after_results

set_option maxHeartbeats 1600000 in
theorem a5_v26 : StableHlo.after (hostOps0_5 (F := Ideal)) V (Proc.devRef .tc main_v26)
    = floorDiv bcast_S_S64 (V (Proc.devRef .tc main_v25)) (V (Proc.devRef .tc main_c_8)) := by
  dsimp only [hostOps0_5]; after_results
  simp only [StableHlo.TRef.ofBuf, StableHlo.TRef.toBuf, cast_eq]
  rfl

theorem a6_v34 : StableHlo.after (hostOps0_6 (F := Ideal)) V (Proc.devRef .tc main_v34)
    = shapeCast S2x131072
        (Host.gather gather_S2x32x64x32_S64x1_S2x32x64x64_012_3_n_n_3_1_232641 (V (Proc.devRef .tc main_v22))
          (broadcastInDim S64x1 ![0] bcast_S64_S64x1_0 (wrapNeg bcast_S_S64 32#32 (V (Proc.devRef .tc main_v26)))))
        shapeCasts_S2x32x64x64_S2x131072 := by
  dsimp only [hostOps0_6]; after_results; rfl
theorem a6_v35 : StableHlo.after (hostOps0_6 (F := Ideal)) V (Proc.devRef .tc main_v35)
    = shapeCast S2x64x131072 (V (Proc.devRef .tc main_arg0)) shapeCasts_S2x64x32x64x64_S2x64x131072 := by
  dsimp only [hostOps0_6]; after_results; rfl
theorem a6_v36 : StableHlo.after (hostOps0_6 (F := Ideal)) V (Proc.devRef .tc main_v36)
    = shapeCast S2x64x131072 (V (Proc.devRef .tc main_arg1)) shapeCasts_S2x64x32x64x64_S2x64x131072 := by
  dsimp only [hostOps0_6]; after_results; rfl
theorem a6_v37 : StableHlo.after (hostOps0_6 (F := Ideal)) V (Proc.devRef .tc main_v37)
    = shapeCast S2x1x131072 (StableHlo.after (hostOps0_6 (F := Ideal)) V (Proc.devRef .tc main_v34)) shapeCasts_S2x131072_S2x1x131072 := by
  rw [a6_v34]
  dsimp only [hostOps0_6]; after_results; rfl

end Stretches

/-! ## The buffers the first pallas_call finds -/

variable (m : (ℓ : Loc nD τ sig) → Buf (Elt Ideal) ℓ)

/-- A buffer none of the seven stretches writes is as at launch. -/
theorem W7_of (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m c (Proc.devRef .tc r) = m (c, (Proc.devRef .tc r)) :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

theorem W1_v3 (c : Dev nD) : W1 m c (Proc.devRef .tc main_v3) = ramp bcast_S_S32 16#32 := a0_v3 (W0 m c)
theorem W1_c0 (c : Dev nD) : W1 m c (Proc.devRef .tc main_c_0) = constantI S_ 32 32#32 := a0_c0 (W0 m c)
theorem W3_v14 (c : Dev nD) : W3 m c (Proc.devRef .tc main_v14) = ramp bcast_S_S64 32#32 := a2_v14 (W2 m c)
theorem W3_c4 (c : Dev nD) : W3 m c (Proc.devRef .tc main_c_4) = constantI S_ 32 64#32 := a2_c4 (W2 m c)
theorem W5_v25 (c : Dev nD) : W5 m c (Proc.devRef .tc main_v25) = ramp bcast_S_S64 32#32 := a4_v25 (W4 m c)
theorem W5_c8 (c : Dev nD) : W5 m c (Proc.devRef .tc main_c_8) = constantI S_ 32 64#32 := a4_c8 (W4 m c)
theorem W2_v4 (c : Dev nD) : W2 m c (Proc.devRef .tc main_v4) = floorDiv bcast_S_S32 (ramp bcast_S_S32 16#32) (constantI S_ 32 32#32) :=
  (a1_v4 (W1 m c)).trans (by rw [W1_v3, W1_c0])
theorem W2_v0 (c : Dev nD) : W2 m c (Proc.devRef .tc main_v0)
    = shapeCast S2x16x32x32 (m (c, (Proc.devRef .tc main_arg2))) shapeCasts_S2x1x16x32x32_S2x16x32x32 :=
  (StableHlo.after_of_writes_sub hostOps0_1 _ hostOps0_1_writes (by decide)).trans (a0_v0 (W0 m c))
theorem W3_v11 (c : Dev nD) : W3 m c (Proc.devRef .tc main_v11)
    = Host.gather gather_S2x16x32x32_S32x1_S2x32x32x32_023_1_n_n_1_1_213232
        (shapeCast S2x16x32x32 (m (c, (Proc.devRef .tc main_arg2))) shapeCasts_S2x1x16x32x32_S2x16x32x32) src16to32 :=
  (a2_v11 (W2 m c)).trans (by rw [W2_v0, W2_v4]; rfl)
theorem W4_v15 (c : Dev nD) : W4 m c (Proc.devRef .tc main_v15) = floorDiv bcast_S_S64 (ramp bcast_S_S64 32#32) (constantI S_ 32 64#32) :=
  (a3_v15 (W3 m c)).trans (by rw [W3_v14, W3_c4])
theorem W4_v11 (c : Dev nD) : W4 m c (Proc.devRef .tc main_v11) = W3 m c (Proc.devRef .tc main_v11) :=
  StableHlo.after_of_writes_sub hostOps0_3 _ hostOps0_3_writes (by decide)
theorem W5_v22 (c : Dev nD) : W5 m c (Proc.devRef .tc main_v22)
    = Host.gather gather_S2x32x32x32_S64x1_S2x32x64x32_013_2_n_n_2_1_232132 (W3 m c (Proc.devRef .tc main_v11)) src32to64 :=
  (a4_v22 (W4 m c)).trans (by rw [W4_v11, W4_v15]; rfl)
theorem W6_v26 (c : Dev nD) : W6 m c (Proc.devRef .tc main_v26) = floorDiv bcast_S_S64 (ramp bcast_S_S64 32#32) (constantI S_ 32 64#32) :=
  (a5_v26 (W5 m c)).trans (by rw [W5_v25, W5_c8])
theorem W6_v22 (c : Dev nD) : W6 m c (Proc.devRef .tc main_v22) = W5 m c (Proc.devRef .tc main_v22) :=
  StableHlo.after_of_writes_sub hostOps0_5 _ hostOps0_5_writes (by decide)

/-- The label buffer the first pallas_call finds is the label chain of the label input. -/
theorem v34_eq (c : Dev nD) : W7 m c main_v34 = labK (m (c, main_arg2)) :=
  (a6_v34 (W6 m c)).trans (by rw [W6_v22, W6_v26, W5_v22, W3_v11]; rfl)

/-- The student's feature buffer the first pallas_call finds is the flattened feature input. -/
theorem v35_apply (c : Dev nD) (b : Fin 2) (ch : Fin 64) (v : Fin 131072) :
    W7 m c main_v35 (ix3 b ch v)
      = Cert.Spec.feat (m (c, main_arg0)) shapeCasts_S2x64x32x64x64_S2x64x131072 b ch v := by
  have e : W7 m c (Proc.devRef .tc main_v35)
      = shapeCast S2x64x131072 (m (c, (Proc.devRef .tc main_arg0))) shapeCasts_S2x64x32x64x64_S2x64x131072 :=
    (a6_v35 (W6 m c)).trans (by
      rw [show W6 m c (Proc.devRef .tc main_arg0) = m (c, (Proc.devRef .tc main_arg0)) from
        (StableHlo.after_of_writes_sub hostOps0_5 _ hostOps0_5_writes (by decide)).trans <|
        (StableHlo.after_of_writes_sub hostOps0_4 _ hostOps0_4_writes (by decide)).trans <|
        (StableHlo.after_of_writes_sub hostOps0_3 _ hostOps0_3_writes (by decide)).trans <|
        (StableHlo.after_of_writes_sub hostOps0_2 _ hostOps0_2_writes (by decide)).trans <|
        (StableHlo.after_of_writes_sub hostOps0_1 _ hostOps0_1_writes (by decide)).trans <|
        (StableHlo.after_of_writes_sub hostOps0 _ hostOps0_writes (by decide))])
  exact (congrFun e (ix3 b ch v)).trans rfl

/-- The teacher's feature buffer likewise. -/
theorem v36_apply (c : Dev nD) (b : Fin 2) (ch : Fin 64) (v : Fin 131072) :
    W7 m c main_v36 (ix3 b ch v)
      = Cert.Spec.feat (m (c, main_arg1)) shapeCasts_S2x64x32x64x64_S2x64x131072 b ch v := by
  have e : W7 m c (Proc.devRef .tc main_v36)
      = shapeCast S2x64x131072 (m (c, (Proc.devRef .tc main_arg1))) shapeCasts_S2x64x32x64x64_S2x64x131072 :=
    (a6_v36 (W6 m c)).trans (by
      rw [show W6 m c (Proc.devRef .tc main_arg1) = m (c, (Proc.devRef .tc main_arg1)) from
        (StableHlo.after_of_writes_sub hostOps0_5 _ hostOps0_5_writes (by decide)).trans <|
        (StableHlo.after_of_writes_sub hostOps0_4 _ hostOps0_4_writes (by decide)).trans <|
        (StableHlo.after_of_writes_sub hostOps0_3 _ hostOps0_3_writes (by decide)).trans <|
        (StableHlo.after_of_writes_sub hostOps0_2 _ hostOps0_2_writes (by decide)).trans <|
        (StableHlo.after_of_writes_sub hostOps0_1 _ hostOps0_1_writes (by decide)).trans <|
        (StableHlo.after_of_writes_sub hostOps0 _ hostOps0_writes (by decide))])
  exact (congrFun e (ix3 b ch v)).trans rfl

/-- The label buffer with a unit axis inserted, [2,1,131072], reads as the label buffer [2,131072]. -/
theorem v37_apply (c : Dev nD) (b : Fin 2) (v : Fin 131072) :
    W7 m c main_v37 (ix3 b 0 v) = W7 m c main_v34 (ix2 b v) := by
  refine (congrFun (a6_v37 (W6 m c)) (ix3 b 0 v)).trans ?_
  refine shapeCast_apply _ _ _ _ ?_
  show (S2x131072.rowMajor (ix2 b v)).val = (S2x1x131072.rowMajor (ix3 b 0 v)).val
  rw [Shape.rowMajor_val_three, Shape.rowMajor_val_two]
  show b.val * 131072 + v.val = (b.val * 1 + 0) * 131072 + v.val
  omega

/-! ## The same four buffers when the second pallas_call is entered -/

/-- A buffer the two stretches between the calls do not write is as the first call left it. -/
theorem W10_of (c : Dev nD) (r : Ref sig .tc) (h1 : r ∉ hostOps1_W) (h2 : r ∉ hostOps1_1_W) :
    W10 m c (Proc.devRef .tc r) = W8 m c (Proc.devRef .tc r) :=
  (StableHlo.after_of_writes_sub hostOps1_1 _ hostOps1_1_writes h2).trans
    (StableHlo.after_of_writes_sub hostOps1 _ hostOps1_writes h1)

/-- An input window's array comes out of the first pallas_call as it went in. -/
theorem W8_in (c : Dev nD) (w : Fin cfg0.W) (hin : (cfg0.win w).isOut = false) :
    W8 m c (Proc.devRef .tc (Pipeline.arrRef spec0 w)) = W7 m c (Proc.devRef .tc (Pipeline.arrRef spec0 w)) :=
  (W8_arr m c w).trans (((dat0 (V7 m) c).arrAt_in w hin cfg0.N).trans (A_eq0 (V7 m) c w))

theorem keep10_v34 (c : Dev nD) : W10 m c main_v34 = W7 m c main_v34 :=
  (W10_of m c main_v34 (by decide) (by decide)).trans (W8_of_ne m c main_v34 (by decide))
theorem keep10_v35 (c : Dev nD) : W10 m c main_v35 = W7 m c main_v35 :=
  (W10_of m c main_v35 (by decide) (by decide)).trans (W8_in m c 0 rfl)
theorem keep10_v36 (c : Dev nD) : W10 m c main_v36 = W7 m c main_v36 :=
  (W10_of m c main_v36 (by decide) (by decide)).trans (W8_in m c 1 rfl)
theorem keep10_v37 (c : Dev nD) : W10 m c main_v37 = W7 m c main_v37 :=
  (W10_of m c main_v37 (by decide) (by decide)).trans (W8_in m c 2 rfl)

end Cert.KernelIdeal.Hand

end
-- ==== Proof.KI.MidRead.lean ====
/-
  The host operations between the two pallas_calls and after the second one, read index by index over the extended
  reals. Between the calls: the one-hot encoding of the labels (entry (b, v, k) is 1 when voxel v of batch entry b has
  class k and 0 otherwise), the class counts (its sum over the voxels), the class means (the per-class channel sums
  divided by the count plus a small constant), the norms of the class means over the channels, and the means
  transposed. After the second call: the sum of its output over the batch, started from the zero literal, divided by
  the voxel count and multiplied by the weight. Each stretch is first written as a pure function of the arrays it
  reads; each such function is then read at an index; last the results are stated for the buffers at the two
  boundaries.
-/
import proofs.«426160_j54812372632011_3_alg».proof.Proof.KI.Fold
import proofs.«426160_j54812372632011_3_alg».proof.Proof.Spec
import proofs.«426160_j54812372632011_3_alg».proof.Proof.Gen.KernelIdeal.Regions
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## The host operations as pure functions of the arrays they read -/

/-- The one-hot encoding of an array of labels: compare each label, repeated along a new last axis, with that axis's
    coordinate, and convert the bit to a float. -/
def ohOf (lab : IVec S2x131072 32) : FVec Ideal S2x131072x5 .f32 :=
  uitofp .f32 (cmpi .eq
    (broadcastInDim S2x131072x5 ![0, 1, 2] bcast_S2x131072x1_S2x131072x5_0_1_2
      (broadcastInDim S2x131072x1 ![0, 1] bcast_S2x131072_S2x131072x1_0_1 lab))
    (broadcastInDim S2x131072x5 ![0, 1, 2] bcast_S1x1x5_S2x131072x5_0_1_2 (iotaInDim S1x1x5 32 2)))

/-- The class counts: the one-hot array summed over the voxels, from the zero literal. -/
def cntOf (oh : FVec Ideal S2x131072x5 .f32) : FVec Ideal S2x5 .f32 :=
  Host.reduceAdd oh (constant (F := Ideal) S_ .f32 0x00000000#32) reducesTo_S2x131072x5_S2x5_d1 h_S_

/-- The divisor of the class means: the counts plus the small literal, repeated over the channels. -/
def denOf (oh : FVec Ideal S2x131072x5 .f32) : FVec Ideal S2x64x5 .f32 :=
  broadcastInDim S2x64x5 ![0, 1, 2] bcast_S2x1x5_S2x64x5_0_1_2
    (addf (broadcastInDim S2x1x5 ![0, 2] bcast_S2x5_S2x1x5_0_2 (cntOf oh))
      (broadcastInDim S2x1x5 ![] bcast_S_S2x1x5 (constant (F := Ideal) S_ .f32 0x358637BD#32)))

/-- The class means: the per-class channel sums divided by the regularised counts. -/
def meanOf (sums : FVec Ideal S2x64x5 .f32) (oh : FVec Ideal S2x131072x5 .f32) : FVec Ideal S2x64x5 .f32 :=
  Host.divf sums (denOf oh)

/-- The class means with the class axis before the channel axis. -/
def meanTOf (sums : FVec Ideal S2x64x5 .f32) (oh : FVec Ideal S2x131072x5 .f32) : FVec Ideal S2x5x64 .f32 :=
  transpose S2x5x64 [0, 2, 1] (meanOf sums oh) transposes_S2x64x5_S2x5x64_0_2_1

/-- The norms of the class means over the channels, with a trailing unit axis. -/
def normOf (sums : FVec Ideal S2x64x5 .f32) (oh : FVec Ideal S2x131072x5 .f32) : FVec Ideal S2x5x1 .f32 :=
  broadcastInDim S2x5x1 ![0, 1] bcast_S2x5_S2x5x1_0_1
    (Host.sqrt (Host.reduceAdd (mulf (meanOf sums oh) (meanOf sums oh)) (constant (F := Ideal) S_ .f32 0x00000000#32)
      reducesTo_S2x64x5_S2x5_d1 h_S_))

/-- The last stretch: the sum over the batch from the zero literal, divided by the voxel count, times the weight. -/
def finOf (x : FVec Ideal S2x1x1 .f32) : FVec Ideal S_ .f32 :=
  mulf (constant (F := Ideal) S_ .f32 0x3F800000#32)
    (Host.divf (Host.reduceAdd x (constant (F := Ideal) S_ .f32 0x00000000#32) reducesTo_S2x1x1_S_d0_1_2 h_S_)
      (constant (F := Ideal) S_ .f32 0x48800000#32))

section Stretches
variable (V : Valuation τ sig (Elt Ideal))

theorem after1_v39 : StableHlo.after hostOps1 V main_v39 = ohOf (V main_v34) := by
  after_results; rfl

theorem after11_v59 : StableHlo.after hostOps1_1 V main_v59 = meanTOf (V main_v38_0) (V main_v39) := by
  after_results; rfl
theorem after11_v60 : StableHlo.after hostOps1_1 V main_v60 = meanTOf (V main_v38_1) (V main_v39) := by
  after_results; rfl
theorem after11_v54 : StableHlo.after hostOps1_1 V main_v54 = normOf (V main_v38_0) (V main_v39) := by
  after_results; rfl
theorem after11_v58 : StableHlo.after hostOps1_1 V main_v58 = normOf (V main_v38_1) (V main_v39) := by
  after_results; rfl
theorem after2_v64 : StableHlo.after hostOps2 V main_v64 = finOf (V main_v61) := by
  after_results; rfl

end Stretches

/-! ## The layout operations of these stretches at an index -/

section Layout
variable {α : Type}

theorem bc_lab (x : S2x131072.Idx → α) (b : Fin 2) (v : Fin 131072) :
    broadcastInDim S2x131072x1 ![0, 1] bcast_S2x131072_S2x131072x1_0_1 x (ix3 b v (0 : Fin 1)) = x (ix2 b v) :=
  broadcastInDim_apply _ _ _ _ _ fun a => match a with | ⟨0, _⟩ => rfl | ⟨1, _⟩ => rfl

theorem bc_lab5 (x : S2x131072x1.Idx → α) (b : Fin 2) (v : Fin 131072) (k : Fin 5) :
    broadcastInDim S2x131072x5 ![0, 1, 2] bcast_S2x131072x1_S2x131072x5_0_1_2 x (ix3 b v k) = x (ix3 b v (0 : Fin 1)) :=
  broadcastInDim_apply _ _ _ _ _ fun a => match a with | ⟨0, _⟩ => rfl | ⟨1, _⟩ => rfl | ⟨2, _⟩ => rfl

theorem bc_iota (x : S1x1x5.Idx → α) (b : Fin 2) (v : Fin 131072) (k : Fin 5) :
    broadcastInDim S2x131072x5 ![0, 1, 2] bcast_S1x1x5_S2x131072x5_0_1_2 x (ix3 b v k) = x (ix3 (0 : Fin 1) (0 : Fin 1) k) :=
  broadcastInDim_apply _ _ _ _ _ fun a => match a with | ⟨0, _⟩ => rfl | ⟨1, _⟩ => rfl | ⟨2, _⟩ => rfl

theorem bc_cnt (x : S2x5.Idx → α) (b : Fin 2) (k : Fin 5) :
    broadcastInDim S2x1x5 ![0, 2] bcast_S2x5_S2x1x5_0_2 x (ix3 b (0 : Fin 1) k) = x (ix2 b k) :=
  broadcastInDim_apply _ _ _ _ _ fun a => match a with | ⟨0, _⟩ => rfl | ⟨1, _⟩ => rfl

theorem bc_den (x : S2x1x5.Idx → α) (b : Fin 2) (ch : Fin 64) (k : Fin 5) :
    broadcastInDim S2x64x5 ![0, 1, 2] bcast_S2x1x5_S2x64x5_0_1_2 x (ix3 b ch k) = x (ix3 b (0 : Fin 1) k) :=
  broadcastInDim_apply _ _ _ _ _ fun a => match a with | ⟨0, _⟩ => rfl | ⟨1, _⟩ => rfl | ⟨2, _⟩ => rfl

theorem bc_norm (x : S2x5.Idx → α) (b : Fin 2) (k : Fin 5) :
    broadcastInDim S2x5x1 ![0, 1] bcast_S2x5_S2x5x1_0_1 x (ix3 b k (0 : Fin 1)) = x (ix2 b k) :=
  broadcastInDim_apply _ _ _ _ _ fun a => match a with | ⟨0, _⟩ => rfl | ⟨1, _⟩ => rfl

theorem tr_mean (x : S2x64x5.Idx → α) (b : Fin 2) (k : Fin 5) (ch : Fin 64) :
    transpose S2x5x64 [0, 2, 1] x transposes_S2x64x5_S2x5x64_0_2_1 (ix3 b k ch) = x (ix3 b ch k) :=
  transpose_apply _ _ _ _ _ fun a => match a with | ⟨0, _⟩ => rfl | ⟨1, _⟩ => rfl | ⟨2, _⟩ => rfl

end Layout

/-! ## The one-hot array and the counts -/

/-- The converted comparison of two class numbers is the indicator of their equality. -/
theorem oh_word (a k : Fin 5) :
    (FloatOps.uitofp (F := Ideal) .f32 (IntOp.cmpi .eq (BitVec.ofNat 32 a.val) (BitVec.ofNat 32 k.val)) : EReal)
      = if a = k then 1 else 0 := by
  by_cases h : a = k
  · subst h
    rw [if_pos rfl]
    simp [IntOp.cmpi, FloatOps.uitofp]
  · rw [if_neg h]
    have hne : (BitVec.ofNat 32 a.val == BitVec.ofNat 32 k.val) = false := by
      rw [beq_eq_false_iff_ne]
      intro e
      have e' := congrArg BitVec.toNat e
      simp only [BitVec.toNat_ofNat] at e'
      have := a.isLt; have := k.isLt
      exact h (Fin.ext (by omega))
    simp [IntOp.cmpi, FloatOps.uitofp, hne]

theorem ohOf_apply (lab : IVec S2x131072 32) (L : Fin 2 → Fin 131072 → Fin 5)
    (hL : ∀ b v, lab (ix2 b v) = BitVec.ofNat 32 (L b v).val) (b : Fin 2) (v : Fin 131072) (k : Fin 5) :
    ohOf lab (ix3 b v k) = Cert.Spec.oh L b v k := by
  show FloatOps.uitofp (F := Ideal) .f32 (IntOp.cmpi .eq
      (broadcastInDim S2x131072x5 ![0, 1, 2] bcast_S2x131072x1_S2x131072x5_0_1_2
        (broadcastInDim S2x131072x1 ![0, 1] bcast_S2x131072_S2x131072x1_0_1 lab) (ix3 b v k))
      (broadcastInDim S2x131072x5 ![0, 1, 2] bcast_S1x1x5_S2x131072x5_0_1_2 (iotaInDim S1x1x5 32 2) (ix3 b v k))) = _
  rw [bc_lab5, bc_lab, bc_iota, hL]
  exact oh_word (L b v) k

/-- The index a sum over the voxels of a [2, 131072, 5] array visits: the voxel inserted between batch entry and class. -/
theorem lift_vox (h : S2x131072x5.Reduces [1] S2x5) (b : Fin 2) (k : Fin 5) (v : Fin 131072) :
    h.lift (ix2 b k) v = ix3 b v k := by
  funext a
  match a with
  | ⟨0, _⟩ => exact Fin.ext rfl
  | ⟨1, _⟩ => exact Fin.ext rfl
  | ⟨2, _⟩ => exact Fin.ext rfl

/-- The same for a sum over the channels of a [2, 64, 5] array. -/
theorem lift_chan (h : S2x64x5.Reduces [1] S2x5) (b : Fin 2) (k : Fin 5) (ch : Fin 64) :
    h.lift (ix2 b k) ch = ix3 b ch k := by
  funext a
  match a with
  | ⟨0, _⟩ => exact Fin.ext rfl
  | ⟨1, _⟩ => exact Fin.ext rfl
  | ⟨2, _⟩ => exact Fin.ext rfl

section Values
variable (oh : FVec Ideal S2x131072x5 .f32) (L : Fin 2 → Fin 131072 → Fin 5)
  (hoh : ∀ b v k, oh (ix3 b v k) = Cert.Spec.oh L b v k)
include hoh

/-- The counts are the sums of the indicators. -/
theorem cntOf_apply (b : Fin 2) (k : Fin 5) : cntOf oh (ix2 b k) = Cert.Spec.cnt L b k := by
  have h : S2x131072x5.Reduces [1] S2x5 := by decide
  unfold cntOf
  rw [hostReduceAdd_apply, Ideal.hostReduceAdd_single _ h, constant_apply, Ideal.ofBits_zero_f32, zero_add]
  show (∑ v : Fin 131072, oh (h.lift (ix2 b k) v)) = ∑ v : Fin 131072, Cert.Spec.oh L b v k
  refine Finset.sum_congr rfl fun v _ => ?_
  rw [lift_vox h b k v, hoh]

/-- The divisor at every channel is the class's count plus the small constant. -/
theorem denOf_apply (b : Fin 2) (ch : Fin 64) (k : Fin 5) :
    denOf oh (ix3 b ch k) = Cert.Spec.cnt L b k + Cert.Spec.eps6 := by
  unfold denOf
  rw [bc_den, addf_apply, bc_cnt, cntOf_apply oh L hoh, broadcastInDim_scalar_apply, constant_apply]
  rfl

variable (sums : FVec Ideal S2x64x5 .f32)

/-- The class mean of a channel. -/
theorem meanOf_apply (b : Fin 2) (ch : Fin 64) (k : Fin 5) :
    meanOf sums oh (ix3 b ch k) = Ideal.div (sums (ix3 b ch k)) (Cert.Spec.cnt L b k + Cert.Spec.eps6) := by
  unfold meanOf
  rw [hostDivf_apply, denOf_apply oh L hoh]

/-- The transposed class means. -/
theorem meanTOf_apply (b : Fin 2) (k : Fin 5) (ch : Fin 64) :
    meanTOf sums oh (ix3 b k ch) = Ideal.div (sums (ix3 b ch k)) (Cert.Spec.cnt L b k + Cert.Spec.eps6) := by
  unfold meanTOf
  rw [tr_mean, meanOf_apply oh L hoh]

/-- The norm of a class mean: the root of the sum of its squares over the channels. -/
theorem normOf_apply (b : Fin 2) (k : Fin 5) :
    normOf sums oh (ix3 b k (0 : Fin 1)) = Ideal.sqrt (∑ ch : Fin 64,
      Ideal.div (sums (ix3 b ch k)) (Cert.Spec.cnt L b k + Cert.Spec.eps6)
        * Ideal.div (sums (ix3 b ch k)) (Cert.Spec.cnt L b k + Cert.Spec.eps6)) := by
  have h : S2x64x5.Reduces [1] S2x5 := by decide
  unfold normOf
  rw [bc_norm]
  show Ideal.sqrt (Host.reduceAdd (mulf (meanOf sums oh) (meanOf sums oh)) (constant (F := Ideal) S_ .f32 0x00000000#32)
      reducesTo_S2x64x5_S2x5_d1 h_S_ (ix2 b k)) = _
  rw [hostReduceAdd_apply, Ideal.hostReduceAdd_single _ h, constant_apply, Ideal.ofBits_zero_f32, zero_add]
  refine congrArg Ideal.sqrt ?_
  show (∑ ch : Fin 64, mulf (meanOf sums oh) (meanOf sums oh) (h.lift (ix2 b k) ch)) = _
  refine Finset.sum_congr rfl fun ch _ => ?_
  rw [lift_chan h b k ch, mulf_apply, meanOf_apply oh L hoh]

end Values

/-! ## The last stretch -/

/-- An index of a [2, 1, 1] array is its batch coordinate. -/
def idx211 : S2x1x1.Idx ≃ Fin 2 where
  toFun i := i 0
  invFun b := ix3 b (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

theorem finOf_apply (x : FVec Ideal S2x1x1 .f32) :
    finOf x ix0 = Cert.Spec.finish (∑ b : Fin 2, x (ix3 b (0 : Fin 1) (0 : Fin 1))) := by
  unfold finOf Cert.Spec.finish
  rw [mulf_apply, constant_apply, hostDivf_apply, hostReduceAdd_apply, Ideal.hostReduceAdd_total _ (fun a => a.elim0),
    constant_apply, constant_apply]
  congr 3
  exact (Equiv.sum_comp idx211.symm x).symm

/-! ## The buffers between the two pallas_calls and at the return -/

section Boundaries
variable (m : (ℓ : Loc nD τ sig) → Buf (Elt Ideal) ℓ) (c : Dev nD)

/-- The labels are no array of the first call: it leaves them as it found them. -/
theorem W8_v34 : W8 m c main_v34 = W7 m c main_v34 := W8_of_ne m c main_v34 (by decide)

/-- The one-hot stretch writes neither array of per-class sums. -/
theorem W9_v38_0 : W9 m c main_v38_0 = W8 m c main_v38_0 :=
  StableHlo.after_of_writes_sub hostOps1 _ hostOps1_writes (by decide)
theorem W9_v38_1 : W9 m c main_v38_1 = W8 m c main_v38_1 :=
  StableHlo.after_of_writes_sub hostOps1 _ hostOps1_writes (by decide)

variable (L : Fin 2 → Fin 131072 → Fin 5)
  (hL : ∀ b v, W7 m c main_v34 (ix2 b v) = BitVec.ofNat 32 (L b v).val)
include hL

/-- The one-hot array the second stretch reads. -/
theorem W9_oh (b : Fin 2) (v : Fin 131072) (k : Fin 5) : W9 m c main_v39 (ix3 b v k) = Cert.Spec.oh L b v k := by
  refine (congrFun (after1_v39 (W8 m c)) _).trans ?_
  refine ohOf_apply _ L (fun b v => ?_) b v k
  exact (congrFun (W8_v34 m c) _).trans (hL b v)

theorem meansS_apply (sS : Fin 2 → Fin 64 → Fin 5 → EReal)
    (hs : ∀ b ch k, W8 m c main_v38_0 (ix3 b ch k) = sS b ch k) (b : Fin 2) (k : Fin 5) (ch : Fin 64) :
    W10 m c main_v59 (ix3 b k ch) = Ideal.div (sS b ch k) (Cert.Spec.cnt L b k + Cert.Spec.eps6) := by
  refine (congrFun (after11_v59 (W9 m c)) _).trans ?_
  rw [meanTOf_apply _ L (W9_oh m c L hL), W9_v38_0, hs]

theorem meansT_apply (sT : Fin 2 → Fin 64 → Fin 5 → EReal)
    (hs : ∀ b ch k, W8 m c main_v38_1 (ix3 b ch k) = sT b ch k) (b : Fin 2) (k : Fin 5) (ch : Fin 64) :
    W10 m c main_v60 (ix3 b k ch) = Ideal.div (sT b ch k) (Cert.Spec.cnt L b k + Cert.Spec.eps6) := by
  refine (congrFun (after11_v60 (W9 m c)) _).trans ?_
  rw [meanTOf_apply _ L (W9_oh m c L hL), W9_v38_1, hs]

theorem normS_apply (sS : Fin 2 → Fin 64 → Fin 5 → EReal)
    (hs : ∀ b ch k, W8 m c main_v38_0 (ix3 b ch k) = sS b ch k) (b : Fin 2) (k : Fin 5) :
    W10 m c main_v54 (ix3 b k (0 : Fin 1)) = Ideal.sqrt (∑ ch : Fin 64,
      Ideal.div (sS b ch k) (Cert.Spec.cnt L b k + Cert.Spec.eps6)
        * Ideal.div (sS b ch k) (Cert.Spec.cnt L b k + Cert.Spec.eps6)) := by
  refine (congrFun (after11_v54 (W9 m c)) _).trans ?_
  rw [normOf_apply _ L (W9_oh m c L hL), W9_v38_0]
  refine congrArg Ideal.sqrt (Finset.sum_congr rfl fun ch _ => ?_)
  rw [hs]

theorem normT_apply (sT : Fin 2 → Fin 64 → Fin 5 → EReal)
    (hs : ∀ b ch k, W8 m c main_v38_1 (ix3 b ch k) = sT b ch k) (b : Fin 2) (k : Fin 5) :
    W10 m c main_v58 (ix3 b k (0 : Fin 1)) = Ideal.sqrt (∑ ch : Fin 64,
      Ideal.div (sT b ch k) (Cert.Spec.cnt L b k + Cert.Spec.eps6)
        * Ideal.div (sT b ch k) (Cert.Spec.cnt L b k + Cert.Spec.eps6)) := by
  refine (congrFun (after11_v58 (W9 m c)) _).trans ?_
  rw [normOf_apply _ L (W9_oh m c L hL), W9_v38_1]
  refine congrArg Ideal.sqrt (Finset.sum_congr rfl fun ch _ => ?_)
  rw [hs]

omit hL in
/-- The returned scalar: the finishing function of the sum of the second call's output over the batch. -/
theorem out_apply :
    W12 m c main_v64 ix0 = Cert.Spec.finish (∑ b : Fin 2, W11 m c main_v61 (ix3 b (0 : Fin 1) (0 : Fin 1))) := by
  refine (congrFun (after2_v64 (W11 m c)) _).trans ?_
  exact finOf_apply _

end Boundaries

end Cert.KernelIdeal.Hand
end
-- ==== Proof.Alg.lean ====
/-
  Finite sums on the extended reals, as far as two programs that add up the same terms in different orders need
  them. The extended reals are an additive commutative monoid and a commutative monoid with zero under
  multiplication, and nothing more is used: a sum over 131072 positions is the sum over its eight runs of 16384
  consecutive positions; a sum against an indicator of one class picks that class's term; an accumulator that
  starts at zero and adds one term per step ends at the sum of the terms; a sum over a rectangle of indices is
  the iterated sum over its coordinates; and small natural numbers are told apart by their 32-bit words.
-/
import Idealize.ShloMosaic.PureOps.Ideal
import Idealize.ShloMosaic.Lib.ValueIdx
import Mathlib.Algebra.BigOperators.Fin
import Mathlib.Algebra.BigOperators.Group.Finset.Piecewise
import Mathlib.Logic.Equiv.Fin.Basic

namespace Cert.Alg

open Idealize.ShloMosaic

/-! ## A range of `m * n` positions is `m` runs of `n` -/

/-- A sum over `m * n` positions, run by run: position `n * j + u` is the `u`-th of run `j`. -/
theorem sum_runs {M : Type*} [AddCommMonoid M] (m n : ℕ) (g : Fin (m * n) → M) :
    ∑ v : Fin (m * n), g v
      = ∑ j : Fin m, ∑ u : Fin n, g ⟨n * j.val + u.val, by
          have hj := j.isLt; have hu := u.isLt
          calc n * j.val + u.val < n * j.val + n := by omega
            _ = n * (j.val + 1) := by ring
            _ ≤ n * m := Nat.mul_le_mul_left _ hj
            _ = m * n := Nat.mul_comm _ _⟩ := by
  rw [← Equiv.sum_comp (finProdFinEquiv : Fin m × Fin n ≃ Fin (m * n)) g, Fintype.sum_prod_type]
  refine Finset.sum_congr rfl fun j _ => Finset.sum_congr rfl fun u _ => congrArg g ?_
  apply Fin.ext
  simp only [finProdFinEquiv_apply_val]
  omega

/-- A batch entry's 131072 voxels are its eight tiles of 16384. -/
theorem sum_tiles (g : Fin 131072 → EReal) :
    ∑ v : Fin 131072, g v = ∑ j : Fin 8, ∑ u : Fin 16384, g ⟨16384 * j.val + u.val, by omega⟩ :=
  sum_runs 8 16384 g

/-! ## A sum against the indicator of one class -/

theorem sum_onehot {n : ℕ} (X : Fin n → EReal) (l : Fin n) :
    ∑ k : Fin n, X k * (if l = k then (1 : EReal) else 0) = X l := by
  simp only [mul_ite, mul_one, mul_zero, Finset.sum_ite_eq, Finset.mem_univ, if_true]

theorem sum_onehot' {n : ℕ} (X : Fin n → EReal) (l : Fin n) :
    ∑ k : Fin n, X k * (if k = l then (1 : EReal) else 0) = X l := by
  simp only [mul_ite, mul_one, mul_zero, Finset.sum_ite_eq', Finset.mem_univ, if_true]

theorem onehot_sum {n : ℕ} (X : Fin n → EReal) (l : Fin n) :
    ∑ k : Fin n, (if l = k then (1 : EReal) else 0) * X k = X l := by
  simp only [ite_mul, one_mul, zero_mul, Finset.sum_ite_eq, Finset.mem_univ, if_true]

theorem onehot_sum' {n : ℕ} (X : Fin n → EReal) (l : Fin n) :
    ∑ k : Fin n, (if k = l then (1 : EReal) else 0) * X k = X l := by
  simp only [ite_mul, one_mul, zero_mul, Finset.sum_ite_eq', Finset.mem_univ, if_true]

/-! ## An accumulator that starts at zero and adds one term per step -/

theorem zero_add' (x : EReal) : 0 + x = x := zero_add x

/-- After step `n` the accumulator holds the sum of the terms `0 … n`. -/
theorem fold_steps (a s : ℕ → EReal) (h0 : a 0 = 0 + s 0) (hs : ∀ n, a (n + 1) = a n + s (n + 1)) (n : ℕ) :
    a n = ∑ j : Fin (n + 1), s j.val := by
  induction n with
  | zero => simp [h0]
  | succ n ih =>
    rw [hs, ih]
    exact (Fin.sum_univ_castSucc (fun j : Fin (n + 1 + 1) => s j.val)).symm

/-- Eight tiles: the accumulator ends at the sum over the tiles. -/
theorem fold_tiles (a s : ℕ → EReal) (h0 : a 0 = 0 + s 0) (hs : ∀ n, a (n + 1) = a n + s (n + 1)) :
    a 7 = ∑ j : Fin 8, s j.val :=
  fold_steps a s h0 hs 7

/-- The same, the terms indexed by the tile. -/
theorem fold_tiles_fin (a s : Fin 8 → EReal) (h0 : a 0 = 0 + s 0)
    (hs : ∀ (n : ℕ) (h : n + 1 < 8), a ⟨n + 1, h⟩ = a ⟨n, by omega⟩ + s ⟨n + 1, h⟩) :
    a 7 = ∑ j : Fin 8, s j := by
  have h1 := hs 0 (by omega); have h2 := hs 1 (by omega); have h3 := hs 2 (by omega)
  have h4 := hs 3 (by omega); have h5 := hs 4 (by omega); have h6 := hs 5 (by omega); have h7 := hs 6 (by omega)
  simp only [Nat.reduceAdd] at h1 h2 h3 h4 h5 h6 h7
  rw [show (7 : Fin 8) = ⟨7, by omega⟩ from rfl, h7, h6, h5, h4, h3, h2, h1,
    show (⟨0, by omega⟩ : Fin 8) = 0 from rfl, h0, Fin.sum_univ_eight, zero_add]
  rfl

/-- A left fold of additions from zero over a list of terms is their sum. -/
theorem foldl_add_eq_sum {ι : Type*} (l : List ι) (s : ι → EReal) (init : EReal) :
    l.foldl (fun r j => r + s j) init = init + (l.map s).sum := by
  induction l generalizing init with
  | nil => simp
  | cons x l ih => simp [ih, add_assoc]

/-! ## Sums over rectangles of indices -/

/-- A sum over a rank-2 index set, read by coordinates. -/
theorem sum_idx2 {n0 n1 : ℕ} (g : Fin n0 → Fin n1 → EReal) :
    ∑ i : (⟨2, ![n0, n1]⟩ : Shape).Idx, g (i 0) (i 1) = ∑ b : Fin n0, ∑ v : Fin n1, g b v :=
  ValueIdx.sum_idx2 (fun i : (⟨2, ![n0, n1]⟩ : Shape).Idx => g (i 0) (i 1))

/-- A rank-3 index set whose last two extents are one is its first coordinate's range. -/
def idxEquiv311 {n : ℕ} : (⟨3, ![n, 1, 1]⟩ : Shape).Idx ≃ Fin n where
  toFun i := i 0
  invFun b := ValueIdx.ix3 b (0 : Fin 1) (0 : Fin 1)
  left_inv i := by
    funext d
    match d with
    | ⟨0, _⟩ => rfl
    | ⟨1, _⟩ => exact (Subsingleton.elim (α := Fin 1) _ _)
    | ⟨2, _⟩ => exact (Subsingleton.elim (α := Fin 1) _ _)
  right_inv _ := rfl

theorem sum_idx311 {n : ℕ} (g : Fin n → EReal) :
    ∑ i : (⟨3, ![n, 1, 1]⟩ : Shape).Idx, g (i 0) = ∑ b : Fin n, g b :=
  Equiv.sum_comp (idxEquiv311 (n := n)) g

/-! ## Class numbers as 32-bit words -/

theorem ofNat_inj5 (a b : Fin 5) : BitVec.ofNat 32 a.val = BitVec.ofNat 32 b.val ↔ a = b := by
  revert a b; decide

end Cert.Alg
-- ==== Proof.KI.R0Value.lean ====
/-
  What the first pallas_call leaves in its two output arrays, over the extended reals: entry (b, ch, k) of the
  student's (teacher's) output is the sum over all 131072 voxels v of batch entry b of the feature f b ch v times
  the one-hot indicator [L b v = k].
  The road: one tile's step adds, at (ch, k), the sum over the tile's 16384 voxels of feature times indicator (a
  matrix product with the transposed one-hot block); the accumulator after the eighth tile of a batch entry is the
  sum of the eight tiles' sums from zero; a tile's entries are the arrays' entries at voxel 16384·j + u; and the
  double sum over (tile, voxel inside the tile) is the sum over all voxels. The write-back at the eighth tile puts
  the accumulator into block (b, 0, 0) of the output array, and these blocks cover it.
-/
import proofs.«426160_j54812372632011_3_alg».proof.Proof.KI.R0Data
import proofs.«426160_j54812372632011_3_alg».proof.Proof.Spec
import proofs.«426160_j54812372632011_3_alg».proof.Proof.Alg
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat Cfg Window)

/-! ## The contraction of the tile's product: features [64, 16384] against the one-hot block [5, 16384] -/

theorem lhsA_0 (j : S64x5.Idx) (k : dot_S64x16384_S5x16384_S64x5_1_1_0_0_n_n.contr.Idx) :
    (dot_S64x16384_S5x16384_S64x5_1_1_0_0_n_n.lhsIdx j k 0 : ℕ) = j 0 := by
  simp [DotDims.lhsIdx, dot_S64x16384_S5x16384_S64x5_1_1_0_0_n_n]; rfl
theorem lhsA_1 (j : S64x5.Idx) (k : dot_S64x16384_S5x16384_S64x5_1_1_0_0_n_n.contr.Idx) :
    (dot_S64x16384_S5x16384_S64x5_1_1_0_0_n_n.lhsIdx j k 1 : ℕ) = k ⟨0, by decide⟩ := by
  simp [DotDims.lhsIdx, dot_S64x16384_S5x16384_S64x5_1_1_0_0_n_n]; rfl
theorem rhsA_0 (j : S64x5.Idx) (k : dot_S64x16384_S5x16384_S64x5_1_1_0_0_n_n.contr.Idx) :
    (dot_S64x16384_S5x16384_S64x5_1_1_0_0_n_n.rhsIdx j k 0 : ℕ) = j 1 := by
  simp [DotDims.rhsIdx, dot_S64x16384_S5x16384_S64x5_1_1_0_0_n_n]; rfl
theorem rhsA_1 (j : S64x5.Idx) (k : dot_S64x16384_S5x16384_S64x5_1_1_0_0_n_n.contr.Idx) :
    (dot_S64x16384_S5x16384_S64x5_1_1_0_0_n_n.rhsIdx j k 1 : ℕ) = k ⟨0, by decide⟩ := by
  simp [DotDims.rhsIdx, dot_S64x16384_S5x16384_S64x5_1_1_0_0_n_n]; rfl

/-- The product at (ch, k): the sum over the tile's voxels of the left row times the right row. -/
theorem mmA_apply (A : FVec Ideal S64x16384 .bf16) (B : FVec Ideal S5x16384 .bf16) (ch : Fin 64) (k : Fin 5) :
    matmul dot_S64x16384_S5x16384_S64x5_1_1_0_0_n_n none A B (constant (F := Ideal) S64x5 .f32 0x00000000#32) (ix2 ch k)
      = ∑ u : Fin 16384, A (ix2 ch u) * B (ix2 k u) := by
  refine (Ideal.matmul_constant_zero_apply dot_S64x16384_S5x16384_S64x5_1_1_0_0_n_n none A B (ix2 ch k)).trans ?_
  rw [← Equiv.sum_comp (contrEquiv1 dot_S64x16384_S5x16384_S64x5_1_1_0_0_n_n 16384 rfl rfl).symm]
  refine Finset.sum_congr rfl fun u _ => ?_
  have hu := contrEquiv1_symm_val dot_S64x16384_S5x16384_S64x5_1_1_0_0_n_n 16384 rfl rfl u
  congr 1
  · refine congrArg A (funext fun a => Fin.ext ?_)
    match a with
    | ⟨0, _⟩ => exact lhsA_0 _ _
    | ⟨1, _⟩ => exact (lhsA_1 _ _).trans hu
  · refine congrArg B (funext fun a => Fin.ext ?_)
    match a with
    | ⟨0, _⟩ => exact rhsA_0 _ _
    | ⟨1, _⟩ => exact (rhsA_1 _ _).trans hu

/-- The one-hot block at (k, u): 1 where voxel u's label is k, else 0. -/
theorem onehot_apply (v3 : Vec Ideal S1x1x16384 .i32) (k : Fin 5) (u : Fin 16384) :
    k0_pay5 (F := Ideal) v3 (ix2 k u) = if v3 (ix3 (0 : Fin 1) (0 : Fin 1) u) = BitVec.ofNat 32 k.val then 1 else 0 := by
  unfold k0_pay5
  have e1 : broadcastTo S5x16384 (shapeCast S1x16384 v3 shapeCasts_S1x1x16384_S1x16384) broadcasts_S1x16384_S5x16384 (ix2 k u)
      = v3 (ix3 (0 : Fin 1) (0 : Fin 1) u) :=
    (broadcastTo_1b_ab_apply _ _ k u).trans (shapeCast_1ab_ab_apply v3 _ 0 u)
  have e2 : iota .tc S5x16384 32 [0] iota_S5x16384_d0_w32 (ix2 k u) = BitVec.ofNat 32 k.val :=
    iota_single_apply _ _ _ _ _ _
  show ((((IntOp.cmpi .eq (broadcastTo S5x16384 (shapeCast S1x16384 v3 shapeCasts_S1x1x16384_S1x16384) broadcasts_S1x16384_S5x16384 (ix2 k u))
      (iota .tc S5x16384 32 [0] iota_S5x16384_d0_w32 (ix2 k u))).setWidth 32).toInt : ℝ) : EReal) = _
  rw [e1, e2]
  by_cases h : v3 (ix3 (0 : Fin 1) (0 : Fin 1) u) = BitVec.ofNat 32 k.val
  · rw [if_pos h, StableHlo.Predicate.cmpi_eq_iff.mpr h]; norm_num
  · rw [if_neg h, eq_zero_of_ne_one (fun e => h (StableHlo.Predicate.cmpi_eq_iff.mp e))]; norm_num

/-- The zero block the first tile of a batch entry starts from. -/
theorem zero_apply (i : S64x5.Idx) : k0_pay3 (F := Ideal) i = 0 := Ideal.ofBits_zero_f32
theorem zeroT_apply (i : S64x5.Idx) : k0_pay4 (F := Ideal) i = 0 := Ideal.ofBits_zero_f32

/-- One tile's step at (ch, k): what the accumulator held plus the tile's sum of feature times indicator. -/
theorem step_apply (v3 : Vec Ideal S1x1x16384 .i32) (v11 : Vec Ideal S1x64x16384 .f32) (v17 : Vec Ideal S64x5 .f32)
    (ch : Fin 64) (k : Fin 5) :
    k0_pay6 (F := Ideal) v3 v11 v17 (ix2 ch k)
      = v17 (ix2 ch k) + ∑ u : Fin 16384, v11 (ix3 (0 : Fin 1) ch u)
          * (if v3 (ix3 (0 : Fin 1) (0 : Fin 1) u) = BitVec.ofNat 32 k.val then 1 else 0) := by
  unfold k0_pay6
  refine (congrFun (shapeCast_self _ _) (ix2 ch k)).trans ?_
  refine congrArg (v17 (ix2 ch k) + ·) ?_
  refine (mmA_apply _ _ ch k).trans ?_
  refine Finset.sum_congr rfl fun u _ => ?_
  exact congrArg₂ (· * ·) (shapeCast_1ab_ab_apply v11 _ ch u) (onehot_apply v3 k u)

/-- The teacher's step is the same function of its blocks. -/
theorem stepT_eq (v3 : Vec Ideal S1x1x16384 .i32) (v14 : Vec Ideal S1x64x16384 .f32) (v23 : Vec Ideal S64x5 .f32) :
    k0_pay7 (F := Ideal) v3 v14 v23 = k0_pay6 (F := Ideal) v3 v14 v23 := rfl

/-! ## The accumulators along the eight tiles of a batch entry -/

section Acc
variable {F : FTy → Type} [FloatOps F]
variable (V : (c : Dev nD) → (b : Ref sig .tc) → Buf (Elt F) ((c : Thread nD τ).loc b))

/-- At the first tile of a batch entry both accumulators restart from zero. -/
theorem acc0_reset (c : Dev nD) : ∀ (n : ℕ) (h : n < cfg0.N), n % 8 = 0 →
    acc0 V c n h = (k0_pay6 (iblk0 V c 2 ⟨n, h⟩) (iblk0 V c 0 ⟨n, h⟩) (k0_pay3 (F := F)),
                    k0_pay7 (iblk0 V c 2 ⟨n, h⟩) (iblk0 V c 1 ⟨n, h⟩) (k0_pay4 (F := F)))
  | 0, h, _ => by rw [acc0]
  | n + 1, h, hm => by rw [acc0, if_pos hm]

/-- At every other tile each accumulator steps from what the tile before left. -/
theorem acc0_step (c : Dev nD) (n : ℕ) (h : n + 1 < cfg0.N) (hm : ¬(n + 1) % 8 = 0) :
    acc0 V c (n + 1) h
      = (k0_pay6 (iblk0 V c 2 ⟨n + 1, h⟩) (iblk0 V c 0 ⟨n + 1, h⟩) (acc0 V c n (Nat.lt_of_succ_lt h)).1,
         k0_pay7 (iblk0 V c 2 ⟨n + 1, h⟩) (iblk0 V c 1 ⟨n + 1, h⟩) (acc0 V c n (Nat.lt_of_succ_lt h)).2) := by
  rw [acc0, if_neg hm]

end Acc

/-! ## A tile's block entries are the arrays' entries -/

/-- The printed index maps over the grid: point t is batch entry t / 8, tile t % 8; the outputs' blocks do not move
    inside a batch entry. -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0 :=
  (by decide +kernel : ∀ t : Fin grid0.N, _)

section Blocks
variable {F : FTy → Type} [FloatOps F]
variable (V : (c : Dev nD) → (b : Ref sig .tc) → Buf (Elt F) ((c : Thread nD τ).loc b))

/-- The three input blocks at a grid point, at their literal types. -/
abbrev xS (c : Dev nD) (t : Fin cfg0.N) : Vec F S1x64x16384 .f32 := iblk0 V c 0 t
abbrev xT (c : Dev nD) (t : Fin cfg0.N) : Vec F S1x64x16384 .f32 := iblk0 V c 1 t
abbrev lab (c : Dev nD) (t : Fin cfg0.N) : Vec F S1x1x16384 .i32 := iblk0 V c 2 t

/-- Entry (0, ch, u) of the student's feature block at point t is the array's entry (t / 8, ch, 16384·(t % 8) + u). -/
theorem blkS_apply (c : Dev nD) (t : Fin cfg0.N) (ch : Fin 64) (u : Fin 16384) (b : Fin 2) (v : Fin 131072)
    (hb : b.val = t.val / 8) (hv : v.val = 16384 * (t.val % 8) + u.val) :
    xS V c t (ix3 (0 : Fin 1) ch u) = V c main_v35 (ix3 b ch v) := by
  obtain ⟨e0, e1, e2, -⟩ := idx_facts0 t
  unfold xS iblk0
  rw [View.read_apply]
  show V c main_v35 _ = V c main_v35 _
  refine congrArg (V c main_v35) (funext fun a => Fin.ext ?_)
  match a with
  | ⟨0, _⟩ => show win0_0.index t (0 : Fin 3) * 1 + 1 * 0 = b.val; omega
  | ⟨1, _⟩ => show win0_0.index t (1 : Fin 3) * 64 + 1 * ch.val = ch.val; omega
  | ⟨2, _⟩ => show win0_0.index t (2 : Fin 3) * 16384 + 1 * u.val = v.val; omega

/-- The same for the teacher's feature block. -/
theorem blkT_apply (c : Dev nD) (t : Fin cfg0.N) (ch : Fin 64) (u : Fin 16384) (b : Fin 2) (v : Fin 131072)
    (hb : b.val = t.val / 8) (hv : v.val = 16384 * (t.val % 8) + u.val) :
    xT V c t (ix3 (0 : Fin 1) ch u) = V c main_v36 (ix3 b ch v) := by
  obtain ⟨-, -, -, e0, e1, e2, -⟩ := idx_facts0 t
  unfold xT iblk0
  rw [View.read_apply]
  show V c main_v36 _ = V c main_v36 _
  refine congrArg (V c main_v36) (funext fun a => Fin.ext ?_)
  match a with
  | ⟨0, _⟩ => show win0_1.index t (0 : Fin 3) * 1 + 1 * 0 = b.val; omega
  | ⟨1, _⟩ => show win0_1.index t (1 : Fin 3) * 64 + 1 * ch.val = ch.val; omega
  | ⟨2, _⟩ => show win0_1.index t (2 : Fin 3) * 16384 + 1 * u.val = v.val; omega

/-- Entry (0, 0, u) of the label block at point t is the label array's entry (t / 8, 0, 16384·(t % 8) + u). -/
theorem blkL_apply (c : Dev nD) (t : Fin cfg0.N) (u : Fin 16384) (b : Fin 2) (v : Fin 131072)
    (hb : b.val = t.val / 8) (hv : v.val = 16384 * (t.val % 8) + u.val) :
    lab V c t (ix3 (0 : Fin 1) (0 : Fin 1) u) = V c main_v37 (ix3 b (0 : Fin 1) v) := by
  obtain ⟨-, -, -, -, -, -, e0, e1, e2, -⟩ := idx_facts0 t
  unfold lab iblk0
  rw [View.read_apply]
  show V c main_v37 _ = V c main_v37 _
  refine congrArg (V c main_v37) (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 16384 + 1 * u.val = v.val; omega

end Blocks

/-! ## The eight tiles of a batch entry, summed -/

theorem pt_lt (b : Fin 2) (j : Fin 8) : 8 * b.val + j.val < cfg0.N := by
  have hN : grid0.N = 16 := N_0
  have := b.isLt; have := j.isLt
  show 8 * b.val + j.val < grid0.N
  omega

theorem vox_lt (j : Fin 8) (u : Fin 16384) : 16384 * j.val + u.val < 131072 := by
  have := j.isLt; have := u.isLt; omega

/-- One tile's sum with its blocks replaced by the arrays' entries they are. -/
theorem tile_sum (f : Fin 2 → Fin 64 → Fin 131072 → EReal) (L : Fin 2 → Fin 131072 → Fin 5)
    (x : Vec Ideal S1x64x16384 .f32) (l : Vec Ideal S1x1x16384 .i32) (b : Fin 2) (j : Fin 8) (ch : Fin 64) (k : Fin 5)
    (hx : ∀ u : Fin 16384, x (ix3 (0 : Fin 1) ch u) = f b ch ⟨16384 * j.val + u.val, vox_lt j u⟩)
    (hl : ∀ u : Fin 16384, l (ix3 (0 : Fin 1) (0 : Fin 1) u) = BitVec.ofNat 32 (L b ⟨16384 * j.val + u.val, vox_lt j u⟩).val) :
    (∑ u : Fin 16384, x (ix3 (0 : Fin 1) ch u) * (if l (ix3 (0 : Fin 1) (0 : Fin 1) u) = BitVec.ofNat 32 k.val then 1 else 0))
      = ∑ u : Fin 16384, f b ch ⟨16384 * j.val + u.val, vox_lt j u⟩ * Cert.Spec.oh L b ⟨16384 * j.val + u.val, vox_lt j u⟩ k := by
  refine Finset.sum_congr rfl fun u _ => ?_
  rw [hx u, hl u]
  unfold Cert.Spec.oh
  exact congrArg _ (if_congr (Cert.Alg.ofNat_inj5 _ _) rfl rfl)

section Sums
variable (V : (c : Dev nD) → (b : Ref sig .tc) → Buf (Elt Ideal) ((c : Thread nD τ).loc b))
variable (c : Dev nD) (f : Fin 2 → Fin 64 → Fin 131072 → EReal) (L : Fin 2 → Fin 131072 → Fin 5)

/-- The student's accumulator after the eighth tile of batch entry b, at (ch, k): the per-class channel sum. -/
theorem accS_last (hf : ∀ b ch v, V c main_v35 (ix3 b ch v) = f b ch v)
    (hL : ∀ b v, V c main_v37 (ix3 b (0 : Fin 1) v) = BitVec.ofNat 32 (L b v).val) (b : Fin 2) (ch : Fin 64) (k : Fin 5) :
    (acc0 V c (8 * b.val + (7 : Fin 8).val) (pt_lt b 7)).1 (ix2 ch k) = Cert.Spec.sums f L b ch k := by
  unfold Cert.Spec.sums
  rw [Cert.Alg.sum_tiles]
  have hmod : ∀ j : Fin 8, (8 * b.val + j.val) / 8 = b.val ∧ (8 * b.val + j.val) % 8 = j.val := fun j => by
    have := j.isLt; omega
  have tile : ∀ j : Fin 8,
      (∑ u : Fin 16384, xS V c ⟨8 * b.val + j.val, pt_lt b j⟩ (ix3 (0 : Fin 1) ch u)
          * (if lab V c ⟨8 * b.val + j.val, pt_lt b j⟩ (ix3 (0 : Fin 1) (0 : Fin 1) u) = BitVec.ofNat 32 k.val then 1 else 0))
        = ∑ u : Fin 16384, f b ch ⟨16384 * j.val + u.val, vox_lt j u⟩ * Cert.Spec.oh L b ⟨16384 * j.val + u.val, vox_lt j u⟩ k :=
    fun j => tile_sum f L (xS V c ⟨8 * b.val + j.val, pt_lt b j⟩) (lab V c ⟨8 * b.val + j.val, pt_lt b j⟩) b j ch k
      (fun u => (blkS_apply V c ⟨8 * b.val + j.val, pt_lt b j⟩ ch u b ⟨16384 * j.val + u.val, vox_lt j u⟩
          (hmod j).1.symm (by show 16384 * j.val + u.val = 16384 * ((8 * b.val + j.val) % 8) + u.val; rw [(hmod j).2])).trans (hf _ _ _))
      (fun u => (blkL_apply V c ⟨8 * b.val + j.val, pt_lt b j⟩ u b ⟨16384 * j.val + u.val, vox_lt j u⟩
          (hmod j).1.symm (by show 16384 * j.val + u.val = 16384 * ((8 * b.val + j.val) % 8) + u.val; rw [(hmod j).2])).trans (hL _ _))
  refine Cert.Alg.fold_tiles_fin (fun j => (acc0 V c (8 * b.val + j.val) (pt_lt b j)).1 (ix2 ch k))
    (fun j => ∑ u : Fin 16384, f b ch ⟨16384 * j.val + u.val, vox_lt j u⟩ * Cert.Spec.oh L b ⟨16384 * j.val + u.val, vox_lt j u⟩ k) ?_ ?_
  · show (acc0 V c (8 * b.val + 0) (pt_lt b 0)).1 (ix2 ch k) = 0 + _
    rw [acc0_reset V c (8 * b.val + 0) (pt_lt b 0) (by omega)]
    dsimp only
    refine (step_apply (lab V c ⟨8 * b.val + 0, pt_lt b 0⟩) (xS V c ⟨8 * b.val + 0, pt_lt b 0⟩) (k0_pay3 (F := Ideal)) ch k).trans ?_
    exact congrArg₂ (· + ·) (zero_apply _) (tile 0)
  · intro n h
    show (acc0 V c (8 * b.val + n + 1) (pt_lt b ⟨n + 1, h⟩)).1 (ix2 ch k) = (acc0 V c (8 * b.val + n) (pt_lt b ⟨n, by omega⟩)).1 (ix2 ch k) + _
    rw [acc0_step V c (8 * b.val + n) (pt_lt b ⟨n + 1, h⟩) (by omega)]
    dsimp only
    refine (step_apply (lab V c ⟨8 * b.val + n + 1, pt_lt b ⟨n + 1, h⟩⟩) (xS V c ⟨8 * b.val + n + 1, pt_lt b ⟨n + 1, h⟩⟩)
      (acc0 V c (8 * b.val + n) (pt_lt b ⟨n, by omega⟩)).1 ch k).trans ?_
    exact congrArg _ (tile ⟨n + 1, h⟩)

/-- The teacher's accumulator after the eighth tile of batch entry b, at (ch, k): the per-class channel sum. -/
theorem accT_last (hf : ∀ b ch v, V c main_v36 (ix3 b ch v) = f b ch v)
    (hL : ∀ b v, V c main_v37 (ix3 b (0 : Fin 1) v) = BitVec.ofNat 32 (L b v).val) (b : Fin 2) (ch : Fin 64) (k : Fin 5) :
    (acc0 V c (8 * b.val + (7 : Fin 8).val) (pt_lt b 7)).2 (ix2 ch k) = Cert.Spec.sums f L b ch k := by
  unfold Cert.Spec.sums
  rw [Cert.Alg.sum_tiles]
  have hmod : ∀ j : Fin 8, (8 * b.val + j.val) / 8 = b.val ∧ (8 * b.val + j.val) % 8 = j.val := fun j => by
    have := j.isLt; omega
  have tile : ∀ j : Fin 8,
      (∑ u : Fin 16384, xT V c ⟨8 * b.val + j.val, pt_lt b j⟩ (ix3 (0 : Fin 1) ch u)
          * (if lab V c ⟨8 * b.val + j.val, pt_lt b j⟩ (ix3 (0 : Fin 1) (0 : Fin 1) u) = BitVec.ofNat 32 k.val then 1 else 0))
        = ∑ u : Fin 16384, f b ch ⟨16384 * j.val + u.val, vox_lt j u⟩ * Cert.Spec.oh L b ⟨16384 * j.val + u.val, vox_lt j u⟩ k :=
    fun j => tile_sum f L (xT V c ⟨8 * b.val + j.val, pt_lt b j⟩) (lab V c ⟨8 * b.val + j.val, pt_lt b j⟩) b j ch k
      (fun u => (blkT_apply V c ⟨8 * b.val + j.val, pt_lt b j⟩ ch u b ⟨16384 * j.val + u.val, vox_lt j u⟩
          (hmod j).1.symm (by show 16384 * j.val + u.val = 16384 * ((8 * b.val + j.val) % 8) + u.val; rw [(hmod j).2])).trans (hf _ _ _))
      (fun u => (blkL_apply V c ⟨8 * b.val + j.val, pt_lt b j⟩ u b ⟨16384 * j.val + u.val, vox_lt j u⟩
          (hmod j).1.symm (by show 16384 * j.val + u.val = 16384 * ((8 * b.val + j.val) % 8) + u.val; rw [(hmod j).2])).trans (hL _ _))
  refine Cert.Alg.fold_tiles_fin (fun j => (acc0 V c (8 * b.val + j.val) (pt_lt b j)).2 (ix2 ch k))
    (fun j => ∑ u : Fin 16384, f b ch ⟨16384 * j.val + u.val, vox_lt j u⟩ * Cert.Spec.oh L b ⟨16384 * j.val + u.val, vox_lt j u⟩ k) ?_ ?_
  · show (acc0 V c (8 * b.val + 0) (pt_lt b 0)).2 (ix2 ch k) = 0 + _
    rw [acc0_reset V c (8 * b.val + 0) (pt_lt b 0) (by omega)]
    dsimp only
    refine (step_apply (lab V c ⟨8 * b.val + 0, pt_lt b 0⟩) (xT V c ⟨8 * b.val + 0, pt_lt b 0⟩) (k0_pay4 (F := Ideal)) ch k).trans ?_
    exact congrArg₂ (· + ·) (zeroT_apply _) (tile 0)
  · intro n h
    show (acc0 V c (8 * b.val + n + 1) (pt_lt b ⟨n + 1, h⟩)).2 (ix2 ch k) = (acc0 V c (8 * b.val + n) (pt_lt b ⟨n, by omega⟩)).2 (ix2 ch k) + _
    rw [acc0_step V c (8 * b.val + n) (pt_lt b ⟨n + 1, h⟩) (by omega)]
    dsimp only
    refine (step_apply (lab V c ⟨8 * b.val + n + 1, pt_lt b ⟨n + 1, h⟩⟩) (xT V c ⟨8 * b.val + n + 1, pt_lt b ⟨n + 1, h⟩⟩)
      (acc0 V c (8 * b.val + n) (pt_lt b ⟨n, by omega⟩)).2 ch k).trans ?_
    exact congrArg _ (tile ⟨n + 1, h⟩)

end Sums

/-! ## From the write-backs to the output array -/

/-- The per-class channel sums as one function of the output array's index. -/
def GS (f : Fin 2 → Fin 64 → Fin 131072 → EReal) (L : Fin 2 → Fin 131072 → Fin 5) : S2x64x5.Idx → EReal :=
  fun i => Cert.Spec.sums f L (i 0) (i 1) (i 2)

theorem GS_eq (f : Fin 2 → Fin 64 → Fin 131072 → EReal) (L : Fin 2 → Fin 131072 → Fin 5) (i : S2x64x5.Idx)
    (b : Fin 2) (ch : Fin 64) (k : Fin 5) (h0 : (i 0).val = b.val) (h1 : (i 1).val = ch.val) (h2 : (i 2).val = k.val) :
    GS f L i = Cert.Spec.sums f L b ch k := by
  have e : i = ix3 b ch k := funext fun a => Fin.ext (match a with | ⟨0, _⟩ => h0 | ⟨1, _⟩ => h1 | ⟨2, _⟩ => h2)
  subst e; rfl

section Final
variable (V : (c : Dev nD) → (b : Ref sig .tc) → Buf (Elt Ideal) ((c : Thread nD τ).loc b))
variable (c : Dev nD) (f : Fin 2 → Fin 64 → Fin 131072 → EReal) (L : Fin 2 → Fin 131072 → Fin 5)

set_option maxRecDepth 200000 in
/-- What the eighth tile of a batch entry writes back to the student's output is its block of the sums. -/
theorem flushedS_eq (hf : ∀ b ch v, V c main_v35 (ix3 b ch v) = f b ch v)
    (hL : ∀ b v, V c main_v37 (ix3 b (0 : Fin 1) v) = BitVec.ofNat 32 (L b v).val)
    (t : Fin cfg0.N) (hfl : (cfg0.win 3).flush t = true) :
    (dat0 V c).flushed 3 t = ((cfg0.win 3).blk t).view.read (Elt Ideal) (GS f L) := by
  have h7 : t.val % 8 = 7 := (flush0_3 t).mp hfl
  have hN : grid0.N = 16 := N_0
  have htl : t.val < grid0.N := t.isLt
  obtain ⟨-, -, -, -, -, -, -, -, -, e0, e1, e2, -⟩ := idx_facts0 t
  show (cfg0.win 3).cut (grid0.coords t) ((dat0 V c).after 3 t) = _
  rw [after0_3]
  funext y
  obtain ⟨p, q, r, rfl⟩ : ∃ (p : Fin 1) (q : Fin 64) (r : Fin 5), y = ix3 p q r := ⟨y 0, y 1, y 2, eq_ix3 y⟩
  rw [View.read_apply]
  show _ = GS f L (((cfg0.win 3).blk t).view.emb (ix3 p q r))
  refine Eq.trans (b := (acc0 V c t.val t.isLt).1 (ix2 q r)) (shapeCast_ab_1ab_apply (acc0 V c t.val t.isLt).1 shapeCasts_S64x5_S1x64x5 p q r) ?_
  have same : ∀ (n : ℕ) (hn : n < cfg0.N), n = t.val → acc0 V c n hn = acc0 V c t.val t.isLt := by
    intro n hn e; subst e; rfl
  have hb : t.val / 8 < 2 := by omega
  rw [← same (8 * (⟨t.val / 8, hb⟩ : Fin 2).val + (7 : Fin 8).val) (pt_lt ⟨t.val / 8, hb⟩ 7)
    (by show 8 * (t.val / 8) + 7 = t.val; omega)]
  rw [accS_last V c f L hf hL ⟨t.val / 8, hb⟩ q r]
  refine (GS_eq f L _ ⟨t.val / 8, hb⟩ q r ?_ ?_ ?_).symm
  · show win0_3.index t (0 : Fin 3) * 1 + 1 * p.val = t.val / 8
    have := p.isLt; omega
  · show win0_3.index t (1 : Fin 3) * 64 + 1 * q.val = q.val
    omega
  · show win0_3.index t (2 : Fin 3) * 5 + 1 * r.val = r.val
    omega

/-- Every entry of the student's output is in the block some batch entry's eighth tile writes back. -/
theorem coverS (i : S2x64x5.Idx) : ∃ t : Fin cfg0.N, (cfg0.win 3).flush t = true ∧ i ∈ ((cfg0.win 3).blk t).view.set := by
  have hN : grid0.N = 16 := N_0
  have h0 : (i 0).val < 2 := (i 0).isLt
  have h1 : (i 1).val < 64 := (i 1).isLt
  have h2 : (i 2).val < 5 := (i 2).isLt
  have ht : 8 * (i 0).val + 7 < cfg0.N := by show _ < grid0.N; omega
  obtain ⟨-, -, -, -, -, -, -, -, -, e0, e1, e2, -⟩ := idx_facts0 ⟨8 * (i 0).val + 7, ht⟩
  have e0' : win0_3.index ⟨8 * (i 0).val + 7, ht⟩ (0 : Fin 3) = (i 0).val := by rw [e0]; show (8 * (i 0).val + 7) / 8 = _; omega
  refine ⟨⟨8 * (i 0).val + 7, ht⟩, (flush0_3 _).mpr (by show (8 * (i 0).val + 7) % 8 = 7; omega), ?_⟩
  show i ∈ ((View.whole main_v38_0).slice (win0_3.rect ⟨8 * (i 0).val + 7, ht⟩)).set
  rw [View.set_slice_whole, Rect.mem_set_unit]
  intro a
  match a with
  | ⟨0, _⟩ =>
    show win0_3.index ⟨8 * (i 0).val + 7, ht⟩ (0 : Fin 3) * 1 ≤ (i 0).val ∧ (i 0).val < win0_3.index ⟨8 * (i 0).val + 7, ht⟩ (0 : Fin 3) * 1 + 1
    omega
  | ⟨1, _⟩ =>
    show win0_3.index ⟨8 * (i 0).val + 7, ht⟩ (1 : Fin 3) * 64 ≤ (i 1).val ∧ (i 1).val < win0_3.index ⟨8 * (i 0).val + 7, ht⟩ (1 : Fin 3) * 64 + 64
    omega
  | ⟨2, _⟩ =>
    show win0_3.index ⟨8 * (i 0).val + 7, ht⟩ (2 : Fin 3) * 5 ≤ (i 2).val ∧ (i 2).val < win0_3.index ⟨8 * (i 0).val + 7, ht⟩ (2 : Fin 3) * 5 + 5
    omega

/-- The student's output array after the first pallas_call: entry (b, ch, k) is the per-class channel sum. -/
theorem sumsS_apply (hf : ∀ b ch v, V c main_v35 (ix3 b ch v) = f b ch v)
    (hL : ∀ b v, V c main_v37 (ix3 b (0 : Fin 1) v) = BitVec.ofNat 32 (L b v).val) (b : Fin 2) (ch : Fin 64) (k : Fin 5) :
    (dat0 V c).arrAt 3 cfg0.N (ix3 b ch k) = Cert.Spec.sums f L b ch k := by
  rw [(dat0 V c).arrAt_eq_of_cover 3 (GS f L) (fun t h => flushedS_eq V c f L hf hL t h) coverS]
  exact GS_eq f L _ b ch k rfl rfl rfl

set_option maxRecDepth 200000 in
/-- What the eighth tile of a batch entry writes back to the teacher's output is its block of the sums. -/
theorem flushedT_eq (hf : ∀ b ch v, V c main_v36 (ix3 b ch v) = f b ch v)
    (hL : ∀ b v, V c main_v37 (ix3 b (0 : Fin 1) v) = BitVec.ofNat 32 (L b v).val)
    (t : Fin cfg0.N) (hfl : (cfg0.win 4).flush t = true) :
    (dat0 V c).flushed 4 t = ((cfg0.win 4).blk t).view.read (Elt Ideal) (GS f L) := by
  have h7 : t.val % 8 = 7 := (flush0_4 t).mp hfl
  have hN : grid0.N = 16 := N_0
  have htl : t.val < grid0.N := t.isLt
  obtain ⟨-, -, -, -, -, -, -, -, -, -, -, -, e0, e1, e2⟩ := idx_facts0 t
  show (cfg0.win 4).cut (grid0.coords t) ((dat0 V c).after 4 t) = _
  rw [after0_4]
  funext y
  obtain ⟨p, q, r, rfl⟩ : ∃ (p : Fin 1) (q : Fin 64) (r : Fin 5), y = ix3 p q r := ⟨y 0, y 1, y 2, eq_ix3 y⟩
  rw [View.read_apply]
  show _ = GS f L (((cfg0.win 4).blk t).view.emb (ix3 p q r))
  refine Eq.trans (b := (acc0 V c t.val t.isLt).2 (ix2 q r)) (shapeCast_ab_1ab_apply (acc0 V c t.val t.isLt).2 shapeCasts_S64x5_S1x64x5 p q r) ?_
  have same : ∀ (n : ℕ) (hn : n < cfg0.N), n = t.val → acc0 V c n hn = acc0 V c t.val t.isLt := by
    intro n hn e; subst e; rfl
  have hb : t.val / 8 < 2 := by omega
  rw [← same (8 * (⟨t.val / 8, hb⟩ : Fin 2).val + (7 : Fin 8).val) (pt_lt ⟨t.val / 8, hb⟩ 7)
    (by show 8 * (t.val / 8) + 7 = t.val; omega)]
  rw [accT_last V c f L hf hL ⟨t.val / 8, hb⟩ q r]
  refine (GS_eq f L _ ⟨t.val / 8, hb⟩ q r ?_ ?_ ?_).symm
  · show win0_4.index t (0 : Fin 3) * 1 + 1 * p.val = t.val / 8
    have := p.isLt; omega
  · show win0_4.index t (1 : Fin 3) * 64 + 1 * q.val = q.val
    omega
  · show win0_4.index t (2 : Fin 3) * 5 + 1 * r.val = r.val
    omega

/-- Every entry of the teacher's output is in the block some batch entry's eighth tile writes back. -/
theorem coverT (i : S2x64x5.Idx) : ∃ t : Fin cfg0.N, (cfg0.win 4).flush t = true ∧ i ∈ ((cfg0.win 4).blk t).view.set := by
  have hN : grid0.N = 16 := N_0
  have h0 : (i 0).val < 2 := (i 0).isLt
  have h1 : (i 1).val < 64 := (i 1).isLt
  have h2 : (i 2).val < 5 := (i 2).isLt
  have ht : 8 * (i 0).val + 7 < cfg0.N := by show _ < grid0.N; omega
  obtain ⟨-, -, -, -, -, -, -, -, -, -, -, -, e0, e1, e2⟩ := idx_facts0 ⟨8 * (i 0).val + 7, ht⟩
  have e0' : win0_4.index ⟨8 * (i 0).val + 7, ht⟩ (0 : Fin 3) = (i 0).val := by rw [e0]; show (8 * (i 0).val + 7) / 8 = _; omega
  refine ⟨⟨8 * (i 0).val + 7, ht⟩, (flush0_4 _).mpr (by show (8 * (i 0).val + 7) % 8 = 7; omega), ?_⟩
  show i ∈ ((View.whole main_v38_1).slice (win0_4.rect ⟨8 * (i 0).val + 7, ht⟩)).set
  rw [View.set_slice_whole, Rect.mem_set_unit]
  intro a
  match a with
  | ⟨0, _⟩ =>
    show win0_4.index ⟨8 * (i 0).val + 7, ht⟩ (0 : Fin 3) * 1 ≤ (i 0).val ∧ (i 0).val < win0_4.index ⟨8 * (i 0).val + 7, ht⟩ (0 : Fin 3) * 1 + 1
    omega
  | ⟨1, _⟩ =>
    show win0_4.index ⟨8 * (i 0).val + 7, ht⟩ (1 : Fin 3) * 64 ≤ (i 1).val ∧ (i 1).val < win0_4.index ⟨8 * (i 0).val + 7, ht⟩ (1 : Fin 3) * 64 + 64
    omega
  | ⟨2, _⟩ =>
    show win0_4.index ⟨8 * (i 0).val + 7, ht⟩ (2 : Fin 3) * 5 ≤ (i 2).val ∧ (i 2).val < win0_4.index ⟨8 * (i 0).val + 7, ht⟩ (2 : Fin 3) * 5 + 5
    omega

/-- The teacher's output array after the first pallas_call: entry (b, ch, k) is the per-class channel sum. -/
theorem sumsT_apply (hf : ∀ b ch v, V c main_v36 (ix3 b ch v) = f b ch v)
    (hL : ∀ b v, V c main_v37 (ix3 b (0 : Fin 1) v) = BitVec.ofNat 32 (L b v).val) (b : Fin 2) (ch : Fin 64) (k : Fin 5) :
    (dat0 V c).arrAt 4 cfg0.N (ix3 b ch k) = Cert.Spec.sums f L b ch k := by
  rw [(dat0 V c).arrAt_eq_of_cover 4 (GS f L) (fun t h => flushedT_eq V c f L hf hL t h) coverT]
  exact GS_eq f L _ b ch k rfl rfl rfl

end Final

end Cert.KernelIdeal.Hand

end
-- ==== Proof.KI.R1Blocks.lean ====
/-
  The second pallas_call's blocks and output as entries of the arrays. The grid point t is batch entry t / 8 and tile
  t % 8. An entry (0, ch, u) of a feature block is the array's entry (t / 8, ch, 16384·(t % 8) + u), likewise the
  labels; the class-mean and center-norm blocks do not move inside a batch entry: their entry (0, k, ·) is the
  array's entry (t / 8, k, ·). The accumulator restarts at the first tile of a batch entry and steps from the tile
  before elsewhere, and the write-back at the eighth tile puts it into entry (b, 0, 0) of the output array.
-/
import proofs.«426160_j54812372632011_3_alg».proof.Proof.KI.R1Data
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat Cfg Window)

/-- The printed index maps over the grid: point t is batch entry t / 8, tile t % 8; the class tables' blocks and the
    output's block do not move inside a batch entry. -/
theorem idx_facts1 : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = 0 ∧ win1_2.index t (2 : Fin 3) = t.val % 8
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = 0 ∧ win1_5.index t (2 : Fin 3) = 0
    ∧ win1_6.index t (0 : Fin 3) = t.val / 8 ∧ win1_6.index t (1 : Fin 3) = 0 ∧ win1_6.index t (2 : Fin 3) = 0
    ∧ win1_7.index t (0 : Fin 3) = t.val / 8 ∧ win1_7.index t (1 : Fin 3) = 0 ∧ win1_7.index t (2 : Fin 3) = 0 :=
  (by decide +kernel : ∀ t : Fin grid1.N, _)

theorem pt1_lt (b : Fin 2) (j : Fin 8) : 8 * b.val + j.val < cfg1.N := by
  have hN : grid1.N = 16 := N_1
  have := b.isLt; have := j.isLt
  show 8 * b.val + j.val < grid1.N
  omega

section Blocks
variable {F : FTy → Type} [FloatOps F]
variable (V : (c : Dev nD) → (b : Ref sig .tc) → Buf (Elt F) ((c : Thread nD τ).loc b))

/-- The seven input blocks at a grid point, at their literal types. -/
abbrev x1S (c : Dev nD) (t : Fin cfg1.N) : Vec F S1x64x16384 .f32 := iblk1 V c 0 t
abbrev x1T (c : Dev nD) (t : Fin cfg1.N) : Vec F S1x64x16384 .f32 := iblk1 V c 1 t
abbrev lab1 (c : Dev nD) (t : Fin cfg1.N) : Vec F S1x1x16384 .i32 := iblk1 V c 2 t
abbrev m1S (c : Dev nD) (t : Fin cfg1.N) : Vec F S1x5x64 .f32 := iblk1 V c 3 t
abbrev m1T (c : Dev nD) (t : Fin cfg1.N) : Vec F S1x5x64 .f32 := iblk1 V c 4 t
abbrev n1S (c : Dev nD) (t : Fin cfg1.N) : Vec F S1x5x1 .f32 := iblk1 V c 5 t
abbrev n1T (c : Dev nD) (t : Fin cfg1.N) : Vec F S1x5x1 .f32 := iblk1 V c 6 t

/-- Entry (0, ch, u) of the student's feature block at point t is the array's entry (t / 8, ch, 16384·(t % 8) + u). -/
theorem blk1_0 (c : Dev nD) (t : Fin cfg1.N) (ch : Fin 64) (u : Fin 16384) (b : Fin 2) (v : Fin 131072)
    (hb : b.val = t.val / 8) (hv : v.val = 16384 * (t.val % 8) + u.val) :
    x1S V c t (ix3 (0 : Fin 1) ch u) = V c main_v35 (ix3 b ch v) := by
  obtain ⟨e0, e1, e2, -⟩ := idx_facts1 t
  unfold x1S iblk1
  rw [View.read_apply]
  show V c main_v35 _ = V c main_v35 _
  refine congrArg (V c main_v35) (funext fun a => Fin.ext ?_)
  match a with
  | ⟨0, _⟩ => show win1_0.index t (0 : Fin 3) * 1 + 1 * 0 = b.val; omega
  | ⟨1, _⟩ => show win1_0.index t (1 : Fin 3) * 64 + 1 * ch.val = ch.val; omega
  | ⟨2, _⟩ => show win1_0.index t (2 : Fin 3) * 16384 + 1 * u.val = v.val; omega

/-- The same for the teacher's feature block. -/
theorem blk1_1 (c : Dev nD) (t : Fin cfg1.N) (ch : Fin 64) (u : Fin 16384) (b : Fin 2) (v : Fin 131072)
    (hb : b.val = t.val / 8) (hv : v.val = 16384 * (t.val % 8) + u.val) :
    x1T V c t (ix3 (0 : Fin 1) ch u) = V c main_v36 (ix3 b ch v) := by
  obtain ⟨-, -, -, e0, e1, e2, -⟩ := idx_facts1 t
  unfold x1T iblk1
  rw [View.read_apply]
  show V c main_v36 _ = V c main_v36 _
  refine congrArg (V c main_v36) (funext fun a => Fin.ext ?_)
  match a with
  | ⟨0, _⟩ => show win1_1.index t (0 : Fin 3) * 1 + 1 * 0 = b.val; omega
  | ⟨1, _⟩ => show win1_1.index t (1 : Fin 3) * 64 + 1 * ch.val = ch.val; omega
  | ⟨2, _⟩ => show win1_1.index t (2 : Fin 3) * 16384 + 1 * u.val = v.val; omega

/-- Entry (0, 0, u) of the label block at point t is the label array's entry (t / 8, 0, 16384·(t % 8) + u). -/
theorem blk1_2 (c : Dev nD) (t : Fin cfg1.N) (u : Fin 16384) (b : Fin 2) (v : Fin 131072)
    (hb : b.val = t.val / 8) (hv : v.val = 16384 * (t.val % 8) + u.val) :
    lab1 V c t (ix3 (0 : Fin 1) (0 : Fin 1) u) = V c main_v37 (ix3 b (0 : Fin 1) v) := by
  obtain ⟨-, -, -, -, -, -, e0, e1, e2, -⟩ := idx_facts1 t
  unfold lab1 iblk1
  rw [View.read_apply]
  show V c main_v37 _ = V c main_v37 _
  refine congrArg (V c main_v37) (funext fun a => Fin.ext ?_)
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 16384 + 1 * u.val = v.val; omega

/-- Entry (0, k, ch) of the student's class-mean block at point t is the table's entry (t / 8, k, ch). -/
theorem blk1_3 (c : Dev nD) (t : Fin cfg1.N) (k : Fin 5) (ch : Fin 64) (b : Fin 2) (hb : b.val = t.val / 8) :
    m1S V c t (ix3 (0 : Fin 1) k ch) = V c main_v59 (ix3 b k ch) := by
  obtain ⟨-, -, -, -, -, -, -, -, -, e0, e1, e2, -⟩ := idx_facts1 t
  unfold m1S iblk1
  rw [View.read_apply]
  show V c main_v59 _ = V c main_v59 _
  refine congrArg (V c main_v59) (funext fun a => Fin.ext ?_)
  match a with
  | ⟨0, _⟩ => show win1_3.index t (0 : Fin 3) * 1 + 1 * 0 = b.val; omega
  | ⟨1, _⟩ => show win1_3.index t (1 : Fin 3) * 5 + 1 * k.val = k.val; omega
  | ⟨2, _⟩ => show win1_3.index t (2 : Fin 3) * 64 + 1 * ch.val = ch.val; omega

/-- The same for the teacher's class-mean block. -/
theorem blk1_4 (c : Dev nD) (t : Fin cfg1.N) (k : Fin 5) (ch : Fin 64) (b : Fin 2) (hb : b.val = t.val / 8) :
    m1T V c t (ix3 (0 : Fin 1) k ch) = V c main_v60 (ix3 b k ch) := by
  obtain ⟨-, -, -, -, -, -, -, -, -, -, -, -, e0, e1, e2, -⟩ := idx_facts1 t
  unfold m1T iblk1
  rw [View.read_apply]
  show V c main_v60 _ = V c main_v60 _
  refine congrArg (V c main_v60) (funext fun a => Fin.ext ?_)
  match a with
  | ⟨0, _⟩ => show win1_4.index t (0 : Fin 3) * 1 + 1 * 0 = b.val; omega
  | ⟨1, _⟩ => show win1_4.index t (1 : Fin 3) * 5 + 1 * k.val = k.val; omega
  | ⟨2, _⟩ => show win1_4.index t (2 : Fin 3) * 64 + 1 * ch.val = ch.val; omega

/-- Entry (0, k, 0) of the student's center-norm block at point t is the table's entry (t / 8, k, 0). -/
theorem blk1_5 (c : Dev nD) (t : Fin cfg1.N) (k : Fin 5) (b : Fin 2) (hb : b.val = t.val / 8) :
    n1S V c t (ix3 (0 : Fin 1) k (0 : Fin 1)) = V c main_v54 (ix3 b k (0 : Fin 1)) := by
  obtain ⟨-, -, -, -, -, -, -, -, -, -, -, -, -, -, -, e0, e1, e2, -⟩ := idx_facts1 t
  unfold n1S iblk1
  rw [View.read_apply]
  show V c main_v54 _ = V c main_v54 _
  refine congrArg (V c main_v54) (funext fun a => Fin.ext ?_)
  match a with
  | ⟨0, _⟩ => show win1_5.index t (0 : Fin 3) * 1 + 1 * 0 = b.val; omega
  | ⟨1, _⟩ => show win1_5.index t (1 : Fin 3) * 5 + 1 * k.val = k.val; omega
  | ⟨2, _⟩ => show win1_5.index t (2 : Fin 3) * 1 + 1 * 0 = 0; omega

/-- The same for the teacher's center-norm block. -/
theorem blk1_6 (c : Dev nD) (t : Fin cfg1.N) (k : Fin 5) (b : Fin 2) (hb : b.val = t.val / 8) :
    n1T V c t (ix3 (0 : Fin 1) k (0 : Fin 1)) = V c main_v58 (ix3 b k (0 : Fin 1)) := by
  obtain ⟨-, -, -, -, -, -, -, -, -, -, -, -, -, -, -, -, -, -, e0, e1, e2, -⟩ := idx_facts1 t
  unfold n1T iblk1
  rw [View.read_apply]
  show V c main_v58 _ = V c main_v58 _
  refine congrArg (V c main_v58) (funext fun a => Fin.ext ?_)
  match a with
  | ⟨0, _⟩ => show win1_6.index t (0 : Fin 3) * 1 + 1 * 0 = b.val; omega
  | ⟨1, _⟩ => show win1_6.index t (1 : Fin 3) * 5 + 1 * k.val = k.val; omega
  | ⟨2, _⟩ => show win1_6.index t (2 : Fin 3) * 1 + 1 * 0 = 0; omega

/-! ## The accumulator along the eight tiles of a batch entry -/

/-- At the first tile of a batch entry the accumulator restarts from zero. -/
theorem acc1_at_reset (c : Dev nD) : ∀ (n : ℕ) (h : n < cfg1.N), n % 8 = 0 →
    acc1 V c n h = step1 V c ⟨n, h⟩ (k1_pay3 (F := F))
  | 0, h, _ => by rw [acc1]
  | n + 1, h, hm => by rw [acc1, if_pos hm]

/-- At every other tile it steps from what the tile before left. -/
theorem acc1_at_step (c : Dev nD) (n : ℕ) (h : n + 1 < cfg1.N) (hm : ¬(n + 1) % 8 = 0) :
    acc1 V c (n + 1) h = step1 V c ⟨n + 1, h⟩ (acc1 V c n (Nat.lt_of_succ_lt h)) := by
  rw [acc1, if_neg hm]

/-! ## From the write-backs to the output array -/

/-- The output array as one function of its index: entry (b, ·, ·) is the accumulator after batch entry b's eighth tile. -/
def G1 (c : Dev nD) : S2x1x1.Idx → Elt F .f32 := fun i =>
  acc1 V c (8 * (i 0).val + (7 : Fin 8).val) (pt1_lt (i 0) 7) (ix2 (0 : Fin 1) (0 : Fin 1))

theorem G1_eq (c : Dev nD) (i : S2x1x1.Idx) (b : Fin 2) (h0 : (i 0).val = b.val) :
    G1 V c i = acc1 V c (8 * b.val + (7 : Fin 8).val) (pt1_lt b 7) (ix2 (0 : Fin 1) (0 : Fin 1)) := by
  have e : i 0 = b := Fin.ext h0
  unfold G1
  subst e
  rfl

set_option maxRecDepth 200000 in
/-- What the eighth tile of a batch entry writes back is its block of that function. -/
theorem flushed1_eq (c : Dev nD) (t : Fin cfg1.N) (hfl : (cfg1.win 7).flush t = true) :
    (dat1 V c).flushed 7 t = ((cfg1.win 7).blk t).view.read (Elt F) (G1 V c) := by
  have h7 : t.val % 8 = 7 := (flush1_7 t).mp hfl
  have hN : grid1.N = 16 := N_1
  have htl : t.val < grid1.N := t.isLt
  obtain ⟨-, -, -, -, -, -, -, -, -, -, -, -, -, -, -, -, -, -, -, -, -, e0, e1, e2⟩ := idx_facts1 t
  show (cfg1.win 7).cut (grid1.coords t) ((dat1 V c).after 7 t) = _
  rw [after1_7]
  funext y
  obtain ⟨p, q, r, rfl⟩ : ∃ (p : Fin 1) (q : Fin 1) (r : Fin 1), y = ix3 p q r := ⟨y 0, y 1, y 2, eq_ix3 y⟩
  rw [View.read_apply]
  show _ = G1 V c (((cfg1.win 7).blk t).view.emb (ix3 p q r))
  refine Eq.trans (b := acc1 V c t.val t.isLt (ix2 q r))
    (shapeCast_ab_1ab_apply (acc1 V c t.val t.isLt) shapeCasts_S1x1_S1x1x1 p q r) ?_
  obtain rfl : q = 0 := Subsingleton.elim _ _
  obtain rfl : r = 0 := Subsingleton.elim _ _
  have same : ∀ (n : ℕ) (hn : n < cfg1.N), n = t.val → acc1 V c n hn = acc1 V c t.val t.isLt := by
    intro n hn e; subst e; rfl
  have hb : t.val / 8 < 2 := by omega
  rw [← same (8 * (⟨t.val / 8, hb⟩ : Fin 2).val + (7 : Fin 8).val) (pt1_lt ⟨t.val / 8, hb⟩ 7)
    (by show 8 * (t.val / 8) + 7 = t.val; omega)]
  refine (G1_eq V c _ ⟨t.val / 8, hb⟩ ?_).symm
  show win1_7.index t (0 : Fin 3) * 1 + 1 * p.val = t.val / 8
  have := p.isLt; omega

/-- Every entry of the output array is in the block some batch entry's eighth tile writes back. -/
theorem cover1 (i : S2x1x1.Idx) : ∃ t : Fin cfg1.N, (cfg1.win 7).flush t = true ∧ i ∈ ((cfg1.win 7).blk t).view.set := by
  have hN : grid1.N = 16 := N_1
  have h0 : (i 0).val < 2 := (i 0).isLt
  have h1 : (i 1).val < 1 := (i 1).isLt
  have h2 : (i 2).val < 1 := (i 2).isLt
  have ht : 8 * (i 0).val + 7 < cfg1.N := by show _ < grid1.N; omega
  obtain ⟨-, -, -, -, -, -, -, -, -, -, -, -, -, -, -, -, -, -, -, -, -, e0, e1, e2⟩ := idx_facts1 ⟨8 * (i 0).val + 7, ht⟩
  have e0' : win1_7.index ⟨8 * (i 0).val + 7, ht⟩ (0 : Fin 3) = (i 0).val := by rw [e0]; show (8 * (i 0).val + 7) / 8 = _; omega
  refine ⟨⟨8 * (i 0).val + 7, ht⟩, (flush1_7 _).mpr (by show (8 * (i 0).val + 7) % 8 = 7; omega), ?_⟩
  show i ∈ ((View.whole main_v61).slice (win1_7.rect ⟨8 * (i 0).val + 7, ht⟩)).set
  rw [View.set_slice_whole, Rect.mem_set_unit]
  intro a
  match a with
  | ⟨0, _⟩ =>
    show win1_7.index ⟨8 * (i 0).val + 7, ht⟩ (0 : Fin 3) * 1 ≤ (i 0).val ∧ (i 0).val < win1_7.index ⟨8 * (i 0).val + 7, ht⟩ (0 : Fin 3) * 1 + 1
    omega
  | ⟨1, _⟩ =>
    show win1_7.index ⟨8 * (i 0).val + 7, ht⟩ (1 : Fin 3) * 1 ≤ (i 1).val ∧ (i 1).val < win1_7.index ⟨8 * (i 0).val + 7, ht⟩ (1 : Fin 3) * 1 + 1
    omega
  | ⟨2, _⟩ =>
    show win1_7.index ⟨8 * (i 0).val + 7, ht⟩ (2 : Fin 3) * 1 ≤ (i 2).val ∧ (i 2).val < win1_7.index ⟨8 * (i 0).val + 7, ht⟩ (2 : Fin 3) * 1 + 1
    omega

/-- The output array after the second pallas_call: entry (b, 0, 0) is the accumulator after batch entry b's eighth tile. -/
theorem out1_apply (c : Dev nD) (b : Fin 2) :
    (dat1 V c).arrAt 7 cfg1.N (ix3 b (0 : Fin 1) (0 : Fin 1))
      = acc1 V c (8 * b.val + (7 : Fin 8).val) (pt1_lt b 7) (ix2 (0 : Fin 1) (0 : Fin 1)) := by
  rw [(dat1 V c).arrAt_eq_of_cover 7 (G1 V c) (fun t h => flushed1_eq V c t h) cover1]
  exact G1_eq V c _ b rfl

end Blocks

end Cert.KernelIdeal.Hand

end
-- ==== Proof.KI.R1Tile.lean ====
/-
  Second pallas_call (per-voxel cosine loss): one tile of its body, read at the extended reals.
  From the tile's label row, the two 64×16384 feature blocks, the two 5×64 tables of class centers and the two 5×1 tables
  of center norms, the body forms for every position u of the tile, with l u the position's class,
    cos(u) = (Σ_ch x[ch, u] · m[l u, ch]) / max(√(Σ_ch x[ch, u]²) · n[l u], ε)
  for the student's and for the teacher's blocks — the class row is selected by summing the five rows against the one-hot
  column of the label —, and adds Σ_u (cos_S(u) − cos_T(u))² to the 1×1 accumulator. Here that reading is proved for
  arbitrary blocks: the two matrix products at an index, the one-hot block at an index, the three kinds of sums (over the
  five classes, over the 64 channels, over the 16384 positions), the reshapes, and then the tile's step.
-/
import proofs.«426160_j54812372632011_3_alg».proof.Proof.Gen.KernelIdeal.Skeleton
import proofs.«426160_j54812372632011_3_alg».proof.Proof.Alg
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem

/-! ## The product of a 5×64 table with a 64×16384 block -/

theorem lhsB_0 (j : S5x16384.Idx) (k : dot_S5x64_S64x16384_S5x16384_1_0_0_1_n_n.contr.Idx) :
    (dot_S5x64_S64x16384_S5x16384_1_0_0_1_n_n.lhsIdx j k 0 : ℕ) = j 0 := by
  simp [DotDims.lhsIdx, dot_S5x64_S64x16384_S5x16384_1_0_0_1_n_n]; rfl
theorem lhsB_1 (j : S5x16384.Idx) (k : dot_S5x64_S64x16384_S5x16384_1_0_0_1_n_n.contr.Idx) :
    (dot_S5x64_S64x16384_S5x16384_1_0_0_1_n_n.lhsIdx j k 1 : ℕ) = k ⟨0, by decide⟩ := by
  simp [DotDims.lhsIdx, dot_S5x64_S64x16384_S5x16384_1_0_0_1_n_n]; rfl
theorem rhsB_0 (j : S5x16384.Idx) (k : dot_S5x64_S64x16384_S5x16384_1_0_0_1_n_n.contr.Idx) :
    (dot_S5x64_S64x16384_S5x16384_1_0_0_1_n_n.rhsIdx j k 0 : ℕ) = k ⟨0, by decide⟩ := by
  simp [DotDims.rhsIdx, dot_S5x64_S64x16384_S5x16384_1_0_0_1_n_n]; rfl
theorem rhsB_1 (j : S5x16384.Idx) (k : dot_S5x64_S64x16384_S5x16384_1_0_0_1_n_n.contr.Idx) :
    (dot_S5x64_S64x16384_S5x16384_1_0_0_1_n_n.rhsIdx j k 1 : ℕ) = j 1 := by
  simp [DotDims.rhsIdx, dot_S5x64_S64x16384_S5x16384_1_0_0_1_n_n]; rfl

/-- The product at (k, u): the sum over the channels of the table's row k times the block's column u. -/
theorem mmB_apply (A : FVec Ideal S5x64 .bf16) (B : FVec Ideal S64x16384 .bf16) (k : Fin 5) (u : Fin 16384) :
    matmul dot_S5x64_S64x16384_S5x16384_1_0_0_1_n_n none A B (constant (F := Ideal) S5x16384 .f32 0x00000000#32) (ix2 k u)
      = ∑ ch : Fin 64, A (ix2 k ch) * B (ix2 ch u) := by
  refine (Ideal.matmul_constant_zero_apply dot_S5x64_S64x16384_S5x16384_1_0_0_1_n_n none A B (ix2 k u)).trans ?_
  rw [← Equiv.sum_comp (contrEquiv1 dot_S5x64_S64x16384_S5x16384_1_0_0_1_n_n 64 rfl rfl).symm]
  refine Finset.sum_congr rfl fun ch _ => ?_
  have hc := contrEquiv1_symm_val dot_S5x64_S64x16384_S5x16384_1_0_0_1_n_n 64 rfl rfl ch
  congr 1
  · refine congrArg A (funext fun a => Fin.ext ?_)
    match a with
    | ⟨0, _⟩ => exact lhsB_0 _ _
    | ⟨1, _⟩ => exact (lhsB_1 _ _).trans hc
  · refine congrArg B (funext fun a => Fin.ext ?_)
    match a with
    | ⟨0, _⟩ => exact (rhsB_0 _ _).trans hc
    | ⟨1, _⟩ => exact rhsB_1 _ _

/-! ## The one-hot block of the tile's labels -/

/-- The one-hot block at (k, u): 1 where position u's label is k, else 0. -/
theorem onehot1_apply (lab : Vec Ideal S1x1x16384 .i32) (k : Fin 5) (u : Fin 16384) :
    k1_pay4 (F := Ideal) lab (ix2 k u) = if lab (ix3 (0 : Fin 1) (0 : Fin 1) u) = BitVec.ofNat 32 k.val then 1 else 0 := by
  unfold k1_pay4
  have e1 : broadcastTo S5x16384 (shapeCast S1x16384 lab shapeCasts_S1x1x16384_S1x16384) broadcasts_S1x16384_S5x16384 (ix2 k u)
      = lab (ix3 (0 : Fin 1) (0 : Fin 1) u) :=
    (broadcastTo_1b_ab_apply _ _ k u).trans (shapeCast_1ab_ab_apply lab _ 0 u)
  have e2 : iota .tc S5x16384 32 [0] iota_S5x16384_d0_w32 (ix2 k u) = BitVec.ofNat 32 k.val :=
    iota_single_apply _ _ _ _ _ _
  show ((((IntOp.cmpi .eq (broadcastTo S5x16384 (shapeCast S1x16384 lab shapeCasts_S1x1x16384_S1x16384) broadcasts_S1x16384_S5x16384 (ix2 k u))
      (iota .tc S5x16384 32 [0] iota_S5x16384_d0_w32 (ix2 k u))).setWidth 32).toInt : ℝ) : EReal) = _
  rw [e1, e2]
  by_cases h : lab (ix3 (0 : Fin 1) (0 : Fin 1) u) = BitVec.ofNat 32 k.val
  · rw [if_pos h, StableHlo.Predicate.cmpi_eq_iff.mpr h]; norm_num
  · rw [if_neg h, eq_zero_of_ne_one (fun e => h (StableHlo.Predicate.cmpi_eq_iff.mp e))]; norm_num

/-- With the labels the words of a class map `l`, the one-hot block is the indicator of `l u = k`. -/
theorem onehot1_class (lab : Vec Ideal S1x1x16384 .i32) (l : Fin 16384 → Fin 5)
    (hl : ∀ u, lab (ix3 (0 : Fin 1) (0 : Fin 1) u) = BitVec.ofNat 32 (l u).val) (k : Fin 5) (u : Fin 16384) :
    k1_pay4 (F := Ideal) lab (ix2 k u) = if l u = k then 1 else 0 := by
  rw [onehot1_apply, hl]
  by_cases h : l u = k
  · rw [if_pos h, if_pos (by rw [h])]
  · rw [if_neg h, if_neg (fun e => h ((Cert.Alg.ofNat_inj5 _ _).mp e))]

/-! ## The three kinds of sums -/

theorem lift_rows5 (h : S5x16384.Reduces [0] S16384) (u : Fin 16384) (k : Fin 5) : h.lift (ix1 u) k = ix2 k u := by
  funext a
  match a with
  | ⟨0, _⟩ => exact Fin.ext rfl
  | ⟨1, _⟩ => exact Fin.ext rfl

theorem lift_rows64 (h : S64x16384.Reduces [0] S16384) (u : Fin 16384) (ch : Fin 64) : h.lift (ix1 u) ch = ix2 ch u := by
  funext a
  match a with
  | ⟨0, _⟩ => exact Fin.ext rfl
  | ⟨1, _⟩ => exact Fin.ext rfl

theorem lift_lanes (h : S1x16384.Reduces [1] S1) (u : Fin 16384) : h.lift (ix1 (0 : Fin 1)) u = ix2 (0 : Fin 1) u := by
  funext a
  match a with
  | ⟨0, _⟩ => exact Fin.ext rfl
  | ⟨1, _⟩ => exact Fin.ext rfl

/-- A 5×16384 block summed over its rows. -/
theorem rows_apply (w : FVec Ideal S5x16384 .f32) (u : Fin 16384) :
    multiReduction (F := Ideal) .add [0] S16384 w 0x00000000#32 reduces_S5x16384_S16384 (.inl rfl) rfl (ix1 u)
      = ∑ k : Fin 5, w (ix2 k u) := by
  refine (Ideal.multiReduction_add_single _ _ reduces_S5x16384_S16384 _ _ (ix1 u)).trans ?_
  show (∑ k : Fin 5, w (reduces_S5x16384_S16384.lift (ix1 u) k)) = _
  refine Finset.sum_congr rfl fun k _ => ?_
  rw [lift_rows5]

/-- A 64×16384 block summed over its rows. -/
theorem chan_apply (y : FVec Ideal S64x16384 .f32) (u : Fin 16384) :
    multiReduction (F := Ideal) .add [0] S16384 y 0x00000000#32 reduces_S64x16384_S16384 (.inl rfl) rfl (ix1 u)
      = ∑ ch : Fin 64, y (ix2 ch u) := by
  refine (Ideal.multiReduction_add_single _ _ reduces_S64x16384_S16384 _ _ (ix1 u)).trans ?_
  show (∑ ch : Fin 64, y (reduces_S64x16384_S16384.lift (ix1 u) ch)) = _
  refine Finset.sum_congr rfl fun ch _ => ?_
  rw [lift_rows64]

/-- A 1×16384 row summed over its positions. -/
theorem lane_apply (z : FVec Ideal S1x16384 .f32) :
    multiReduction (F := Ideal) .add [1] S1 z 0x00000000#32 reduces_S1x16384_S1 (.inl rfl) rfl (ix1 (0 : Fin 1))
      = ∑ u : Fin 16384, z (ix2 (0 : Fin 1) u) := by
  refine (Ideal.multiReduction_add_single _ _ reduces_S1x16384_S1 _ _ (ix1 (0 : Fin 1))).trans ?_
  show (∑ u : Fin 16384, z (reduces_S1x16384_S1.lift (ix1 (0 : Fin 1)) u)) = _
  refine Finset.sum_congr rfl fun u _ => ?_
  rw [lift_lanes]

/-! ## A column of five broadcast along the positions -/

theorem bcast_col_apply (v : FVec Ideal S5x1 .f32) (k : Fin 5) (u : Fin 16384) :
    broadcastTo S5x16384 v broadcasts_S5x1_S5x16384 (ix2 k u) = v (ix2 k (0 : Fin 1)) := by
  refine broadcastTo_apply v broadcasts_S5x1_S5x16384 (ix2 k u) (ix2 k (0 : Fin 1)) fun ax => ?_
  match ax with
  | ⟨0, _⟩ => rfl
  | ⟨1, _⟩ => rfl

/-- A root at an index is the root of the element. -/
theorem sqrt_at {s : Shape} (v : FVec Ideal s .f32) (i : s.Idx) : sqrt v i = Ideal.sqrt (v i) := rfl

/-! ## The tile's step -/

/-- The body's arithmetic after the loads, over any one-hot block `oh`, feature blocks `xs`, `xt` (as 64×16384), center-norm
    columns `ns`, `nt`, teacher products `pt` (5×16384), student selected dot products `ds` (1×16384) and accumulator `a`:
    the accumulator plus the sum over the positions of the squared difference of the two quotients. -/
theorem pay1_apply (oh : FVec Ideal S5x16384 .f32) (xs xt : FVec Ideal S64x16384 .f32) (ns nt : FVec Ideal S5x1 .f32)
    (pt : FVec Ideal S5x16384 .f32) (ds : FVec Ideal S1x16384 .f32) (a : Vec Ideal S1x1 .f32) :
    k1_pay1 (F := Ideal) oh xs xt ns nt pt ds a (ix2 (0 : Fin 1) (0 : Fin 1))
      = a (ix2 (0 : Fin 1) (0 : Fin 1)) + ∑ u : Fin 16384,
          (Ideal.div (ds (ix2 (0 : Fin 1) u))
              (max (Ideal.sqrt (∑ ch : Fin 64, xs (ix2 ch u) * xs (ix2 ch u)) * ∑ k : Fin 5, ns (ix2 k (0 : Fin 1)) * oh (ix2 k u)) (Ideal.ofBits .f32 0x322BCC77#32))
            - Ideal.div (∑ k : Fin 5, pt (ix2 k u) * oh (ix2 k u))
              (max (Ideal.sqrt (∑ ch : Fin 64, xt (ix2 ch u) * xt (ix2 ch u)) * ∑ k : Fin 5, nt (ix2 k (0 : Fin 1)) * oh (ix2 k u)) (Ideal.ofBits .f32 0x322BCC77#32)))
          * (Ideal.div (ds (ix2 (0 : Fin 1) u))
              (max (Ideal.sqrt (∑ ch : Fin 64, xs (ix2 ch u) * xs (ix2 ch u)) * ∑ k : Fin 5, ns (ix2 k (0 : Fin 1)) * oh (ix2 k u)) (Ideal.ofBits .f32 0x322BCC77#32))
            - Ideal.div (∑ k : Fin 5, pt (ix2 k u) * oh (ix2 k u))
              (max (Ideal.sqrt (∑ ch : Fin 64, xt (ix2 ch u) * xt (ix2 ch u)) * ∑ k : Fin 5, nt (ix2 k (0 : Fin 1)) * oh (ix2 k u)) (Ideal.ofBits .f32 0x322BCC77#32))) := by
  unfold k1_pay1
  refine (congrFun (shapeCast_self _ _) (ix2 (0 : Fin 1) (0 : Fin 1))).trans ?_
  refine congrArg (a (ix2 (0 : Fin 1) (0 : Fin 1)) + ·) ?_
  refine (shapeCast_a_1a_apply _ _ (0 : Fin 1) (0 : Fin 1)).trans ?_
  refine (lane_apply _).trans ?_
  refine Finset.sum_congr rfl fun u _ => ?_
  simp only [mulf_apply, subf_apply, divf_apply, maximumf_apply, broadcast_apply, sqrt_at, shapeCast_a_1a_apply, chan_apply,
    rows_apply, bcast_col_apply]
  rw [chan_apply (mulf xs xs) u, chan_apply (mulf xt xt) u, rows_apply (mulf pt oh) u,
    rows_apply (mulf (broadcastTo S5x16384 ns broadcasts_S5x1_S5x16384) oh) u,
    rows_apply (mulf (broadcastTo S5x16384 nt broadcasts_S5x1_S5x16384) oh) u]
  simp only [mulf_apply, bcast_col_apply]
  rfl

/-! ## The loaded blocks behind the body's operands -/

theorem pay5_apply (xs : Vec Ideal S1x64x16384 .f32) (ch : Fin 64) (u : Fin 16384) :
    k1_pay5 (F := Ideal) xs (ix2 ch u) = xs (ix3 (0 : Fin 1) ch u) := shapeCast_1ab_ab_apply xs _ ch u
theorem pay6_apply (xt : Vec Ideal S1x64x16384 .f32) (ch : Fin 64) (u : Fin 16384) :
    k1_pay6 (F := Ideal) xt (ix2 ch u) = xt (ix3 (0 : Fin 1) ch u) := shapeCast_1ab_ab_apply xt _ ch u
theorem pay7_apply (ns : Vec Ideal S1x5x1 .f32) (k : Fin 5) :
    k1_pay7 (F := Ideal) ns (ix2 k (0 : Fin 1)) = ns (ix3 (0 : Fin 1) k (0 : Fin 1)) := shapeCast_1ab_ab_apply ns _ k 0
theorem pay8_apply (nt : Vec Ideal S1x5x1 .f32) (k : Fin 5) :
    k1_pay8 (F := Ideal) nt (ix2 k (0 : Fin 1)) = nt (ix3 (0 : Fin 1) k (0 : Fin 1)) := shapeCast_1ab_ab_apply nt _ k 0

/-- The teacher's product at (k, u): the features of position u against the center row of class k. -/
theorem pay9_apply (xt : Vec Ideal S1x64x16384 .f32) (mt : Vec Ideal S1x5x64 .f32) (k : Fin 5) (u : Fin 16384) :
    k1_pay9 (F := Ideal) xt mt (ix2 k u) = ∑ ch : Fin 64, xt (ix3 (0 : Fin 1) ch u) * mt (ix3 (0 : Fin 1) k ch) := by
  unfold k1_pay9
  refine (mmB_apply _ _ k u).trans ?_
  refine Finset.sum_congr rfl fun ch _ => ?_
  refine (mul_comm _ _).trans ?_
  exact congrArg₂ (· * ·) (pay6_apply xt ch u) (shapeCast_1ab_ab_apply mt _ k ch)

section Class
variable (lab : Vec Ideal S1x1x16384 .i32) (l : Fin 16384 → Fin 5)
  (hl : ∀ u, lab (ix3 (0 : Fin 1) (0 : Fin 1) u) = BitVec.ofNat 32 (l u).val)
include hl

/-- The student's products summed against the one-hot column: the features against the center row of the position's class. -/
theorem pay10_class (xs : Vec Ideal S1x64x16384 .f32) (ms : Vec Ideal S1x5x64 .f32) (u : Fin 16384) :
    k1_pay10 (F := Ideal) lab xs ms (ix2 (0 : Fin 1) u)
      = ∑ ch : Fin 64, xs (ix3 (0 : Fin 1) ch u) * ms (ix3 (0 : Fin 1) (l u) ch) := by
  unfold k1_pay10
  refine (shapeCast_a_1a_apply _ _ (0 : Fin 1) u).trans ?_
  refine (rows_apply _ u).trans ?_
  refine Eq.trans (Finset.sum_congr rfl fun k _ => congrArg₂ (· * ·) (mmB_apply _ _ k u) (onehot1_class lab l hl k u)) ?_
  refine (Cert.Alg.sum_onehot _ (l u)).trans ?_
  refine Finset.sum_congr rfl fun ch _ => ?_
  refine (mul_comm _ _).trans ?_
  exact congrArg₂ (· * ·) (pay5_apply xs ch u) (shapeCast_1ab_ab_apply ms _ (l u) ch)

/-- The teacher's products summed against the one-hot column. -/
theorem pay9_class (xt : Vec Ideal S1x64x16384 .f32) (mt : Vec Ideal S1x5x64 .f32) (u : Fin 16384) :
    (∑ k : Fin 5, k1_pay9 (F := Ideal) xt mt (ix2 k u) * k1_pay4 (F := Ideal) lab (ix2 k u))
      = ∑ ch : Fin 64, xt (ix3 (0 : Fin 1) ch u) * mt (ix3 (0 : Fin 1) (l u) ch) := by
  refine Eq.trans (Finset.sum_congr rfl fun k _ => congrArg₂ (· * ·) (pay9_apply xt mt k u) (onehot1_class lab l hl k u)) ?_
  exact Cert.Alg.sum_onehot (fun k : Fin 5 => ∑ ch : Fin 64, xt (ix3 (0 : Fin 1) ch u) * mt (ix3 (0 : Fin 1) k ch)) (l u)

/-- A norm column summed against the one-hot column: the norm of the position's class. -/
theorem pay7_class (ns : Vec Ideal S1x5x1 .f32) (u : Fin 16384) :
    (∑ k : Fin 5, k1_pay7 (F := Ideal) ns (ix2 k (0 : Fin 1)) * k1_pay4 (F := Ideal) lab (ix2 k u))
      = ns (ix3 (0 : Fin 1) (l u) (0 : Fin 1)) := by
  refine Eq.trans (Finset.sum_congr rfl fun k _ => congrArg₂ (· * ·) (pay7_apply ns k) (onehot1_class lab l hl k u)) ?_
  exact Cert.Alg.sum_onehot (fun k : Fin 5 => ns (ix3 (0 : Fin 1) k (0 : Fin 1))) (l u)

theorem pay8_class (nt : Vec Ideal S1x5x1 .f32) (u : Fin 16384) :
    (∑ k : Fin 5, k1_pay8 (F := Ideal) nt (ix2 k (0 : Fin 1)) * k1_pay4 (F := Ideal) lab (ix2 k u))
      = nt (ix3 (0 : Fin 1) (l u) (0 : Fin 1)) := by
  refine Eq.trans (Finset.sum_congr rfl fun k _ => congrArg₂ (· * ·) (pay8_apply nt k) (onehot1_class lab l hl k u)) ?_
  exact Cert.Alg.sum_onehot (fun k : Fin 5 => nt (ix3 (0 : Fin 1) k (0 : Fin 1))) (l u)

end Class

/-- A tile position's cosine: the position's features against the center row of its class, over the feature norm times the
    class's center norm, the product kept away from zero by the small constant the body carries. -/
def cosTile (x : Vec Ideal S1x64x16384 .f32) (m : Vec Ideal S1x5x64 .f32) (n : Vec Ideal S1x5x1 .f32) (l : Fin 16384 → Fin 5)
    (u : Fin 16384) : EReal :=
  Ideal.div (∑ ch : Fin 64, x (ix3 (0 : Fin 1) ch u) * m (ix3 (0 : Fin 1) (l u) ch))
    (max (Ideal.sqrt (∑ ch : Fin 64, x (ix3 (0 : Fin 1) ch u) * x (ix3 (0 : Fin 1) ch u)) * n (ix3 (0 : Fin 1) (l u) (0 : Fin 1)))
      (Ideal.ofBits .f32 0x322BCC77#32))

/-- ONE TILE. With the label row the words of a class map `l`, the body's new accumulator is the old one plus the sum over
    the tile's positions of the squared difference of the student's and the teacher's cosine. -/
theorem step1_tile (lab : Vec Ideal S1x1x16384 .i32) (xs xt : Vec Ideal S1x64x16384 .f32) (ms mt : Vec Ideal S1x5x64 .f32)
    (ns nt : Vec Ideal S1x5x1 .f32) (a : Vec Ideal S1x1 .f32) (l : Fin 16384 → Fin 5)
    (hl : ∀ u, lab (ix3 (0 : Fin 1) (0 : Fin 1) u) = BitVec.ofNat 32 (l u).val) :
    k1_pay1 (F := Ideal) (k1_pay4 lab) (k1_pay5 xs) (k1_pay6 xt) (k1_pay7 ns) (k1_pay8 nt) (k1_pay9 xt mt) (k1_pay10 lab xs ms) a
        (ix2 (0 : Fin 1) (0 : Fin 1))
      = a (ix2 (0 : Fin 1) (0 : Fin 1)) + ∑ u : Fin 16384,
          (cosTile xs ms ns l u - cosTile xt mt nt l u) * (cosTile xs ms ns l u - cosTile xt mt nt l u) := by
  refine (pay1_apply _ _ _ _ _ _ _ a).trans ?_
  refine congrArg (a (ix2 (0 : Fin 1) (0 : Fin 1)) + ·) (Finset.sum_congr rfl fun u _ => ?_)
  rw [pay10_class lab l hl xs ms u, pay9_class lab l hl xt mt u, pay7_class lab l hl ns u, pay8_class lab l hl nt u]
  simp only [pay5_apply, pay6_apply]
  rfl

end Cert.KernelIdeal.Hand

end
-- ==== Proof.KI.R1Value.lean ====
/-
  Second pallas_call (the per-voxel cosine differences), the values. At the extended reals the body's arithmetic on one
  tile is read index by index: the one-hot of the tile's labels selects, for every voxel of the tile, its class's row of
  the two products (class means times features) and its class's norm; the features' own norms are the roots of their
  channel sums of squares; the two quotients are the cosines, whose squared difference is summed over the tile's
  16384 voxels and added to the accumulator. The accumulator starts at zero at the first tile of a batch entry, so after
  the eighth tile it holds the sum over the entry's 131072 voxels, which is what the pipeline writes back.
-/
import proofs.«426160_j54812372632011_3_alg».proof.Proof.KI.R1Data
import proofs.«426160_j54812372632011_3_alg».proof.Proof.KI.R1Blocks
import proofs.«426160_j54812372632011_3_alg».proof.Proof.KI.R1Tile
import proofs.«426160_j54812372632011_3_alg».proof.Proof.Spec
import proofs.«426160_j54812372632011_3_alg».proof.Proof.Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The accumulator starts a batch entry at zero. -/
theorem zero_acc : k1_pay3 (F := Ideal) (ix2 (0 : Fin 1) (0 : Fin 1)) = 0 := by
  unfold k1_pay3
  rw [shapeCast_self]
  exact Ideal.ofBits_zero_f32

variable (c : Dev nD) (fS fT : Fin 2 → Fin 64 → Fin 131072 → EReal) (L : Fin 2 → Fin 131072 → Fin 5)
  (mS mT : Fin 2 → Fin 64 → Fin 5 → EReal) (cS cT : Fin 2 → Fin 5 → EReal)
  (hfS : ∀ b ch v, V c main_v35 (ix3 b ch v) = fS b ch v) (hfT : ∀ b ch v, V c main_v36 (ix3 b ch v) = fT b ch v)
  (hL : ∀ b v, V c main_v37 (ix3 b 0 v) = BitVec.ofNat 32 (L b v).val)
  (hmS : ∀ b k ch, V c main_v59 (ix3 b k ch) = mS b ch k) (hmT : ∀ b k ch, V c main_v60 (ix3 b k ch) = mT b ch k)
  (hcS : ∀ b k, V c main_v54 (ix3 b k 0) = cS b k) (hcT : ∀ b k, V c main_v58 (ix3 b k 0) = cT b k)

include hfS hfT hL hmS hmT hcS hcT

/-- What tile j of batch entry b adds to the accumulator: the squared cosine differences of the tile's 16384 voxels,
    voxel u of the tile being voxel 16384·j + u of the entry. -/
theorem step1_apply (b : Fin 2) (j : Fin 8) (a : Vec Ideal S1x1 .f32) :
    step1 V c ⟨8 * b.val + j.val, pt1_lt b j⟩ a (ix2 (0 : Fin 1) (0 : Fin 1))
      = a (ix2 (0 : Fin 1) (0 : Fin 1))
        + ∑ u : Fin 16384, Cert.Spec.sqw fS fT L (Ideal.ofBits .f32 0x322BCC77#32) mS mT cS cT b ⟨16384 * j.val + u.val, by omega⟩ := by
  have hb : b.val = (⟨8 * b.val + j.val, pt1_lt b j⟩ : Fin cfg1.N).val / 8 := by show b.val = (8 * b.val + j.val) / 8; omega
  have hv : ∀ u : Fin 16384, (⟨16384 * j.val + u.val, by omega⟩ : Fin 131072).val
      = 16384 * ((⟨8 * b.val + j.val, pt1_lt b j⟩ : Fin cfg1.N).val % 8) + u.val := fun u => by
    show 16384 * j.val + u.val = 16384 * ((8 * b.val + j.val) % 8) + u.val; omega
  have eL : ∀ u : Fin 16384, lab1 V c ⟨8 * b.val + j.val, pt1_lt b j⟩ (ix3 (0 : Fin 1) (0 : Fin 1) u)
      = BitVec.ofNat 32 (L b ⟨16384 * j.val + u.val, by omega⟩).val :=
    fun u => (blk1_2 V c _ u b ⟨16384 * j.val + u.val, by omega⟩ hb (hv u)).trans (hL b _)
  have eS : ∀ (ch : Fin 64) (u : Fin 16384), x1S V c ⟨8 * b.val + j.val, pt1_lt b j⟩ (ix3 (0 : Fin 1) ch u)
      = fS b ch ⟨16384 * j.val + u.val, by omega⟩ :=
    fun ch u => (blk1_0 V c _ ch u b ⟨16384 * j.val + u.val, by omega⟩ hb (hv u)).trans (hfS b ch _)
  have eT : ∀ (ch : Fin 64) (u : Fin 16384), x1T V c ⟨8 * b.val + j.val, pt1_lt b j⟩ (ix3 (0 : Fin 1) ch u)
      = fT b ch ⟨16384 * j.val + u.val, by omega⟩ :=
    fun ch u => (blk1_1 V c _ ch u b ⟨16384 * j.val + u.val, by omega⟩ hb (hv u)).trans (hfT b ch _)
  have eMS : ∀ (k : Fin 5) (ch : Fin 64), m1S V c ⟨8 * b.val + j.val, pt1_lt b j⟩ (ix3 (0 : Fin 1) k ch) = mS b ch k :=
    fun k ch => (blk1_3 V c _ k ch b hb).trans (hmS b k ch)
  have eMT : ∀ (k : Fin 5) (ch : Fin 64), m1T V c ⟨8 * b.val + j.val, pt1_lt b j⟩ (ix3 (0 : Fin 1) k ch) = mT b ch k :=
    fun k ch => (blk1_4 V c _ k ch b hb).trans (hmT b k ch)
  have eNS : ∀ k : Fin 5, n1S V c ⟨8 * b.val + j.val, pt1_lt b j⟩ (ix3 (0 : Fin 1) k (0 : Fin 1)) = cS b k :=
    fun k => (blk1_5 V c _ k b hb).trans (hcS b k)
  have eNT : ∀ k : Fin 5, n1T V c ⟨8 * b.val + j.val, pt1_lt b j⟩ (ix3 (0 : Fin 1) k (0 : Fin 1)) = cT b k :=
    fun k => (blk1_6 V c _ k b hb).trans (hcT b k)
  refine (step1_tile (lab1 V c ⟨8 * b.val + j.val, pt1_lt b j⟩) (x1S V c ⟨8 * b.val + j.val, pt1_lt b j⟩)
    (x1T V c ⟨8 * b.val + j.val, pt1_lt b j⟩) (m1S V c ⟨8 * b.val + j.val, pt1_lt b j⟩) (m1T V c ⟨8 * b.val + j.val, pt1_lt b j⟩)
    (n1S V c ⟨8 * b.val + j.val, pt1_lt b j⟩) (n1T V c ⟨8 * b.val + j.val, pt1_lt b j⟩) a
    (fun u => L b ⟨16384 * j.val + u.val, by omega⟩) eL).trans ?_
  refine congrArg (fun s => a (ix2 (0 : Fin 1) (0 : Fin 1)) + s) ?_
  refine Finset.sum_congr rfl fun u _ => ?_
  unfold cosTile Cert.Spec.sqw Cert.Spec.cosw Cert.Spec.nrm
  simp only [eS, eT, eMS, eMT, eNS, eNT]

/-- After the eighth tile of batch entry b the accumulator holds the sum over the entry's 131072 voxels. -/
theorem acc1_last (b : Fin 2) :
    acc1 V c (8 * b.val + (7 : Fin 8).val) (pt1_lt b 7) (ix2 (0 : Fin 1) (0 : Fin 1))
      = ∑ v : Fin 131072, Cert.Spec.sqw fS fT L (Ideal.ofBits .f32 0x322BCC77#32) mS mT cS cT b v := by
  rw [Cert.Alg.sum_tiles]
  refine Cert.Alg.fold_tiles_fin
    (fun j => acc1 V c (8 * b.val + j.val) (pt1_lt b j) (ix2 (0 : Fin 1) (0 : Fin 1)))
    (fun j => ∑ u : Fin 16384, Cert.Spec.sqw fS fT L (Ideal.ofBits .f32 0x322BCC77#32) mS mT cS cT b ⟨16384 * j.val + u.val, by omega⟩)
    ?_ ?_
  · show acc1 V c (8 * b.val + 0) (pt1_lt b 0) (ix2 (0 : Fin 1) (0 : Fin 1)) = _
    rw [acc1_at_reset V c (8 * b.val + 0) (pt1_lt b 0) (by omega)]
    exact (step1_apply V c fS fT L mS mT cS cT hfS hfT hL hmS hmT hcS hcT b 0 _).trans (by rw [zero_acc])
  · intro n h
    show acc1 V c (8 * b.val + n + 1) (pt1_lt b ⟨n + 1, h⟩) (ix2 (0 : Fin 1) (0 : Fin 1)) = _
    rw [acc1_at_step V c (8 * b.val + n) (pt1_lt b ⟨n + 1, h⟩) (by omega)]
    exact step1_apply V c fS fT L mS mT cS cT hfS hfT hL hmS hmT hcS hcT b ⟨n + 1, h⟩ _

/-- THE VALUE of the second pallas_call: entry (b, 0, 0) of its result array is the sum, over the 131072 voxels of batch
    entry b, of the squared difference of the two cosines. -/
theorem sq_apply (b : Fin 2) :
    (dat1 (F := Ideal) V c).arrAt 7 cfg1.N (ix3 b 0 0)
      = ∑ v : Fin 131072, Cert.Spec.sqw fS fT L (Ideal.ofBits .f32 0x322BCC77#32) mS mT cS cT b v :=
  (out1_apply V c b).trans (acc1_last V c fS fT L mS mT cS cT hfS hfT hL hmS hmT hcS hcT b)

/-- info: 'Cert.KernelIdeal.Hand.sq_apply' depends on axioms: [propext, Classical.choice, Quot.sound] -/
#guard_msgs in #print axioms sq_apply

end Cert.KernelIdeal.Hand

end
-- ==== Proof.KI.Value.lean ====
/-
  The idealized kernel program's result as a function of its launch memory. The last host operations turn the second
  pallas_call's output (one partial sum per batch entry) into the loss; that output is the sum over the batch entry's voxels
  of the squared differences of the two cosine similarities, computed from the class means and norms the host formed from
  the first pallas_call's per-class channel sums. Read back stage by stage, the result is the specification's loss of the
  two reshaped feature arrays and the upsampled labels; the labels are below five because each is an entry of the label input.
-/
import proofs.«426160_j54812372632011_3_alg».proof.Proof.KI.Fold
import proofs.«426160_j54812372632011_3_alg».proof.Proof.KI.PreRead
import proofs.«426160_j54812372632011_3_alg».proof.Proof.KI.MidRead
import proofs.«426160_j54812372632011_3_alg».proof.Proof.KI.R0Value
import proofs.«426160_j54812372632011_3_alg».proof.Proof.KI.R1Value
import proofs.«426160_j54812372632011_3_alg».proof.Proof.Spec
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Hand
open Cert.KernelIdeal Cert.KernelIdeal.Gen

/-- The class of every voxel, as a number below five: the upsampled label at (b, v), which is some entry of the label input. -/
def Lab (tgt : IVec S2x1x16x32x32 32) (hpre : ∀ i, (tgt i).toNat < 5) (b : Fin 2) (v : Fin 131072) : Fin 5 :=
  ⟨(labK tgt (ix2 b v)).toNat, by obtain ⟨i, hi⟩ := labK_entry tgt (ix2 b v); rw [hi]; exact hpre i⟩

theorem labK_eq_Lab (tgt : IVec S2x1x16x32x32 32) (hpre : ∀ i, (tgt i).toNat < 5) (b : Fin 2) (v : Fin 131072) :
    labK tgt (ix2 b v) = BitVec.ofNat 32 (Lab tgt hpre b v).val := by
  simp only [Lab, BitVec.ofNat_toNat, BitVec.setWidth_eq]

variable (m : (ℓ : Loc nD τ sig) → Buf (Elt Ideal) ℓ) (c : Dev nD)

/-- The loss of the launch memory's two feature arrays (reshaped) and labels (upsampled). -/
def lossK (hpre : ∀ i, ((m (c, main_arg2) : IVec S2x1x16x32x32 32) i).toNat < 5) : EReal :=
  Cert.Spec.loss
    (Cert.Spec.feat (m (c, main_arg0)) shapeCasts_S2x64x32x64x64_S2x64x131072)
    (Cert.Spec.feat (m (c, main_arg1)) shapeCasts_S2x64x32x64x64_S2x64x131072)
    (Lab (m (c, main_arg2)) hpre)

/-- The kernel program's result, from the launch memory, is that loss. -/
theorem result_eq (hpre : ∀ i, ((m (c, main_arg2) : IVec S2x1x16x32x32 32) i).toNat < 5) :
    (W12 m c main_v64 : S_.Idx → EReal) = fun _ => lossK m c hpre := by
  unfold lossK
  set fS := Cert.Spec.feat (m (c, main_arg0)) shapeCasts_S2x64x32x64x64_S2x64x131072 with hfS
  set fT := Cert.Spec.feat (m (c, main_arg1)) shapeCasts_S2x64x32x64x64_S2x64x131072 with hfT
  set L := Lab (m (c, main_arg2)) hpre with hLdef
  have hL7 : ∀ b v, W7 m c main_v34 (ix2 b v) = BitVec.ofNat 32 (L b v).val := fun b v => by
    rw [v34_eq]; exact labK_eq_Lab _ hpre b v
  have hL37 : ∀ b v, V7 m c main_v37 (ix3 b 0 v) = BitVec.ofNat 32 (L b v).val := fun b v => (v37_apply m c b v).trans (hL7 b v)
  have hsS : ∀ b ch k, W8 m c main_v38_0 (ix3 b ch k) = Cert.Spec.sums fS L b ch k := fun b ch k => by
    have := W8_arr m c 3
    exact (congrFun this (ix3 b ch k)).trans (sumsS_apply (V7 m) c fS L (fun b ch v => v35_apply m c b ch v) hL37 b ch k)
  have hsT : ∀ b ch k, W8 m c main_v38_1 (ix3 b ch k) = Cert.Spec.sums fT L b ch k := fun b ch k => by
    have := W8_arr m c 4
    exact (congrFun this (ix3 b ch k)).trans (sumsT_apply (V7 m) c fT L (fun b ch v => v36_apply m c b ch v) hL37 b ch k)
  funext j
  rw [eq_ix0 j, out_apply]
  unfold Cert.Spec.loss Cert.Spec.total
  refine congrArg Cert.Spec.finish ?_
  refine Finset.sum_congr rfl fun b _ => ?_
  have h61 := W11_arr m c 7
  have hsum : (∑ v : Fin 131072, Cert.Spec.sqw fS fT L (Ideal.ofBits .f32 0x322BCC77#32) (Cert.Spec.mean fS L Cert.Spec.eps6) (Cert.Spec.mean fT L Cert.Spec.eps6)
      (Cert.Spec.cnrm fS L Cert.Spec.eps6) (Cert.Spec.cnrm fT L Cert.Spec.eps6) b v : EReal) = ∑ v : Fin 131072, Cert.Spec.sq fS fT L Cert.Spec.eps6 Cert.Spec.eps8 b v :=
    Finset.sum_congr rfl fun v _ => (Cert.Spec.sq_eq_sqw fS fT L Cert.Spec.eps6 Cert.Spec.eps8 b v).symm
  have h7 : (dat1 (F := Ideal) (V10 m) c).arrAt 7 cfg1.N (ix3 b 0 0) = ∑ v : Fin 131072, Cert.Spec.sq fS fT L Cert.Spec.eps6 Cert.Spec.eps8 b v :=
    (sq_apply (V10 m) c fS fT L (Cert.Spec.mean fS L Cert.Spec.eps6) (Cert.Spec.mean fT L Cert.Spec.eps6)
    (Cert.Spec.cnrm fS L Cert.Spec.eps6) (Cert.Spec.cnrm fT L Cert.Spec.eps6)
    (fun b ch v => (congrFun (keep10_v35 m c) _).trans (v35_apply m c b ch v))
    (fun b ch v => (congrFun (keep10_v36 m c) _).trans (v36_apply m c b ch v))
    (fun b v => (congrFun (keep10_v37 m c) _).trans (hL37 b v))
    (fun b k ch => meansS_apply m c L hL7 _ hsS b k ch)
    (fun b k ch => meansT_apply m c L hL7 _ hsT b k ch)
    (fun b k => normS_apply m c L hL7 _ hsS b k)
    (fun b k => normT_apply m c L hL7 _ hsT b k) b).trans hsum
  exact (congrFun h61 (ix3 b 0 0)).trans h7

end Cert.KernelIdeal.Hand

end
-- ==== Proof.Ref.Ops.lean ====
/-
  The reference program's @main as a straight line of host operations, and its run.

  @main is printed in two windows and calls six outlined functions (three floor divisions, each
  with a select inside; a one-hot; two take-along-axis).  Here its 95 + 18 + 23 + 8 + 23 + 40 operations are listed in
  order, a callee's operations in place of its call over that call's buffer record, in six
  consecutive tables cut where the computation has a natural stage:
    opsLabels    the nearest-neighbour upsampling of the labels (three index chains, three gathers,
                 the flattening), up to the label array;
    opsCentersS  the one-hot of the labels, the class counts, the two feature arrays flattened, the
                 class sums and class means of the first, the label row;
    opsTakeS     each voxel's class mean of the first feature array;
    opsCentersT  class sums and class means of the second feature array, the label row;
    opsTakeT     each voxel's class mean of the second;
    opsLoss      the two cosine similarities, their squared difference, its mean.
  Proved: @main is the sequence of their concatenation; every operation touches TensorCore buffers
  only and determines its result; hence every fair execution of @main terminates with each buffer at
  the fold of the operations over the launch contents; the fold is the composition of the six
  tables' folds; a table leaves every buffer it does not write as it was; and the three argument
  buffers are unchanged.
-/
import proofs.«426160_j54812372632011_3_alg».proof.ReferenceIdeal
import proofs.«426160_j54812372632011_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The six tables -/

/-- The label chain: statements %0 … %34, the three floor divisions inline. -/
abbrev opsLabels : List (HloOp τ sig (Elt F)) :=
  [ StableHlo.reshape main_arg2 main_v0 rfl shapeCasts_S2x1x16x32x32_S2x16x32x32,
    StableHlo.nullary main_v1 (iotaInDim S32 32 0),
    StableHlo.nullary main_c (constantI S_ 32 16#32),
    StableHlo.unary main_c main_v2 (broadcastInDim S32 ![] bcast_S_S32 : (⟨S_, .i32⟩ : BufTy).Contents (Elt F) → (⟨S32, .i32⟩ : BufTy).Contents (Elt F)),
    StableHlo.binary main_v1 main_v2 main_v3 (muli : (⟨S32, .i32⟩ : BufTy).Contents (Elt F) → (⟨S32, .i32⟩ : BufTy).Contents (Elt F) → (⟨S32, .i32⟩ : BufTy).Contents (Elt F)),
    StableHlo.nullary main_c_0 (constantI S_ 32 32#32),
    StableHlo.TRef.unary (.of main_c_0 : StableHlo.TRef sig ⟨S_, .i32⟩) main_call0.v0 id,
    StableHlo.TRef.unary main_call0.v0 main_call0.v1 (broadcastInDim S32 ![] bcast_S_S32),
    StableHlo.TRef.binary (.of main_v3 : StableHlo.TRef sig ⟨S32, .i32⟩) main_call0.v1 main_call0.v2 Host.divsi,
    StableHlo.TRef.unary (.of main_v3 : StableHlo.TRef sig ⟨S32, .i32⟩) main_call0.v3 signi,
    StableHlo.TRef.unary main_call0.v0 main_call0.v4 signi,
    StableHlo.TRef.unary main_call0.v4 main_call0.v5 (broadcastInDim S32 ![] bcast_S_S32),
    StableHlo.TRef.binary main_call0.v3 main_call0.v5 main_call0.v6 (cmpi .ne),
    StableHlo.TRef.unary main_call0.v0 main_call0.v7 (broadcastInDim S32 ![] bcast_S_S32),
    StableHlo.TRef.binary (.of main_v3 : StableHlo.TRef sig ⟨S32, .i32⟩) main_call0.v7 main_call0.v8 Host.remsi,
    StableHlo.TRef.nullary main_call0.c (constantI S_ 32 0#32),
    StableHlo.TRef.unary main_call0.c main_call0.v9 (broadcastInDim S32 ![] bcast_S_S32),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S32 ![] bcast_S_S32),
    StableHlo.TRef.binary main_call0.v2 main_call0.v12 main_call0.v13 subi,
    StableHlo.TRef.ternary main_call0.v11 main_call0.v13 main_call0.v2 main_call0.call0.v0 select,
    StableHlo.nullary main_c_1 (constantI S_ 32 0#32),
    StableHlo.unary main_c_1 main_v5 (broadcastInDim S32 ![] bcast_S_S32 : (⟨S_, .i32⟩ : BufTy).Contents (Elt F) → (⟨S32, .i32⟩ : BufTy).Contents (Elt F)),
    StableHlo.binary main_v4 main_v5 main_v6 (cmpi .slt : (⟨S32, .i32⟩ : BufTy).Contents (Elt F) → (⟨S32, .i32⟩ : BufTy).Contents (Elt F) → (⟨S32, .i1⟩ : BufTy).Contents (Elt F)),
    StableHlo.nullary main_c_2 (constantI S_ 32 16#32),
    StableHlo.unary main_c_2 main_v7 (broadcastInDim S32 ![] bcast_S_S32 : (⟨S_, .i32⟩ : BufTy).Contents (Elt F) → (⟨S32, .i32⟩ : BufTy).Contents (Elt F)),
    StableHlo.binary main_v4 main_v7 main_v8 (addi : (⟨S32, .i32⟩ : BufTy).Contents (Elt F) → (⟨S32, .i32⟩ : BufTy).Contents (Elt F) → (⟨S32, .i32⟩ : BufTy).Contents (Elt F)),
    StableHlo.ternary main_v6 main_v8 main_v4 main_v9 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v9 main_v10 (broadcastInDim S32x1 ![0] bcast_S32_S32x1_0 : (⟨S32, .i32⟩ : BufTy).Contents (Elt F) → (⟨S32x1, .i32⟩ : BufTy).Contents (Elt F)),
    StableHlo.binary main_v0 main_v10 main_v11 ((fun x i => Host.gather gather_S2x16x32x32_S32x1_S2x32x32x32_023_1_n_n_1_1_213232 x i) : (⟨S2x16x32x32, .i32⟩ : BufTy).Contents (Elt F) → (⟨S32x1, .i32⟩ : BufTy).Contents (Elt F) → (⟨S2x32x32x32, .i32⟩ : BufTy).Contents (Elt F)),
    StableHlo.nullary main_v12 (iotaInDim S64 32 0),
    StableHlo.nullary main_c_3 (constantI S_ 32 32#32),
    StableHlo.unary main_c_3 main_v13 (broadcastInDim S64 ![] bcast_S_S64 : (⟨S_, .i32⟩ : BufTy).Contents (Elt F) → (⟨S64, .i32⟩ : BufTy).Contents (Elt F)),
    StableHlo.binary main_v12 main_v13 main_v14 (muli : (⟨S64, .i32⟩ : BufTy).Contents (Elt F) → (⟨S64, .i32⟩ : BufTy).Contents (Elt F) → (⟨S64, .i32⟩ : BufTy).Contents (Elt F)),
    StableHlo.nullary main_c_4 (constantI S_ 32 64#32),
    StableHlo.TRef.unary (.of main_c_4 : StableHlo.TRef sig ⟨S_, .i32⟩) main_call1.v0 id,
    StableHlo.TRef.unary main_call1.v0 main_call1.v1 (broadcastInDim S64 ![] bcast_S_S64),
    StableHlo.TRef.binary (.of main_v14 : StableHlo.TRef sig ⟨S64, .i32⟩) main_call1.v1 main_call1.v2 Host.divsi,
    StableHlo.TRef.unary (.of main_v14 : StableHlo.TRef sig ⟨S64, .i32⟩) main_call1.v3 signi,
    StableHlo.TRef.unary main_call1.v0 main_call1.v4 signi,
    StableHlo.TRef.unary main_call1.v4 main_call1.v5 (broadcastInDim S64 ![] bcast_S_S64),
    StableHlo.TRef.binary main_call1.v3 main_call1.v5 main_call1.v6 (cmpi .ne),
    StableHlo.TRef.unary main_call1.v0 main_call1.v7 (broadcastInDim S64 ![] bcast_S_S64),
    StableHlo.TRef.binary (.of main_v14 : StableHlo.TRef sig ⟨S64, .i32⟩) main_call1.v7 main_call1.v8 Host.remsi,
    StableHlo.TRef.nullary main_call1.c (constantI S_ 32 0#32),
    StableHlo.TRef.unary main_call1.c main_call1.v9 (broadcastInDim S64 ![] bcast_S_S64),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S64 ![] bcast_S_S64),
    StableHlo.TRef.binary main_call1.v2 main_call1.v12 main_call1.v13 subi,
    StableHlo.TRef.ternary main_call1.v11 main_call1.v13 main_call1.v2 main_call1.call0.v0 select,
    StableHlo.nullary main_c_5 (constantI S_ 32 0#32),
    StableHlo.unary main_c_5 main_v16 (broadcastInDim S64 ![] bcast_S_S64 : (⟨S_, .i32⟩ : BufTy).Contents (Elt F) → (⟨S64, .i32⟩ : BufTy).Contents (Elt F)),
    StableHlo.binary main_v15 main_v16 main_v17 (cmpi .slt : (⟨S64, .i32⟩ : BufTy).Contents (Elt F) → (⟨S64, .i32⟩ : BufTy).Contents (Elt F) → (⟨S64, .i1⟩ : BufTy).Contents (Elt F)),
    StableHlo.nullary main_c_6 (constantI S_ 32 32#32),
    StableHlo.unary main_c_6 main_v18 (broadcastInDim S64 ![] bcast_S_S64 : (⟨S_, .i32⟩ : BufTy).Contents (Elt F) → (⟨S64, .i32⟩ : BufTy).Contents (Elt F)),
    StableHlo.binary main_v15 main_v18 main_v19 (addi : (⟨S64, .i32⟩ : BufTy).Contents (Elt F) → (⟨S64, .i32⟩ : BufTy).Contents (Elt F) → (⟨S64, .i32⟩ : BufTy).Contents (Elt F)),
    StableHlo.ternary main_v17 main_v19 main_v15 main_v20 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v20 main_v21 (broadcastInDim S64x1 ![0] bcast_S64_S64x1_0 : (⟨S64, .i32⟩ : BufTy).Contents (Elt F) → (⟨S64x1, .i32⟩ : BufTy).Contents (Elt F)),
    StableHlo.binary main_v11 main_v21 main_v22 ((fun x i => Host.gather gather_S2x32x32x32_S64x1_S2x32x64x32_013_2_n_n_2_1_232132 x i) : (⟨S2x32x32x32, .i32⟩ : BufTy).Contents (Elt F) → (⟨S64x1, .i32⟩ : BufTy).Contents (Elt F) → (⟨S2x32x64x32, .i32⟩ : BufTy).Contents (Elt F)),
    StableHlo.nullary main_v23 (iotaInDim S64 32 0),
    StableHlo.nullary main_c_7 (constantI S_ 32 32#32),
    StableHlo.unary main_c_7 main_v24 (broadcastInDim S64 ![] bcast_S_S64 : (⟨S_, .i32⟩ : BufTy).Contents (Elt F) → (⟨S64, .i32⟩ : BufTy).Contents (Elt F)),
    StableHlo.binary main_v23 main_v24 main_v25 (muli : (⟨S64, .i32⟩ : BufTy).Contents (Elt F) → (⟨S64, .i32⟩ : BufTy).Contents (Elt F) → (⟨S64, .i32⟩ : BufTy).Contents (Elt F)),
    StableHlo.nullary main_c_8 (constantI S_ 32 64#32),
    StableHlo.TRef.unary (.of main_c_8 : StableHlo.TRef sig ⟨S_, .i32⟩) main_call2.v0 id,
    StableHlo.TRef.unary main_call2.v0 main_call2.v1 (broadcastInDim S64 ![] bcast_S_S64),
    StableHlo.TRef.binary (.of main_v25 : StableHlo.TRef sig ⟨S64, .i32⟩) main_call2.v1 main_call2.v2 Host.divsi,
    StableHlo.TRef.unary (.of main_v25 : StableHlo.TRef sig ⟨S64, .i32⟩) main_call2.v3 signi,
    StableHlo.TRef.unary main_call2.v0 main_call2.v4 signi,
    StableHlo.TRef.unary main_call2.v4 main_call2.v5 (broadcastInDim S64 ![] bcast_S_S64),
    StableHlo.TRef.binary main_call2.v3 main_call2.v5 main_call2.v6 (cmpi .ne),
    StableHlo.TRef.unary main_call2.v0 main_call2.v7 (broadcastInDim S64 ![] bcast_S_S64),
    StableHlo.TRef.binary (.of main_v25 : StableHlo.TRef sig ⟨S64, .i32⟩) main_call2.v7 main_call2.v8 Host.remsi,
    StableHlo.TRef.nullary main_call2.c (constantI S_ 32 0#32),
    StableHlo.TRef.unary main_call2.c main_call2.v9 (broadcastInDim S64 ![] bcast_S_S64),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S64 ![] bcast_S_S64),
    StableHlo.TRef.binary main_call2.v2 main_call2.v12 main_call2.v13 subi,
    StableHlo.TRef.ternary main_call2.v11 main_call2.v13 main_call2.v2 main_call2.call0.v0 select,
    StableHlo.nullary main_c_9 (constantI S_ 32 0#32),
    StableHlo.unary main_c_9 main_v27 (broadcastInDim S64 ![] bcast_S_S64 : (⟨S_, .i32⟩ : BufTy).Contents (Elt F) → (⟨S64, .i32⟩ : BufTy).Contents (Elt F)),
    StableHlo.binary main_v26 main_v27 main_v28 (cmpi .slt : (⟨S64, .i32⟩ : BufTy).Contents (Elt F) → (⟨S64, .i32⟩ : BufTy).Contents (Elt F) → (⟨S64, .i1⟩ : BufTy).Contents (Elt F)),
    StableHlo.nullary main_c_10 (constantI S_ 32 32#32),
    StableHlo.unary main_c_10 main_v29 (broadcastInDim S64 ![] bcast_S_S64 : (⟨S_, .i32⟩ : BufTy).Contents (Elt F) → (⟨S64, .i32⟩ : BufTy).Contents (Elt F)),
    StableHlo.binary main_v26 main_v29 main_v30 (addi : (⟨S64, .i32⟩ : BufTy).Contents (Elt F) → (⟨S64, .i32⟩ : BufTy).Contents (Elt F) → (⟨S64, .i32⟩ : BufTy).Contents (Elt F)),
    StableHlo.ternary main_v28 main_v30 main_v26 main_v31 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v31 main_v32 (broadcastInDim S64x1 ![0] bcast_S64_S64x1_0 : (⟨S64, .i32⟩ : BufTy).Contents (Elt F) → (⟨S64x1, .i32⟩ : BufTy).Contents (Elt F)),
    StableHlo.binary main_v22 main_v32 main_v33 ((fun x i => Host.gather gather_S2x32x64x32_S64x1_S2x32x64x64_012_3_n_n_3_1_232641 x i) : (⟨S2x32x64x32, .i32⟩ : BufTy).Contents (Elt F) → (⟨S64x1, .i32⟩ : BufTy).Contents (Elt F) → (⟨S2x32x64x64, .i32⟩ : BufTy).Contents (Elt F)),
    StableHlo.reshape main_v33 main_v34 rfl shapeCasts_S2x32x64x64_S2x131072 ]

/-- One-hot, counts, the flattened features, class sums and means of the first feature array: %35 … %45. -/
abbrev opsCentersS : List (HloOp τ sig (Elt F)) :=
  [ StableHlo.TRef.unary (.of main_v34 : StableHlo.TRef sig ⟨S2x131072, .i32⟩) main_call3.v0 (broadcastInDim S2x131072x1 ![0, 1] bcast_S2x131072_S2x131072x1_0_1),
    StableHlo.TRef.nullary main_call3.v1 (iotaInDim S1x1x5 32 2),
    StableHlo.TRef.unary main_call3.v0 main_call3.v2 (broadcastInDim S2x131072x5 ![0, 1, 2] bcast_S2x131072x1_S2x131072x5_0_1_2),
    StableHlo.TRef.unary main_call3.v1 main_call3.v3 (broadcastInDim S2x131072x5 ![0, 1, 2] bcast_S1x1x5_S2x131072x5_0_1_2),
    StableHlo.TRef.binary main_call3.v2 main_call3.v3 main_call3.v4 (cmpi .eq),
    StableHlo.TRef.unary main_call3.v4 main_call3.v5 (uitofp .f32),
    StableHlo.nullary main_cst (constant S_ .f32 0x00000000#32),
    StableHlo.binary main_v35 main_cst main_v36 ((fun x v => Host.reduceAdd x v reducesTo_S2x131072x5_S2x5_d1 h_S_) : (⟨S2x131072x5, .f32⟩ : BufTy).Contents (Elt F) → (⟨S_, .f32⟩ : BufTy).Contents (Elt F) → (⟨S2x5, .f32⟩ : BufTy).Contents (Elt F)),
    StableHlo.reshape main_arg0 main_v37 rfl shapeCasts_S2x64x32x64x64_S2x64x131072,
    StableHlo.reshape main_arg1 main_v38 rfl shapeCasts_S2x64x32x64x64_S2x64x131072,
    StableHlo.binary main_v37 main_v35 main_v39 ((fun l r => Host.dotGeneral dot_S2x64x131072_S2x131072x5_S2x64x5_2_1_1_2_0_0 none l r) : (⟨S2x64x131072, .f32⟩ : BufTy).Contents (Elt F) → (⟨S2x131072x5, .f32⟩ : BufTy).Contents (Elt F) → (⟨S2x64x5, .f32⟩ : BufTy).Contents (Elt F)),
    StableHlo.unary main_v36 main_v40 (broadcastInDim S2x1x5 ![0, 2] bcast_S2x5_S2x1x5_0_2 : (⟨S2x5, .f32⟩ : BufTy).Contents (Elt F) → (⟨S2x1x5, .f32⟩ : BufTy).Contents (Elt F)),
    StableHlo.nullary main_cst_11 (constant S_ .f32 0x358637BD#32),
    StableHlo.unary main_cst_11 main_v41 (broadcastInDim S2x1x5 ![] bcast_S_S2x1x5 : (⟨S_, .f32⟩ : BufTy).Contents (Elt F) → (⟨S2x1x5, .f32⟩ : BufTy).Contents (Elt F)),
    StableHlo.binary main_v40 main_v41 main_v42 (addf : (⟨S2x1x5, .f32⟩ : BufTy).Contents (Elt F) → (⟨S2x1x5, .f32⟩ : BufTy).Contents (Elt F) → (⟨S2x1x5, .f32⟩ : BufTy).Contents (Elt F)),
    StableHlo.unary main_v42 main_v43 (broadcastInDim S2x64x5 ![0, 1, 2] bcast_S2x1x5_S2x64x5_0_1_2 : (⟨S2x1x5, .f32⟩ : BufTy).Contents (Elt F) → (⟨S2x64x5, .f32⟩ : BufTy).Contents (Elt F)),
    StableHlo.binary main_v39 main_v43 main_v44 (Host.divf : (⟨S2x64x5, .f32⟩ : BufTy).Contents (Elt F) → (⟨S2x64x5, .f32⟩ : BufTy).Contents (Elt F) → (⟨S2x64x5, .f32⟩ : BufTy).Contents (Elt F)),
    StableHlo.unary main_v34 main_v45 (broadcastInDim S2x1x131072 ![0, 2] bcast_S2x131072_S2x1x131072_0_2 : (⟨S2x131072, .i32⟩ : BufTy).Contents (Elt F) → (⟨S2x1x131072, .i32⟩ : BufTy).Contents (Elt F)) ]

/-- The first take-along-axis, %46, inline. -/
abbrev opsTakeS : List (HloOp τ sig (Elt F)) :=
  [ StableHlo.TRef.nullary main_call4.c (constantI S_ 32 0#32),
    StableHlo.TRef.unary main_call4.c main_call4.v0 (broadcastInDim S2x1x131072 ![] bcast_S_S2x1x131072),
    StableHlo.TRef.binary (.of main_v45 : StableHlo.TRef sig ⟨S2x1x131072, .i32⟩) main_call4.v0 main_call4.v1 (cmpi .slt),
    StableHlo.TRef.nullary main_call4.c_0 (constantI S_ 32 5#32),
    StableHlo.TRef.unary main_call4.c_0 main_call4.v2 (broadcastInDim S2x1x131072 ![] bcast_S_S2x1x131072),
    StableHlo.TRef.binary (.of main_v45 : StableHlo.TRef sig ⟨S2x1x131072, .i32⟩) main_call4.v2 main_call4.v3 addi,
    StableHlo.TRef.ternary main_call4.v1 main_call4.v3 (.of main_v45 : StableHlo.TRef sig ⟨S2x1x131072, .i32⟩) main_call4.v4 select,
    StableHlo.TRef.reshape main_call4.v4 main_call4.v5 rfl shapeCasts_S2x1x131072_S2x131072x1,
    StableHlo.TRef.nullary main_call4.c_1 (constantI S1 32 4#32),
    StableHlo.TRef.nullary main_call4.c_2 (constantI S_ 32 0#32),
    StableHlo.TRef.unary main_call4.c_2 main_call4.v6 (broadcastInDim S2x131072x1 ![] bcast_S_S2x131072x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S2x131072x1 ![0, 1, 2] bcast_S1x1x1_S2x131072x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2x131072x1_S2x131072_d2 h_S_),
    StableHlo.TRef.binary (.of main_v44 : StableHlo.TRef sig ⟨S2x64x5, .f32⟩) main_call4.v5 main_call4.v13 (fun x i => Host.gather gather_S2x64x5_S2x131072x1_S2x64x131072_1_2_0_0_2_2_1641 x i),
    StableHlo.TRef.unary main_call4.v12 main_call4.v14 (broadcastInDim S2x64x131072 ![0, 2] bcast_S2x131072_S2x64x131072_0_2),
    StableHlo.TRef.nullary main_call4.cst (constant S_ .f32 0x7FC00000#32),
    StableHlo.TRef.unary main_call4.cst main_call4.v15 (broadcastInDim S2x64x131072 ![] bcast_S_S2x64x131072),
    StableHlo.TRef.ternary main_call4.v14 main_call4.v13 main_call4.v15 main_call4.v16 select ]

/-- Class sums and means of the second feature array: %47 … %53. -/
abbrev opsCentersT : List (HloOp τ sig (Elt F)) :=
  [ StableHlo.binary main_v38 main_v35 main_v47 ((fun l r => Host.dotGeneral dot_S2x64x131072_S2x131072x5_S2x64x5_2_1_1_2_0_0 none l r) : (⟨S2x64x131072, .f32⟩ : BufTy).Contents (Elt F) → (⟨S2x131072x5, .f32⟩ : BufTy).Contents (Elt F) → (⟨S2x64x5, .f32⟩ : BufTy).Contents (Elt F)),
    StableHlo.unary main_v36 main_v48 (broadcastInDim S2x1x5 ![0, 2] bcast_S2x5_S2x1x5_0_2 : (⟨S2x5, .f32⟩ : BufTy).Contents (Elt F) → (⟨S2x1x5, .f32⟩ : BufTy).Contents (Elt F)),
    StableHlo.nullary main_cst_12 (constant S_ .f32 0x358637BD#32),
    StableHlo.unary main_cst_12 main_v49 (broadcastInDim S2x1x5 ![] bcast_S_S2x1x5 : (⟨S_, .f32⟩ : BufTy).Contents (Elt F) → (⟨S2x1x5, .f32⟩ : BufTy).Contents (Elt F)),
    StableHlo.binary main_v48 main_v49 main_v50 (addf : (⟨S2x1x5, .f32⟩ : BufTy).Contents (Elt F) → (⟨S2x1x5, .f32⟩ : BufTy).Contents (Elt F) → (⟨S2x1x5, .f32⟩ : BufTy).Contents (Elt F)),
    StableHlo.unary main_v50 main_v51 (broadcastInDim S2x64x5 ![0, 1, 2] bcast_S2x1x5_S2x64x5_0_1_2 : (⟨S2x1x5, .f32⟩ : BufTy).Contents (Elt F) → (⟨S2x64x5, .f32⟩ : BufTy).Contents (Elt F)),
    StableHlo.binary main_v47 main_v51 main_v52 (Host.divf : (⟨S2x64x5, .f32⟩ : BufTy).Contents (Elt F) → (⟨S2x64x5, .f32⟩ : BufTy).Contents (Elt F) → (⟨S2x64x5, .f32⟩ : BufTy).Contents (Elt F)),
    StableHlo.unary main_v34 main_v53 (broadcastInDim S2x1x131072 ![0, 2] bcast_S2x131072_S2x1x131072_0_2 : (⟨S2x131072, .i32⟩ : BufTy).Contents (Elt F) → (⟨S2x1x131072, .i32⟩ : BufTy).Contents (Elt F)) ]

/-- The second take-along-axis, %54, inline. -/
abbrev opsTakeT : List (HloOp τ sig (Elt F)) :=
  [ StableHlo.TRef.nullary main_call5.c (constantI S_ 32 0#32),
    StableHlo.TRef.unary main_call5.c main_call5.v0 (broadcastInDim S2x1x131072 ![] bcast_S_S2x1x131072),
    StableHlo.TRef.binary (.of main_v53 : StableHlo.TRef sig ⟨S2x1x131072, .i32⟩) main_call5.v0 main_call5.v1 (cmpi .slt),
    StableHlo.TRef.nullary main_call5.c_0 (constantI S_ 32 5#32),
    StableHlo.TRef.unary main_call5.c_0 main_call5.v2 (broadcastInDim S2x1x131072 ![] bcast_S_S2x1x131072),
    StableHlo.TRef.binary (.of main_v53 : StableHlo.TRef sig ⟨S2x1x131072, .i32⟩) main_call5.v2 main_call5.v3 addi,
    StableHlo.TRef.ternary main_call5.v1 main_call5.v3 (.of main_v53 : StableHlo.TRef sig ⟨S2x1x131072, .i32⟩) main_call5.v4 select,
    StableHlo.TRef.reshape main_call5.v4 main_call5.v5 rfl shapeCasts_S2x1x131072_S2x131072x1,
    StableHlo.TRef.nullary main_call5.c_1 (constantI S1 32 4#32),
    StableHlo.TRef.nullary main_call5.c_2 (constantI S_ 32 0#32),
    StableHlo.TRef.unary main_call5.c_2 main_call5.v6 (broadcastInDim S2x131072x1 ![] bcast_S_S2x131072x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S2x131072x1 ![0, 1, 2] bcast_S1x1x1_S2x131072x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S2x131072x1_S2x131072_d2 h_S_),
    StableHlo.TRef.binary (.of main_v52 : StableHlo.TRef sig ⟨S2x64x5, .f32⟩) main_call5.v5 main_call5.v13 (fun x i => Host.gather gather_S2x64x5_S2x131072x1_S2x64x131072_1_2_0_0_2_2_1641 x i),
    StableHlo.TRef.unary main_call5.v12 main_call5.v14 (broadcastInDim S2x64x131072 ![0, 2] bcast_S2x131072_S2x64x131072_0_2),
    StableHlo.TRef.nullary main_call5.cst (constant S_ .f32 0x7FC00000#32),
    StableHlo.TRef.unary main_call5.cst main_call5.v15 (broadcastInDim S2x64x131072 ![] bcast_S_S2x64x131072),
    StableHlo.TRef.ternary main_call5.v14 main_call5.v13 main_call5.v15 main_call5.v16 select ]

/-- The cosine similarities and the loss: %55 … %83. -/
abbrev opsLoss : List (HloOp τ sig (Elt F)) :=
  [ StableHlo.binary main_v37 main_v46 main_v55 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_13 (constant S_ .f32 0x00000000#32),
    StableHlo.binary main_v55 main_cst_13 main_v56 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.binary main_v37 main_v37 main_v57 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_14 (constant S_ .f32 0x00000000#32),
    StableHlo.binary main_v57 main_cst_14 main_v58 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.unary main_v58 main_v59 (Host.sqrt : (⟨S2x131072, .f32⟩ : BufTy).Contents (Elt F) → (⟨S2x131072, .f32⟩ : BufTy).Contents (Elt F)),
    StableHlo.binary main_v46 main_v46 main_v60 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_15 (constant S_ .f32 0x00000000#32),
    StableHlo.binary main_v60 main_cst_15 main_v61 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.unary main_v61 main_v62 (Host.sqrt : (⟨S2x131072, .f32⟩ : BufTy).Contents (Elt F) → (⟨S2x131072, .f32⟩ : BufTy).Contents (Elt F)),
    StableHlo.binary main_v59 main_v62 main_v63 (mulf : (⟨S2x131072, .f32⟩ : BufTy).Contents (Elt F) → (⟨S2x131072, .f32⟩ : BufTy).Contents (Elt F) → (⟨S2x131072, .f32⟩ : BufTy).Contents (Elt F)),
    StableHlo.nullary main_cst_16 (constant S_ .f32 0x322BCC77#32),
    StableHlo.unary main_cst_16 main_v64 (broadcastInDim S2x131072 ![] bcast_S_S2x131072 : (⟨S_, .f32⟩ : BufTy).Contents (Elt F) → (⟨S2x131072, .f32⟩ : BufTy).Contents (Elt F)),
    StableHlo.binary main_v63 main_v64 main_v65 (maximumf : (⟨S2x131072, .f32⟩ : BufTy).Contents (Elt F) → (⟨S2x131072, .f32⟩ : BufTy).Contents (Elt F) → (⟨S2x131072, .f32⟩ : BufTy).Contents (Elt F)),
    StableHlo.binary main_v56 main_v65 main_v66 (Host.divf : (⟨S2x131072, .f32⟩ : BufTy).Contents (Elt F) → (⟨S2x131072, .f32⟩ : BufTy).Contents (Elt F) → (⟨S2x131072, .f32⟩ : BufTy).Contents (Elt F)),
    StableHlo.binary main_v38 main_v54 main_v67 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_17 (constant S_ .f32 0x00000000#32),
    StableHlo.binary main_v67 main_cst_17 main_v68 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.binary main_v38 main_v38 main_v69 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_18 (constant S_ .f32 0x00000000#32),
    StableHlo.binary main_v69 main_cst_18 main_v70 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.unary main_v70 main_v71 (Host.sqrt : (⟨S2x131072, .f32⟩ : BufTy).Contents (Elt F) → (⟨S2x131072, .f32⟩ : BufTy).Contents (Elt F)),
    StableHlo.binary main_v54 main_v54 main_v72 (mulf : (⟨S2x64x131072, .f32⟩ : BufTy).Contents (Elt F) → (⟨S2x64x131072, .f32⟩ : BufTy).Contents (Elt F) → (⟨S2x64x131072, .f32⟩ : BufTy).Contents (Elt F)),
    StableHlo.nullary main_cst_19 (constant S_ .f32 0x00000000#32),
    StableHlo.binary main_v72 main_cst_19 main_v73 ((fun x v => Host.reduceAdd x v reducesTo_S2x64x131072_S2x131072_d1 h_S_) : (⟨S2x64x131072, .f32⟩ : BufTy).Contents (Elt F) → (⟨S_, .f32⟩ : BufTy).Contents (Elt F) → (⟨S2x131072, .f32⟩ : BufTy).Contents (Elt F)),
    StableHlo.unary main_v73 main_v74 (Host.sqrt : (⟨S2x131072, .f32⟩ : BufTy).Contents (Elt F) → (⟨S2x131072, .f32⟩ : BufTy).Contents (Elt F)),
    StableHlo.binary main_v71 main_v74 main_v75 (mulf : (⟨S2x131072, .f32⟩ : BufTy).Contents (Elt F) → (⟨S2x131072, .f32⟩ : BufTy).Contents (Elt F) → (⟨S2x131072, .f32⟩ : BufTy).Contents (Elt F)),
    StableHlo.nullary main_cst_20 (constant S_ .f32 0x322BCC77#32),
    StableHlo.unary main_cst_20 main_v76 (broadcastInDim S2x131072 ![] bcast_S_S2x131072 : (⟨S_, .f32⟩ : BufTy).Contents (Elt F) → (⟨S2x131072, .f32⟩ : BufTy).Contents (Elt F)),
    StableHlo.binary main_v75 main_v76 main_v77 (maximumf : (⟨S2x131072, .f32⟩ : BufTy).Contents (Elt F) → (⟨S2x131072, .f32⟩ : BufTy).Contents (Elt F) → (⟨S2x131072, .f32⟩ : BufTy).Contents (Elt F)),
    StableHlo.binary main_v68 main_v77 main_v78 (Host.divf : (⟨S2x131072, .f32⟩ : BufTy).Contents (Elt F) → (⟨S2x131072, .f32⟩ : BufTy).Contents (Elt F) → (⟨S2x131072, .f32⟩ : BufTy).Contents (Elt F)),
    StableHlo.binary main_v66 main_v78 main_v79 (subf : (⟨S2x131072, .f32⟩ : BufTy).Contents (Elt F) → (⟨S2x131072, .f32⟩ : BufTy).Contents (Elt F) → (⟨S2x131072, .f32⟩ : BufTy).Contents (Elt F)),
    StableHlo.binary main_v79 main_v79 main_v80 (mulf : (⟨S2x131072, .f32⟩ : BufTy).Contents (Elt F) → (⟨S2x131072, .f32⟩ : BufTy).Contents (Elt F) → (⟨S2x131072, .f32⟩ : BufTy).Contents (Elt F)),
    StableHlo.nullary main_cst_21 (constant S_ .f32 0x00000000#32),
    StableHlo.binary main_v80 main_cst_21 main_v81 ((fun x v => Host.reduceAdd x v reducesTo_S2x131072_S_d0_1 h_S_) : (⟨S2x131072, .f32⟩ : BufTy).Contents (Elt F) → (⟨S_, .f32⟩ : BufTy).Contents (Elt F) → (⟨S_, .f32⟩ : BufTy).Contents (Elt F)),
    StableHlo.nullary main_cst_22 (constant S_ .f32 0x48800000#32),
    StableHlo.binary main_v81 main_cst_22 main_v82 (Host.divf : (⟨S_, .f32⟩ : BufTy).Contents (Elt F) → (⟨S_, .f32⟩ : BufTy).Contents (Elt F) → (⟨S_, .f32⟩ : BufTy).Contents (Elt F)),
    StableHlo.nullary main_cst_23 (constant S_ .f32 0x3F800000#32),
    StableHlo.binary main_cst_23 main_v82 main_v83 (mulf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) :=
  opsLabels ++ opsCentersS ++ opsTakeS ++ opsCentersT ++ opsTakeT ++ opsLoss

/-! ## @main is that line -/

-- one recursion of the rewriter per statement of a window
set_option maxRecDepth 4096 in
set_option maxHeartbeats 4000000 in
/-- The first window: the callees' definitions opened at their calls and the sequencing reassociated, both sides
    are one chain of steps. -/
theorem part0_eq (c : Dev nD) :
    main_part0 (F := F) c = (seq opsLabels >>= fun _ => seq opsCentersS) := by
  simp only [main_part0, fn_floor_divide.body, fn_where.body, fn_floor_divide_0.body, fn_where_1.body, fn_one_hot.body,
    seq, bind_assoc, pure_bind]
  rfl

set_option maxRecDepth 4096 in
set_option maxHeartbeats 4000000 in
/-- The second window likewise. -/
theorem part1_eq (c : Dev nD) :
    main_part1 (F := F) c
      = (seq opsTakeS >>= fun _ => seq opsCentersT >>= fun _ => seq opsTakeT >>= fun _ => seq opsLoss) := by
  simp only [main_part1, fn_take_along_axis.body, seq, bind_assoc, pure_bind]

theorem main_eq (c : Dev nD) : main (F := F) c = seq ops := by
  simp only [ops, seq_append, bind_assoc]
  show (main_part0 (F := F) c >>= fun _ => main_part1 (F := F) c) = _
  rw [part0_eq, part1_eq]
  simp only [bind_assoc]

/-! ## The operations touch TensorCore buffers only, and each determines its result -/

theorem opsLabels_sub : (opsLabels : List (HloOp τ sig (Elt F))).Forall fun op => op.bufs ⊆ tcRefs τ sig :=
  ⟨reshape_bufs_sub .., nullary_bufs_sub .., nullary_bufs_sub .., unary_bufs_sub .., binary_bufs_sub ..,
   nullary_bufs_sub .., unary_bufs_sub .., unary_bufs_sub .., binary_bufs_sub .., unary_bufs_sub ..,
   unary_bufs_sub .., unary_bufs_sub .., binary_bufs_sub .., unary_bufs_sub .., binary_bufs_sub ..,
   nullary_bufs_sub .., unary_bufs_sub .., binary_bufs_sub .., binary_bufs_sub .., nullary_bufs_sub ..,
   unary_bufs_sub .., binary_bufs_sub .., ternary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., nullary_bufs_sub .., unary_bufs_sub ..,
   binary_bufs_sub .., nullary_bufs_sub .., unary_bufs_sub .., unary_bufs_sub .., binary_bufs_sub ..,
   unary_bufs_sub .., unary_bufs_sub .., unary_bufs_sub .., binary_bufs_sub .., unary_bufs_sub .., binary_bufs_sub ..,
   nullary_bufs_sub .., unary_bufs_sub .., binary_bufs_sub .., binary_bufs_sub .., nullary_bufs_sub ..,
   unary_bufs_sub .., binary_bufs_sub .., ternary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., nullary_bufs_sub .., unary_bufs_sub ..,
   binary_bufs_sub .., nullary_bufs_sub .., unary_bufs_sub .., unary_bufs_sub .., binary_bufs_sub ..,
   unary_bufs_sub .., unary_bufs_sub .., unary_bufs_sub .., binary_bufs_sub .., unary_bufs_sub .., binary_bufs_sub ..,
   nullary_bufs_sub .., unary_bufs_sub .., binary_bufs_sub .., binary_bufs_sub .., nullary_bufs_sub ..,
   unary_bufs_sub .., binary_bufs_sub .., ternary_bufs_sub .., nullary_bufs_sub .., unary_bufs_sub ..,
   binary_bufs_sub .., nullary_bufs_sub .., unary_bufs_sub .., binary_bufs_sub .., ternary_bufs_sub ..,
   unary_bufs_sub .., binary_bufs_sub .., reshape_bufs_sub ..⟩
theorem opsCentersS_sub : (opsCentersS : List (HloOp τ sig (Elt F))).Forall fun op => op.bufs ⊆ tcRefs τ sig :=
  ⟨unary_bufs_sub .., nullary_bufs_sub .., unary_bufs_sub .., unary_bufs_sub .., binary_bufs_sub ..,
   unary_bufs_sub .., nullary_bufs_sub .., binary_bufs_sub .., reshape_bufs_sub .., reshape_bufs_sub ..,
   binary_bufs_sub .., unary_bufs_sub .., nullary_bufs_sub .., unary_bufs_sub .., binary_bufs_sub ..,
   unary_bufs_sub .., binary_bufs_sub .., unary_bufs_sub ..⟩
theorem opsTakeS_sub : (opsTakeS : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., reshape_bufs_sub .., nullary_bufs_sub .., nullary_bufs_sub ..,
   unary_bufs_sub .., binary_bufs_sub .., unary_bufs_sub .., unary_bufs_sub .., binary_bufs_sub ..,
   binary_bufs_sub .., nullary_bufs_sub .., binary_bufs_sub .., binary_bufs_sub .., unary_bufs_sub ..,
   nullary_bufs_sub .., unary_bufs_sub .., ternary_bufs_sub ..⟩
theorem opsCentersT_sub : (opsCentersT : List (HloOp τ sig (Elt F))).Forall fun op => op.bufs ⊆ tcRefs τ sig :=
  ⟨binary_bufs_sub .., unary_bufs_sub .., nullary_bufs_sub .., unary_bufs_sub .., binary_bufs_sub ..,
   unary_bufs_sub .., binary_bufs_sub .., unary_bufs_sub ..⟩
theorem opsTakeT_sub : (opsTakeT : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., reshape_bufs_sub .., nullary_bufs_sub .., nullary_bufs_sub ..,
   unary_bufs_sub .., binary_bufs_sub .., unary_bufs_sub .., unary_bufs_sub .., binary_bufs_sub ..,
   binary_bufs_sub .., nullary_bufs_sub .., binary_bufs_sub .., binary_bufs_sub .., unary_bufs_sub ..,
   nullary_bufs_sub .., unary_bufs_sub .., ternary_bufs_sub ..⟩
theorem opsLoss_sub : (opsLoss : List (HloOp τ sig (Elt F))).Forall fun op => op.bufs ⊆ tcRefs τ sig :=
  ⟨binary_bufs_sub .., nullary_bufs_sub .., binary_bufs_sub .., binary_bufs_sub .., nullary_bufs_sub ..,
   binary_bufs_sub .., unary_bufs_sub .., binary_bufs_sub .., nullary_bufs_sub .., binary_bufs_sub ..,
   unary_bufs_sub .., binary_bufs_sub .., nullary_bufs_sub .., unary_bufs_sub .., binary_bufs_sub ..,
   binary_bufs_sub .., binary_bufs_sub .., nullary_bufs_sub .., binary_bufs_sub .., binary_bufs_sub ..,
   nullary_bufs_sub .., binary_bufs_sub .., unary_bufs_sub .., binary_bufs_sub .., nullary_bufs_sub ..,
   binary_bufs_sub .., unary_bufs_sub .., binary_bufs_sub .., nullary_bufs_sub .., unary_bufs_sub ..,
   binary_bufs_sub .., binary_bufs_sub .., binary_bufs_sub .., binary_bufs_sub .., nullary_bufs_sub ..,
   binary_bufs_sub .., nullary_bufs_sub .., binary_bufs_sub .., nullary_bufs_sub .., binary_bufs_sub ..⟩

theorem ops_sub : (ops : List (HloOp τ sig (Elt F))).Forall fun op => op.bufs ⊆ tcRefs τ sig := by
  simp only [ops, List.forall_append]
  exact ⟨⟨⟨⟨⟨opsLabels_sub, opsCentersS_sub⟩, opsTakeS_sub⟩, opsCentersT_sub⟩, opsTakeT_sub⟩, opsLoss_sub⟩

/-- No operation of a literal table leaves a buffer undetermined: the membership is walked entry by entry. -/
local macro "fresh_walk" : tactic =>
  `(tactic| (intro _ h; (repeat (cases h with | head => rfl | tail _ h => ?_)); exact nomatch h))

set_option maxRecDepth 4096 in
theorem opsLabels_fresh : ∀ op ∈ (opsLabels : List (HloOp τ sig (Elt F))), op.fresh = ∅ := by fresh_walk
theorem opsCentersS_fresh : ∀ op ∈ (opsCentersS : List (HloOp τ sig (Elt F))), op.fresh = ∅ := by fresh_walk
theorem opsTakeS_fresh : ∀ op ∈ (opsTakeS : List (HloOp τ sig (Elt F))), op.fresh = ∅ := by fresh_walk
theorem opsCentersT_fresh : ∀ op ∈ (opsCentersT : List (HloOp τ sig (Elt F))), op.fresh = ∅ := by fresh_walk
theorem opsTakeT_fresh : ∀ op ∈ (opsTakeT : List (HloOp τ sig (Elt F))), op.fresh = ∅ := by fresh_walk
set_option maxRecDepth 4096 in
theorem opsLoss_fresh : ∀ op ∈ (opsLoss : List (HloOp τ sig (Elt F))), op.fresh = ∅ := by fresh_walk

theorem ops_fresh : ∀ op ∈ (ops : List (HloOp τ sig (Elt F))), op.fresh = ∅ := by
  intro op h
  simp only [ops, List.mem_append] at h
  rcases h with ((((h | h) | h) | h) | h) | h
  exacts [opsLabels_fresh op h, opsCentersS_fresh op h, opsTakeS_fresh op h, opsCentersT_fresh op h,
    opsTakeT_fresh op h, opsLoss_fresh op h]

/-! ## The run -/

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main on the
    TensorCore terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, table by table -/

/-- The fold over all of @main is the six tables' folds composed. -/
theorem after_ops (V : Valuation τ sig (Elt F)) :
    after ops V = after opsLoss (after opsTakeT (after opsCentersT (after opsTakeS (after opsCentersS (after opsLabels V))))) := by
  simp only [ops, after_append]

/-- The buffers each table writes, in order. -/
abbrev opsLabels_W : List (Ref sig .tc) :=
  [main_v0, main_v1, main_c, main_v2, main_v3, main_c_0, main_call0_v0, main_call0_v1, main_call0_v2, main_call0_v3,
   main_call0_v4, main_call0_v5, main_call0_v6, main_call0_v7, main_call0_v8, main_call0_c, main_call0_v9,
   main_call0_v10, main_call0_v11, main_call0_c_0, main_call0_v12, main_call0_v13, main_v4, main_c_1, main_v5,
   main_v6, main_c_2, main_v7, main_v8, main_v9, main_v10, main_v11, main_v12, main_c_3, main_v13, main_v14, main_c_4,
   main_call1_v0, main_call1_v1, main_call1_v2, main_call1_v3, main_call1_v4, main_call1_v5, main_call1_v6,
   main_call1_v7, main_call1_v8, main_call1_c, main_call1_v9, main_call1_v10, main_call1_v11, main_call1_c_0,
   main_call1_v12, main_call1_v13, main_v15, main_c_5, main_v16, main_v17, main_c_6, main_v18, main_v19, main_v20,
   main_v21, main_v22, main_v23, main_c_7, main_v24, main_v25, main_c_8, main_call2_v0, main_call2_v1, main_call2_v2,
   main_call2_v3, main_call2_v4, main_call2_v5, main_call2_v6, main_call2_v7, main_call2_v8, main_call2_c,
   main_call2_v9, main_call2_v10, main_call2_v11, main_call2_c_0, main_call2_v12, main_call2_v13, main_v26, main_c_9,
   main_v27, main_v28, main_c_10, main_v29, main_v30, main_v31, main_v32, main_v33, main_v34]
abbrev opsCentersS_W : List (Ref sig .tc) :=
  [main_call3_v0, main_call3_v1, main_call3_v2, main_call3_v3, main_call3_v4, main_v35, main_cst, main_v36, main_v37,
   main_v38, main_v39, main_v40, main_cst_11, main_v41, main_v42, main_v43, main_v44, main_v45]
abbrev opsTakeS_W : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v46]
abbrev opsCentersT_W : List (Ref sig .tc) :=
  [main_v47, main_v48, main_cst_12, main_v49, main_v50, main_v51, main_v52, main_v53]
abbrev opsTakeT_W : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v54]
abbrev opsLoss_W : List (Ref sig .tc) :=
  [main_v55, main_cst_13, main_v56, main_v57, main_cst_14, main_v58, main_v59, main_v60, main_cst_15, main_v61,
   main_v62, main_v63, main_cst_16, main_v64, main_v65, main_v66, main_v67, main_cst_17, main_v68, main_v69,
   main_cst_18, main_v70, main_v71, main_v72, main_cst_19, main_v73, main_v74, main_v75, main_cst_20, main_v76,
   main_v77, main_v78, main_v79, main_v80, main_cst_21, main_v81, main_cst_22, main_v82, main_cst_23, main_v83]

/-- An operation of a literal table writes one buffer, a member of the table's list. -/
local macro "writes_walk" : tactic =>
  `(tactic| (simp only [List.Forall, nullary_writes, unary_writes, binary_writes, ternary_writes, reshape_writes, Finset.singleton_subset_iff, List.mem_toFinset]; (repeat' constructor) <;> exact List.mem_map_of_mem (by decide)))

theorem opsLabels_writes : (opsLabels : List (HloOp τ sig (Elt F))).Forall fun op =>
    op.writes ⊆ (opsLabels_W.map (Proc.devRef (τ := τ) .tc)).toFinset := by writes_walk
theorem opsCentersS_writes : (opsCentersS : List (HloOp τ sig (Elt F))).Forall fun op =>
    op.writes ⊆ (opsCentersS_W.map (Proc.devRef (τ := τ) .tc)).toFinset := by writes_walk
theorem opsTakeS_writes : (opsTakeS : List (HloOp τ sig (Elt F))).Forall fun op =>
    op.writes ⊆ (opsTakeS_W.map (Proc.devRef (τ := τ) .tc)).toFinset := by writes_walk
theorem opsCentersT_writes : (opsCentersT : List (HloOp τ sig (Elt F))).Forall fun op =>
    op.writes ⊆ (opsCentersT_W.map (Proc.devRef (τ := τ) .tc)).toFinset := by writes_walk
theorem opsTakeT_writes : (opsTakeT : List (HloOp τ sig (Elt F))).Forall fun op =>
    op.writes ⊆ (opsTakeT_W.map (Proc.devRef (τ := τ) .tc)).toFinset := by writes_walk
theorem opsLoss_writes : (opsLoss : List (HloOp τ sig (Elt F))).Forall fun op =>
    op.writes ⊆ (opsLoss_W.map (Proc.devRef (τ := τ) .tc)).toFinset := by writes_walk

/-- A buffer a table does not write keeps its contents through it. -/
theorem opsLabels_keep (V : Valuation τ sig (Elt F)) (r : Ref sig .tc) (h : r ∉ opsLabels_W) :
    after opsLabels V (Proc.devRef .tc r) = V (Proc.devRef .tc r) := after_of_writes_sub opsLabels V opsLabels_writes h
theorem opsCentersS_keep (V : Valuation τ sig (Elt F)) (r : Ref sig .tc) (h : r ∉ opsCentersS_W) :
    after opsCentersS V (Proc.devRef .tc r) = V (Proc.devRef .tc r) := after_of_writes_sub opsCentersS V opsCentersS_writes h
theorem opsTakeS_keep (V : Valuation τ sig (Elt F)) (r : Ref sig .tc) (h : r ∉ opsTakeS_W) :
    after opsTakeS V (Proc.devRef .tc r) = V (Proc.devRef .tc r) := after_of_writes_sub opsTakeS V opsTakeS_writes h
theorem opsCentersT_keep (V : Valuation τ sig (Elt F)) (r : Ref sig .tc) (h : r ∉ opsCentersT_W) :
    after opsCentersT V (Proc.devRef .tc r) = V (Proc.devRef .tc r) := after_of_writes_sub opsCentersT V opsCentersT_writes h
theorem opsTakeT_keep (V : Valuation τ sig (Elt F)) (r : Ref sig .tc) (h : r ∉ opsTakeT_W) :
    after opsTakeT V (Proc.devRef .tc r) = V (Proc.devRef .tc r) := after_of_writes_sub opsTakeT V opsTakeT_writes h
theorem opsLoss_keep (V : Valuation τ sig (Elt F)) (r : Ref sig .tc) (h : r ∉ opsLoss_W) :
    after opsLoss V (Proc.devRef .tc r) = V (Proc.devRef .tc r) := after_of_writes_sub opsLoss V opsLoss_writes h

/-- A buffer no table writes is unchanged by @main. -/
theorem ops_keep (V : Valuation τ sig (Elt F)) (r : Ref sig .tc) (h0 : r ∉ opsLabels_W) (h1 : r ∉ opsCentersS_W)
    (h2 : r ∉ opsTakeS_W) (h3 : r ∉ opsCentersT_W) (h4 : r ∉ opsTakeT_W) (h5 : r ∉ opsLoss_W) :
    after ops V (Proc.devRef .tc r) = V (Proc.devRef .tc r) := by
  rw [after_ops, opsLoss_keep _ r h5, opsTakeT_keep _ r h4, opsCentersT_keep _ r h3, opsTakeS_keep _ r h2,
    opsCentersS_keep _ r h1, opsLabels_keep _ r h0]

/-! ## The arguments are unchanged -/

theorem arg0_eq (V : Valuation τ sig (Elt F)) : after ops V (main_arg0 : DevRef τ sig) = V (main_arg0 : DevRef τ sig) :=
  ops_keep V main_arg0 (by decide) (by decide) (by decide) (by decide) (by decide) (by decide)
theorem arg1_eq (V : Valuation τ sig (Elt F)) : after ops V (main_arg1 : DevRef τ sig) = V (main_arg1 : DevRef τ sig) :=
  ops_keep V main_arg1 (by decide) (by decide) (by decide) (by decide) (by decide) (by decide)
theorem arg2_eq (V : Valuation τ sig (Elt F)) : after ops V (main_arg2 : DevRef τ sig) = V (main_arg2 : DevRef τ sig) :=
  ops_keep V main_arg2 (by decide) (by decide) (by decide) (by decide) (by decide) (by decide)

end Cert.ReferenceIdeal.Hand

end
-- ==== Proof.Ref.Labels.lean ====
/-
  The reference program's upsampled labels are the kernel program's.

  Both programs bring the label input [2,1,16,32,32] to the voxel grid by the same host operations: the unit
  axis dropped; along each of the three spatial axes a gather at the source coordinates ⌊i·(in/out)⌋, the
  floor division written out as jax prints it (truncating quotient, less one where the signs differ and the
  remainder is not zero) and a negative coordinate counted from the axis's end; the three axes flattened to
  [2,131072]. Here: in the reference's run the label buffer (value %34) holds that chain applied to the
  label argument's launch contents, the chain being the very function the kernel side names for its own
  label buffer. The later tables of the reference's run do not write the label buffer, so what the first
  table leaves there is what the whole run leaves.
-/
import proofs.«426160_j54812372632011_3_alg».proof.Proof.Ref.Ops
import proofs.«426160_j54812372632011_3_alg».proof.Proof.KI.PreRead

noncomputable section

namespace Cert.ReferenceIdeal.Hand

open Cert.ReferenceIdeal Cert.ReferenceIdeal.Gen Idealize.ShloMosaic Idealize.ShloMosaic.TcCoe Idealize.SL.Sem
  Idealize.ShloMosaic.StableHlo

/-- Through the five later tables the label buffer is as the label table left it. -/
theorem v34_after_labels (V : Valuation τ sig (Elt Ideal)) :
    after (ops (F := Ideal)) V (main_v34 : DevRef τ sig) = after (opsLabels (F := Ideal)) V (main_v34 : DevRef τ sig) := by
  rw [after_ops, opsLoss_keep _ main_v34 (by decide), opsTakeT_keep _ main_v34 (by decide),
    opsCentersT_keep _ main_v34 (by decide), opsTakeS_keep _ main_v34 (by decide), opsCentersS_keep _ main_v34 (by decide)]

-- the gathers and the two integer divisions stay folded while the two sides are compared: the equation holds
-- operation by operation and never looks inside one
attribute [local irreducible] Host.gather Host.divsi Host.remsi in
set_option maxHeartbeats 4000000 in
set_option maxRecDepth 16384 in
/-- The label table's fold at the label buffer is the label chain of the label argument: each operation's result
    read off in turn, the composed term is the chain's definition opened (the two programs' shapes and side
    conditions are the same literals under two names). -/
theorem labels_v34 (V : Valuation τ sig (Elt Ideal)) :
    after (opsLabels (F := Ideal)) V (main_v34 : DevRef τ sig)
      = Cert.KernelIdeal.Hand.labK (V (main_arg2 : DevRef τ sig)) := by
  after_results_simp
  simp only [TRef.ofBuf, TRef.toBuf, cast_eq]
  rfl

/-- After the reference's whole run the label buffer holds the label chain of the label argument. -/
theorem v34_eq (V : Valuation τ sig (Elt Ideal)) :
    after (ops (F := Ideal)) V (main_v34 : DevRef τ sig) = Cert.KernelIdeal.Hand.labK (V (main_arg2 : DevRef τ sig)) :=
  (v34_after_labels V).trans (labels_v34 V)

end Cert.ReferenceIdeal.Hand

end
-- ==== Proof.Ref.ReadA.lean ====
/-
  The reference's computation after the label array, stage by stage, as pure functions of the arrays each stage
  reads, each read at an index at the ideal values:
    the per-class channel sums   sums[b, ch, k] = Σ_v x[b, ch, v] · onehot[b, v, k]      (a batched contraction over the voxels),
    the class counts             cnt[b, k]      = Σ_v onehot[b, v, k]                     (a sum from the zero literal),
    the class centers            mean[b, ch, k] = sums[b, ch, k] / (cnt[b, k] + ε₆),
    the per-voxel cosine         cos[b, v] = (Σ_ch x·c) / max(√(Σ_ch x²) · √(Σ_ch c²), ε₈)  for gathered centers c,
    the loss                     1 · ((0 + Σ_b Σ_v (cos_S − cos_T)²) / 262144).
  Then the stages are matched with the specification's functions (Spec.lean): if the feature arrays hold the
  functions fS, fT, the one-hot array holds the indicator of the class map L, and the gathered centers are the class
  means at each voxel's own class, the loss array's one entry is the specification's loss. The zero initial values
  of the inner sums disappear (0 + s = s); the outermost one is kept, as the specification keeps it.
-/
import proofs.«426160_j54812372632011_3_alg».proof.Proof.Gen.ReferenceIdeal
import proofs.«426160_j54812372632011_3_alg».proof.Proof.Spec
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx
open Cert.ReferenceIdeal.Facts₀
open scoped BigOperators

/-- The dimension numbers of the per-class channel sums: batch axis 0, the voxel axis contracted. -/
abbrev D := dot_S2x64x131072_S2x131072x5_S2x64x5_2_1_1_2_0_0

/-! ## Each stage of the reference, as a function of the arrays it reads, and read at an index -/

/-- The per-class channel sums of a feature array against a one-hot array. -/
def sumsOf (x : FVec Ideal S2x64x131072 .f32) (oh : FVec Ideal S2x131072x5 .f32) : FVec Ideal S2x64x5 .f32 :=
  Host.dotGeneral D none x oh

/-- The per-class channel sums at `(b, ch, k)`: the sum over the voxels of feature times one-hot entry. -/
theorem sumsOf_apply (x : FVec Ideal S2x64x131072 .f32) (oh : FVec Ideal S2x131072x5 .f32) (b : Fin 2) (ch : Fin 64) (k : Fin 5) :
    sumsOf x oh (ix3 b ch k) = ∑ v : Fin 131072, x (ix3 b ch v) * oh (ix3 b v k) := by
  show FloatOps.dotGeneral D none .single x oh (ix3 b ch k) = _
  rw [Ideal.dotGeneral_apply]
  rw [← Equiv.sum_comp (contrEquiv1 D 131072 rfl rfl).symm]
  refine Finset.sum_congr rfl fun v _ => ?_
  have hv := contrEquiv1_symm_val D 131072 rfl rfl v
  congr 1
  · refine congrArg x (funext fun a => Fin.ext ?_)
    match a with
    | ⟨0, _⟩ => rfl
    | ⟨1, _⟩ => rfl
    | ⟨2, _⟩ => exact hv
  · refine congrArg oh (funext fun a => Fin.ext ?_)
    match a with
    | ⟨0, _⟩ => rfl
    | ⟨1, _⟩ => exact hv
    | ⟨2, _⟩ => rfl

/-- The class counts: the one-hot array summed over the voxel axis, from the zero literal. -/
def cntOf (oh : FVec Ideal S2x131072x5 .f32) : FVec Ideal S2x5 .f32 :=
  Host.reduceAdd oh (constant (F := Ideal) S_ .f32 0x00000000#32) reducesTo_S2x131072x5_S2x5_d1 h_S_

theorem cntOf_apply (oh : FVec Ideal S2x131072x5 .f32) (b : Fin 2) (k : Fin 5) :
    cntOf oh (ix2 b k) = ∑ v : Fin 131072, oh (ix3 b v k) := by
  unfold cntOf
  rw [hostReduceAdd_apply, Ideal.hostReduceAdd_single reducesTo_S2x131072x5_S2x5_d1 (by decide)]
  rw [constant_apply, Ideal.ofBits_zero_f32, zero_add]
  refine Finset.sum_congr rfl fun v _ => ?_
  refine congrArg oh (funext fun a => Fin.ext ?_)
  match a with
  | ⟨0, _⟩ => rfl
  | ⟨1, _⟩ => rfl
  | ⟨2, _⟩ => rfl

/-- The class centers: the per-class sums over the counts regularised by the small constant. -/
def meanOf (sums : FVec Ideal S2x64x5 .f32) (cnt : FVec Ideal S2x5 .f32) : FVec Ideal S2x64x5 .f32 :=
  Host.divf sums
    (broadcastInDim S2x64x5 ![0, 1, 2] bcast_S2x1x5_S2x64x5_0_1_2
      (addf (broadcastInDim S2x1x5 ![0, 2] bcast_S2x5_S2x1x5_0_2 cnt)
        (broadcastInDim S2x1x5 ![] bcast_S_S2x1x5 (constant (F := Ideal) S_ .f32 0x358637BD#32))))

theorem meanOf_apply (sums : FVec Ideal S2x64x5 .f32) (cnt : FVec Ideal S2x5 .f32) (b : Fin 2) (ch : Fin 64) (k : Fin 5) :
    meanOf sums cnt (ix3 b ch k) = Ideal.div (sums (ix3 b ch k)) (cnt (ix2 b k) + Cert.Spec.eps6) := by
  unfold meanOf
  rw [hostDivf_apply]
  congr 1
  rw [broadcastInDim_apply _ _ _ _ (ix3 b (0 : Fin 1) k) (fun a => by
    match a with
    | ⟨0, _⟩ => rfl
    | ⟨1, _⟩ => rfl
    | ⟨2, _⟩ => rfl)]
  rw [addf_apply, broadcastInDim_scalar_apply, constant_apply]
  congr 1
  exact broadcastInDim_apply _ _ _ _ (ix2 b k) (fun a => by
    match a with
    | ⟨0, _⟩ => rfl
    | ⟨1, _⟩ => rfl)

/-- A sum over the channel axis, from the zero literal. -/
theorem chSum_apply (y : FVec Ideal S2x64x131072 .f32) (b : Fin 2) (v : Fin 131072) :
    Host.reduceAdd y (constant (F := Ideal) S_ .f32 0x00000000#32) reducesTo_S2x64x131072_S2x131072_d1 h_S_ (ix2 b v)
      = ∑ ch : Fin 64, y (ix3 b ch v) := by
  rw [hostReduceAdd_apply, Ideal.hostReduceAdd_single reducesTo_S2x64x131072_S2x131072_d1 (by decide)]
  rw [constant_apply, Ideal.ofBits_zero_f32, zero_add]
  refine Finset.sum_congr rfl fun ch _ => ?_
  refine congrArg y (funext fun a => Fin.ext ?_)
  match a with
  | ⟨0, _⟩ => rfl
  | ⟨1, _⟩ => rfl
  | ⟨2, _⟩ => rfl

theorem sqrt_apply (y : FVec Ideal S2x131072 .f32) (i : S2x131072.Idx) : Host.sqrt y i = Ideal.sqrt (y i) := rfl

/-- The per-voxel cosine of the features `x` against the gathered centers `c`. -/
def cosOf (x c : FVec Ideal S2x64x131072 .f32) : FVec Ideal S2x131072 .f32 :=
  Host.divf
    (Host.reduceAdd (mulf x c) (constant (F := Ideal) S_ .f32 0x00000000#32) reducesTo_S2x64x131072_S2x131072_d1 h_S_)
    (maximumf
      (mulf
        (Host.sqrt (Host.reduceAdd (mulf x x) (constant (F := Ideal) S_ .f32 0x00000000#32) reducesTo_S2x64x131072_S2x131072_d1 h_S_))
        (Host.sqrt (Host.reduceAdd (mulf c c) (constant (F := Ideal) S_ .f32 0x00000000#32) reducesTo_S2x64x131072_S2x131072_d1 h_S_)))
      (broadcastInDim S2x131072 ![] bcast_S_S2x131072 (constant (F := Ideal) S_ .f32 0x322BCC77#32)))

theorem cosOf_apply (x c : FVec Ideal S2x64x131072 .f32) (b : Fin 2) (v : Fin 131072) :
    cosOf x c (ix2 b v)
      = Ideal.div (∑ ch : Fin 64, x (ix3 b ch v) * c (ix3 b ch v))
          (max (Ideal.sqrt (∑ ch : Fin 64, x (ix3 b ch v) * x (ix3 b ch v))
              * Ideal.sqrt (∑ ch : Fin 64, c (ix3 b ch v) * c (ix3 b ch v))) Cert.Spec.eps8) := by
  unfold cosOf
  rw [hostDivf_apply, maximumf_apply, mulf_apply, sqrt_apply, sqrt_apply, chSum_apply, chSum_apply, chSum_apply,
    broadcastInDim_scalar_apply, constant_apply]
  simp only [mulf_apply]
  rfl

/-- The loss from the two cosine arrays: the squared difference summed over both axes from the zero literal,
    over the voxel count, times the weight. -/
def lossOf (cS cT : FVec Ideal S2x131072 .f32) : FVec Ideal S_ .f32 :=
  mulf (constant (F := Ideal) S_ .f32 0x3F800000#32)
    (Host.divf
      (Host.reduceAdd (mulf (subf cS cT) (subf cS cT)) (constant (F := Ideal) S_ .f32 0x00000000#32) reducesTo_S2x131072_S_d0_1 h_S_)
      (constant (F := Ideal) S_ .f32 0x48800000#32))

theorem lossOf_apply (cS cT : FVec Ideal S2x131072 .f32) :
    lossOf cS cT ix0
      = Cert.Spec.finish (∑ b : Fin 2, ∑ v : Fin 131072,
          (cS (ix2 b v) - cT (ix2 b v)) * (cS (ix2 b v) - cT (ix2 b v))) := by
  unfold lossOf Cert.Spec.finish
  rw [mulf_apply, hostDivf_apply, constant_apply, constant_apply, hostReduceAdd_apply,
    Ideal.hostReduceAdd_total reducesTo_S2x131072_S_d0_1 (fun a => a.elim0), constant_apply, sum_idx2]
  rfl

/-! ## The stages against the specification -/

section Spec
variable (f : Fin 2 → Fin 64 → Fin 131072 → EReal) (L : Fin 2 → Fin 131072 → Fin 5)
  (x : FVec Ideal S2x64x131072 .f32) (oh : FVec Ideal S2x131072x5 .f32) (c : FVec Ideal S2x64x131072 .f32)
  (hx : ∀ b ch v, x (ix3 b ch v) = f b ch v)
  (hoh : ∀ b v k, oh (ix3 b v k) = Cert.Spec.oh L b v k)
include hx hoh

/-- The class means of the reference are the specification's. -/
theorem meanOf_spec (b : Fin 2) (ch : Fin 64) (k : Fin 5) :
    meanOf (sumsOf x oh) (cntOf oh) (ix3 b ch k) = Cert.Spec.mean f L Cert.Spec.eps6 b ch k := by
  rw [meanOf_apply, sumsOf_apply, cntOf_apply]
  unfold Cert.Spec.mean Cert.Spec.sums Cert.Spec.cnt
  simp only [hx, hoh]

/-- With the gathered centers the class means at the voxel's own class, the reference's cosine is the specification's. -/
theorem cosOf_spec (hc : ∀ b ch v, c (ix3 b ch v) = meanOf (sumsOf x oh) (cntOf oh) (ix3 b ch (L b v)))
    (b : Fin 2) (v : Fin 131072) :
    cosOf x c (ix2 b v) = Cert.Spec.cosv f L Cert.Spec.eps6 Cert.Spec.eps8 b v := by
  rw [cosOf_apply]
  unfold Cert.Spec.cosv Cert.Spec.dotc Cert.Spec.nrm Cert.Spec.cnrm
  simp only [hc, meanOf_spec f L x oh hx hoh, hx]

end Spec

/-- The whole chain: from the two feature arrays, the one-hot array and the two gathered center arrays to the loss. -/
theorem chain_spec (fS fT : Fin 2 → Fin 64 → Fin 131072 → EReal) (L : Fin 2 → Fin 131072 → Fin 5)
    (xS xT : FVec Ideal S2x64x131072 .f32) (oh : FVec Ideal S2x131072x5 .f32) (cS cT : FVec Ideal S2x64x131072 .f32)
    (hS : ∀ b ch v, xS (ix3 b ch v) = fS b ch v) (hT : ∀ b ch v, xT (ix3 b ch v) = fT b ch v)
    (hoh : ∀ b v k, oh (ix3 b v k) = Cert.Spec.oh L b v k)
    (hcS : ∀ b ch v, cS (ix3 b ch v) = meanOf (sumsOf xS oh) (cntOf oh) (ix3 b ch (L b v)))
    (hcT : ∀ b ch v, cT (ix3 b ch v) = meanOf (sumsOf xT oh) (cntOf oh) (ix3 b ch (L b v))) :
    lossOf (cosOf xS cS) (cosOf xT cT) ix0 = Cert.Spec.loss fS fT L := by
  rw [lossOf_apply]
  unfold Cert.Spec.loss Cert.Spec.total Cert.Spec.sq
  simp only [cosOf_spec fS L xS oh cS hS hoh hcS, cosOf_spec fT L xT oh cT hT hoh hcT]

end Cert.ReferenceIdeal.Hand

end
-- ==== Proof.Stages.lean ====
/-
  Two stages that the programs spell out operation by operation, read at one index on the extended reals.
  The one-hot stage (both programs): a label array compared with the class numbers 0..4, the bit converted to a
  number, is the indicator [label = class]; its sum over the voxels is the class's voxel count.
  The take-along-axis stage (the reference): an index array holding class numbers is left alone by the wrap-around of
  negative indices, passes the range test at every position, and the gather reads, for voxel v of batch entry b
  and channel ch, the table's entry at (b, ch, class of v); the selection against the range test keeps it.
-/
import proofs.«426160_j54812372632011_3_alg».proof.ReferenceIdeal
import proofs.«426160_j54812372632011_3_alg».proof.Proof.Alg
import proofs.«426160_j54812372632011_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.Stages

open Idealize.ShloMosaic
open Cert.ReferenceIdeal (S_ S1 S1x1x1 S2x131072 S2x131072x1 S1x1x5 S2x131072x5 S2x5 S2x64x5 S2x1x131072 S2x64x131072)

/-! ## The one-hot stage -/

/-- The label array widened by a unit axis and repeated along the class axis reads the voxel's label. -/
theorem labels_at (h0 : S2x131072.BroadcastsInDim S2x131072x1 (![0, 1] : Fin 2 → Fin S2x131072x1.rank))
    (h2 : S2x131072x1.BroadcastsInDim S2x131072x5 (![0, 1, 2] : Fin 3 → Fin S2x131072x5.rank))
    (lab : IVec S2x131072 32) (b : Fin 2) (v : Fin 131072) (k : Fin 5) :
    broadcastInDim S2x131072x5 ![0, 1, 2] h2 (broadcastInDim S2x131072x1 ![0, 1] h0 lab) (ValueIdx.ix3 b v k)
      = lab (ValueIdx.ix2 b v) := by
  unfold broadcastInDim
  refine congrArg lab (funext fun a => ?_)
  match a with
  | ⟨0, _⟩ => rfl
  | ⟨1, _⟩ => rfl

/-- The class numbers repeated over every voxel read the class's number. -/
theorem classes_at (h3 : S1x1x5.BroadcastsInDim S2x131072x5 (![0, 1, 2] : Fin 3 → Fin S2x131072x5.rank))
    (b : Fin 2) (v : Fin 131072) (k : Fin 5) :
    broadcastInDim S2x131072x5 ![0, 1, 2] h3 (iotaInDim S1x1x5 32 2) (ValueIdx.ix3 b v k) = BitVec.ofNat 32 k.val := by
  unfold broadcastInDim iotaInDim
  rfl

/-- The one-hot chain at (b, v, k) is the indicator of "voxel v of batch entry b has class k". -/
theorem oneHot_at (h0 : S2x131072.BroadcastsInDim S2x131072x1 (![0, 1] : Fin 2 → Fin S2x131072x1.rank))
    (h2 : S2x131072x1.BroadcastsInDim S2x131072x5 (![0, 1, 2] : Fin 3 → Fin S2x131072x5.rank))
    (h3 : S1x1x5.BroadcastsInDim S2x131072x5 (![0, 1, 2] : Fin 3 → Fin S2x131072x5.rank))
    (lab : IVec S2x131072 32) (L : Fin 2 → Fin 131072 → Fin 5)
    (hL : ∀ b v, lab (ValueIdx.ix2 b v) = BitVec.ofNat 32 (L b v).val) (b : Fin 2) (v : Fin 131072) (k : Fin 5) :
    (uitofp .f32 (cmpi .eq (broadcastInDim S2x131072x5 ![0, 1, 2] h2 (broadcastInDim S2x131072x1 ![0, 1] h0 lab))
        (broadcastInDim S2x131072x5 ![0, 1, 2] h3 (iotaInDim S1x1x5 32 2))) : FVec Ideal S2x131072x5 .f32)
      (ValueIdx.ix3 b v k) = if L b v = k then (1 : EReal) else 0 := by
  show (((IntOp.cmpi .eq (broadcastInDim S2x131072x5 ![0, 1, 2] h2 (broadcastInDim S2x131072x1 ![0, 1] h0 lab) (ValueIdx.ix3 b v k))
      (broadcastInDim S2x131072x5 ![0, 1, 2] h3 (iotaInDim S1x1x5 32 2) (ValueIdx.ix3 b v k))).toNat : ℝ) : EReal) = _
  rw [labels_at h0 h2 lab b v k, classes_at h3 b v k, hL b v]
  by_cases h : L b v = k
  · rw [if_pos h, StableHlo.Predicate.cmpi_eq_iff.2 (by rw [h])]
    simp
  · rw [if_neg h]
    have hne : ¬ IntOp.cmpi .eq (BitVec.ofNat 32 (L b v).val) (BitVec.ofNat 32 k.val) = 1#1 := fun e =>
      h ((Cert.Alg.ofNat_inj5 _ _).1 (StableHlo.Predicate.cmpi_eq_iff.1 e))
    rw [ValueIdx.eq_zero_of_ne_one hne]
    simp

/-- The same, as an equation of arrays. -/
theorem oneHot_eq (h0 : S2x131072.BroadcastsInDim S2x131072x1 (![0, 1] : Fin 2 → Fin S2x131072x1.rank))
    (h2 : S2x131072x1.BroadcastsInDim S2x131072x5 (![0, 1, 2] : Fin 3 → Fin S2x131072x5.rank))
    (h3 : S1x1x5.BroadcastsInDim S2x131072x5 (![0, 1, 2] : Fin 3 → Fin S2x131072x5.rank))
    (lab : IVec S2x131072 32) (L : Fin 2 → Fin 131072 → Fin 5)
    (hL : ∀ b v, lab (ValueIdx.ix2 b v) = BitVec.ofNat 32 (L b v).val) :
    (uitofp .f32 (cmpi .eq (broadcastInDim S2x131072x5 ![0, 1, 2] h2 (broadcastInDim S2x131072x1 ![0, 1] h0 lab))
        (broadcastInDim S2x131072x5 ![0, 1, 2] h3 (iotaInDim S1x1x5 32 2))) : FVec Ideal S2x131072x5 .f32)
      = fun i => if L (i 0) (i 1) = i 2 then (1 : EReal) else 0 := by
  funext i
  rw [ValueIdx.eq_ix3 i]
  exact oneHot_at h0 h2 h3 lab L hL (i 0) (i 1) (i 2)

/-- The sum of an indicator array over the voxel axis, from the zero literal, is the class's voxel count. -/
theorem count_of_indicator (hr : S2x131072x5.ReducesTo [1] S2x5) (hS : 0 < S_.numel)
    (oh : FVec Ideal S2x131072x5 .f32) (L : Fin 2 → Fin 131072 → Fin 5)
    (hoh : ∀ b v k, oh (ValueIdx.ix3 b v k) = if L b v = k then (1 : EReal) else 0) (b : Fin 2) (k : Fin 5) :
    Host.reduceAdd oh (constant (F := Ideal) S_ .f32 0x00000000#32) hr hS (ValueIdx.ix2 b k) = Cert.Spec.cnt L b k := by
  show Ideal.hostReduceAdd hr oh (Ideal.ofBits .f32 0x00000000#32) (ValueIdx.ix2 b k) = _
  rw [Ideal.hostReduceAdd_single hr (by decide) oh, Ideal.ofBits_zero_f32, zero_add]
  unfold Cert.Spec.cnt Cert.Spec.oh
  refine Finset.sum_congr rfl fun v _ => ?_
  refine Eq.trans (congrArg oh ?_) (hoh b v k)
  funext a
  match a with
  | ⟨0, _⟩ => rfl
  | ⟨1, _⟩ => rfl
  | ⟨2, _⟩ => rfl

/-- The voxel count of class k in batch entry b, off the printed one-hot chain and its printed sum. -/
theorem count_at (h0 : S2x131072.BroadcastsInDim S2x131072x1 (![0, 1] : Fin 2 → Fin S2x131072x1.rank))
    (h2 : S2x131072x1.BroadcastsInDim S2x131072x5 (![0, 1, 2] : Fin 3 → Fin S2x131072x5.rank))
    (h3 : S1x1x5.BroadcastsInDim S2x131072x5 (![0, 1, 2] : Fin 3 → Fin S2x131072x5.rank))
    (hr : S2x131072x5.ReducesTo [1] S2x5) (hS : 0 < S_.numel)
    (lab : IVec S2x131072 32) (L : Fin 2 → Fin 131072 → Fin 5)
    (hL : ∀ b v, lab (ValueIdx.ix2 b v) = BitVec.ofNat 32 (L b v).val) (b : Fin 2) (k : Fin 5) :
    Host.reduceAdd
      (uitofp .f32 (cmpi .eq (broadcastInDim S2x131072x5 ![0, 1, 2] h2 (broadcastInDim S2x131072x1 ![0, 1] h0 lab))
        (broadcastInDim S2x131072x5 ![0, 1, 2] h3 (iotaInDim S1x1x5 32 2))) : FVec Ideal S2x131072x5 .f32)
      (constant (F := Ideal) S_ .f32 0x00000000#32) hr hS (ValueIdx.ix2 b k) = Cert.Spec.cnt L b k :=
  count_of_indicator hr hS _ L (oneHot_at h0 h2 h3 lab L hL) b k

/-! ## The take-along-axis stage (the reference) -/

section TakeAlong

variable [Cert.ReferenceIdeal.Facts₀]
open Cert.ReferenceIdeal.Facts₀

/-- A class number is not negative, so the wrap-around of negative indices leaves it alone. -/
theorem norm_word (l : Fin 5) :
    Scalar.select (IntOp.cmpi .slt (BitVec.ofNat 32 l.val) 0#32) (IntOp.addi (BitVec.ofNat 32 l.val) 5#32) (BitVec.ofNat 32 l.val)
      = BitVec.ofNat 32 l.val := by
  revert l; decide

/-- A class number passes the range test 0 ≤ · ≤ 4. -/
theorem inrange_word (l : Fin 5) :
    IntOp.andi (IntOp.cmpi .sge (BitVec.ofNat 32 l.val) 0#32) (IntOp.cmpi .sle (BitVec.ofNat 32 l.val) 4#32) = 1#1 := by
  revert l; decide

/-- A class number, read signed and clamped into the table's five columns, is itself. -/
theorem clamp_word (l : Fin 5) : min (BitVec.ofNat 32 l.val).toInt.toNat (5 - 1) = l.val := by
  revert l; decide

/-- The index array after the wrap-around of negative indices (operations %c … %4). -/
abbrev normIdx (idx : IVec S2x1x131072 32) : IVec S2x1x131072 32 :=
  select (cmpi .slt idx (broadcastInDim S2x1x131072 ![] bcast_S_S2x1x131072 (constantI S_ 32 0#32)))
    (addi idx (broadcastInDim S2x1x131072 ![] bcast_S_S2x1x131072 (constantI S_ 32 5#32))) idx

theorem normIdx_at (idx : IVec S2x1x131072 32) (L : Fin 2 → Fin 131072 → Fin 5)
    (hidx : ∀ b v, idx (ValueIdx.ix3 b (0 : Fin 1) v) = BitVec.ofNat 32 (L b v).val) (b : Fin 2) (v : Fin 131072) :
    normIdx idx (ValueIdx.ix3 b (0 : Fin 1) v) = BitVec.ofNat 32 (L b v).val := by
  show Scalar.select (IntOp.cmpi .slt (idx (ValueIdx.ix3 b (0 : Fin 1) v)) 0#32)
    (IntOp.addi (idx (ValueIdx.ix3 b (0 : Fin 1) v)) 5#32) (idx (ValueIdx.ix3 b (0 : Fin 1) v)) = _
  rw [hidx b v]
  exact norm_word (L b v)

/-- The start indices: the normalised index array with its unit axis moved last (operation %5). -/
abbrev startIdx (idx : IVec S2x1x131072 32) : IVec S2x131072x1 32 :=
  shapeCast S2x131072x1 (normIdx idx) shapeCasts_S2x1x131072_S2x131072x1

theorem startIdx_at (idx : IVec S2x1x131072 32) (L : Fin 2 → Fin 131072 → Fin 5)
    (hidx : ∀ b v, idx (ValueIdx.ix3 b (0 : Fin 1) v) = BitVec.ofNat 32 (L b v).val) (b : Fin 2) (v : Fin 131072) :
    startIdx idx (ValueIdx.ix3 b v (0 : Fin 1)) = BitVec.ofNat 32 (L b v).val := by
  refine (shapeCast_apply (normIdx idx) shapeCasts_S2x1x131072_S2x131072x1 (ValueIdx.ix3 b v (0 : Fin 1))
    (ValueIdx.ix3 b (0 : Fin 1) v) ?_).trans (normIdx_at idx L hidx b v)
  rw [Shape.rowMajor_val_three, Shape.rowMajor_val_three]
  show (b.val * 1 + 0) * 131072 + v.val = (b.val * 131072 + v.val) * 1 + 0
  omega

/-- A left fold of `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    refine foldl_andi_ones f l _ ?_ (fun n hn => h n (List.mem_cons_of_mem _ hn))
    show IntOp.andi init (f a) = 1#1
    rw [hi, h a (List.mem_cons_self ..)]; decide

/-- The range test (operations %c_1 … %12) passes at every voxel. -/
theorem inRange_at (idx : IVec S2x1x131072 32) (L : Fin 2 → Fin 131072 → Fin 5)
    (hidx : ∀ b v, idx (ValueIdx.ix3 b (0 : Fin 1) v) = BitVec.ofNat 32 (L b v).val) (j : S2x131072.Idx) :
    Host.reduce IntOp.andi
      (andi (cmpi .sge (startIdx idx) (broadcastInDim S2x131072x1 ![] bcast_S_S2x131072x1 (constantI S_ 32 0#32)))
        (cmpi .sle (startIdx idx) (broadcastInDim S2x131072x1 ![0, 1, 2] bcast_S1x1x1_S2x131072x1_0_1_2
          (broadcastInDim S1x1x1 ![2] bcast_S1_S1x1x1_2 (constantI S1 32 4#32)))))
      (constantI S_ 1 1#1) reducesTo_S2x131072x1_S2x131072_d2 h_S_ j = 1#1 := by
  unfold Host.reduce
  refine foldl_andi_ones _ _ _ rfl fun n _ => ?_
  generalize S2x131072x1.rowMajor.symm n = i
  obtain ⟨b, v, rfl⟩ : ∃ (b : Fin 2) (v : Fin 131072), i = ValueIdx.ix3 b v (0 : Fin 1) := by
    refine ⟨i 0, i 1, funext fun a => ?_⟩
    match a with
    | ⟨0, _⟩ => rfl
    | ⟨1, _⟩ => rfl
    | ⟨2, _⟩ => exact Subsingleton.elim (α := Fin 1) _ _
  show IntOp.andi (IntOp.cmpi .sge (startIdx idx (ValueIdx.ix3 b v (0 : Fin 1))) 0#32)
    (IntOp.cmpi .sle (startIdx idx (ValueIdx.ix3 b v (0 : Fin 1))) 4#32) = 1#1
  rw [startIdx_at idx L hidx b v]
  exact inrange_word _

local notation "G" => Cert.ReferenceIdeal.gather_S2x64x5_S2x131072x1_S2x64x131072_1_2_0_0_2_2_1641

/-- The gather (operation %13) reads the table at the voxel's class. -/
theorem gather_at (x : FVec Ideal S2x64x5 .f32) (si : IVec S2x131072x1 32) (L : Fin 2 → Fin 131072 → Fin 5)
    (hsi : ∀ b v, si (ValueIdx.ix3 b v (0 : Fin 1)) = BitVec.ofNat 32 (L b v).val) (b : Fin 2) (ch : Fin 64) (v : Fin 131072) :
    Host.gather Cert.ReferenceIdeal.gather_S2x64x5_S2x131072x1_S2x64x131072_1_2_0_0_2_2_1641 x si (ValueIdx.ix3 b ch v)
      = x (ValueIdx.ix3 b ch (L b v)) := by
  unfold Host.gather
  refine congrArg x (funext fun a => Fin.ext ?_)
  match a with
  | ⟨0, h0⟩ =>
    -- the batching axis: no start, the result's batch coordinate, no offset
    show GatherDims.start G (ValueIdx.ix3 b ch v) si ⟨0, h0⟩ + GatherDims.batchCoord G (ValueIdx.ix3 b ch v) ⟨0, h0⟩
      + GatherDims.offCoord G (ValueIdx.ix3 b ch v) ⟨0, h0⟩ = b.val
    have e1 : GatherDims.start G (ValueIdx.ix3 b ch v) si ⟨0, h0⟩ = 0 := rfl
    have e2 : GatherDims.batchCoord G (ValueIdx.ix3 b ch v) ⟨0, h0⟩ = b.val := rfl
    have e3 : GatherDims.offCoord G (ValueIdx.ix3 b ch v) ⟨0, h0⟩ = 0 := rfl
    rw [e1, e2, e3]; omega
  | ⟨1, h1⟩ =>
    -- the offset axis: the result's channel coordinate
    show GatherDims.start G (ValueIdx.ix3 b ch v) si ⟨1, h1⟩ + GatherDims.batchCoord G (ValueIdx.ix3 b ch v) ⟨1, h1⟩
      + GatherDims.offCoord G (ValueIdx.ix3 b ch v) ⟨1, h1⟩ = ch.val
    have e1 : GatherDims.start G (ValueIdx.ix3 b ch v) si ⟨1, h1⟩ = 0 := rfl
    have e2 : GatherDims.batchCoord G (ValueIdx.ix3 b ch v) ⟨1, h1⟩ = 0 := rfl
    have e3 : GatherDims.offCoord G (ValueIdx.ix3 b ch v) ⟨1, h1⟩ = ch.val := rfl
    rw [e1, e2, e3]; omega
  | ⟨2, h2⟩ =>
    -- the collapsed, start-indexed axis: the clamped start index
    show GatherDims.start G (ValueIdx.ix3 b ch v) si ⟨2, h2⟩ + GatherDims.batchCoord G (ValueIdx.ix3 b ch v) ⟨2, h2⟩
      + GatherDims.offCoord G (ValueIdx.ix3 b ch v) ⟨2, h2⟩ = (L b v).val
    have e2 : GatherDims.batchCoord G (ValueIdx.ix3 b ch v) ⟨2, h2⟩ = 0 := rfl
    have e3 : GatherDims.offCoord G (ValueIdx.ix3 b ch v) ⟨2, h2⟩ = 0 := rfl
    have hm : (⟨2, h2⟩ : Fin S2x64x5.rank) ∈ (GatherDims.startIndexMap G) := List.mem_singleton.mpr rfl
    have hsIdx : GatherDims.siIdx G (ValueIdx.ix3 b ch v) ⟨List.idxOf (⟨2, h2⟩ : Fin S2x64x5.rank) (GatherDims.startIndexMap G),
        List.idxOf_lt_length_iff.2 hm⟩ = ValueIdx.ix3 b v (0 : Fin 1) := by
      funext c; refine Fin.ext ?_
      match c with
      | ⟨0, _⟩ => rfl
      | ⟨1, _⟩ => rfl
      | ⟨2, _⟩ => rfl
    have e1 : GatherDims.start G (ValueIdx.ix3 b ch v) si ⟨2, h2⟩ = min (si (ValueIdx.ix3 b v (0 : Fin 1))).toInt.toNat (5 - 1) := by
      unfold GatherDims.start
      rw [dif_pos hm, hsIdx]
      rfl
    rw [e1, e2, e3, hsi b v, clamp_word]; omega

/-- The range test repeated along the channel axis (operation %14) reads the voxel's bit. -/
theorem spread_at (m : IVec S2x131072 1) (b : Fin 2) (ch : Fin 64) (v : Fin 131072) :
    broadcastInDim S2x64x131072 ![0, 2] bcast_S2x131072_S2x64x131072_0_2 m (ValueIdx.ix3 b ch v) = m (ValueIdx.ix2 b v) := by
  unfold broadcastInDim
  refine congrArg m (funext fun a => ?_)
  match a with
  | ⟨0, _⟩ => rfl
  | ⟨1, _⟩ => rfl

/-- The whole chain (operations %c … %16) at (b, ch, v): the table's entry at the voxel's class. -/
theorem takeAlong_at (x : FVec Ideal S2x64x5 .f32) (idx : IVec S2x1x131072 32) (L : Fin 2 → Fin 131072 → Fin 5)
    (hidx : ∀ b v, idx (ValueIdx.ix3 b (0 : Fin 1) v) = BitVec.ofNat 32 (L b v).val)
    (b : Fin 2) (ch : Fin 64) (v : Fin 131072) :
    select
      (broadcastInDim S2x64x131072 ![0, 2] bcast_S2x131072_S2x64x131072_0_2
        (Host.reduce IntOp.andi
          (andi (cmpi .sge (startIdx idx) (broadcastInDim S2x131072x1 ![] bcast_S_S2x131072x1 (constantI S_ 32 0#32)))
            (cmpi .sle (startIdx idx) (broadcastInDim S2x131072x1 ![0, 1, 2] bcast_S1x1x1_S2x131072x1_0_1_2
              (broadcastInDim S1x1x1 ![2] bcast_S1_S1x1x1_2 (constantI S1 32 4#32)))))
          (constantI S_ 1 1#1) reducesTo_S2x131072x1_S2x131072_d2 h_S_))
      (Host.gather G x (startIdx idx))
      (broadcastInDim S2x64x131072 ![] bcast_S_S2x64x131072 (constant (F := Ideal) S_ .f32 0x7FC00000#32))
      (ValueIdx.ix3 b ch v) = x (ValueIdx.ix3 b ch (L b v)) := by
  rw [ValueIdx.select_apply, spread_at, inRange_at idx L hidx, ValueIdx.select_one]
  exact gather_at x (startIdx idx) L (startIdx_at idx L hidx) b ch v

end TakeAlong

end Cert.Stages
end
-- ==== Proof.Ref.Read.lean ====
/-
  The reference program's value at the ideal reading: the loss it returns is the specification's loss.

  The line of host operations is read table by table (the tables of Ops.lean). Each table's result buffers are the
  table's operations composed, as pure functions of the buffers the table reads:
    the one-hot array of the labels, its sum over the voxels (the class counts), the two feature arrays flattened to
    [2, 64, 131072], the per-class channel sums (a contraction over the voxels) and the class means;
    the take-along-axis of the class means at the label row: negative indices wrapped around, a range test, the
    gather along the class axis, the selection against the range test;
    the same two steps for the second feature array;
    the two cosine arrays, their squared difference summed over every voxel, over the voxel count, times the weight.
  A table leaves the buffers it does not write unchanged, so each read moves to the table that wrote the buffer.
  With the label array holding class numbers below five, the one-hot array is the indicator of the class map, the
  index wrap and the range test are the identity, and the gather reads the class mean at the voxel's own class
  (Stages.lean); the remaining stages are sums, quotients, roots and a maximum read at an index (ReadA.lean).
-/
import proofs.«426160_j54812372632011_3_alg».proof.Proof.Ref.Ops
import proofs.«426160_j54812372632011_3_alg».proof.Proof.Ref.ReadA
import proofs.«426160_j54812372632011_3_alg».proof.Proof.Stages

noncomputable section

namespace Cert.ReferenceIdeal.Hand

open Cert.ReferenceIdeal Idealize.ShloMosaic Idealize.ShloMosaic.TcCoe Idealize.SL.Sem Idealize.ShloMosaic.StableHlo
  Idealize.ShloMosaic.ValueIdx
open Cert.ReferenceIdeal.Facts₀
open scoped BigOperators

/-! ## The label-dependent stages, as functions of the arrays they read -/

/-- The one-hot array of a label array: the labels against the class numbers 0 … 4, the bit as a number. -/
def ohOf (lab : IVec S2x131072 32) : FVec Ideal S2x131072x5 .f32 :=
  uitofp .f32 (cmpi .eq
    (broadcastInDim S2x131072x5 ![0, 1, 2] bcast_S2x131072x1_S2x131072x5_0_1_2
      (broadcastInDim S2x131072x1 ![0, 1] bcast_S2x131072_S2x131072x1_0_1 lab))
    (broadcastInDim S2x131072x5 ![0, 1, 2] bcast_S1x1x5_S2x131072x5_0_1_2 (iotaInDim S1x1x5 32 2)))

/-- The label array with a unit channel axis. -/
def lab45Of (lab : IVec S2x131072 32) : IVec S2x1x131072 32 :=
  broadcastInDim S2x1x131072 ![0, 2] bcast_S2x131072_S2x1x131072_0_2 lab

/-- The index array of the take-along-axis: negative entries wrapped around by the class count, as a column. -/
def colOf (idx : IVec S2x1x131072 32) : IVec S2x131072x1 32 :=
  shapeCast S2x131072x1
    (select (cmpi .slt idx (broadcastInDim S2x1x131072 ![] bcast_S_S2x1x131072 (constantI S_ 32 0#32)))
      (addi idx (broadcastInDim S2x1x131072 ![] bcast_S_S2x1x131072 (constantI S_ 32 5#32))) idx)
    shapeCasts_S2x1x131072_S2x131072x1

/-- The take-along-axis of a class table at an index array: the gather at the wrapped indices where they are in
    range, the fill value elsewhere. -/
def takeOf (mn : FVec Ideal S2x64x5 .f32) (idx : IVec S2x1x131072 32) : FVec Ideal S2x64x131072 .f32 :=
  select
    (broadcastInDim S2x64x131072 ![0, 2] bcast_S2x131072_S2x64x131072_0_2
      (Host.reduce IntOp.andi
        (andi (cmpi .sge (colOf idx) (broadcastInDim S2x131072x1 ![] bcast_S_S2x131072x1 (constantI S_ 32 0#32)))
          (cmpi .sle (colOf idx)
            (broadcastInDim S2x131072x1 ![0, 1, 2] bcast_S1x1x1_S2x131072x1_0_1_2
              (broadcastInDim S1x1x1 ![2] bcast_S1_S1x1x1_2 (constantI S1 32 4#32)))))
        (constantI S_ 1 1#1) reducesTo_S2x131072x1_S2x131072_d2 h_S_))
    (Host.gather gather_S2x64x5_S2x131072x1_S2x64x131072_1_2_0_0_2_2_1641 mn (colOf idx))
    (broadcastInDim S2x64x131072 ![] bcast_S_S2x64x131072 (constant (F := Ideal) S_ .f32 0x7FC00000#32))

/-! ## Each table's results, read off the table -/

section Tables
variable (W : Valuation τ sig (Elt Ideal))

theorem centersS_v35 :
    (after opsCentersS W (main_v35 : DevRef τ sig) : S2x131072x5.Idx → EReal) = ohOf (W (main_v34 : DevRef τ sig)) := by
  after_results_simp
  simp only [TRef.ofBuf, TRef.toBuf, cast_eq]
  rfl

theorem centersS_v36 :
    (after opsCentersS W (main_v36 : DevRef τ sig) : S2x5.Idx → EReal) = cntOf (after opsCentersS W (main_v35 : DevRef τ sig)) := by
  after_results_simp
  rfl

theorem centersS_v37 :
    (after opsCentersS W (main_v37 : DevRef τ sig) : S2x64x131072.Idx → EReal)
      = shapeCast S2x64x131072 (W (main_arg0 : DevRef τ sig)) shapeCasts_S2x64x32x64x64_S2x64x131072 := by
  after_results_simp
  rfl

theorem centersS_v38 :
    (after opsCentersS W (main_v38 : DevRef τ sig) : S2x64x131072.Idx → EReal)
      = shapeCast S2x64x131072 (W (main_arg1 : DevRef τ sig)) shapeCasts_S2x64x32x64x64_S2x64x131072 := by
  after_results_simp
  rfl

theorem centersS_v44 :
    (after opsCentersS W (main_v44 : DevRef τ sig) : S2x64x5.Idx → EReal)
      = meanOf (sumsOf (after opsCentersS W (main_v37 : DevRef τ sig)) (after opsCentersS W (main_v35 : DevRef τ sig)))
          (after opsCentersS W (main_v36 : DevRef τ sig)) := by
  after_results_simp
  rfl

theorem centersS_v45 :
    (after opsCentersS W (main_v45 : DevRef τ sig) : S2x1x131072.Idx → BitVec 32) = lab45Of (W (main_v34 : DevRef τ sig)) := by
  after_results_simp
  rfl

set_option maxRecDepth 8192 in
theorem takeS_v46 :
    (after opsTakeS W (main_v46 : DevRef τ sig) : S2x64x131072.Idx → EReal)
      = takeOf (W (main_v44 : DevRef τ sig)) (W (main_v45 : DevRef τ sig)) := by
  after_results_simp
  simp only [TRef.ofBuf, TRef.toBuf, cast_eq]
  unfold takeOf colOf
  rfl

theorem centersT_v52 :
    (after opsCentersT W (main_v52 : DevRef τ sig) : S2x64x5.Idx → EReal)
      = meanOf (sumsOf (W (main_v38 : DevRef τ sig)) (W (main_v35 : DevRef τ sig))) (W (main_v36 : DevRef τ sig)) := by
  after_results_simp
  rfl

theorem centersT_v53 :
    (after opsCentersT W (main_v53 : DevRef τ sig) : S2x1x131072.Idx → BitVec 32) = lab45Of (W (main_v34 : DevRef τ sig)) := by
  after_results_simp
  rfl

set_option maxRecDepth 8192 in
theorem takeT_v54 :
    (after opsTakeT W (main_v54 : DevRef τ sig) : S2x64x131072.Idx → EReal)
      = takeOf (W (main_v52 : DevRef τ sig)) (W (main_v53 : DevRef τ sig)) := by
  after_results_simp
  simp only [TRef.ofBuf, TRef.toBuf, cast_eq]
  unfold takeOf colOf
  rfl

/-- The last table: the loss array is the loss of the two cosine arrays. -/
theorem loss_v83 :
    (after opsLoss W (main_v83 : DevRef τ sig) : S_.Idx → EReal)
      = lossOf (cosOf (W (main_v37 : DevRef τ sig)) (W (main_v46 : DevRef τ sig)))
          (cosOf (W (main_v38 : DevRef τ sig)) (W (main_v54 : DevRef τ sig))) := by
  after_results_simp
  rfl

end Tables

/-! ## The two label-dependent stages at an index, for a label array holding the class map `L` -/

theorem lab45Of_apply (lab : IVec S2x131072 32) (b : Fin 2) (v : Fin 131072) :
    lab45Of lab (ix3 b (0 : Fin 1) v) = lab (ix2 b v) := by
  unfold lab45Of
  exact broadcastInDim_apply _ _ _ _ (ix2 b v) (fun a => by
    match a with
    | ⟨0, _⟩ => rfl
    | ⟨1, _⟩ => rfl)

theorem ohOf_apply (lab : IVec S2x131072 32) (L : Fin 2 → Fin 131072 → Fin 5)
    (hL : ∀ b v, lab (ix2 b v) = BitVec.ofNat 32 (L b v).val) (b : Fin 2) (v : Fin 131072) (k : Fin 5) :
    ohOf lab (ix3 b v k) = Cert.Spec.oh L b v k := by
  unfold ohOf Cert.Spec.oh
  exact Cert.Stages.oneHot_at _ _ _ lab L hL b v k

theorem takeOf_apply (mn : FVec Ideal S2x64x5 .f32) (lab : IVec S2x131072 32) (L : Fin 2 → Fin 131072 → Fin 5)
    (hL : ∀ b v, lab (ix2 b v) = BitVec.ofNat 32 (L b v).val) (b : Fin 2) (ch : Fin 64) (v : Fin 131072) :
    takeOf mn (lab45Of lab) (ix3 b ch v) = mn (ix3 b ch (L b v)) := by
  unfold takeOf colOf
  exact Cert.Stages.takeAlong_at mn (lab45Of lab) L (fun b v => by rw [lab45Of_apply]; exact hL b v) b ch v

/-! ## The tables composed -/

section Assembly
variable (L : Fin 2 → Fin 131072 → Fin 5)

/-- After the first class-center table and the first take-along-axis, the gathered centers are the class means of
    the first feature array at each voxel's own class. -/
theorem v46_spec (V0 : Valuation τ sig (Elt Ideal))
    (hL : ∀ b v, (V0 (main_v34 : DevRef τ sig) : S2x131072.Idx → BitVec 32) (ix2 b v) = BitVec.ofNat 32 (L b v).val)
    (b : Fin 2) (ch : Fin 64) (v : Fin 131072) :
    (after opsTakeS (after opsCentersS V0) (main_v46 : DevRef τ sig) : S2x64x131072.Idx → EReal) (ix3 b ch v)
      = meanOf (sumsOf (after opsCentersS V0 (main_v37 : DevRef τ sig)) (after opsCentersS V0 (main_v35 : DevRef τ sig)))
          (cntOf (after opsCentersS V0 (main_v35 : DevRef τ sig))) (ix3 b ch (L b v)) := by
  rw [takeS_v46, centersS_v44, centersS_v45, centersS_v36]
  exact takeOf_apply _ _ L hL b ch v

/-- The same for the second class-center table and the second take-along-axis, over the buffers they read. -/
theorem v54_spec (V2 : Valuation τ sig (Elt Ideal))
    (hL : ∀ b v, (V2 (main_v34 : DevRef τ sig) : S2x131072.Idx → BitVec 32) (ix2 b v) = BitVec.ofNat 32 (L b v).val)
    (b : Fin 2) (ch : Fin 64) (v : Fin 131072) :
    (after opsTakeT (after opsCentersT V2) (main_v54 : DevRef τ sig) : S2x64x131072.Idx → EReal) (ix3 b ch v)
      = meanOf (sumsOf (V2 (main_v38 : DevRef τ sig)) (V2 (main_v35 : DevRef τ sig))) (V2 (main_v36 : DevRef τ sig))
          (ix3 b ch (L b v)) := by
  rw [takeT_v54, centersT_v52, centersT_v53]
  exact takeOf_apply _ _ L hL b ch v

/-- From the label array on: the five later tables end with the specification's loss. -/
theorem assemble (V0 : Valuation τ sig (Elt Ideal)) (fS fT : Fin 2 → Fin 64 → Fin 131072 → EReal)
    (hS : ∀ b ch v, (after opsCentersS V0 (main_v37 : DevRef τ sig) : S2x64x131072.Idx → EReal) (ix3 b ch v) = fS b ch v)
    (hT : ∀ b ch v, (after opsCentersS V0 (main_v38 : DevRef τ sig) : S2x64x131072.Idx → EReal) (ix3 b ch v) = fT b ch v)
    (hL : ∀ b v, (V0 (main_v34 : DevRef τ sig) : S2x131072.Idx → BitVec 32) (ix2 b v) = BitVec.ofNat 32 (L b v).val) :
    (after opsLoss (after opsTakeT (after opsCentersT (after opsTakeS (after opsCentersS V0))))
        (main_v83 : DevRef τ sig) : S_.Idx → EReal) ix0 = Cert.Spec.loss fS fT L := by
  rw [loss_v83]
  rw [opsTakeT_keep _ main_v37 (by decide), opsCentersT_keep _ main_v37 (by decide), opsTakeS_keep _ main_v37 (by decide),
    opsTakeT_keep _ main_v38 (by decide), opsCentersT_keep _ main_v38 (by decide), opsTakeS_keep _ main_v38 (by decide),
    opsTakeT_keep _ main_v46 (by decide), opsCentersT_keep _ main_v46 (by decide)]
  refine chain_spec fS fT L _ _ (after opsCentersS V0 (main_v35 : DevRef τ sig)) _ _ hS hT ?_ ?_ ?_
  · intro b v k
    rw [centersS_v35]
    exact ohOf_apply _ L hL b v k
  · intro b ch v
    exact v46_spec L V0 hL b ch v
  · intro b ch v
    have hL2 : ∀ b v, (after opsTakeS (after opsCentersS V0) (main_v34 : DevRef τ sig) : S2x131072.Idx → BitVec 32) (ix2 b v)
        = BitVec.ofNat 32 (L b v).val := by
      intro b v
      rw [opsTakeS_keep _ main_v34 (by decide), opsCentersS_keep _ main_v34 (by decide)]
      exact hL b v
    rw [v54_spec L (after opsTakeS (after opsCentersS V0)) hL2 b ch v,
      opsTakeS_keep _ main_v38 (by decide), opsTakeS_keep _ main_v35 (by decide), opsTakeS_keep _ main_v36 (by decide),
      centersS_v36]

end Assembly

/-! ## The statements over the whole line of operations -/

section Whole
variable (V : Valuation τ sig (Elt Ideal))

/-- The reference's result, given what its two flattened feature arrays and its label array hold. -/
theorem result_eq (fS fT : Fin 2 → Fin 64 → Fin 131072 → EReal) (L : Fin 2 → Fin 131072 → Fin 5)
    (hS : ∀ b ch v, (after ops V (main_v37 : DevRef τ sig) : S2x64x131072.Idx → EReal) (ix3 b ch v) = fS b ch v)
    (hT : ∀ b ch v, (after ops V (main_v38 : DevRef τ sig) : S2x64x131072.Idx → EReal) (ix3 b ch v) = fT b ch v)
    (hL : ∀ b v, (after ops V (main_v34 : DevRef τ sig) : S2x131072.Idx → BitVec 32) (ix2 b v) = BitVec.ofNat 32 (L b v).val) :
    (after ops V (main_v83 : DevRef τ sig) : S_.Idx → EReal) ix0 = Cert.Spec.loss fS fT L := by
  rw [after_ops] at hS hT hL ⊢
  rw [opsLoss_keep _ main_v37 (by decide), opsTakeT_keep _ main_v37 (by decide), opsCentersT_keep _ main_v37 (by decide),
    opsTakeS_keep _ main_v37 (by decide)] at hS
  rw [opsLoss_keep _ main_v38 (by decide), opsTakeT_keep _ main_v38 (by decide), opsCentersT_keep _ main_v38 (by decide),
    opsTakeS_keep _ main_v38 (by decide)] at hT
  rw [opsLoss_keep _ main_v34 (by decide), opsTakeT_keep _ main_v34 (by decide), opsCentersT_keep _ main_v34 (by decide),
    opsTakeS_keep _ main_v34 (by decide), opsCentersS_keep _ main_v34 (by decide)] at hL
  exact assemble L (after opsLabels V) fS fT hS hT hL

/-- The first flattened feature array is the first argument read as [2, 64, 131072]. -/
theorem v37_apply (b : Fin 2) (ch : Fin 64) (v : Fin 131072) :
    (after ops V (main_v37 : DevRef τ sig) : S2x64x131072.Idx → EReal) (ix3 b ch v)
      = Cert.Spec.feat (V (main_arg0 : DevRef τ sig)) shapeCasts_S2x64x32x64x64_S2x64x131072 b ch v := by
  rw [after_ops, opsLoss_keep _ main_v37 (by decide), opsTakeT_keep _ main_v37 (by decide),
    opsCentersT_keep _ main_v37 (by decide), opsTakeS_keep _ main_v37 (by decide), centersS_v37,
    opsLabels_keep _ main_arg0 (by decide)]
  unfold Cert.Spec.feat
  refine congrArg (shapeCast _ _ _) (funext fun a => ?_)
  match a with
  | ⟨0, _⟩ => rfl
  | ⟨1, _⟩ => rfl
  | ⟨2, _⟩ => rfl

/-- The second flattened feature array is the second argument read as [2, 64, 131072]. -/
theorem v38_apply (b : Fin 2) (ch : Fin 64) (v : Fin 131072) :
    (after ops V (main_v38 : DevRef τ sig) : S2x64x131072.Idx → EReal) (ix3 b ch v)
      = Cert.Spec.feat (V (main_arg1 : DevRef τ sig)) shapeCasts_S2x64x32x64x64_S2x64x131072 b ch v := by
  rw [after_ops, opsLoss_keep _ main_v38 (by decide), opsTakeT_keep _ main_v38 (by decide),
    opsCentersT_keep _ main_v38 (by decide), opsTakeS_keep _ main_v38 (by decide), centersS_v38,
    opsLabels_keep _ main_arg1 (by decide)]
  unfold Cert.Spec.feat
  refine congrArg (shapeCast _ _ _) (funext fun a => ?_)
  match a with
  | ⟨0, _⟩ => rfl
  | ⟨1, _⟩ => rfl
  | ⟨2, _⟩ => rfl

end Whole

end Cert.ReferenceIdeal.Hand

end
-- ==== Proof.PreRange.lean ====
/-
  The precondition of the claim says, among other things, that every label is the number of a class: as signed
  32-bit words, 0 ≤ label and label < 5, at every position. A word that is non-negative and below five when read
  as a signed number is below five when read as an unsigned one. This file reads that fact out of the printed
  predicate: the predicate is a conjunction whose last conjunct is an `and`-reduction, over all positions, of the
  conjunction of the two comparisons.
-/
import proofs.«426160_j54812372632011_3_alg».proof.Pre_finite_inputs
import proofs.«426160_j54812372632011_3_alg».proof.Proof.Gen.Pre_finite_inputs
import Idealize.ShloMosaic.Lib.ReduceAll
import Idealize.ShloMosaic.Lib.StableHlo.Predicate

namespace Cert.PreRange

open Idealize.ShloMosaic

/-- A word in [0, n) as a signed number is below n as an unsigned one. -/
theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hc := BitVec.toInt_eq_toNat_cond w
  have hw := w.isLt
  split at hc <;> omega

/-- The rank-0 index set has one element. -/
instance : Subsingleton Cert.Pre_finite_inputs.S_.Idx := ⟨fun a b => funext fun d => d.elim0⟩

/-- Under the precondition every label is below five. -/
theorem label_range {F : FTy → Type} [FloatOps F] [Cert.Pre_finite_inputs.Facts]
    (x0 x1 : FVec F Cert.Pre_finite_inputs.S2x64x32x64x64 .f32) (tgt : IVec Cert.Pre_finite_inputs.S2x1x16x32x32 32)
    (h : Cert.Pre_finite_inputs.fn (F := F) x0 x1 tgt = fun _ => 1#1)
    (i : Cert.Pre_finite_inputs.S2x1x16x32x32.Idx) : (tgt i).toNat < 5 := by
  have h0 := congrFun h (fun a => a.elim0)
  dsimp only [Cert.Pre_finite_inputs.fn] at h0
  obtain ⟨-, h14⟩ := IntOp.andi_eq_one.1 h0
  have hi := Host.reduce_andi_all _ _ _ _ _ h14 i
  obtain ⟨hge, hlt⟩ := IntOp.andi_eq_one.1 hi
  have hge' : IntOp.cmpi .sge (tgt i) 0#32 = 1#1 := by
    have e := hge
    simp only [cmpi, StableHlo.Predicate.bcast_scalar] at e
    exact e
  have hlt' : IntOp.cmpi .slt (tgt i) (BitVec.ofNat 32 5) = 1#1 := by
    have e := hlt
    simp only [cmpi, StableHlo.Predicate.bcast_scalar] at e
    exact e
  exact toNat_lt_of_signed (tgt i) 5 (by decide) hge' hlt'

end Cert.PreRange
-- ==== Proof.lean ====
/-
  The certificate's five claims for the class-center cosine loss (two pallas_calls against a jnp reference).
  Frames: the word-level and the idealized kernel programs run through their twelve items — ten stretches of host
  operations and the two pallas_calls, each pallas_call's accumulators carried in scratch memory across the eight tiles of a
  batch entry — and no item writes an argument; the reference is a straight line of host operations.
  Equivalence at the ideal reading: both programs end with the same extended real, the specification's loss of the reshaped
  features and the upsampled labels. The kernel side sums per tile and per batch entry what the reference sums at once, and
  selects a voxel's class mean by a one-hot sum where the reference gathers it; these agree because every label is below
  five, which is the precondition's last conjunct.
-/
import proofs.«426160_j54812372632011_3_alg».proof.Defs
import proofs.«426160_j54812372632011_3_alg».proof.Proof.Gen.Kernel
import proofs.«426160_j54812372632011_3_alg».proof.Proof.Gen.KernelIdeal
import proofs.«426160_j54812372632011_3_alg».proof.Proof.Gen.ReferenceIdeal
import proofs.«426160_j54812372632011_3_alg».proof.Proof.Gen.Pre_finite_inputs
import proofs.«426160_j54812372632011_3_alg».proof.Proof.K.Full
import proofs.«426160_j54812372632011_3_alg».proof.Proof.KI.Full
import proofs.«426160_j54812372632011_3_alg».proof.Proof.KI.Value
import proofs.«426160_j54812372632011_3_alg».proof.Proof.Ref.Ops
import proofs.«426160_j54812372632011_3_alg».proof.Proof.Ref.Labels
import proofs.«426160_j54812372632011_3_alg».proof.Proof.Ref.Read
import proofs.«426160_j54812372632011_3_alg».proof.Proof.PreRange
import proofs.«426160_j54812372632011_3_alg».proof.Proof.Spec

set_option maxRecDepth 16384

noncomputable section

open Idealize.ShloMosaic Idealize.ShloMosaic.TcCoe Idealize.SL.Sem Idealize.ShloMosaic.ValueIdx

namespace Cert.Proof

open Idealize.ShloMosaic Idealize.SL.Sem

theorem frame_k : Cert.frame_Kernel := fun m ρ _ => Cert.Kernel.Hand.frame_full m ρ

theorem frame_ki : Cert.frame_KernelIdeal := fun m ρ _ =>
  (θ_run (Cert.KernelIdeal.defs (F := Ideal)) _ _).mono (fun _ h c => (h c).2) (Cert.KernelIdeal.Hand.run_full m ρ)

theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _)⟩) (Cert.ReferenceIdeal.Hand.run_main m ρ)

/-- Every label lies in [0, 5): the last conjunct of the precondition, read at the label input. -/
theorem labels_ok (m : (ℓ : Loc Cert.KernelIdeal.nD Cert.KernelIdeal.τ Cert.KernelIdeal.sig) → Buf (Elt Ideal) ℓ) (h : Cert.Pre_KernelIdeal m) (c : Dev Cert.KernelIdeal.nD)
    (i : Cert.KernelIdeal.S2x1x16x32x32.Idx) : ((m (c, (Cert.KernelIdeal.main_arg2 : DevRef Cert.KernelIdeal.τ Cert.KernelIdeal.sig)) : IVec Cert.KernelIdeal.S2x1x16x32x32 32) i).toNat < 5 :=
  Cert.PreRange.label_range (F := Ideal) _ _ _ (h c) i

theorem algebraic : Cert.algebraic_KernelIdeal_ReferenceIdeal := by
  intro m ρ m' ρ' hpre hagree
  refine ⟨fun c => fun _ => Cert.KernelIdeal.Hand.lossK m c (labels_ok m hpre c), ?_, ?_⟩
  · refine (θ_run (Cert.KernelIdeal.defs (F := Ideal)) _ _).mono (fun _ h c => ⟨(h c).1.trans ?_, (h c).2⟩) (Cert.KernelIdeal.Hand.run_full m ρ)
    exact Cert.KernelIdeal.Hand.result_eq m c (labels_ok m hpre c)
  · refine (θ_run (Cert.ReferenceIdeal.defs (F := Ideal)) _ _).mono (fun _ h c =>
      ⟨(h c Cert.ReferenceIdeal.main_v83).trans ?_,
       (h c Cert.ReferenceIdeal.main_arg0).trans (Cert.ReferenceIdeal.Hand.arg0_eq _),
       (h c Cert.ReferenceIdeal.main_arg1).trans (Cert.ReferenceIdeal.Hand.arg1_eq _),
       (h c Cert.ReferenceIdeal.main_arg2).trans (Cert.ReferenceIdeal.Hand.arg2_eq _)⟩) (Cert.ReferenceIdeal.Hand.run_main m' ρ')
    funext j
    rw [ValueIdx.eq_ix0 j]
    unfold Cert.KernelIdeal.Hand.lossK
    refine Cert.ReferenceIdeal.Hand.result_eq _ _ _ _ (fun b ch v => ?_) (fun b ch v => ?_) (fun b v => ?_)
    · rw [Cert.ReferenceIdeal.Hand.v37_apply]; exact congrArg (fun x => Cert.Spec.feat x _ b ch v) (hagree c).1
    · rw [Cert.ReferenceIdeal.Hand.v38_apply]; exact congrArg (fun x => Cert.Spec.feat x _ b ch v) (hagree c).2.1
    · rw [Cert.ReferenceIdeal.Hand.v34_eq]
      have := (hagree c).2.2
      exact (congrArg (fun x => Cert.KernelIdeal.Hand.labK x (ix2 b v)) this).trans (Cert.KernelIdeal.Hand.labK_eq_Lab _ (labels_ok m hpre c) b v)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
